-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S2x2x512x256 : Shape := ⟨4, ![2, 2, 512, 256]⟩
abbrev S2x2x256 : Shape := ⟨3, ![2, 2, 256]⟩
abbrev S2x512x512 : Shape := ⟨3, ![2, 512, 512]⟩
abbrev S2x512 : Shape := ⟨2, ![2, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S2x2x512x256 : S_.BroadcastsInDim S2x2x512x256 (![] : Fin 0 → Fin S2x2x512x256.rank)
  reducesTo_S2x2x512x256_S_d0_1_2_3 : S2x2x512x256.ReducesTo [0, 1, 2, 3] S_
  bcast_S_S2x2x256 : S_.BroadcastsInDim S2x2x256 (![] : Fin 0 → Fin S2x2x256.rank)
  reducesTo_S2x2x256_S_d0_1_2 : S2x2x256.ReducesTo [0, 1, 2] S_
  bcast_S_S2x512x512 : S_.BroadcastsInDim S2x512x512 (![] : Fin 0 → Fin S2x512x512.rank)
  reducesTo_S2x512x512_S_d0_1_2 : S2x512x512.ReducesTo [0, 1, 2] S_
  bcast_S_S2x512 : S_.BroadcastsInDim S2x512 (![] : Fin 0 → Fin S2x512.rank)
  reducesTo_S2x512_S_d0_1 : S2x512.ReducesTo [0, 1] S_

variable [Facts]

def fn_part3 {F : FTy → Type} [FloatOps F] (main_v48 : IVec S_ 1) (main_v49 : FVec F S2x512 .f32) (main_v50 : FVec F S2x512 .f32) : IVec S_ 1 :=
  let main_v51 : IVec S2x512 1 := cmpf .olt main_v49 main_v50
  let main_c_19 : IVec S_ 1 := constantI S_ 1 1#1
  let main_v52 : IVec S_ 1 := (fun x v => Host.reduce IntOp.andi x v reducesTo_S2x512_S_d0_1 h_S_) main_v51 main_c_19
  let main_v53 : IVec S_ 1 := andi main_v48 main_v52
  main_v53

def fn_part2 {F : FTy → Type} [FloatOps F] (main_arg7 : FVec F S2x2x512x256 .f32) (main_arg8 : FVec F S2x2x256 .f32) (main_arg9 : FVec F S2x512x512 .f32) (main_arg10 : FVec F S2x512 .f32) (main_v33 : IVec S_ 1) : IVec S_ 1 :=
  let main_v34 : FVec F S2x2x512x256 .f32 := Host.absf main_arg7
  let main_cst_12 : FVec F S_ .f32 := constant S_ .f32 0x7F800000#32
  let main_v35 : FVec F S2x2x512x256 .f32 := broadcastInDim S2x2x512x256 ![] bcast_S_S2x2x512x256 main_cst_12
  let main_v36 : IVec S2x2x512x256 1 := cmpf .olt main_v34 main_v35
  let main_c_13 : IVec S_ 1 := constantI S_ 1 1#1
  let main_v37 : IVec S_ 1 := (fun x v => Host.reduce IntOp.andi x v reducesTo_S2x2x512x256_S_d0_1_2_3 h_S_) main_v36 main_c_13
  let main_v38 : IVec S_ 1 := andi main_v33 main_v37
  let main_v39 : FVec F S2x2x256 .f32 := Host.absf main_arg8
  let main_cst_14 : FVec F S_ .f32 := constant S_ .f32 0x7F800000#32
  let main_v40 : FVec F S2x2x256 .f32 := broadcastInDim S2x2x256 ![] bcast_S_S2x2x256 main_cst_14
  let main_v41 : IVec S2x2x256 1 := cmpf .olt main_v39 main_v40
  let main_c_15 : IVec S_ 1 := constantI S_ 1 1#1
  let main_v42 : IVec S_ 1 := (fun x v => Host.reduce IntOp.andi x v reducesTo_S2x2x256_S_d0_1_2 h_S_) main_v41 main_c_15
  let main_v43 : IVec S_ 1 := andi main_v38 main_v42
  let main_v44 : FVec F S2x512x512 .f32 := Host.absf main_arg9
  let main_cst_16 : FVec F S_ .f32 := constant S_ .f32 0x7F800000#32
  let main_v45 : FVec F S2x512x512 .f32 := broadcastInDim S2x512x512 ![] bcast_S_S2x512x512 main_cst_16
  let main_v46 : IVec S2x512x512 1 := cmpf .olt main_v44 main_v45
  let main_c_17 : IVec S_ 1 := constantI S_ 1 1#1
  let main_v47 : IVec S_ 1 := (fun x v => Host.reduce IntOp.andi x v reducesTo_S2x512x512_S_d0_1_2 h_S_) main_v46 main_c_17
  let main_v48 : IVec S_ 1 := andi main_v43 main_v47
  let main_v49 : FVec F S2x512 .f32 := Host.absf main_arg10
  let main_cst_18 : FVec F S_ .f32 := constant S_ .f32 0x7F800000#32
  let main_v50 : FVec F S2x512 .f32 := broadcastInDim S2x512 ![] bcast_S_S2x512 main_cst_18
  fn_part3 (F := F) main_v48 main_v49 main_v50

def fn_part1 {F : FTy → Type} [FloatOps F] (main_arg4 : FVec F S4096x4096 .f32) (main_arg5 : FVec F S2x2x512x256 .f32) (main_arg6 : FVec F S2x2x256 .f32) (main_arg7 : FVec F S2x2x512x256 .f32) (main_arg8 : FVec F S2x2x256 .f32) (main_arg9 : FVec F S2x512x512 .f32) (main_arg10 : FVec F S2x512 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S2x2x512x256 .f32 := Host.absf main_arg5
  let main_cst_8 : FVec F S_ .f32 := constant S_ .f32 0x7F800000#32
  let main_v25 : FVec F S2x2x512x256 .f32 := broadcastInDim S2x2x512x256 ![] bcast_S_S2x2x512x256 main_cst_8
  let main_v26 : IVec S2x2x512x256 1 := cmpf .olt main_v24 main_v25
  let main_c_9 : IVec S_ 1 := constantI S_ 1 1#1
  let main_v27 : IVec S_ 1 := (fun x v => Host.reduce IntOp.andi x v reducesTo_S2x2x512x256_S_d0_1_2_3 h_S_) main_v26 main_c_9
  let main_v28 : IVec S_ 1 := andi main_v23 main_v27
  let main_v29 : FVec F S2x2x256 .f32 := Host.absf main_arg6
  let main_cst_10 : FVec F S_ .f32 := constant S_ .f32 0x7F800000#32
  let main_v30 : FVec F S2x2x256 .f32 := broadcastInDim S2x2x256 ![] bcast_S_S2x2x256 main_cst_10
  let main_v31 : IVec S2x2x256 1 := cmpf .olt main_v29 main_v30
  let main_c_11 : IVec S_ 1 := constantI S_ 1 1#1
  let main_v32 : IVec S_ 1 := (fun x v => Host.reduce IntOp.andi x v reducesTo_S2x2x256_S_d0_1_2 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x512 .f32) (main_arg1 : FVec F S4096x4096 .f32) (main_arg2 : FVec F S4096x4096 .f32) (main_arg3 : FVec F S4096x4096 .f32) (main_arg4 : FVec F S4096x4096 .f32) (main_arg5 : FVec F S2x2x512x256 .f32) (main_arg6 : FVec F S2x2x256 .f32) (main_arg7 : FVec F S2x2x512x256 .f32) (main_arg8 : FVec F S2x2x256 .f32) (main_arg9 : FVec F S2x512x512 .f32) (main_arg10 : FVec F S2x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_arg10 main_v13 main_v16
-- ==== Kernel.lean ====
abbrev S4096x512 : Shape := ⟨2, ![4096, 512]⟩
abbrev S4096x4096 : Shape := ⟨2, ![4096, 4096]⟩
abbrev S2x2x512x256 : Shape := ⟨4, ![2, 2, 512, 256]⟩
abbrev S2x2x256 : Shape := ⟨3, ![2, 2, 256]⟩
abbrev S2x512x512 : Shape := ⟨3, ![2, 512, 512]⟩
abbrev S2x512 : Shape := ⟨2, ![2, 512]⟩
abbrev S1x1x512x256 : Shape := ⟨4, ![1, 1, 512, 256]⟩
abbrev S512x256 : Shape := ⟨2, ![512, 256]⟩
abbrev S512x1024 : Shape := ⟨2, ![512, 1024]⟩
abbrev S1x1x256 : Shape := ⟨3, ![1, 1, 256]⟩
abbrev S256 : Shape := ⟨1, ![256]⟩
abbrev S512 : Shape := ⟨1, ![512]⟩
abbrev S1x512 : Shape := ⟨2, ![1, 512]⟩
abbrev S1x512x512 : Shape := ⟨3, ![1, 512, 512]⟩
abbrev S512x512 : Shape := ⟨2, ![512, 512]⟩
abbrev S4096x1024 : Shape := ⟨2, ![4096, 1024]⟩
abbrev S2048x512 : Shape := ⟨2, ![2048, 512]⟩
abbrev S2048x1024 : Shape := ⟨2, ![2048, 1024]⟩
abbrev S2048x256 : Shape := ⟨2, ![2048, 256]⟩

abbrev nBuf : Space → Nat
  | .hbm => 67
  | .vmem => 46
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S2x2x512x256, .f32⟩
  | .hbm, ⟨6, _⟩ => ⟨S2x2x256, .f32⟩
  | .hbm, ⟨7, _⟩ => ⟨S2x2x512x256, .f32⟩
  | .hbm, ⟨8, _⟩ => ⟨S2x2x256, .f32⟩
  | .hbm, ⟨9, _⟩ => ⟨S2x512x512, .f32⟩
  | .hbm, ⟨10, _⟩ => ⟨S2x512, .f32⟩
  | .hbm, ⟨11, _⟩ => ⟨S1x1x512x256, .f32⟩
  | .hbm, ⟨12, _⟩ => ⟨S512x256, .f32⟩
  | .hbm, ⟨13, _⟩ => ⟨S1x1x512x256, .f32⟩
  | .hbm, ⟨14, _⟩ => ⟨S512x256, .f32⟩
  | .hbm, ⟨15, _⟩ => ⟨S1x1x512x256, .f32⟩
  | .hbm, ⟨16, _⟩ => ⟨S512x256, .f32⟩
  | .hbm, ⟨17, _⟩ => ⟨S1x1x512x256, .f32⟩
  | .hbm, ⟨18, _⟩ => ⟨S512x256, .f32⟩
  | .hbm, ⟨19, _⟩ => ⟨S512x1024, .f32⟩
  | .hbm, ⟨20, _⟩ => ⟨S1x1x256, .f32⟩
  | .hbm, ⟨21, _⟩ => ⟨S256, .f32⟩
  | .hbm, ⟨22, _⟩ => ⟨S1x1x256, .f32⟩
  | .hbm, ⟨23, _⟩ => ⟨S256, .f32⟩
  | .hbm, ⟨24, _⟩ => ⟨S256, .f32⟩
  | .hbm, ⟨25, _⟩ => ⟨S1x1x256, .f32⟩
  | .hbm, ⟨26, _⟩ => ⟨S256, .f32⟩
  | .hbm, ⟨27, _⟩ => ⟨S1x1x256, .f32⟩
  | .hbm, ⟨28, _⟩ => ⟨S256, .f32⟩
  | .hbm, ⟨29, _⟩ => ⟨S256, .f32⟩
  | .hbm, ⟨30, _⟩ => ⟨S512, .f32⟩
  | .hbm, ⟨31, _⟩ => ⟨S1x512, .f32⟩
  | .hbm, ⟨32, _⟩ => ⟨S1x512, .f32⟩
  | .hbm, ⟨33, _⟩ => ⟨S512, .f32⟩
  | .hbm, ⟨34, _⟩ => ⟨S1x512, .f32⟩
  | .hbm, ⟨35, _⟩ => ⟨S1x512x512, .f32⟩
  | .hbm, ⟨36, _⟩ => ⟨S512x512, .f32⟩
  | .hbm, ⟨37, _⟩ => ⟨S4096x1024, .bf16⟩
  | .hbm, ⟨38, _⟩ => ⟨S4096x512, .f32⟩
  | .hbm, ⟨39, _⟩ => ⟨S1x1x512x256, .f32⟩
  | .hbm, ⟨40, _⟩ => ⟨S512x256, .f32⟩
  | .hbm, ⟨41, _⟩ => ⟨S1x1x512x256, .f32⟩
  | .hbm, ⟨42, _⟩ => ⟨S512x256, .f32⟩
  | .hbm, ⟨43, _⟩ => ⟨S1x1x512x256, .f32⟩
  | .hbm, ⟨44, _⟩ => ⟨S512x256, .f32⟩
  | .hbm, ⟨45, _⟩ => ⟨S1x1x512x256, .f32⟩
  | .hbm, ⟨46, _⟩ => ⟨S512x256, .f32⟩
  | .hbm, ⟨47, _⟩ => ⟨S512x1024, .f32⟩
  | .hbm, ⟨48, _⟩ => ⟨S1x1x256, .f32⟩
  | .hbm, ⟨49, _⟩ => ⟨S256, .f32⟩
  | .hbm, ⟨50, _⟩ => ⟨S1x1x256, .f32⟩
  | .hbm, ⟨51, _⟩ => ⟨S256, .f32⟩
  | .hbm, ⟨52, _⟩ => ⟨S256, .f32⟩
  | .hbm, ⟨53, _⟩ => ⟨S1x1x256, .f32⟩
  | .hbm, ⟨54, _⟩ => ⟨S256, .f32⟩
  | .hbm, ⟨55, _⟩ => ⟨S1x1x256, .f32⟩
  | .hbm, ⟨56, _⟩ => ⟨S256, .f32⟩
  | .hbm, ⟨57, _⟩ => ⟨S256, .f32⟩
  | .hbm, ⟨58, _⟩ => ⟨S512, .f32⟩
  | .hbm, ⟨59, _⟩ => ⟨S1x512, .f32⟩
  | .hbm, ⟨60, _⟩ => ⟨S1x512, .f32⟩
  | .hbm, ⟨61, _⟩ => ⟨S512, .f32⟩
  | .hbm, ⟨62, _⟩ => ⟨S1x512, .f32⟩
  | .hbm, ⟨63, _⟩ => ⟨S1x512x512, .f32⟩
  | .hbm, ⟨64, _⟩ => ⟨S512x512, .f32⟩
  | .hbm, ⟨65, _⟩ => ⟨S4096x1024, .bf16⟩
  | .hbm, ⟨66, _⟩ => ⟨S4096x512, .f32⟩
  | .local _ .vmem, ⟨0, _⟩ => ⟨S2048x512, .f32⟩
  | .local _ .vmem, ⟨1, _⟩ => ⟨S2048x512, .f32⟩
  | .local _ .vmem, ⟨2, _⟩ => ⟨S512x1024, .f32⟩
  | .local _ .vmem, ⟨3, _⟩ => ⟨S2048x1024, .bf16⟩
  | .local _ .vmem, ⟨4, _⟩ => ⟨S2048x1024, .bf16⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | .local _ .vmem, ⟨10, _⟩ => ⟨S2048x512, .f32⟩
  | .local _ .vmem, ⟨11, _⟩ => ⟨S2048x512, .f32⟩
  | .local _ .vmem, ⟨12, _⟩ => ⟨S2048x512, .f32⟩
  | .local _ .vmem, ⟨13, _⟩ => ⟨S512x1024, .bf16⟩
  | .local _ .vmem, ⟨14, _⟩ => ⟨S512x1024, .bf16⟩
  | .local _ .vmem, ⟨15, _⟩ => ⟨S512x512, .f32⟩
  | .local _ .vmem, ⟨16, _⟩ => ⟨S1x512, .f32⟩
  | .local _ .vmem, ⟨17, _⟩ => ⟨S1x512, .f32⟩
  | .local _ .vmem, ⟨18, _⟩ => ⟨S2048x512, .f32⟩
  | .local _ .vmem, ⟨19, _⟩ => ⟨S2048x512, .f32⟩
  | .local _ .vmem, ⟨20, _⟩ => ⟨S2048x512, .f32⟩
  | .local _ .vmem, ⟨21, _⟩ => ⟨S2048x512, .f32⟩
  | .local _ .vmem, ⟨22, _⟩ => ⟨S2048x512, .f32⟩
  | .local _ .vmem, ⟨23, _⟩ => ⟨S2048x512, .f32⟩
  | .local _ .vmem, ⟨24, _⟩ => ⟨S2048x512, .f32⟩
  | .local _ .vmem, ⟨25, _⟩ => ⟨S512x1024, .f32⟩
  | .local _ .vmem, ⟨26, _⟩ => ⟨S2048x1024, .bf16⟩
  | .local _ .vmem, ⟨27, _⟩ => ⟨S2048x1024, .bf16⟩
  | .local _ .vmem, ⟨28, _⟩ => ⟨S2048x512, .f32⟩
  | .local _ .vmem, ⟨29, _⟩ => ⟨S2048x512, .f32⟩
  | .local _ .vmem, ⟨30, _⟩ => ⟨S2048x512, .f32⟩
  | .local _ .vmem, ⟨31, _⟩ => ⟨S2048x512, .f32⟩
  | .local _ .vmem, ⟨32, _⟩ => ⟨S2048x512, .f32⟩
  | .local _ .vmem, ⟨33, _⟩ => ⟨S2048x512, .f32⟩
  | .local _ .vmem, ⟨34, _⟩ => ⟨S2048x512, .f32⟩
  | .local _ .vmem, ⟨35, _⟩ => ⟨S2048x512, .f32⟩
  | .local _ .vmem, ⟨36, _⟩ => ⟨S512x1024, .bf16⟩
  | .local _ .vmem, ⟨37, _⟩ => ⟨S512x1024, .bf16⟩
  | .local _ .vmem, ⟨38, _⟩ => ⟨S512x512, .f32⟩
  | .local _ .vmem, ⟨39, _⟩ => ⟨S1x512, .f32⟩
  | .local _ .vmem, ⟨40, _⟩ => ⟨S1x512, .f32⟩
  | .local _ .vmem, ⟨41, _⟩ => ⟨S2048x512, .f32⟩
  | .local _ .vmem, ⟨42, _⟩ => ⟨S2048x512, .f32⟩
  | .local _ .vmem, ⟨43, _⟩ => ⟨S2048x512, .f32⟩
  | .local _ .vmem, ⟨44, _⟩ => ⟨S2048x512, .f32⟩
  | .local _ .vmem, ⟨45, _⟩ => ⟨S2048x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_stg9_1 : Ref sig .tc := ⟨.vmem, 21, rfl⟩
abbrev cc1_scratch0 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg2_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg3_1 : Ref sig .tc := ⟨.vmem, 35, rfl⟩
abbrev cc3_stg4_0 : Ref sig .tc := ⟨.vmem, 36, rfl⟩
abbrev cc3_stg4_1 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg7_0 : Ref sig .tc := ⟨.vmem, 40, rfl⟩
abbrev cc3_stg8_0 : Ref sig .tc := ⟨.vmem, 41, rfl⟩
abbrev cc3_stg8_1 : Ref sig .tc := ⟨.vmem, 42, rfl⟩
abbrev cc3_stg9_0 : Ref sig .tc := ⟨.vmem, 43, rfl⟩
abbrev cc3_stg9_1 : Ref sig .tc := ⟨.vmem, 44, rfl⟩
abbrev cc3_scratch0 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem8_1 : DmaSem sig := 19
abbrev cc1_sem9_0 : DmaSem sig := 20
abbrev cc1_sem9_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem3_1 : DmaSem sig := 34
abbrev cc3_sem4_0 : DmaSem sig := 35
abbrev cc3_sem4_1 : DmaSem sig := 36
abbrev cc3_sem5_0 : DmaSem sig := 37
abbrev cc3_sem6_0 : DmaSem sig := 38
abbrev cc3_sem7_0 : DmaSem sig := 39
abbrev cc3_sem8_0 : DmaSem sig := 40
abbrev cc3_sem8_1 : DmaSem sig := 41
abbrev cc3_sem9_0 : DmaSem sig := 42
abbrev cc3_sem9_1 : DmaSem sig := 43

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 8], ![false, false]⟩

def k1_cond2 (i : grid1.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_20 : BitVec 32 := 0#32
  let v35 : BitVec 1 := Scalar.cmpi .ne v34 c0_i32_20
  v35

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 1 → Memref sig .tc .vmem S512x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S2048x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S2048x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![2, 8], ![false, false]⟩

def k3_cond2 (i : grid3.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_20 : BitVec 32 := 0#32
  let v35 : BitVec 1 := Scalar.cmpi .ne v34 c0_i32_20
  v35

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S2048x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S2048x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S512x1024 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![false, true]

abbrev stage3_5 : Fin 1 → Memref sig .tc .vmem S512x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1x512 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S1x512 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 2 → Memref sig .tc .vmem S2048x512 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, false]

abbrev stage3_9 : Fin 2 → Memref sig .tc .vmem S2048x512 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, false]

class Facts₀ : Prop where
  slices_S2x2x512x256_S1x1x512x256_0_0_0_0 : S2x2x512x256.Slices ![0, 0, 0, 0] S1x1x512x256
  shapeCasts_S1x1x512x256_S512x256 : S1x1x512x256.ShapeCasts S512x256
  slices_S2x2x512x256_S1x1x512x256_0_1_0_0 : S2x2x512x256.Slices ![0, 1, 0, 0] S1x1x512x256
  concatenates_S512x256_S512x256_S512x256_S512x256_S512x1024_d1 : Shape.Concatenates [S512x256, S512x256, S512x256, S512x256] S512x1024 1
  slices_S2x2x256_S1x1x256_0_0_0 : S2x2x256.Slices ![0, 0, 0] S1x1x256
  shapeCasts_S1x1x256_S256 : S1x1x256.ShapeCasts S256
  slices_S2x2x256_S1x1x256_0_1_0 : S2x2x256.Slices ![0, 1, 0] S1x1x256
  concatenates_S256_S256_S512_d0 : Shape.Concatenates [S256, S256] S512 0
  bcast_S512_S1x512_1 : S512.BroadcastsInDim S1x512 (![1] : Fin 1 → Fin S1x512.rank)
  slices_S2x512_S1x512_0_0 : S2x512.Slices ![0, 0] S1x512
  shapeCasts_S1x512_S512 : S1x512.ShapeCasts S512
  slices_S2x512x512_S1x512x512_0_0_0 : S2x512x512.Slices ![0, 0, 0] S1x512x512
  shapeCasts_S1x512x512_S512x512 : S1x512x512.ShapeCasts S512x512
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S2048x1024_S2048x1024_0_0 : ∀ a, (![0, 0] : Fin 2 → Nat) a + S2048x1024.size a ≤ S2048x1024.size a
  h_S2048x1024 : 0 < S2048x1024.numel
  packedbf16_S2048x1024_S2048x1024_0_0 : (Rect.unit (s := S2048x1024) ![0, 0] S2048x1024.size inb_S2048x1024_S2048x1024_0_0).PackedRows (EltTy.packing .bf16)
  shapeCasts_S2048x512_S2048x512 : S2048x512.ShapeCasts S2048x512
  inb_S2048x512_S2048x256_0_0 : ∀ a, (![0, 0] : Fin 2 → Nat) a + S2048x256.size a ≤ S2048x512.size a
  h_S2048x256 : 0 < S2048x256.numel
  slices_S512x1024_o0_0_S512x256 : S512x1024.Slices ![0, 0] S512x256
  slices_S512x1024_o0_256_S512x256 : S512x1024.Slices ![0, 256] S512x256
  shapeCasts_S2048x256_S2048x256 : S2048x256.ShapeCasts S2048x256
  inb_S2048x512_S2048x256_0_256 : ∀ a, (![0, 256] : Fin 2 → Nat) a + S2048x256.size a ≤ S2048x512.size a
  slices_S512x1024_o0_512_S512x256 : S512x1024.Slices ![0, 512] S512x256
  slices_S512x1024_o0_768_S512x256 : S512x1024.Slices ![0, 768] S512x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  slices_S2x2x512x256_S1x1x512x256_1_0_0_0 : S2x2x512x256.Slices ![1, 0, 0, 0] S1x1x512x256
  slices_S2x2x512x256_S1x1x512x256_1_1_0_0 : S2x2x512x256.Slices ![1, 1, 0, 0] S1x1x512x256
  slices_S2x2x256_S1x1x256_1_0_0 : S2x2x256.Slices ![1, 0, 0] S1x1x256
  slices_S2x2x256_S1x1x256_1_1_0 : S2x2x256.Slices ![1, 1, 0] S1x1x256
  slices_S2x512_S1x512_1_0 : S2x512.Slices ![1, 0] S1x512
  slices_S2x512x512_S1x512x512_1_0_0 : S2x512x512.Slices ![1, 0, 0] S1x512x512
  dot_S2048x512_S512x1024_S2048x1024_1_0_0_1_n_n_wf : DotDims.WF S2048x512 S512x1024 S2048x1024 [1] [0] [0] [1] [] []
  dot_S2048x512_S512x256_S2048x256_1_0_0_1_n_n_wf : DotDims.WF S2048x512 S512x256 S2048x256 [1] [0] [0] [1] [] []
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x512.size a
  hwx0_0 : ∀ i : grid0.Coords, EltTy.bits .f32 = 32 ∨ (Rect.block (s := S4096x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S4096x1024.size a
  hwx0_2 : ∀ i : grid0.Coords, EltTy.bits .bf16 = 32 ∨ (Rect.block (s := S4096x1024) S2048x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S4096x4096.size a
  hwx1_0 : ∀ i : grid1.Coords, EltTy.bits .f32 = 32 ∨ (Rect.block (s := S4096x4096) S2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x4096.size a
  hwx1_1 : ∀ i : grid1.Coords, EltTy.bits .f32 = 32 ∨ (Rect.block (s := S4096x4096) S2048x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x512.size a ≤ S4096x4096.size a
  hwx1_2 : ∀ i : grid1.Coords, EltTy.bits .f32 = 32 ∨ (Rect.block (s := S4096x4096) S2048x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x512.size a ≤ S4096x4096.size a
  hwx1_3 : ∀ i : grid1.Coords, EltTy.bits .f32 = 32 ∨ (Rect.block (s := S4096x4096) S2048x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1024.size a ≤ S4096x1024.size a
  hwx1_4 : ∀ i : grid1.Coords, EltTy.bits .bf16 = 32 ∨ (Rect.block (s := S4096x1024) S512x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .f32 = 32 ∨ (Rect.block (s := S512x512) S512x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x512.size a
  hwx1_7 : ∀ i : grid1.Coords, EltTy.bits .f32 = 32 ∨ (Rect.block (s := S1x512) S1x512.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2048x512.size a ≤ S4096x512.size a
  hwx1_8 : ∀ i : grid1.Coords, EltTy.bits .f32 = 32 ∨ (Rect.block (s := S4096x512) S2048x512.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2048x512.size a ≤ S4096x512.size a
  hwx1_9 : ∀ i : grid1.Coords, EltTy.bits .f32 = 32 ∨ (Rect.block (s := S4096x512) S2048x512.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S4096x512.size a
  hwx2_0 : ∀ i : grid2.Coords, EltTy.bits .f32 = 32 ∨ (Rect.block (s := S4096x512) S2048x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S512x1024.size a
  hwx2_1 : ∀ i : grid2.Coords, EltTy.bits .f32 = 32 ∨ (Rect.block (s := S512x1024) S512x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1024.size a ≤ S4096x1024.size a
  hwx2_2 : ∀ i : grid2.Coords, EltTy.bits .bf16 = 32 ∨ (Rect.block (s := S4096x1024) S2048x1024.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x512.size a ≤ S4096x4096.size a
  hwx3_0 : ∀ i : grid3.Coords, EltTy.bits .f32 = 32 ∨ (Rect.block (s := S4096x4096) S2048x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x512.size a ≤ S4096x4096.size a
  hwx3_1 : ∀ i : grid3.Coords, EltTy.bits .f32 = 32 ∨ (Rect.block (s := S4096x4096) S2048x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x512.size a ≤ S4096x4096.size a
  hwx3_2 : ∀ i : grid3.Coords, EltTy.bits .f32 = 32 ∨ (Rect.block (s := S4096x4096) S2048x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x512.size a ≤ S4096x4096.size a
  hwx3_3 : ∀ i : grid3.Coords, EltTy.bits .f32 = 32 ∨ (Rect.block (s := S4096x4096) S2048x512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x1024.size a ≤ S4096x1024.size a
  hwx3_4 : ∀ i : grid3.Coords, EltTy.bits .bf16 = 32 ∨ (Rect.block (s := S4096x1024) S512x1024.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x512.size a ≤ S512x512.size a
  hwx3_5 : ∀ i : grid3.Coords, EltTy.bits .f32 = 32 ∨ (Rect.block (s := S512x512) S512x512.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x512.size a ≤ S1x512.size a
  hwx3_6 : ∀ i : grid3.Coords, EltTy.bits .f32 = 32 ∨ (Rect.block (s := S1x512) S1x512.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x512.size a ≤ S1x512.size a
  hwx3_7 : ∀ i : grid3.Coords, EltTy.bits .f32 = 32 ∨ (Rect.block (s := S1x512) S1x512.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2048x512.size a ≤ S4096x512.size a
  hwx3_8 : ∀ i : grid3.Coords, EltTy.bits .f32 = 32 ∨ (Rect.block (s := S4096x512) S2048x512.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2048x512.size a ≤ S4096x512.size a
  hwx3_9 : ∀ i : grid3.Coords, EltTy.bits .f32 = 32 ∨ (Rect.block (s := S4096x512) S2048x512.size (cc3_transform_9 i) (hinb3_9 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg3) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S2048x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S2048x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v26) S512x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v25) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23) S1x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg0) S2048x512.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v27) S2048x512.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev idle1 : Fin 10 → grid1.Coords → Bool := fun | 0 => fun _ => false | 1 => fun _ => false | 2 => fun _ => false | 3 => fun _ => false | 4 => fun _ => false | 5 => fun _ => false | 6 => fun _ => false | 7 => fun _ => false | 8 => fun _ => false | 9 => fun i => !(k1_cond2 i == 1#1) | ⟨_ + 10, h⟩ => absurd h (Nat.not_lt.2 (Nat.le_add_left _ _))

abbrev win2_0 : Pipeline.Window sig grid2 :=
  Pipeline.Window.ofSpec (Memref.whole main_v27) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S512x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S2048x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg3) S2048x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S2048x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg1) S2048x512.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg2) S2048x512.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v54) S512x1024.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v53) S512x512.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v48) S1x512.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v51) S1x512.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v27) S2048x512.size cc3_transform_8 reads3_8 false false 2 stage3_8 sem3_8
    hrank3 hreads3_8 hinb3_8 nbuf3_8 (Memref.isWhole_whole _) hwx3_8 hstage3_8

abbrev win3_9 : Pipeline.Window sig grid3 :=
  Pipeline.Window.ofSpec (Memref.whole main_v55) S2048x512.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev idle3 : Fin 10 → grid3.Coords → Bool := fun | 0 => fun _ => false | 1 => fun _ => false | 2 => fun _ => false | 3 => fun _ => false | 4 => fun _ => false | 5 => fun _ => false | 6 => fun _ => false | 7 => fun _ => false | 8 => fun _ => false | 9 => fun i => !(k3_cond2 i == 1#1) | ⟨_ + 10, h⟩ => absurd h (Nat.not_lt.2 (Nat.le_add_left _ _))

class Facts : Prop extends Facts₀ where

variable [Facts]
-- ==== ReferenceIdeal.lean ====
abbrev S4096x512 : Shape := ⟨2, ![4096, 512]⟩
abbrev S4096x4096 : Shape := ⟨2, ![4096, 4096]⟩
abbrev S2x2x512x256 : Shape := ⟨4, ![2, 2, 512, 256]⟩
abbrev S2x2x256 : Shape := ⟨3, ![2, 2, 256]⟩
abbrev S2x512x512 : Shape := ⟨3, ![2, 512, 512]⟩
abbrev S2x512 : Shape := ⟨2, ![2, 512]⟩
abbrev S1x1x512x256 : Shape := ⟨4, ![1, 1, 512, 256]⟩
abbrev S512x256 : Shape := ⟨2, ![512, 256]⟩
abbrev S4096x256 : Shape := ⟨2, ![4096, 256]⟩
abbrev S1x1x256 : Shape := ⟨3, ![1, 1, 256]⟩
abbrev S256 : Shape := ⟨1, ![256]⟩
abbrev S1x256 : Shape := ⟨2, ![1, 256]⟩
abbrev S1x4096x512 : Shape := ⟨3, ![1, 4096, 512]⟩
abbrev S2x4096x512 : Shape := ⟨3, ![2, 4096, 512]⟩
abbrev S_ : Shape := ⟨0, ![]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩

abbrev nBuf : Space → Nat
  | .hbm => 121
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S2x2x512x256, .f32⟩
  | .hbm, ⟨6, _⟩ => ⟨S2x2x256, .f32⟩
  | .hbm, ⟨7, _⟩ => ⟨S2x2x512x256, .f32⟩
  | .hbm, ⟨8, _⟩ => ⟨S2x2x256, .f32⟩
  | .hbm, ⟨9, _⟩ => ⟨S2x512x512, .f32⟩
  | .hbm, ⟨10, _⟩ => ⟨S2x512, .f32⟩
  | .hbm, ⟨11, _⟩ => ⟨S1x1x512x256, .f32⟩
  | .hbm, ⟨12, _⟩ => ⟨S512x256, .f32⟩
  | .hbm, ⟨13, _⟩ => ⟨S4096x256, .f32⟩
  | .hbm, ⟨14, _⟩ => ⟨S4096x256, .f32⟩
  | .hbm, ⟨15, _⟩ => ⟨S1x1x256, .f32⟩
  | .hbm, ⟨16, _⟩ => ⟨S256, .f32⟩
  | .hbm, ⟨17, _⟩ => ⟨S1x256, .f32⟩
  | .hbm, ⟨18, _⟩ => ⟨S4096x256, .f32⟩
  | .hbm, ⟨19, _⟩ => ⟨S4096x256, .f32⟩
  | .hbm, ⟨20, _⟩ => ⟨S1x1x512x256, .f32⟩
  | .hbm, ⟨21, _⟩ => ⟨S512x256, .f32⟩
  | .hbm, ⟨22, _⟩ => ⟨S4096x256, .f32⟩
  | .hbm, ⟨23, _⟩ => ⟨S4096x256, .f32⟩
  | .hbm, ⟨24, _⟩ => ⟨S1x1x256, .f32⟩
  | .hbm, ⟨25, _⟩ => ⟨S256, .f32⟩
  | .hbm, ⟨26, _⟩ => ⟨S1x256, .f32⟩
  | .hbm, ⟨27, _⟩ => ⟨S4096x256, .f32⟩
  | .hbm, ⟨28, _⟩ => ⟨S4096x256, .f32⟩
  | .hbm, ⟨29, _⟩ => ⟨S4096x512, .f32⟩
  | .hbm, ⟨30, _⟩ => ⟨S1x1x512x256, .f32⟩
  | .hbm, ⟨31, _⟩ => ⟨S512x256, .f32⟩
  | .hbm, ⟨32, _⟩ => ⟨S4096x256, .f32⟩
  | .hbm, ⟨33, _⟩ => ⟨S4096x256, .f32⟩
  | .hbm, ⟨34, _⟩ => ⟨S1x1x256, .f32⟩
  | .hbm, ⟨35, _⟩ => ⟨S256, .f32⟩
  | .hbm, ⟨36, _⟩ => ⟨S1x256, .f32⟩
  | .hbm, ⟨37, _⟩ => ⟨S4096x256, .f32⟩
  | .hbm, ⟨38, _⟩ => ⟨S4096x256, .f32⟩
  | .hbm, ⟨39, _⟩ => ⟨S1x1x512x256, .f32⟩
  | .hbm, ⟨40, _⟩ => ⟨S512x256, .f32⟩
  | .hbm, ⟨41, _⟩ => ⟨S4096x256, .f32⟩
  | .hbm, ⟨42, _⟩ => ⟨S4096x256, .f32⟩
  | .hbm, ⟨43, _⟩ => ⟨S1x1x256, .f32⟩
  | .hbm, ⟨44, _⟩ => ⟨S256, .f32⟩
  | .hbm, ⟨45, _⟩ => ⟨S1x256, .f32⟩
  | .hbm, ⟨46, _⟩ => ⟨S4096x256, .f32⟩
  | .hbm, ⟨47, _⟩ => ⟨S4096x256, .f32⟩
  | .hbm, ⟨48, _⟩ => ⟨S4096x512, .f32⟩
  | .hbm, ⟨49, _⟩ => ⟨S1x4096x512, .f32⟩
  | .hbm, ⟨50, _⟩ => ⟨S1x4096x512, .f32⟩
  | .hbm, ⟨51, _⟩ => ⟨S2x4096x512, .f32⟩
  | .hbm, ⟨52, _⟩ => ⟨S_, .f32⟩
  | .hbm, ⟨53, _⟩ => ⟨S4096x512, .f32⟩
  | .hbm, ⟨54, _⟩ => ⟨S_, .f32⟩
  | .hbm, ⟨55, _⟩ => ⟨S4096x512, .f32⟩
  | .hbm, ⟨56, _⟩ => ⟨S4096x512, .f32⟩
  | .hbm, ⟨57, _⟩ => ⟨S1x512x512, .f32⟩
  | .hbm, ⟨58, _⟩ => ⟨S512x512, .f32⟩
  | .hbm, ⟨59, _⟩ => ⟨S4096x512, .f32⟩
  | .hbm, ⟨60, _⟩ => ⟨S1x512, .f32⟩
  | .hbm, ⟨61, _⟩ => ⟨S512, .f32⟩
  | .hbm, ⟨62, _⟩ => ⟨S1x512, .f32⟩
  | .hbm, ⟨63, _⟩ => ⟨S4096x512, .f32⟩
  | .hbm, ⟨64, _⟩ => ⟨S4096x512, .f32⟩
  | .hbm, ⟨65, _⟩ => ⟨S4096x512, .f32⟩
  | .hbm, ⟨66, _⟩ => ⟨S1x1x512x256, .f32⟩
  | .hbm, ⟨67, _⟩ => ⟨S512x256, .f32⟩
  | .hbm, ⟨68, _⟩ => ⟨S4096x256, .f32⟩
  | .hbm, ⟨69, _⟩ => ⟨S4096x256, .f32⟩
  | .hbm, ⟨70, _⟩ => ⟨S1x1x256, .f32⟩
  | .hbm, ⟨71, _⟩ => ⟨S256, .f32⟩
  | .hbm, ⟨72, _⟩ => ⟨S1x256, .f32⟩
  | .hbm, ⟨73, _⟩ => ⟨S4096x256, .f32⟩
  | .hbm, ⟨74, _⟩ => ⟨S4096x256, .f32⟩
  | .hbm, ⟨75, _⟩ => ⟨S1x1x512x256, .f32⟩
  | .hbm, ⟨76, _⟩ => ⟨S512x256, .f32⟩
  | .hbm, ⟨77, _⟩ => ⟨S4096x256, .f32⟩
  | .hbm, ⟨78, _⟩ => ⟨S4096x256, .f32⟩
  | .hbm, ⟨79, _⟩ => ⟨S1x1x256, .f32⟩
  | .hbm, ⟨80, _⟩ => ⟨S256, .f32⟩
  | .hbm, ⟨81, _⟩ => ⟨S1x256, .f32⟩
  | .hbm, ⟨82, _⟩ => ⟨S4096x256, .f32⟩
  | .hbm, ⟨83, _⟩ => ⟨S4096x256, .f32⟩
  | .hbm, ⟨84, _⟩ => ⟨S4096x512, .f32⟩
  | .hbm, ⟨85, _⟩ => ⟨S1x1x512x256, .f32⟩
  | .hbm, ⟨86, _⟩ => ⟨S512x256, .f32⟩
  | .hbm, ⟨87, _⟩ => ⟨S4096x256, .f32⟩
  | .hbm, ⟨88, _⟩ => ⟨S4096x256, .f32⟩
  | .hbm, ⟨89, _⟩ => ⟨S1x1x256, .f32⟩
  | .hbm, ⟨90, _⟩ => ⟨S256, .f32⟩
  | .hbm, ⟨91, _⟩ => ⟨S1x256, .f32⟩
  | .hbm, ⟨92, _⟩ => ⟨S4096x256, .f32⟩
  | .hbm, ⟨93, _⟩ => ⟨S4096x256, .f32⟩
  | .hbm, ⟨94, _⟩ => ⟨S1x1x512x256, .f32⟩
  | .hbm, ⟨95, _⟩ => ⟨S512x256, .f32⟩
  | .hbm, ⟨96, _⟩ => ⟨S4096x256, .f32⟩
  | .hbm, ⟨97, _⟩ => ⟨S4096x256, .f32⟩
  | .hbm, ⟨98, _⟩ => ⟨S1x1x256, .f32⟩
  | .hbm, ⟨99, _⟩ => ⟨S256, .f32⟩
  | .hbm, ⟨100, _⟩ => ⟨S1x256, .f32⟩
  | .hbm, ⟨101, _⟩ => ⟨S4096x256, .f32⟩
  | .hbm, ⟨102, _⟩ => ⟨S4096x256, .f32⟩
  | .hbm, ⟨103, _⟩ => ⟨S4096x512, .f32⟩
  | .hbm, ⟨104, _⟩ => ⟨S1x4096x512, .f32⟩
  | .hbm, ⟨105, _⟩ => ⟨S1x4096x512, .f32⟩
  | .hbm, ⟨106, _⟩ => ⟨S2x4096x512, .f32⟩
  | .hbm, ⟨107, _⟩ => ⟨S_, .f32⟩
  | .hbm, ⟨108, _⟩ => ⟨S4096x512, .f32⟩
  | .hbm, ⟨109, _⟩ => ⟨S_, .f32⟩
  | .hbm, ⟨110, _⟩ => ⟨S4096x512, .f32⟩
  | .hbm, ⟨111, _⟩ => ⟨S4096x512, .f32⟩
  | .hbm, ⟨112, _⟩ => ⟨S1x512x512, .f32⟩
  | .hbm, ⟨113, _⟩ => ⟨S512x512, .f32⟩
  | .hbm, ⟨114, _⟩ => ⟨S4096x512, .f32⟩
  | .hbm, ⟨115, _⟩ => ⟨S1x512, .f32⟩
  | .hbm, ⟨116, _⟩ => ⟨S512, .f32⟩
  | .hbm, ⟨117, _⟩ => ⟨S1x512, .f32⟩
  | .hbm, ⟨118, _⟩ => ⟨S4096x512, .f32⟩
  | .hbm, ⟨119, _⟩ => ⟨S4096x512, .f32⟩
  | .hbm, ⟨120, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst : Ref sig .tc := ⟨.hbm, 52, rfl⟩
abbrev main_v41 : Ref sig .tc := ⟨.hbm, 53, rfl⟩
abbrev main_call0_cst : Ref sig .tc := ⟨.hbm, 54, rfl⟩
abbrev main_call0_v0 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_cst_0 : Ref sig .tc := ⟨.hbm, 107, rfl⟩
abbrev main_v93 : Ref sig .tc := ⟨.hbm, 108, rfl⟩
abbrev main_call1_cst : Ref sig .tc := ⟨.hbm, 109, rfl⟩
abbrev main_call1_v0 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩

abbrev nD : Nat := 1
abbrev τ : Topo := Topo.v7x

variable {F : FTy → Type} [FloatOps F]

class Facts₀ : Prop where
  slices_S2x2x512x256_S1x1x512x256_0_0_0_0 : S2x2x512x256.Slices ![0, 0, 0, 0] S1x1x512x256
  shapeCasts_S1x1x512x256_S512x256 : S1x1x512x256.ShapeCasts S512x256
  slices_S2x2x256_S1x1x256_0_0_0 : S2x2x256.Slices ![0, 0, 0] S1x1x256
  shapeCasts_S1x1x256_S256 : S1x1x256.ShapeCasts S256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  concatenates_S4096x256_S4096x256_S4096x512_d1 : Shape.Concatenates [S4096x256, S4096x256] S4096x512 1
  slices_S2x2x512x256_S1x1x512x256_0_1_0_0 : S2x2x512x256.Slices ![0, 1, 0, 0] S1x1x512x256
  slices_S2x2x256_S1x1x256_0_1_0 : S2x2x256.Slices ![0, 1, 0] S1x1x256
  bcast_S4096x512_S1x4096x512_1_2 : S4096x512.BroadcastsInDim S1x4096x512 (![1, 2] : Fin 2 → Fin S1x4096x512.rank)
  concatenates_S1x4096x512_S1x4096x512_S2x4096x512_d0 : Shape.Concatenates [S1x4096x512, S1x4096x512] S2x4096x512 0
  reducesTo_S2x4096x512_S4096x512_d0 : S2x4096x512.ReducesTo [0] S4096x512
  h_S_ : 0 < S_.numel
  bcast_S_S4096x512 : S_.BroadcastsInDim S4096x512 (![] : Fin 0 → Fin S4096x512.rank)
  slices_S2x512x512_S1x512x512_0_0_0 : S2x512x512.Slices ![0, 0, 0] S1x512x512
  shapeCasts_S1x512x512_S512x512 : S1x512x512.ShapeCasts S512x512
  slices_S2x512_S1x512_0_0 : S2x512.Slices ![0, 0] S1x512
  shapeCasts_S1x512_S512 : S1x512.ShapeCasts S512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  slices_S2x2x512x256_S1x1x512x256_1_0_0_0 : S2x2x512x256.Slices ![1, 0, 0, 0] S1x1x512x256
  slices_S2x2x256_S1x1x256_1_0_0 : S2x2x256.Slices ![1, 0, 0] S1x1x256
  slices_S2x2x512x256_S1x1x512x256_1_1_0_0 : S2x2x512x256.Slices ![1, 1, 0, 0] S1x1x512x256
  slices_S2x2x256_S1x1x256_1_1_0 : S2x2x256.Slices ![1, 1, 0] S1x1x256
  slices_S2x512x512_S1x512x512_1_0_0 : S2x512x512.Slices ![1, 0, 0] S1x512x512
  slices_S2x512_S1x512_1_0 : S2x512.Slices ![1, 0] S1x512
  dot_S4096x512_S512x256_S4096x256_1_0_0_1_n_n_wf : DotDims.WF S4096x512 S512x256 S4096x256 [1] [0] [0] [1] [] []
  dot_S4096x4096_S4096x256_S4096x256_1_0_0_1_n_n_wf : DotDims.WF S4096x4096 S4096x256 S4096x256 [1] [0] [0] [1] [] []
  dot_S4096x512_S512x512_S4096x512_1_0_0_1_n_n_wf : DotDims.WF S4096x512 S512x512 S4096x512 [1] [0] [0] [1] [] []

variable [Facts₀]

def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

class Facts : Prop extends Facts₀ where

variable [Facts]
-- ==== Proof.KbProj0.lean ====
import proofs.«145376_g10471130268016_week1_w2_219_10_alg».proof.Proof.Gen.Kernel.Launch
import proofs.«145376_g10471130268016_week1_w2_219_10_alg».proof.Proof.Gen.Kernel.Skeleton
import proofs.«145376_g10471130268016_week1_w2_219_10_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the projection body leaves in its output buffer: the product of the row block with the whole weight matrix. -/
def out0_2 (xh : Vec F S2048x512 .f32) (xW : Vec F S512x1024 .f32) : Vec F S2048x1024 .bf16 :=
  k0_pay1 xh xW

/-- The proof data of the first projection. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## The input windows hold their blocks -/

/-- The row window's current staging buffer holds its block at every point: the window is uncut and never idle, and
    the body leaves the block where it found it, so the buffer holds what a fetch would put there; for an uncut window
    that is the block read off the array. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  have hblk : ∀ s, dat.blockOf 0 s = iblk0 V c 0 s := fun s => by
    unfold Dat.blockOf iblk0; rw [hA]; try rfl
  have hfetched : dat.fetched 0 t d = dat.blockOf 0 t := by
    unfold Dat.fetched; try rfl
  rw [dat.before_in_eq_fetched 0 rfl (fun _ => rfl) (fun _ _ _ => rfl)
    (fun s => (congrArg _ (hafter s)).trans (hblk s).symm) t d, hfetched, hblk]

/-- The weight window's current staging buffer holds its block at every point, although it is fetched only at the
    first: where it is not fetched its block index has not moved, so what the previous point left is this point's
    block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t := by
  have hblk : ∀ s, dat.blockOf 1 s = iblk0 V c 1 s := fun s => by
    unfold Dat.blockOf iblk0; rw [hA]; try rfl
  have hfetched : dat.fetched 1 t d = dat.blockOf 1 t := by
    unfold Dat.fetched; try rfl
  rw [dat.before_in_eq_fetched 1 rfl (fun _ => rfl) (fun _ _ _ => rfl)
    (fun s => (congrArg _ (hafter s)).trans (hblk s).symm) t d, hfetched, hblk]

/-! ## The body's accesses: each buffer through its whole rectangle -/

abbrev r0_0 : Rect S2048x512 := Rect.unit (s := S2048x512) ![0, 0] S2048x512.size inb_S2048x512_S2048x512_0_0
abbrev r0_1 : Rect S512x1024 := Rect.unit (s := S512x1024) ![0, 0] S512x1024.size inb_S512x1024_S512x1024_0_0
abbrev r0_2 : Rect S2048x1024 := Rect.unit (s := S2048x1024) ![0, 0] S2048x1024.size inb_S2048x1024_S2048x1024_0_0

/-- The output buffer after the body as the one store laid over it: the product's payload through the whole
    rectangle, over loads of the two inputs through theirs. -/
def canon0_2 (xh : Vec F S2048x512 .f32) (xW : Vec F S512x1024 .f32) : Vec F S2048x1024 .bf16 :=
  View.canon [⟨r0_2, k0_pay1 (View.ld xh r0_0) (View.ld xW r0_1)⟩]

/-- The one store covers the output buffer. -/
theorem cover0_2 (p : Vec F S2048x1024 .bf16) (y : S2048x1024.Idx) :
    ∃ pc ∈ ([⟨r0_2, p⟩] : List (View.Piece (Elt F) S2048x1024 .bf16)), y ∈ pc.1.set :=
  View.cover_of_tiled [⟨r0_2, p⟩] S2048x1024.size (by rfl) y

/-! ## The body's triple -/

set_option maxHeartbeats 1000000 in
/-- The body on whole staging memrefs, the two inputs' at read contents `xh` and `xW` and the output's at anything,
    runs to the continuation holding the inputs' as they were and the output's at the one store's canon: two loads,
    a load of the output buffer whose value is not used, and the store that covers it. -/
theorem sound_kernel0 (c : Dev nD) (E : Set ℕ) (i : grid0.Coords)
    (argh : Memref sig .tc .vmem S2048x512 .f32) (hargh : argh.IsWhole)
    (argW : Memref sig .tc .vmem S512x1024 .f32) (hargW : argW.IsWhole)
    (argo : Memref sig .tc .vmem S2048x1024 .bf16) (hargo : argo.IsWhole)
    (xh : Vec F S2048x512 .f32) (xW : Vec F S512x1024 .f32) (K : PUnit → sProp 𝕄) :
    iprop(owns (c : Thread nD τ) argh fullShare xh ∗ owns (c : Thread nD τ) argW fullShare xW
        ∗ (∃ d, owns (c : Thread nD τ) argo fullShare d)
        ∗ (iprop(owns (c : Thread nD τ) argh fullShare xh ∗ owns (c : Thread nD τ) argW fullShare xW
            ∗ owns (c : Thread nD τ) argo fullShare (canon0_2 xh xW)) -∗ K ⟨⟩))
      ⊢ wp frame (wpE (defs₀ (F := F)) Variants.none c none) E (cc0__proj_kernel i argh hargh argW hargW argo hargo) K := by
  simp only [cc0__proj_kernel_eq_skeleton]; unfold cc0__proj_kernel_skel
  unfold owns
  iintro ⟨⟨%fh, %hfh, Hh⟩, ⟨%fW, %hfW, HW⟩, ⟨%dd, %fo, -, Ho⟩, Hk⟩
  subst hfh; subst hfW
  sl_exec
  sl_step
  iapply Hk
  isplitl [Hh]
  · iexists fh; isplitr; · ipureintro; rfl
    iexact Hh
  isplitl [HW]
  · iexists fW; isplitr; · ipureintro; rfl
    iexact HW
  iexists _; isplitr
  swap; · iexact Ho
  ipureintro
  exact View.read_writes_eq_canon _ _ _ (cover0_2 _)

/-! ## The store's canon is the product itself -/

/-- A rectangle of the shape's own sizes at zero offsets and unit strides places every index at itself. -/
theorem emb0_2 (y : r0_2.shape.Idx) : r0_2.emb y = y := by
  funext a; apply Fin.ext
  show (![0, 0] : Fin 2 → ℕ) a + 1 * (y a : Nat) = y a
  fin_cases a <;> simp

theorem idx0_0 (y : r0_0.shape.Idx) : r0_0.idx y = y := by
  funext a; apply Fin.ext
  show (![0, 0] : Fin 2 → ℕ) a + 1 * (y a : Nat) = y a
  fin_cases a <;> simp

theorem idx0_1 (y : r0_1.shape.Idx) : r0_1.idx y = y := by
  funext a; apply Fin.ext
  show (![0, 0] : Fin 2 → ℕ) a + 1 * (y a : Nat) = y a
  fin_cases a <;> simp

/-- Every access of the body goes through a whole rectangle, so the loads read the inputs as they are and the one
    store's canon is its payload: the product of the two inputs. -/
theorem canon0_2_eq (xh : Vec F S2048x512 .f32) (xW : Vec F S512x1024 .f32) : canon0_2 xh xW = out0_2 xh xW := by
  have eh : View.ld xh r0_0 = xh := funext fun y => congrArg xh (idx0_0 y)
  have eW : View.ld xW r0_1 = xW := funext fun y => congrArg xW (idx0_1 y)
  unfold canon0_2 out0_2
  rw [eh, eW]
  funext y
  have h := View.canon_cons_emb (Val := Elt F) (e := .bf16) r0_2 (k0_pay1 xh xW) [] y
  rw [emb0_2] at h
  exact h

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`: the invariant, the core's debt, and each window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: the same with each buffer at what the body leaves there. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two input buffers hold their blocks, so the body's triple applies; the invariant and
    the core's debt pass through untouched, and the output buffer ends at the product of the two blocks. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, ← canon0_2_eq]
  iintro ⟨HΦ, Ho, ⟨%dh, Hh⟩, ⟨%dW, HW⟩, ⟨%dd, Hd⟩⟩
  iapply (sound_kernel0 c Set.univ _ _ _ _ _ _ _ (iblk0 V c 0 t) (iblk0 V c 1 t) _)
  isplitl [Hh]; · iexact Hh
  isplitl [HW]; · iexact HW
  isplitl [Hd]; · iexists _; iexact Hd
  iintro ⟨Hh, HW, Hd⟩
  isplitl [HΦ]; · iexact HΦ
  isplitl [Ho]; · iexact Ho
  isplitl [Hh]; · iexact Hh
  isplitl [HW]; · iexact HW
  iexact Hd

/-- The body obligation of the first projection, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KbAgg1.lean ====
import proofs.«145376_g10471130268016_week1_w2_219_10_alg».proof.Proof.Gen.Kernel.Launch
import proofs.«145376_g10471130268016_week1_w2_219_10_alg».proof.Proof.Gen.Kernel.Skeleton
import proofs.«145376_g10471130268016_week1_w2_219_10_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses to the accumulator: its left and right halves, and the whole -/

abbrev rL1 : Rect S2048x512 := Rect.unit (s := S2048x512) ![0, 0] S2048x256.size inb_S2048x512_S2048x256_0_0
abbrev rR1 : Rect S2048x512 := Rect.unit (s := S2048x512) ![0, 256] S2048x256.size inb_S2048x512_S2048x256_0_256
abbrev rW1 : Rect S2048x512 := Rect.unit (s := S2048x512) ![0, 0] S2048x512.size inb_S2048x512_S2048x512_0_0
/-- The accumulator the kernel keeps between grid points. -/
abbrev scM1 : Memref sig .tc .vmem S2048x512 .f32 := Memref.whole cc1_scratch0

/-- The accumulator as the first point of a row block resets it. -/
def zeroS1 : Vec F S2048x512 .f32 := View.canon [⟨rW1, k1_pay3⟩]

/-- The accumulator after one point's two updates, from what it held before them (`s`): the left half gains the two
    backward products, the right half the two forward ones. The pieces are listed last store first. -/
def accStep1 (xw : Vec F S512x1024 .bf16) (aBa aBb aFa aFb : Vec F S2048x512 .f32) (s : Vec F S2048x512 .f32) : Vec F S2048x512 .f32 :=
  View.canon [⟨rR1, k1_pay1 (k1_pay6 xw aFa aFb (View.ld s rR1))⟩, ⟨rL1, k1_pay5 xw aBa aBb (View.ld s rL1)⟩]

/-- What the last point of a row block stores into the output buffer, from the finished accumulator. -/
def finStep1 (s : Vec F S2048x512 .f32) (bpre : Vec F S1x512 .f32) (wl : Vec F S512x512 .f32) (blin : Vec F S1x512 .f32)
    (h : Vec F S2048x512 .f32) : Vec F S2048x512 .f32 :=
  View.canon [⟨rW1, k1_pay2 s bpre wl blin h⟩]

/-- THE ACCUMULATION: the accumulator after the body at position `n`. A point whose contraction coordinate is 0
    starts from the reset accumulator, any other from what the point before left. -/
def sAt1 (c : Dev nD) : (n : ℕ) → n < cfg1.N → Vec F S2048x512 .f32
  | 0, hn => accStep1 (iblk1 V c 4 ⟨0, hn⟩) (iblk1 V c 0 ⟨0, hn⟩) (iblk1 V c 1 ⟨0, hn⟩) (iblk1 V c 2 ⟨0, hn⟩) (iblk1 V c 3 ⟨0, hn⟩) zeroS1
  | n + 1, hn => accStep1 (iblk1 V c 4 ⟨n + 1, hn⟩) (iblk1 V c 0 ⟨n + 1, hn⟩) (iblk1 V c 1 ⟨n + 1, hn⟩) (iblk1 V c 2 ⟨n + 1, hn⟩) (iblk1 V c 3 ⟨n + 1, hn⟩)
      (if (n + 1) % 8 = 0 then zeroS1 else sAt1 c n (Nat.lt_of_succ_lt hn))

/-- What the output buffer holds after a point that stores it (the last of a row block); at the other points the
    window is idle and this value is consulted by nothing. -/
def oAt1 (c : Dev nD) (t : Fin cfg1.N) : Vec F S2048x512 .f32 :=
  finStep1 (sAt1 V c t.val t.isLt) (iblk1 V c 6 t) (iblk1 V c 5 t) (iblk1 V c 7 t) (iblk1 V c 8 t)

/-- The core's scoped buffers that are neither a staging buffer of this region nor its accumulator, each at some
    contents: the region carries them unopened. -/
abbrev restS1 (c : Dev nD) : sProp 𝕄 :=
  Pipeline.scopedRestBut (Ix := Unit) (Name := ℕ) (U := UR sig nD τ) (Lvl := ℕ) (Val := Elt F) spec1 c [cc1_scratch0]

/-- The region invariant before position `n`: before the first point the class's; afterwards the accumulator at what
    the point before left, the other scoped buffers at some contents and the generator register at some state. -/
def PhiS1 (c : Dev nD) : (n : ℕ) → n ≤ cfg1.N → sProp 𝕄
  | 0, _ => Pipeline.ΦA spec1 c
  | n + 1, hn => iprop(iprop(owns (c : Thread nD τ) scM1 fullShare (sAt1 V c n hn) ∗ restS1 c) ∗ (∃ r, prngReg c r))

/-- The proof data of the first aggregation. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => oAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_9 (c : Dev nD) (t : Fin cfg1.N) : (dat1 V c).after 9 t = oAt1 V c t := by dsimp only [dat1]

/-! ## The class's invariant, the accumulator named -/

/-- The class's invariant with the accumulator as a memref owned at some contents, the other scoped buffers unopened. -/
theorem PhiA1_eq (c : Dev nD) :
    (Pipeline.ΦA spec1 c : sProp 𝕄)
      = iprop(iprop((∃ d, owns (c : Thread nD τ) scM1 fullShare d) ∗ restS1 c) ∗ (∃ r, prngReg c r)) := by
  unfold Pipeline.ΦA; rw [scopedRest1_split]; simp only [scM1, owns_whole]; try rfl

/-! ## The body's two conditions, decided over the grid -/

/-- The condition of the body's first `scf.if` (the reset of the accumulator), from the grid coordinates. -/
abbrev cond1_a (i : grid1.Coords) : Prop :=
  (Scalar.cmpi .ne (Scalar.extui (Scalar.cmpi .eq (BitVec.ofNat 32 (i 1).val) 0#32)) 0#32) = 1#1
/-- It holds at the points whose contraction coordinate is 0. -/
theorem hcond1_a : ∀ t : Fin cfg1.N, cond1_a (grid1.coords t) ↔ t.val % 8 = 0 :=
  (by decide +kernel : ∀ t : Fin grid1.N, cond1_a (grid1.coords t) ↔ t.val % 8 = 0)

/-- The condition of the body's second `scf.if` (the output's store). -/
abbrev cond1_b (i : grid1.Coords) : Prop := k1_cond2 i = 1#1
/-- It holds at the points whose contraction coordinate is 7. -/
theorem hcond1_b : ∀ t : Fin cfg1.N, cond1_b (grid1.coords t) ↔ t.val % 8 = 7 :=
  (by decide +kernel : ∀ t : Fin grid1.N, cond1_b (grid1.coords t) ↔ t.val % 8 = 7)

/-! ## Where the windows are idle -/

/-- An input window is never idle. -/
theorem liveAt1_in (w : Fin cfg1.W) (hw : w.val < 9) : ∀ i, cfg1.idle w i = false := by
  intro i
  match w, hw with
  | ⟨0, _⟩, _ => rfl | ⟨1, _⟩, _ => rfl | ⟨2, _⟩, _ => rfl | ⟨3, _⟩, _ => rfl | ⟨4, _⟩, _ => rfl
  | ⟨5, _⟩, _ => rfl | ⟨6, _⟩, _ => rfl | ⟨7, _⟩, _ => rfl | ⟨8, _⟩, _ => rfl
/-- Where the second condition fails the output window is idle, -/
theorem idleAt1_9 : ∀ t : Fin cfg1.N, ¬cond1_b (grid1.coords t) → cfg1.idle 9 (grid1.coords t) = true := by decide +kernel
/-- and not written back; -/
theorem noFlush1_9 : ∀ t : Fin cfg1.N, ¬cond1_b (grid1.coords t) → (cfg1.win 9).flush t = false := by decide +kernel
/-- where it holds the window is live. -/
theorem liveAt1_9 : ∀ t : Fin cfg1.N, cond1_b (grid1.coords t) → cfg1.idle 9 (grid1.coords t) = false := by decide +kernel

/-- The zero offsets, however spelt. -/
theorem hz1_off : (![0, 0] : Fin 2 → Nat) = fun _ => 0 := funext fun a => by fin_cases a <;> rfl

/-! ## The accumulator's pieces -/

/-- The two halves cover the accumulator, whatever is stored through them. -/
theorem cover1_halves (p : rR1.shape.Idx → Elt F .f32) (q : rL1.shape.Idx → Elt F .f32) :
    ∀ y : S2048x512.Idx, ∃ pc ∈ ([⟨rR1, p⟩, ⟨rL1, q⟩] : List (View.Piece (Elt F) S2048x512 .f32)), y ∈ pc.1.set :=
  View.cover_of_tiledL _ S2048x256.size (by sl_kernel_rfl)

/-- One store through the whole accumulator covers it. -/
theorem cover1_whole (p : rW1.shape.Idx → Elt F .f32) :
    ∀ y : S2048x512.Idx, ∃ pc ∈ ([⟨rW1, p⟩] : List (View.Piece (Elt F) S2048x512 .f32)), y ∈ pc.1.set :=
  fun y => ⟨_, List.mem_singleton_self _, View.mem_set_unit_zero hz1_off inb_S2048x512_S2048x512_0_0 y⟩

/-- The left half ends where the right half begins. -/
theorem disj1_halves : Disjoint rL1.set rR1.toLoadRect.set := Rect.unit_disjoint 1 (.inl (by decide))

/-- A load of the whole accumulator after both halves were stored reads the two pieces. -/
theorem readCov1_whole (v : View sig .tc .vmem S2048x512 .f32) (p : rR1.shape.Idx → Elt F .f32) (q : rL1.shape.Idx → Elt F .f32) :
    v.readCov [⟨rR1, p⟩, ⟨rL1, q⟩] rW1.toLoadRect
      = View.canon ([⟨rR1, p⟩, ⟨rL1, q⟩] : List (View.Piece (Elt F) S2048x512 .f32)) := by
  rw [View.readCov_eq_canon_ld _ _ _ (cover1_halves p q)]; exact View.ld_unit_zero hz1_off _ _

/-- After the reset a load of the left half reads the reset accumulator's, -/
theorem readCov1_reset_L (v : View sig .tc .vmem S2048x512 .f32) :
    v.readCov [⟨rW1, k1_pay3 (F := F)⟩] rL1.toLoadRect = View.ld (zeroS1 (F := F)) rL1 := by
  unfold zeroS1; exact View.readCov_eq_canon_ld _ _ _ (cover1_whole _)

/-- and so does a load of the right half after the left half's store: the halves are disjoint. -/
theorem readCov1_reset_R (v : View sig .tc .vmem S2048x512 .f32) (q : rL1.shape.Idx → Elt F .f32) :
    v.readCov [⟨rL1, q⟩, ⟨rW1, k1_pay3 (F := F)⟩] rR1.toLoadRect = View.ld (zeroS1 (F := F)) rR1 := by
  rw [View.readCov_cons_of_disjoint v ⟨rL1, q⟩ [⟨rW1, k1_pay3 (F := F)⟩] rR1.toLoadRect disj1_halves]; unfold zeroS1
  exact View.readCov_eq_canon_ld _ _ _ (cover1_whole _)

/-! ## The body's triple, case by case -/
set_option maxHeartbeats 2000000 in
/-- A point that resets (contraction coordinate 0): whatever the accumulator held, it ends at `accStep1 … zeroS1`;
    every window's buffer is handed back as found. -/
theorem sound_kernel1_A (c : Dev nD) (i : grid1.Coords) (ma : Memref sig .tc .vmem S2048x512 .f32) (ha : ma.IsWhole) (mb : Memref sig .tc .vmem S2048x512 .f32) (hb : mb.IsWhole) (mc : Memref sig .tc .vmem S2048x512 .f32) (hc : mc.IsWhole) (md : Memref sig .tc .vmem S2048x512 .f32) (hd : md.IsWhole) (mw : Memref sig .tc .vmem S512x1024 .bf16) (hw : mw.IsWhole) (ml : Memref sig .tc .vmem S512x512 .f32) (hl : ml.IsWhole) (mp : Memref sig .tc .vmem S1x512 .f32) (hp : mp.IsWhole) (mq : Memref sig .tc .vmem S1x512 .f32) (hq : mq.IsWhole) (mh : Memref sig .tc .vmem S2048x512 .f32) (hh : mh.IsWhole) (mo : Memref sig .tc .vmem S2048x512 .f32) (ho : mo.IsWhole) (ms : Memref sig .tc .vmem S2048x512 .f32) (hs : ms.IsWhole)
    (hka : cond1_a i) (hkb : ¬cond1_b i) (xa xb xc xd : Vec F S2048x512 .f32) (xw : Vec F S512x1024 .bf16) (xl : Vec F S512x512 .f32) (xp xq : Vec F S1x512 .f32) (xh : Vec F S2048x512 .f32) (xo : Vec F S2048x512 .f32)
    (E : Set ℕ) (K : PUnit → sProp 𝕄) :
    iprop(owns (c : Thread nD τ) ma fullShare xa ∗ owns (c : Thread nD τ) mb fullShare xb ∗ owns (c : Thread nD τ) mc fullShare xc ∗ owns (c : Thread nD τ) md fullShare xd ∗ owns (c : Thread nD τ) mw fullShare xw ∗ owns (c : Thread nD τ) ml fullShare xl ∗ owns (c : Thread nD τ) mp fullShare xp ∗ owns (c : Thread nD τ) mq fullShare xq ∗ owns (c : Thread nD τ) mh fullShare xh ∗ owns (c : Thread nD τ) mo fullShare xo ∗ (∃ d, owns (c : Thread nD τ) ms fullShare d)
        ∗ (iprop(owns (c : Thread nD τ) ma fullShare xa ∗ owns (c : Thread nD τ) mb fullShare xb ∗ owns (c : Thread nD τ) mc fullShare xc ∗ owns (c : Thread nD τ) md fullShare xd ∗ owns (c : Thread nD τ) mw fullShare xw ∗ owns (c : Thread nD τ) ml fullShare xl ∗ owns (c : Thread nD τ) mp fullShare xp ∗ owns (c : Thread nD τ) mq fullShare xq ∗ owns (c : Thread nD τ) mh fullShare xh ∗ owns (c : Thread nD τ) mo fullShare xo ∗ owns (c : Thread nD τ) ms fullShare (accStep1 xw xa xb xc xd zeroS1)) -∗ K ⟨⟩))
      ⊢ wp frame (wpE (defs₀ (F := F)) Variants.none c none) E (cc1__agg_kernel i ma ha mb hb mc hc md hd mw hw ml hl mp hp mq hq mh hh mo ho ms hs) K := by
  simp only [cc1__agg_kernel_eq_skeleton]; unfold cc1__agg_kernel_skel
  simp only [k1_part1_eq_skeleton]; unfold k1_part1_skel
  unfold owns
  iintro ⟨⟨%fa, %hfa, Ha⟩, ⟨%fb, %hfb, Hb⟩, ⟨%fc, %hfc, Hc⟩, ⟨%fd, %hfd, Hd⟩, ⟨%fw, %hfw, Hw⟩, ⟨%fl, %hfl, Hl⟩, ⟨%fp, %hfp, Hp⟩, ⟨%fq, %hfq, Hq⟩, ⟨%fh, %hfh, Hh⟩, ⟨%fo, %hfo, Ho⟩, ⟨%ds, %fs, -, Hs⟩, Hk⟩
  obtain rfl := ha.eq_unread hfa; obtain rfl := hb.eq_unread hfb; obtain rfl := hc.eq_unread hfc; obtain rfl := hd.eq_unread hfd
  obtain rfl := hw.eq_unread hfw; obtain rfl := hl.eq_unread hfl; obtain rfl := hp.eq_unread hfp; obtain rfl := hq.eq_unread hfq
  obtain rfl := hh.eq_unread hfh; obtain rfl := ho.eq_unread hfo
  sl_exec (disch := first | exact hka | exact hkb)
  sl_step
  iapply Hk
  isplitl [Ha]
  · iexists _; isplitr
    · ipureintro; exact hfa
    · iexact Ha
  isplitl [Hb]
  · iexists _; isplitr
    · ipureintro; exact hfb
    · iexact Hb
  isplitl [Hc]
  · iexists _; isplitr
    · ipureintro; exact hfc
    · iexact Hc
  isplitl [Hd]
  · iexists _; isplitr
    · ipureintro; exact hfd
    · iexact Hd
  isplitl [Hw]
  · iexists _; isplitr
    · ipureintro; exact hfw
    · iexact Hw
  isplitl [Hl]
  · iexists _; isplitr
    · ipureintro; exact hfl
    · iexact Hl
  isplitl [Hp]
  · iexists _; isplitr
    · ipureintro; exact hfp
    · iexact Hp
  isplitl [Hq]
  · iexists _; isplitr
    · ipureintro; exact hfq
    · iexact Hq
  isplitl [Hh]
  · iexists _; isplitr
    · ipureintro; exact hfh
    · iexact Hh
  isplitl [Ho]
  · iexists _; isplitr
    · ipureintro; exact hfo
    · iexact Ho
  iexists _; isplitr; swap
  · iexact Hs
  ipureintro
  sl_unfold_run_names
  refine (View.read_writes_eq_canon _ (View.writes _ _ fs [_]) [_, _] ?_).trans ?_
  · exact cover1_halves _ _
  unfold accStep1
  rw [readCov1_reset_R, readCov1_reset_L]
  dsimp only
  simp only [View.readAt_eq_ld, hfa, hfb, hfc, hfd, hfw, View.ld_unit_zero (S := S2048x512) hz1_off,
    View.ld_unit_zero (S := S512x1024) hz1_off]
  try rfl

set_option maxHeartbeats 2000000 in
/-- A point that neither resets nor finishes (contraction coordinate strictly between 0 and 7): the accumulator goes
    from `s` to `accStep1 … s`; every window's buffer is handed back as found. -/
theorem sound_kernel1_B (c : Dev nD) (i : grid1.Coords) (ma : Memref sig .tc .vmem S2048x512 .f32) (ha : ma.IsWhole) (mb : Memref sig .tc .vmem S2048x512 .f32) (hb : mb.IsWhole) (mc : Memref sig .tc .vmem S2048x512 .f32) (hc : mc.IsWhole) (md : Memref sig .tc .vmem S2048x512 .f32) (hd : md.IsWhole) (mw : Memref sig .tc .vmem S512x1024 .bf16) (hw : mw.IsWhole) (ml : Memref sig .tc .vmem S512x512 .f32) (hl : ml.IsWhole) (mp : Memref sig .tc .vmem S1x512 .f32) (hp : mp.IsWhole) (mq : Memref sig .tc .vmem S1x512 .f32) (hq : mq.IsWhole) (mh : Memref sig .tc .vmem S2048x512 .f32) (hh : mh.IsWhole) (mo : Memref sig .tc .vmem S2048x512 .f32) (ho : mo.IsWhole) (ms : Memref sig .tc .vmem S2048x512 .f32) (hs : ms.IsWhole)
    (hka : ¬cond1_a i) (hkb : ¬cond1_b i) (xa xb xc xd : Vec F S2048x512 .f32) (xw : Vec F S512x1024 .bf16) (xl : Vec F S512x512 .f32) (xp xq : Vec F S1x512 .f32) (xh : Vec F S2048x512 .f32) (xo s : Vec F S2048x512 .f32)
    (E : Set ℕ) (K : PUnit → sProp 𝕄) :
    iprop(owns (c : Thread nD τ) ma fullShare xa ∗ owns (c : Thread nD τ) mb fullShare xb ∗ owns (c : Thread nD τ) mc fullShare xc ∗ owns (c : Thread nD τ) md fullShare xd ∗ owns (c : Thread nD τ) mw fullShare xw ∗ owns (c : Thread nD τ) ml fullShare xl ∗ owns (c : Thread nD τ) mp fullShare xp ∗ owns (c : Thread nD τ) mq fullShare xq ∗ owns (c : Thread nD τ) mh fullShare xh ∗ owns (c : Thread nD τ) mo fullShare xo ∗ owns (c : Thread nD τ) ms fullShare s
        ∗ (iprop(owns (c : Thread nD τ) ma fullShare xa ∗ owns (c : Thread nD τ) mb fullShare xb ∗ owns (c : Thread nD τ) mc fullShare xc ∗ owns (c : Thread nD τ) md fullShare xd ∗ owns (c : Thread nD τ) mw fullShare xw ∗ owns (c : Thread nD τ) ml fullShare xl ∗ owns (c : Thread nD τ) mp fullShare xp ∗ owns (c : Thread nD τ) mq fullShare xq ∗ owns (c : Thread nD τ) mh fullShare xh ∗ owns (c : Thread nD τ) mo fullShare xo ∗ owns (c : Thread nD τ) ms fullShare (accStep1 xw xa xb xc xd s)) -∗ K ⟨⟩))
      ⊢ wp frame (wpE (defs₀ (F := F)) Variants.none c none) E (cc1__agg_kernel i ma ha mb hb mc hc md hd mw hw ml hl mp hp mq hq mh hh mo ho ms hs) K := by
  simp only [cc1__agg_kernel_eq_skeleton]; unfold cc1__agg_kernel_skel
  simp only [k1_part1_eq_skeleton]; unfold k1_part1_skel
  unfold owns
  iintro ⟨⟨%fa, %hfa, Ha⟩, ⟨%fb, %hfb, Hb⟩, ⟨%fc, %hfc, Hc⟩, ⟨%fd, %hfd, Hd⟩, ⟨%fw, %hfw, Hw⟩, ⟨%fl, %hfl, Hl⟩, ⟨%fp, %hfp, Hp⟩, ⟨%fq, %hfq, Hq⟩, ⟨%fh, %hfh, Hh⟩, ⟨%fo, %hfo, Ho⟩, ⟨%fs, %hfs, Hs⟩, Hk⟩
  obtain rfl := ha.eq_unread hfa; obtain rfl := hb.eq_unread hfb; obtain rfl := hc.eq_unread hfc; obtain rfl := hd.eq_unread hfd
  obtain rfl := hw.eq_unread hfw; obtain rfl := hl.eq_unread hfl; obtain rfl := hp.eq_unread hfp; obtain rfl := hq.eq_unread hfq
  obtain rfl := hh.eq_unread hfh; obtain rfl := ho.eq_unread hfo; obtain rfl := hs.eq_unread hfs
  sl_exec (disch := first | exact hka | exact hkb)
  sl_step
  iapply Hk
  isplitl [Ha]
  · iexists _; isplitr
    · ipureintro; exact hfa
    · iexact Ha
  isplitl [Hb]
  · iexists _; isplitr
    · ipureintro; exact hfb
    · iexact Hb
  isplitl [Hc]
  · iexists _; isplitr
    · ipureintro; exact hfc
    · iexact Hc
  isplitl [Hd]
  · iexists _; isplitr
    · ipureintro; exact hfd
    · iexact Hd
  isplitl [Hw]
  · iexists _; isplitr
    · ipureintro; exact hfw
    · iexact Hw
  isplitl [Hl]
  · iexists _; isplitr
    · ipureintro; exact hfl
    · iexact Hl
  isplitl [Hp]
  · iexists _; isplitr
    · ipureintro; exact hfp
    · iexact Hp
  isplitl [Hq]
  · iexists _; isplitr
    · ipureintro; exact hfq
    · iexact Hq
  isplitl [Hh]
  · iexists _; isplitr
    · ipureintro; exact hfh
    · iexact Hh
  isplitl [Ho]
  · iexists _; isplitr
    · ipureintro; exact hfo
    · iexact Ho
  iexists _; isplitr; swap
  · iexact Hs
  ipureintro
  refine (View.read_writes_eq_canon _ _ _ ?_).trans ?_
  · exact View.cover_of_tiledL _ S2048x256.size (by sl_kernel_rfl)
  unfold accStep1
  sl_unfold_run_names
  dsimp only
  simp only [View.readAt_eq_ld, hfa, hfb, hfc, hfd, hfw, hfs, View.ld_unit_zero (S := S2048x512) hz1_off,
    View.ld_unit_zero (S := S512x1024) hz1_off]
  try rfl

set_option maxHeartbeats 2000000 in
/-- A point that finishes a row block (contraction coordinate 7): the accumulator goes from `s` to `accStep1 … s`, and
    the output's buffer, whatever it held, ends at `finStep1` of that. -/
theorem sound_kernel1_C (c : Dev nD) (i : grid1.Coords) (ma : Memref sig .tc .vmem S2048x512 .f32) (ha : ma.IsWhole) (mb : Memref sig .tc .vmem S2048x512 .f32) (hb : mb.IsWhole) (mc : Memref sig .tc .vmem S2048x512 .f32) (hc : mc.IsWhole) (md : Memref sig .tc .vmem S2048x512 .f32) (hd : md.IsWhole) (mw : Memref sig .tc .vmem S512x1024 .bf16) (hw : mw.IsWhole) (ml : Memref sig .tc .vmem S512x512 .f32) (hl : ml.IsWhole) (mp : Memref sig .tc .vmem S1x512 .f32) (hp : mp.IsWhole) (mq : Memref sig .tc .vmem S1x512 .f32) (hq : mq.IsWhole) (mh : Memref sig .tc .vmem S2048x512 .f32) (hh : mh.IsWhole) (mo : Memref sig .tc .vmem S2048x512 .f32) (ho : mo.IsWhole) (ms : Memref sig .tc .vmem S2048x512 .f32) (hs : ms.IsWhole)
    (hka : ¬cond1_a i) (hkb : cond1_b i) (xa xb xc xd : Vec F S2048x512 .f32) (xw : Vec F S512x1024 .bf16) (xl : Vec F S512x512 .f32) (xp xq : Vec F S1x512 .f32) (xh : Vec F S2048x512 .f32) (s : Vec F S2048x512 .f32)
    (E : Set ℕ) (K : PUnit → sProp 𝕄) :
    iprop(owns (c : Thread nD τ) ma fullShare xa ∗ owns (c : Thread nD τ) mb fullShare xb ∗ owns (c : Thread nD τ) mc fullShare xc ∗ owns (c : Thread nD τ) md fullShare xd ∗ owns (c : Thread nD τ) mw fullShare xw ∗ owns (c : Thread nD τ) ml fullShare xl ∗ owns (c : Thread nD τ) mp fullShare xp ∗ owns (c : Thread nD τ) mq fullShare xq ∗ owns (c : Thread nD τ) mh fullShare xh ∗ (∃ d, owns (c : Thread nD τ) mo fullShare d) ∗ owns (c : Thread nD τ) ms fullShare s
        ∗ (iprop(owns (c : Thread nD τ) ma fullShare xa ∗ owns (c : Thread nD τ) mb fullShare xb ∗ owns (c : Thread nD τ) mc fullShare xc ∗ owns (c : Thread nD τ) md fullShare xd ∗ owns (c : Thread nD τ) mw fullShare xw ∗ owns (c : Thread nD τ) ml fullShare xl ∗ owns (c : Thread nD τ) mp fullShare xp ∗ owns (c : Thread nD τ) mq fullShare xq ∗ owns (c : Thread nD τ) mh fullShare xh ∗ owns (c : Thread nD τ) mo fullShare (finStep1 (accStep1 xw xa xb xc xd s) xp xl xq xh)
            ∗ owns (c : Thread nD τ) ms fullShare (accStep1 xw xa xb xc xd s)) -∗ K ⟨⟩))
      ⊢ wp frame (wpE (defs₀ (F := F)) Variants.none c none) E (cc1__agg_kernel i ma ha mb hb mc hc md hd mw hw ml hl mp hp mq hq mh hh mo ho ms hs) K := by
  simp only [cc1__agg_kernel_eq_skeleton]; unfold cc1__agg_kernel_skel
  simp only [k1_part1_eq_skeleton]; unfold k1_part1_skel
  unfold owns
  iintro ⟨⟨%fa, %hfa, Ha⟩, ⟨%fb, %hfb, Hb⟩, ⟨%fc, %hfc, Hc⟩, ⟨%fd, %hfd, Hd⟩, ⟨%fw, %hfw, Hw⟩, ⟨%fl, %hfl, Hl⟩, ⟨%fp, %hfp, Hp⟩, ⟨%fq, %hfq, Hq⟩, ⟨%fh, %hfh, Hh⟩, ⟨%dout, %fo, -, Ho⟩, ⟨%fs, %hfs, Hs⟩, Hk⟩
  obtain rfl := ha.eq_unread hfa; obtain rfl := hb.eq_unread hfb; obtain rfl := hc.eq_unread hfc; obtain rfl := hd.eq_unread hfd
  obtain rfl := hw.eq_unread hfw; obtain rfl := hl.eq_unread hfl; obtain rfl := hp.eq_unread hfp; obtain rfl := hq.eq_unread hfq
  obtain rfl := hh.eq_unread hfh; obtain rfl := hs.eq_unread hfs
  sl_exec (disch := first | exact hka | exact hkb)
  sl_step
  iapply Hk
  isplitl [Ha]
  · iexists _; isplitr
    · ipureintro; exact hfa
    · iexact Ha
  isplitl [Hb]
  · iexists _; isplitr
    · ipureintro; exact hfb
    · iexact Hb
  isplitl [Hc]
  · iexists _; isplitr
    · ipureintro; exact hfc
    · iexact Hc
  isplitl [Hd]
  · iexists _; isplitr
    · ipureintro; exact hfd
    · iexact Hd
  isplitl [Hw]
  · iexists _; isplitr
    · ipureintro; exact hfw
    · iexact Hw
  isplitl [Hl]
  · iexists _; isplitr
    · ipureintro; exact hfl
    · iexact Hl
  isplitl [Hp]
  · iexists _; isplitr
    · ipureintro; exact hfp
    · iexact Hp
  isplitl [Hq]
  · iexists _; isplitr
    · ipureintro; exact hfq
    · iexact Hq
  isplitl [Hh]
  · iexists _; isplitr
    · ipureintro; exact hfh
    · iexact Hh
  isplitl [Ho]
  · iexists _; isplitr; swap
    · iexact Ho
    ipureintro
    refine (View.read_writes_eq_canon _ _ _ ?_).trans ?_
    · exact cover1_whole _
    unfold finStep1 accStep1
    sl_unfold_run_names
    rw [readCov1_whole]
    dsimp only
    simp only [View.readAt_eq_ld, hfa, hfb, hfc, hfd, hfw, hfl, hfp, hfq, hfh, hfs, View.ld_unit_zero (S := S2048x512) hz1_off,
      View.ld_unit_zero (S := S512x1024) hz1_off, View.ld_unit_zero (S := S512x512) hz1_off,
      View.ld_unit_zero (S := S1x512) hz1_off]
    try rfl
  iexists _; isplitr; swap
  · iexact Hs
  ipureintro
  sl_unfold_run_names
  refine (View.read_writes_eq_canon _ _ _ ?_).trans ?_
  · exact cover1_halves _ _
  unfold accStep1
  dsimp only
  simp only [View.readAt_eq_ld, hfa, hfb, hfc, hfd, hfw, hfs, View.ld_unit_zero (S := S2048x512) hz1_off,
    View.ld_unit_zero (S := S512x1024) hz1_off]
  try rfl

/-! ## What the body finds in the input windows' buffers, and leaves there -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]

/-- Each input's current staging buffer holds its block at every point, fetched there or not: unfetched, the block
    index has not moved. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl)
    (fun t => by rw [after1_8]; unfold Dat.blockOf iblk1; rw [A_eq1]; try rfl) t d).trans
    (by unfold Dat.fetched Dat.blockOf iblk1; rw [A_eq1]; try rfl)

/-- Each window's current staging memref at point `t`, spelled as the pipeline passes it, and its wholeness. -/
abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)
abbrev ms1_5 (t : Fin cfg1.N) := win1_5.stage (cfg1.slots t 5)
abbrev hs1_5 (t : Fin cfg1.N) : (ms1_5 t).IsWhole := hstage1_5 ((cfg1.slots t 5).cast nbuf1_5)
abbrev ms1_6 (t : Fin cfg1.N) := win1_6.stage (cfg1.slots t 6)
abbrev hs1_6 (t : Fin cfg1.N) : (ms1_6 t).IsWhole := hstage1_6 ((cfg1.slots t 6).cast nbuf1_6)
abbrev ms1_7 (t : Fin cfg1.N) := win1_7.stage (cfg1.slots t 7)
abbrev hs1_7 (t : Fin cfg1.N) : (ms1_7 t).IsWhole := hstage1_7 ((cfg1.slots t 7).cast nbuf1_7)
abbrev ms1_8 (t : Fin cfg1.N) := win1_8.stage (cfg1.slots t 8)
abbrev hs1_8 (t : Fin cfg1.N) : (ms1_8 t).IsWhole := hstage1_8 ((cfg1.slots t 8).cast nbuf1_8)
abbrev ms1_9 (t : Fin cfg1.N) := win1_9.stage (cfg1.slots t 9)
abbrev hs1_9 (t : Fin cfg1.N) : (ms1_9 t).IsWhole := hstage1_9 ((cfg1.slots t 9).cast nbuf1_9)

/-- An input window is live everywhere: the body hands its buffer back at its block. -/
theorem leaves1_0 (c : Dev nD) (t : Fin cfg1.N) :
    (dat1 V c).leavesExact 0 t = owns (c : Thread nD τ) (ms1_0 t) fullShare (iblk1 V c 0 t) := by
  unfold Dat.leavesExact; rw [liveAt1_in 0 (by decide) (grid1.coords t), after1_0]
theorem leaves1_1 (c : Dev nD) (t : Fin cfg1.N) :
    (dat1 V c).leavesExact 1 t = owns (c : Thread nD τ) (ms1_1 t) fullShare (iblk1 V c 1 t) := by
  unfold Dat.leavesExact; rw [liveAt1_in 1 (by decide) (grid1.coords t), after1_1]
theorem leaves1_2 (c : Dev nD) (t : Fin cfg1.N) :
    (dat1 V c).leavesExact 2 t = owns (c : Thread nD τ) (ms1_2 t) fullShare (iblk1 V c 2 t) := by
  unfold Dat.leavesExact; rw [liveAt1_in 2 (by decide) (grid1.coords t), after1_2]
theorem leaves1_3 (c : Dev nD) (t : Fin cfg1.N) :
    (dat1 V c).leavesExact 3 t = owns (c : Thread nD τ) (ms1_3 t) fullShare (iblk1 V c 3 t) := by
  unfold Dat.leavesExact; rw [liveAt1_in 3 (by decide) (grid1.coords t), after1_3]
theorem leaves1_4 (c : Dev nD) (t : Fin cfg1.N) :
    (dat1 V c).leavesExact 4 t = owns (c : Thread nD τ) (ms1_4 t) fullShare (iblk1 V c 4 t) := by
  unfold Dat.leavesExact; rw [liveAt1_in 4 (by decide) (grid1.coords t), after1_4]
theorem leaves1_5 (c : Dev nD) (t : Fin cfg1.N) :
    (dat1 V c).leavesExact 5 t = owns (c : Thread nD τ) (ms1_5 t) fullShare (iblk1 V c 5 t) := by
  unfold Dat.leavesExact; rw [liveAt1_in 5 (by decide) (grid1.coords t), after1_5]
theorem leaves1_6 (c : Dev nD) (t : Fin cfg1.N) :
    (dat1 V c).leavesExact 6 t = owns (c : Thread nD τ) (ms1_6 t) fullShare (iblk1 V c 6 t) := by
  unfold Dat.leavesExact; rw [liveAt1_in 6 (by decide) (grid1.coords t), after1_6]
theorem leaves1_7 (c : Dev nD) (t : Fin cfg1.N) :
    (dat1 V c).leavesExact 7 t = owns (c : Thread nD τ) (ms1_7 t) fullShare (iblk1 V c 7 t) := by
  unfold Dat.leavesExact; rw [liveAt1_in 7 (by decide) (grid1.coords t), after1_7]
theorem leaves1_8 (c : Dev nD) (t : Fin cfg1.N) :
    (dat1 V c).leavesExact 8 t = owns (c : Thread nD τ) (ms1_8 t) fullShare (iblk1 V c 8 t) := by
  unfold Dat.leavesExact; rw [liveAt1_in 8 (by decide) (grid1.coords t), after1_8]

/-! ## The accumulation, point by point -/

/-- At a point that resets, the accumulator ends one step from the reset accumulator. -/
theorem sAt1_reset (c : Dev nD) (t : Fin cfg1.N) (hk : t.val % 8 = 0) :
    sAt1 V c t.val t.isLt
      = accStep1 (iblk1 V c 4 t) (iblk1 V c 0 t) (iblk1 V c 1 t) (iblk1 V c 2 t) (iblk1 V c 3 t) zeroS1 := by
  obtain ⟨n, hn⟩ := t
  cases n with
  | zero => rfl
  | succ n => dsimp only at hk ⊢; rw [sAt1, if_pos hk]

/-- At any other point, one step from what the point before left. -/
theorem sAt1_step (c : Dev nD) (t : Fin cfg1.N) (hk : ¬t.val % 8 = 0) :
    sAt1 V c t.val t.isLt
      = accStep1 (iblk1 V c 4 t) (iblk1 V c 0 t) (iblk1 V c 1 t) (iblk1 V c 2 t) (iblk1 V c 3 t)
          (sAt1 V c (t.val - 1) (Nat.lt_of_le_of_lt (Nat.sub_le _ _) t.isLt)) := by
  obtain ⟨n, hn⟩ := t
  cases n with
  | zero => exact absurd (Nat.zero_mod _) hk
  | succ n => dsimp only at hk ⊢; rw [sAt1, if_neg hk]; rfl

/-! ## The invariant, position by position -/

theorem PhiS1_zero (c : Dev nD) (n : ℕ) (h : n ≤ cfg1.N) (hz : n = 0) : PhiS1 V c n h = Pipeline.ΦA spec1 c := by
  subst hz; rfl

/-- After point `n`: the accumulator at that point's contents. -/
theorem PhiS1_succ (c : Dev nD) (n : ℕ) (hn : n < cfg1.N) :
    PhiS1 V c (n + 1) hn
      = iprop(iprop(owns (c : Thread nD τ) scM1 fullShare (sAt1 V c n hn) ∗ restS1 c) ∗ (∃ r, prngReg c r)) := rfl

/-- Before a point that is not the first: the accumulator at what the point before left. -/
theorem PhiS1_pos (c : Dev nD) (n : ℕ) (h : n ≤ cfg1.N) (hz : n ≠ 0) :
    PhiS1 V c n h
      = iprop(iprop(owns (c : Thread nD τ) scM1 fullShare (sAt1 V c (n - 1) (by omega)) ∗ restS1 c) ∗ (∃ r, prngReg c r)) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

set_option maxHeartbeats 4800000 in
/-- The body at any point: the inputs' memrefs hold their blocks; the contraction coordinate says which of the three
    cases the point is in; the invariant hands the body the accumulator at what the point before left (at anything at
    the first point) and takes it back one step on; the output's buffer is handed back untouched except at the last
    point of a row block, where it ends at the finished accumulator's image. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5, leaves1_6, leaves1_7, leaves1_8]
  have hN : t.val < 16 := lt_of_lt_of_eq t.isLt (show cfg1.N = 16 from N_1)
  by_cases hk : t.val % 8 = 0
  · have hkb : ¬cond1_b (grid1.coords t) := fun h => by have := (hcond1_b t).mp h; omega
    rw [Dat.leavesExact_idle (dat1 V c) 9 t (idleAt1_9 t hkb) (noFlush1_9 t hkb)]
    rw [sAt1_reset V c t hk]
    by_cases hz : t.val = 0
    · rw [PhiS1_castSucc V c t, PhiS1_zero V c _ _ hz, PhiA1_eq]
      iintro ⟨⟨⟨Hs, Hr⟩, Hg⟩, Ho, ⟨%da, Ha⟩, ⟨%db, Hb⟩, ⟨%dc, Hc⟩, ⟨%dd, Hd⟩, ⟨%dw, Hw⟩, ⟨%dl, Hl⟩, ⟨%dp, Hp⟩, ⟨%dq, Hq⟩, ⟨%dh, Hh⟩, ⟨%dout, Hout⟩⟩
      iapply (sound_kernel1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1 (Memref.isWhole_whole _) ((hcond1_a t).mpr hk) hkb
        (iblk1 V c 0 t) (iblk1 V c 1 t) (iblk1 V c 2 t) (iblk1 V c 3 t) (iblk1 V c 4 t) (iblk1 V c 5 t) (iblk1 V c 6 t) (iblk1 V c 7 t) (iblk1 V c 8 t) ((dat1 V c).before 9 t dout) Set.univ _)
      isplitl [Ha]; · iexact Ha
      isplitl [Hb]; · iexact Hb
      isplitl [Hc]; · iexact Hc
      isplitl [Hd]; · iexact Hd
      isplitl [Hw]; · iexact Hw
      isplitl [Hl]; · iexact Hl
      isplitl [Hp]; · iexact Hp
      isplitl [Hq]; · iexact Hq
      isplitl [Hh]; · iexact Hh
      isplitl [Hout]; · iexact Hout
      isplitl [Hs]; · iexact Hs
      iintro ⟨Ha, Hb, Hc, Hd, Hw, Hl, Hp, Hq, Hh, Hout, Hs⟩
      isplitl [Hs Hr Hg]
      · isplitl [Hs Hr]
        · isplitl [Hs]; · iexact Hs
          iexact Hr
        iexact Hg
      isplitl [Ho]; · iexact Ho
      isplitl [Ha]; · iexact Ha
      isplitl [Hb]; · iexact Hb
      isplitl [Hc]; · iexact Hc
      isplitl [Hd]; · iexact Hd
      isplitl [Hw]; · iexact Hw
      isplitl [Hl]; · iexact Hl
      isplitl [Hp]; · iexact Hp
      isplitl [Hq]; · iexact Hq
      isplitl [Hh]; · iexact Hh
      iexists _; iexact Hout
    · rw [PhiS1_castSucc V c t, PhiS1_pos V c _ _ hz]
      iintro ⟨⟨⟨Hs, Hr⟩, Hg⟩, Ho, ⟨%da, Ha⟩, ⟨%db, Hb⟩, ⟨%dc, Hc⟩, ⟨%dd, Hd⟩, ⟨%dw, Hw⟩, ⟨%dl, Hl⟩, ⟨%dp, Hp⟩, ⟨%dq, Hq⟩, ⟨%dh, Hh⟩, ⟨%dout, Hout⟩⟩
      iapply (sound_kernel1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1 (Memref.isWhole_whole _) ((hcond1_a t).mpr hk) hkb
        (iblk1 V c 0 t) (iblk1 V c 1 t) (iblk1 V c 2 t) (iblk1 V c 3 t) (iblk1 V c 4 t) (iblk1 V c 5 t) (iblk1 V c 6 t) (iblk1 V c 7 t) (iblk1 V c 8 t) ((dat1 V c).before 9 t dout) Set.univ _)
      isplitl [Ha]; · iexact Ha
      isplitl [Hb]; · iexact Hb
      isplitl [Hc]; · iexact Hc
      isplitl [Hd]; · iexact Hd
      isplitl [Hw]; · iexact Hw
      isplitl [Hl]; · iexact Hl
      isplitl [Hp]; · iexact Hp
      isplitl [Hq]; · iexact Hq
      isplitl [Hh]; · iexact Hh
      isplitl [Hout]; · iexact Hout
      isplitl [Hs]; · iexists _; iexact Hs
      iintro ⟨Ha, Hb, Hc, Hd, Hw, Hl, Hp, Hq, Hh, Hout, Hs⟩
      isplitl [Hs Hr Hg]
      · isplitl [Hs Hr]
        · isplitl [Hs]; · iexact Hs
          iexact Hr
        iexact Hg
      isplitl [Ho]; · iexact Ho
      isplitl [Ha]; · iexact Ha
      isplitl [Hb]; · iexact Hb
      isplitl [Hc]; · iexact Hc
      isplitl [Hd]; · iexact Hd
      isplitl [Hw]; · iexact Hw
      isplitl [Hl]; · iexact Hl
      isplitl [Hp]; · iexact Hp
      isplitl [Hq]; · iexact Hq
      isplitl [Hh]; · iexact Hh
      iexists _; iexact Hout
  · have hz : t.val ≠ 0 := fun h => hk (by omega)
    have hka : ¬cond1_a (grid1.coords t) := fun h => hk ((hcond1_a t).mp h)
    rw [sAt1_step V c t hk]
    rw [PhiS1_castSucc V c t, PhiS1_pos V c _ _ hz]
    by_cases hl : t.val % 8 = 7
    · have hkb : cond1_b (grid1.coords t) := (hcond1_b t).mpr hl
      rw [show (dat1 V c).leavesExact 9 t = owns (c : Thread nD τ) (ms1_9 t) fullShare ((dat1 V c).after 9 t) from by
        unfold Dat.leavesExact; rw [liveAt1_9 t hkb], after1_9]
      unfold oAt1
      rw [sAt1_step V c t hk]
      iintro ⟨⟨⟨Hs, Hr⟩, Hg⟩, Ho, ⟨%da, Ha⟩, ⟨%db, Hb⟩, ⟨%dc, Hc⟩, ⟨%dd, Hd⟩, ⟨%dw, Hw⟩, ⟨%dl, Hl⟩, ⟨%dp, Hp⟩, ⟨%dq, Hq⟩, ⟨%dh, Hh⟩, ⟨%dout, Hout⟩⟩
      iapply (sound_kernel1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1 (Memref.isWhole_whole _) hka hkb
        (iblk1 V c 0 t) (iblk1 V c 1 t) (iblk1 V c 2 t) (iblk1 V c 3 t) (iblk1 V c 4 t) (iblk1 V c 5 t) (iblk1 V c 6 t) (iblk1 V c 7 t) (iblk1 V c 8 t) (sAt1 V c (t.val - 1) (Nat.lt_of_le_of_lt (Nat.sub_le _ _) t.isLt)) Set.univ _)
      isplitl [Ha]; · iexact Ha
      isplitl [Hb]; · iexact Hb
      isplitl [Hc]; · iexact Hc
      isplitl [Hd]; · iexact Hd
      isplitl [Hw]; · iexact Hw
      isplitl [Hl]; · iexact Hl
      isplitl [Hp]; · iexact Hp
      isplitl [Hq]; · iexact Hq
      isplitl [Hh]; · iexact Hh
      isplitl [Hout]; · iexists _; iexact Hout
      isplitl [Hs]; · iexact Hs
      iintro ⟨Ha, Hb, Hc, Hd, Hw, Hl, Hp, Hq, Hh, Hout, Hs⟩
      isplitl [Hs Hr Hg]
      · isplitl [Hs Hr]
        · isplitl [Hs]; · iexact Hs
          iexact Hr
        iexact Hg
      isplitl [Ho]; · iexact Ho
      isplitl [Ha]; · iexact Ha
      isplitl [Hb]; · iexact Hb
      isplitl [Hc]; · iexact Hc
      isplitl [Hd]; · iexact Hd
      isplitl [Hw]; · iexact Hw
      isplitl [Hl]; · iexact Hl
      isplitl [Hp]; · iexact Hp
      isplitl [Hq]; · iexact Hq
      isplitl [Hh]; · iexact Hh
      iexact Hout
    · have hkb : ¬cond1_b (grid1.coords t) := fun h => hl ((hcond1_b t).mp h)
      rw [Dat.leavesExact_idle (dat1 V c) 9 t (idleAt1_9 t hkb) (noFlush1_9 t hkb)]
      iintro ⟨⟨⟨Hs, Hr⟩, Hg⟩, Ho, ⟨%da, Ha⟩, ⟨%db, Hb⟩, ⟨%dc, Hc⟩, ⟨%dd, Hd⟩, ⟨%dw, Hw⟩, ⟨%dl, Hl⟩, ⟨%dp, Hp⟩, ⟨%dq, Hq⟩, ⟨%dh, Hh⟩, ⟨%dout, Hout⟩⟩
      iapply (sound_kernel1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1 (Memref.isWhole_whole _) hka hkb
        (iblk1 V c 0 t) (iblk1 V c 1 t) (iblk1 V c 2 t) (iblk1 V c 3 t) (iblk1 V c 4 t) (iblk1 V c 5 t) (iblk1 V c 6 t) (iblk1 V c 7 t) (iblk1 V c 8 t) ((dat1 V c).before 9 t dout) (sAt1 V c (t.val - 1) (Nat.lt_of_le_of_lt (Nat.sub_le _ _) t.isLt)) Set.univ _)
      isplitl [Ha]; · iexact Ha
      isplitl [Hb]; · iexact Hb
      isplitl [Hc]; · iexact Hc
      isplitl [Hd]; · iexact Hd
      isplitl [Hw]; · iexact Hw
      isplitl [Hl]; · iexact Hl
      isplitl [Hp]; · iexact Hp
      isplitl [Hq]; · iexact Hq
      isplitl [Hh]; · iexact Hh
      isplitl [Hout]; · iexact Hout
      isplitl [Hs]; · iexact Hs
      iintro ⟨Ha, Hb, Hc, Hd, Hw, Hl, Hp, Hq, Hh, Hout, Hs⟩
      isplitl [Hs Hr Hg]
      · isplitl [Hs Hr]
        · isplitl [Hs]; · iexact Hs
          iexact Hr
        iexact Hg
      isplitl [Ho]; · iexact Ho
      isplitl [Ha]; · iexact Ha
      isplitl [Hb]; · iexact Hb
      isplitl [Hc]; · iexact Hc
      isplitl [Hd]; · iexact Hd
      isplitl [Hw]; · iexact Hw
      isplitl [Hl]; · iexact Hl
      isplitl [Hp]; · iexact Hp
      isplitl [Hq]; · iexact Hq
      isplitl [Hh]; · iexact Hh
      iexists _; iexact Hout

/-- The body obligation of the first aggregation, at every point. -/
theorem body_obligation1 (c : Dev nD) : BodyObligation (dat1 (F := F) V c) (defs₀ (F := F)) Variants.none () Set.univ := fun t => by
  rw [bigSep_W1, bigSep_W1]
  exact sound_body1 V c t

/-- The class's invariant is the proof data's at the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hs, Hr⟩, Hg⟩
  isplitl [Hs Hr]
  · isplitl [Hs]
    · iexists _; iexact Hs
    iexact Hr
  iexact Hg

/-- The proof data's invariant at the last point gives the class's back. -/
theorem hout1 (c : Dev nD) : (dat1 V c).Φ (Fin.last cfg1.N) ⊢ Pipeline.ΦA spec1 c :=
  Phi1_out V c _ (by rw [Fin.val_last]; have : cfg1.N = 16 := N_1; omega)

end Cert.Kernel.Hand

end
-- ==== Proof.KbProj2.lean ====
import proofs.«145376_g10471130268016_week1_w2_219_10_alg».proof.Proof.Gen.Kernel.Launch
import proofs.«145376_g10471130268016_week1_w2_219_10_alg».proof.Proof.Gen.Kernel.Skeleton
import proofs.«145376_g10471130268016_week1_w2_219_10_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the projection body leaves in its output buffer: the product of the row block with the whole weight matrix. -/
def out2_2 (xh : Vec F S2048x512 .f32) (xW : Vec F S512x1024 .f32) : Vec F S2048x1024 .bf16 :=
  k2_pay1 xh xW

/-- The proof data of the first projection. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-! ## The input windows hold their blocks -/

/-- The row window's current staging buffer holds its block at every point: the window is uncut and never idle, and
    the body leaves the block where it found it, so the buffer holds what a fetch would put there; for an uncut window
    that is the block read off the array. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t := by
  have hblk : ∀ s, dat.blockOf 0 s = iblk2 V c 0 s := fun s => by
    unfold Dat.blockOf iblk2; rw [hA]; try rfl
  have hfetched : dat.fetched 0 t d = dat.blockOf 0 t := by
    unfold Dat.fetched; try rfl
  rw [dat.before_in_eq_fetched 0 rfl (fun _ => rfl) (fun _ _ _ => rfl)
    (fun s => (congrArg _ (hafter s)).trans (hblk s).symm) t d, hfetched, hblk]

/-- The weight window's current staging buffer holds its block at every point, although it is fetched only at the
    first: where it is not fetched its block index has not moved, so what the previous point left is this point's
    block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t := by
  have hblk : ∀ s, dat.blockOf 1 s = iblk2 V c 1 s := fun s => by
    unfold Dat.blockOf iblk2; rw [hA]; try rfl
  have hfetched : dat.fetched 1 t d = dat.blockOf 1 t := by
    unfold Dat.fetched; try rfl
  rw [dat.before_in_eq_fetched 1 rfl (fun _ => rfl) (fun _ _ _ => rfl)
    (fun s => (congrArg _ (hafter s)).trans (hblk s).symm) t d, hfetched, hblk]

/-! ## The body's accesses: each buffer through its whole rectangle -/

abbrev r2_0 : Rect S2048x512 := Rect.unit (s := S2048x512) ![0, 0] S2048x512.size inb_S2048x512_S2048x512_0_0
abbrev r2_1 : Rect S512x1024 := Rect.unit (s := S512x1024) ![0, 0] S512x1024.size inb_S512x1024_S512x1024_0_0
abbrev r2_2 : Rect S2048x1024 := Rect.unit (s := S2048x1024) ![0, 0] S2048x1024.size inb_S2048x1024_S2048x1024_0_0

/-- The output buffer after the body as the one store laid over it: the product's payload through the whole
    rectangle, over loads of the two inputs through theirs. -/
def canon2_2 (xh : Vec F S2048x512 .f32) (xW : Vec F S512x1024 .f32) : Vec F S2048x1024 .bf16 :=
  View.canon [⟨r2_2, k2_pay1 (View.ld xh r2_0) (View.ld xW r2_1)⟩]

/-- The one store covers the output buffer. -/
theorem cover2_2 (p : Vec F S2048x1024 .bf16) (y : S2048x1024.Idx) :
    ∃ pc ∈ ([⟨r2_2, p⟩] : List (View.Piece (Elt F) S2048x1024 .bf16)), y ∈ pc.1.set :=
  View.cover_of_tiled [⟨r2_2, p⟩] S2048x1024.size (by rfl) y

/-! ## The body's triple -/

set_option maxHeartbeats 1000000 in
/-- The body on whole staging memrefs, the two inputs' at read contents `xh` and `xW` and the output's at anything,
    runs to the continuation holding the inputs' as they were and the output's at the one store's canon: two loads,
    a load of the output buffer whose value is not used, and the store that covers it. -/
theorem sound_kernel2 (c : Dev nD) (E : Set ℕ) (i : grid2.Coords)
    (argh : Memref sig .tc .vmem S2048x512 .f32) (hargh : argh.IsWhole)
    (argW : Memref sig .tc .vmem S512x1024 .f32) (hargW : argW.IsWhole)
    (argo : Memref sig .tc .vmem S2048x1024 .bf16) (hargo : argo.IsWhole)
    (xh : Vec F S2048x512 .f32) (xW : Vec F S512x1024 .f32) (K : PUnit → sProp 𝕄) :
    iprop(owns (c : Thread nD τ) argh fullShare xh ∗ owns (c : Thread nD τ) argW fullShare xW
        ∗ (∃ d, owns (c : Thread nD τ) argo fullShare d)
        ∗ (iprop(owns (c : Thread nD τ) argh fullShare xh ∗ owns (c : Thread nD τ) argW fullShare xW
            ∗ owns (c : Thread nD τ) argo fullShare (canon2_2 xh xW)) -∗ K ⟨⟩))
      ⊢ wp frame (wpE (defs₀ (F := F)) Variants.none c none) E (cc2__proj_kernel i argh hargh argW hargW argo hargo) K := by
  simp only [cc2__proj_kernel_eq_skeleton]; unfold cc2__proj_kernel_skel
  unfold owns
  iintro ⟨⟨%fh, %hfh, Hh⟩, ⟨%fW, %hfW, HW⟩, ⟨%dd, %fo, -, Ho⟩, Hk⟩
  subst hfh; subst hfW
  sl_exec
  sl_step
  iapply Hk
  isplitl [Hh]
  · iexists fh; isplitr; · ipureintro; rfl
    iexact Hh
  isplitl [HW]
  · iexists fW; isplitr; · ipureintro; rfl
    iexact HW
  iexists _; isplitr
  swap; · iexact Ho
  ipureintro
  exact View.read_writes_eq_canon _ _ _ (cover2_2 _)

/-! ## The store's canon is the product itself -/

/-- A rectangle of the shape's own sizes at zero offsets and unit strides places every index at itself. -/
theorem emb2_2 (y : r2_2.shape.Idx) : r2_2.emb y = y := by
  funext a; apply Fin.ext
  show (![0, 0] : Fin 2 → ℕ) a + 1 * (y a : Nat) = y a
  fin_cases a <;> simp

theorem idx2_0 (y : r2_0.shape.Idx) : r2_0.idx y = y := by
  funext a; apply Fin.ext
  show (![0, 0] : Fin 2 → ℕ) a + 1 * (y a : Nat) = y a
  fin_cases a <;> simp

theorem idx2_1 (y : r2_1.shape.Idx) : r2_1.idx y = y := by
  funext a; apply Fin.ext
  show (![0, 0] : Fin 2 → ℕ) a + 1 * (y a : Nat) = y a
  fin_cases a <;> simp

/-- Every access of the body goes through a whole rectangle, so the loads read the inputs as they are and the one
    store's canon is its payload: the product of the two inputs. -/
theorem canon2_2_eq (xh : Vec F S2048x512 .f32) (xW : Vec F S512x1024 .f32) : canon2_2 xh xW = out2_2 xh xW := by
  have eh : View.ld xh r2_0 = xh := funext fun y => congrArg xh (idx2_0 y)
  have eW : View.ld xW r2_1 = xW := funext fun y => congrArg xW (idx2_1 y)
  unfold canon2_2 out2_2
  rw [eh, eW]
  funext y
  have h := View.canon_cons_emb (Val := Elt F) (e := .bf16) r2_2 (k2_pay1 xh xW) [] y
  rw [emb2_2] at h
  exact h

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`: the invariant, the core's debt, and each window's current staging
    buffer at what the pipeline left in it, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns: the same with each buffer at what the body leaves there. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the two input buffers hold their blocks, so the body's triple applies; the invariant and
    the core's debt pass through untouched, and the output buffer ends at the product of the two blocks. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, ← canon2_2_eq]
  iintro ⟨HΦ, Ho, ⟨%dh, Hh⟩, ⟨%dW, HW⟩, ⟨%dd, Hd⟩⟩
  iapply (sound_kernel2 c Set.univ _ _ _ _ _ _ _ (iblk2 V c 0 t) (iblk2 V c 1 t) _)
  isplitl [Hh]; · iexact Hh
  isplitl [HW]; · iexact HW
  isplitl [Hd]; · iexists _; iexact Hd
  iintro ⟨Hh, HW, Hd⟩
  isplitl [HΦ]; · iexact HΦ
  isplitl [Ho]; · iexact Ho
  isplitl [Hh]; · iexact Hh
  isplitl [HW]; · iexact HW
  iexact Hd

/-- The body obligation of the first projection, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KbAgg3.lean ====
import proofs.«145376_g10471130268016_week1_w2_219_10_alg».proof.Proof.Gen.Kernel.Launch
import proofs.«145376_g10471130268016_week1_w2_219_10_alg».proof.Proof.Gen.Kernel.Skeleton
import proofs.«145376_g10471130268016_week1_w2_219_10_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses to the accumulator: its left and right halves, and the whole -/

abbrev rL3 : Rect S2048x512 := Rect.unit (s := S2048x512) ![0, 0] S2048x256.size inb_S2048x512_S2048x256_0_0
abbrev rR3 : Rect S2048x512 := Rect.unit (s := S2048x512) ![0, 256] S2048x256.size inb_S2048x512_S2048x256_0_256
abbrev rW3 : Rect S2048x512 := Rect.unit (s := S2048x512) ![0, 0] S2048x512.size inb_S2048x512_S2048x512_0_0
/-- The accumulator the kernel keeps between grid points. -/
abbrev scM3 : Memref sig .tc .vmem S2048x512 .f32 := Memref.whole cc3_scratch0

/-- The accumulator as the first point of a row block resets it. -/
def zeroS3 : Vec F S2048x512 .f32 := View.canon [⟨rW3, k3_pay3⟩]

/-- The accumulator after one point's two updates, from what it held before them (`s`): the left half gains the two
    backward products, the right half the two forward ones. The pieces are listed last store first. -/
def accStep3 (xw : Vec F S512x1024 .bf16) (aBa aBb aFa aFb : Vec F S2048x512 .f32) (s : Vec F S2048x512 .f32) : Vec F S2048x512 .f32 :=
  View.canon [⟨rR3, k3_pay1 (k3_pay6 xw aFa aFb (View.ld s rR3))⟩, ⟨rL3, k3_pay5 xw aBa aBb (View.ld s rL3)⟩]

/-- What the last point of a row block stores into the output buffer, from the finished accumulator. -/
def finStep3 (s : Vec F S2048x512 .f32) (bpre : Vec F S1x512 .f32) (wl : Vec F S512x512 .f32) (blin : Vec F S1x512 .f32)
    (h : Vec F S2048x512 .f32) : Vec F S2048x512 .f32 :=
  View.canon [⟨rW3, k3_pay2 s bpre wl blin h⟩]

/-- THE ACCUMULATION: the accumulator after the body at position `n`. A point whose contraction coordinate is 0
    starts from the reset accumulator, any other from what the point before left. -/
def sAt3 (c : Dev nD) : (n : ℕ) → n < cfg3.N → Vec F S2048x512 .f32
  | 0, hn => accStep3 (iblk3 V c 4 ⟨0, hn⟩) (iblk3 V c 0 ⟨0, hn⟩) (iblk3 V c 1 ⟨0, hn⟩) (iblk3 V c 2 ⟨0, hn⟩) (iblk3 V c 3 ⟨0, hn⟩) zeroS3
  | n + 1, hn => accStep3 (iblk3 V c 4 ⟨n + 1, hn⟩) (iblk3 V c 0 ⟨n + 1, hn⟩) (iblk3 V c 1 ⟨n + 1, hn⟩) (iblk3 V c 2 ⟨n + 1, hn⟩) (iblk3 V c 3 ⟨n + 1, hn⟩)
      (if (n + 1) % 8 = 0 then zeroS3 else sAt3 c n (Nat.lt_of_succ_lt hn))

/-- What the output buffer holds after a point that stores it (the last of a row block); at the other points the
    window is idle and this value is consulted by nothing. -/
def oAt3 (c : Dev nD) (t : Fin cfg3.N) : Vec F S2048x512 .f32 :=
  finStep3 (sAt3 V c t.val t.isLt) (iblk3 V c 6 t) (iblk3 V c 5 t) (iblk3 V c 7 t) (iblk3 V c 8 t)

/-- The core's scoped buffers that are neither a staging buffer of this region nor its accumulator, each at some
    contents: the region carries them unopened. -/
abbrev restS3 (c : Dev nD) : sProp 𝕄 :=
  Pipeline.scopedRestBut (Ix := Unit) (Name := ℕ) (U := UR sig nD τ) (Lvl := ℕ) (Val := Elt F) spec3 c [cc3_scratch0]

/-- The region invariant before position `n`: before the first point the class's; afterwards the accumulator at what
    the point before left, the other scoped buffers at some contents and the generator register at some state. -/
def PhiS3 (c : Dev nD) : (n : ℕ) → n ≤ cfg3.N → sProp 𝕄
  | 0, _ => Pipeline.ΦA spec3 c
  | n + 1, hn => iprop(iprop(owns (c : Thread nD τ) scM3 fullShare (sAt3 V c n hn) ∗ restS3 c) ∗ (∃ r, prngReg c r))

/-- The proof data of the first aggregation. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => oAt3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem after3_9 (c : Dev nD) (t : Fin cfg3.N) : (dat3 V c).after 9 t = oAt3 V c t := by dsimp only [dat3]

/-! ## The class's invariant, the accumulator named -/

/-- The class's invariant with the accumulator as a memref owned at some contents, the other scoped buffers unopened. -/
theorem PhiA3_eq (c : Dev nD) :
    (Pipeline.ΦA spec3 c : sProp 𝕄)
      = iprop(iprop((∃ d, owns (c : Thread nD τ) scM3 fullShare d) ∗ restS3 c) ∗ (∃ r, prngReg c r)) := by
  unfold Pipeline.ΦA; rw [scopedRest3_split]; simp only [scM3, owns_whole]; try rfl

/-! ## The body's two conditions, decided over the grid -/

/-- The condition of the body's first `scf.if` (the reset of the accumulator), from the grid coordinates. -/
abbrev cond3_a (i : grid3.Coords) : Prop :=
  (Scalar.cmpi .ne (Scalar.extui (Scalar.cmpi .eq (BitVec.ofNat 32 (i 1).val) 0#32)) 0#32) = 1#1
/-- It holds at the points whose contraction coordinate is 0. -/
theorem hcond3_a : ∀ t : Fin cfg3.N, cond3_a (grid3.coords t) ↔ t.val % 8 = 0 :=
  (by decide +kernel : ∀ t : Fin grid3.N, cond3_a (grid3.coords t) ↔ t.val % 8 = 0)

/-- The condition of the body's second `scf.if` (the output's store). -/
abbrev cond3_b (i : grid3.Coords) : Prop := k3_cond2 i = 1#1
/-- It holds at the points whose contraction coordinate is 7. -/
theorem hcond3_b : ∀ t : Fin cfg3.N, cond3_b (grid3.coords t) ↔ t.val % 8 = 7 :=
  (by decide +kernel : ∀ t : Fin grid3.N, cond3_b (grid3.coords t) ↔ t.val % 8 = 7)

/-! ## Where the windows are idle -/

/-- An input window is never idle. -/
theorem liveAt3_in (w : Fin cfg3.W) (hw : w.val < 9) : ∀ i, cfg3.idle w i = false := by
  intro i
  match w, hw with
  | ⟨0, _⟩, _ => rfl | ⟨1, _⟩, _ => rfl | ⟨2, _⟩, _ => rfl | ⟨3, _⟩, _ => rfl | ⟨4, _⟩, _ => rfl
  | ⟨5, _⟩, _ => rfl | ⟨6, _⟩, _ => rfl | ⟨7, _⟩, _ => rfl | ⟨8, _⟩, _ => rfl
/-- Where the second condition fails the output window is idle, -/
theorem idleAt3_9 : ∀ t : Fin cfg3.N, ¬cond3_b (grid3.coords t) → cfg3.idle 9 (grid3.coords t) = true := by decide +kernel
/-- and not written back; -/
theorem noFlush3_9 : ∀ t : Fin cfg3.N, ¬cond3_b (grid3.coords t) → (cfg3.win 9).flush t = false := by decide +kernel
/-- where it holds the window is live. -/
theorem liveAt3_9 : ∀ t : Fin cfg3.N, cond3_b (grid3.coords t) → cfg3.idle 9 (grid3.coords t) = false := by decide +kernel

/-- The zero offsets, however spelt. -/
theorem hz3_off : (![0, 0] : Fin 2 → Nat) = fun _ => 0 := funext fun a => by fin_cases a <;> rfl

/-! ## The accumulator's pieces -/

/-- The two halves cover the accumulator, whatever is stored through them. -/
theorem cover3_halves (p : rR3.shape.Idx → Elt F .f32) (q : rL3.shape.Idx → Elt F .f32) :
    ∀ y : S2048x512.Idx, ∃ pc ∈ ([⟨rR3, p⟩, ⟨rL3, q⟩] : List (View.Piece (Elt F) S2048x512 .f32)), y ∈ pc.1.set :=
  View.cover_of_tiledL _ S2048x256.size (by sl_kernel_rfl)

/-- One store through the whole accumulator covers it. -/
theorem cover3_whole (p : rW3.shape.Idx → Elt F .f32) :
    ∀ y : S2048x512.Idx, ∃ pc ∈ ([⟨rW3, p⟩] : List (View.Piece (Elt F) S2048x512 .f32)), y ∈ pc.1.set :=
  fun y => ⟨_, List.mem_singleton_self _, View.mem_set_unit_zero hz3_off inb_S2048x512_S2048x512_0_0 y⟩

/-- The left half ends where the right half begins. -/
theorem disj3_halves : Disjoint rL3.set rR3.toLoadRect.set := Rect.unit_disjoint 1 (.inl (by decide))

/-- A load of the whole accumulator after both halves were stored reads the two pieces. -/
theorem readCov3_whole (v : View sig .tc .vmem S2048x512 .f32) (p : rR3.shape.Idx → Elt F .f32) (q : rL3.shape.Idx → Elt F .f32) :
    v.readCov [⟨rR3, p⟩, ⟨rL3, q⟩] rW3.toLoadRect
      = View.canon ([⟨rR3, p⟩, ⟨rL3, q⟩] : List (View.Piece (Elt F) S2048x512 .f32)) := by
  rw [View.readCov_eq_canon_ld _ _ _ (cover3_halves p q)]; exact View.ld_unit_zero hz3_off _ _

/-- After the reset a load of the left half reads the reset accumulator's, -/
theorem readCov3_reset_L (v : View sig .tc .vmem S2048x512 .f32) :
    v.readCov [⟨rW3, k3_pay3 (F := F)⟩] rL3.toLoadRect = View.ld (zeroS3 (F := F)) rL3 := by
  unfold zeroS3; exact View.readCov_eq_canon_ld _ _ _ (cover3_whole _)

/-- and so does a load of the right half after the left half's store: the halves are disjoint. -/
theorem readCov3_reset_R (v : View sig .tc .vmem S2048x512 .f32) (q : rL3.shape.Idx → Elt F .f32) :
    v.readCov [⟨rL3, q⟩, ⟨rW3, k3_pay3 (F := F)⟩] rR3.toLoadRect = View.ld (zeroS3 (F := F)) rR3 := by
  rw [View.readCov_cons_of_disjoint v ⟨rL3, q⟩ [⟨rW3, k3_pay3 (F := F)⟩] rR3.toLoadRect disj3_halves]; unfold zeroS3
  exact View.readCov_eq_canon_ld _ _ _ (cover3_whole _)

/-! ## The body's triple, case by case -/
set_option maxHeartbeats 2000000 in
/-- A point that resets (contraction coordinate 0): whatever the accumulator held, it ends at `accStep3 … zeroS3`;
    every window's buffer is handed back as found. -/
theorem sound_kernel3_A (c : Dev nD) (i : grid3.Coords) (ma : Memref sig .tc .vmem S2048x512 .f32) (ha : ma.IsWhole) (mb : Memref sig .tc .vmem S2048x512 .f32) (hb : mb.IsWhole) (mc : Memref sig .tc .vmem S2048x512 .f32) (hc : mc.IsWhole) (md : Memref sig .tc .vmem S2048x512 .f32) (hd : md.IsWhole) (mw : Memref sig .tc .vmem S512x1024 .bf16) (hw : mw.IsWhole) (ml : Memref sig .tc .vmem S512x512 .f32) (hl : ml.IsWhole) (mp : Memref sig .tc .vmem S1x512 .f32) (hp : mp.IsWhole) (mq : Memref sig .tc .vmem S1x512 .f32) (hq : mq.IsWhole) (mh : Memref sig .tc .vmem S2048x512 .f32) (hh : mh.IsWhole) (mo : Memref sig .tc .vmem S2048x512 .f32) (ho : mo.IsWhole) (ms : Memref sig .tc .vmem S2048x512 .f32) (hs : ms.IsWhole)
    (hka : cond3_a i) (hkb : ¬cond3_b i) (xa xb xc xd : Vec F S2048x512 .f32) (xw : Vec F S512x1024 .bf16) (xl : Vec F S512x512 .f32) (xp xq : Vec F S1x512 .f32) (xh : Vec F S2048x512 .f32) (xo : Vec F S2048x512 .f32)
    (E : Set ℕ) (K : PUnit → sProp 𝕄) :
    iprop(owns (c : Thread nD τ) ma fullShare xa ∗ owns (c : Thread nD τ) mb fullShare xb ∗ owns (c : Thread nD τ) mc fullShare xc ∗ owns (c : Thread nD τ) md fullShare xd ∗ owns (c : Thread nD τ) mw fullShare xw ∗ owns (c : Thread nD τ) ml fullShare xl ∗ owns (c : Thread nD τ) mp fullShare xp ∗ owns (c : Thread nD τ) mq fullShare xq ∗ owns (c : Thread nD τ) mh fullShare xh ∗ owns (c : Thread nD τ) mo fullShare xo ∗ (∃ d, owns (c : Thread nD τ) ms fullShare d)
        ∗ (iprop(owns (c : Thread nD τ) ma fullShare xa ∗ owns (c : Thread nD τ) mb fullShare xb ∗ owns (c : Thread nD τ) mc fullShare xc ∗ owns (c : Thread nD τ) md fullShare xd ∗ owns (c : Thread nD τ) mw fullShare xw ∗ owns (c : Thread nD τ) ml fullShare xl ∗ owns (c : Thread nD τ) mp fullShare xp ∗ owns (c : Thread nD τ) mq fullShare xq ∗ owns (c : Thread nD τ) mh fullShare xh ∗ owns (c : Thread nD τ) mo fullShare xo ∗ owns (c : Thread nD τ) ms fullShare (accStep3 xw xa xb xc xd zeroS3)) -∗ K ⟨⟩))
      ⊢ wp frame (wpE (defs₀ (F := F)) Variants.none c none) E (cc3__agg_kernel i ma ha mb hb mc hc md hd mw hw ml hl mp hp mq hq mh hh mo ho ms hs) K := by
  simp only [cc3__agg_kernel_eq_skeleton]; unfold cc3__agg_kernel_skel
  simp only [k3_part1_eq_skeleton]; unfold k3_part1_skel
  unfold owns
  iintro ⟨⟨%fa, %hfa, Ha⟩, ⟨%fb, %hfb, Hb⟩, ⟨%fc, %hfc, Hc⟩, ⟨%fd, %hfd, Hd⟩, ⟨%fw, %hfw, Hw⟩, ⟨%fl, %hfl, Hl⟩, ⟨%fp, %hfp, Hp⟩, ⟨%fq, %hfq, Hq⟩, ⟨%fh, %hfh, Hh⟩, ⟨%fo, %hfo, Ho⟩, ⟨%ds, %fs, -, Hs⟩, Hk⟩
  obtain rfl := ha.eq_unread hfa; obtain rfl := hb.eq_unread hfb; obtain rfl := hc.eq_unread hfc; obtain rfl := hd.eq_unread hfd
  obtain rfl := hw.eq_unread hfw; obtain rfl := hl.eq_unread hfl; obtain rfl := hp.eq_unread hfp; obtain rfl := hq.eq_unread hfq
  obtain rfl := hh.eq_unread hfh; obtain rfl := ho.eq_unread hfo
  sl_exec (disch := first | exact hka | exact hkb)
  sl_step
  iapply Hk
  isplitl [Ha]
  · iexists _; isplitr
    · ipureintro; exact hfa
    · iexact Ha
  isplitl [Hb]
  · iexists _; isplitr
    · ipureintro; exact hfb
    · iexact Hb
  isplitl [Hc]
  · iexists _; isplitr
    · ipureintro; exact hfc
    · iexact Hc
  isplitl [Hd]
  · iexists _; isplitr
    · ipureintro; exact hfd
    · iexact Hd
  isplitl [Hw]
  · iexists _; isplitr
    · ipureintro; exact hfw
    · iexact Hw
  isplitl [Hl]
  · iexists _; isplitr
    · ipureintro; exact hfl
    · iexact Hl
  isplitl [Hp]
  · iexists _; isplitr
    · ipureintro; exact hfp
    · iexact Hp
  isplitl [Hq]
  · iexists _; isplitr
    · ipureintro; exact hfq
    · iexact Hq
  isplitl [Hh]
  · iexists _; isplitr
    · ipureintro; exact hfh
    · iexact Hh
  isplitl [Ho]
  · iexists _; isplitr
    · ipureintro; exact hfo
    · iexact Ho
  iexists _; isplitr; swap
  · iexact Hs
  ipureintro
  sl_unfold_run_names
  refine (View.read_writes_eq_canon _ (View.writes _ _ fs [_]) [_, _] ?_).trans ?_
  · exact cover3_halves _ _
  unfold accStep3
  rw [readCov3_reset_R, readCov3_reset_L]
  dsimp only
  simp only [View.readAt_eq_ld, hfa, hfb, hfc, hfd, hfw, View.ld_unit_zero (S := S2048x512) hz3_off,
    View.ld_unit_zero (S := S512x1024) hz3_off]
  try rfl

set_option maxHeartbeats 2000000 in
/-- A point that neither resets nor finishes (contraction coordinate strictly between 0 and 7): the accumulator goes
    from `s` to `accStep3 … s`; every window's buffer is handed back as found. -/
theorem sound_kernel3_B (c : Dev nD) (i : grid3.Coords) (ma : Memref sig .tc .vmem S2048x512 .f32) (ha : ma.IsWhole) (mb : Memref sig .tc .vmem S2048x512 .f32) (hb : mb.IsWhole) (mc : Memref sig .tc .vmem S2048x512 .f32) (hc : mc.IsWhole) (md : Memref sig .tc .vmem S2048x512 .f32) (hd : md.IsWhole) (mw : Memref sig .tc .vmem S512x1024 .bf16) (hw : mw.IsWhole) (ml : Memref sig .tc .vmem S512x512 .f32) (hl : ml.IsWhole) (mp : Memref sig .tc .vmem S1x512 .f32) (hp : mp.IsWhole) (mq : Memref sig .tc .vmem S1x512 .f32) (hq : mq.IsWhole) (mh : Memref sig .tc .vmem S2048x512 .f32) (hh : mh.IsWhole) (mo : Memref sig .tc .vmem S2048x512 .f32) (ho : mo.IsWhole) (ms : Memref sig .tc .vmem S2048x512 .f32) (hs : ms.IsWhole)
    (hka : ¬cond3_a i) (hkb : ¬cond3_b i) (xa xb xc xd : Vec F S2048x512 .f32) (xw : Vec F S512x1024 .bf16) (xl : Vec F S512x512 .f32) (xp xq : Vec F S1x512 .f32) (xh : Vec F S2048x512 .f32) (xo s : Vec F S2048x512 .f32)
    (E : Set ℕ) (K : PUnit → sProp 𝕄) :
    iprop(owns (c : Thread nD τ) ma fullShare xa ∗ owns (c : Thread nD τ) mb fullShare xb ∗ owns (c : Thread nD τ) mc fullShare xc ∗ owns (c : Thread nD τ) md fullShare xd ∗ owns (c : Thread nD τ) mw fullShare xw ∗ owns (c : Thread nD τ) ml fullShare xl ∗ owns (c : Thread nD τ) mp fullShare xp ∗ owns (c : Thread nD τ) mq fullShare xq ∗ owns (c : Thread nD τ) mh fullShare xh ∗ owns (c : Thread nD τ) mo fullShare xo ∗ owns (c : Thread nD τ) ms fullShare s
        ∗ (iprop(owns (c : Thread nD τ) ma fullShare xa ∗ owns (c : Thread nD τ) mb fullShare xb ∗ owns (c : Thread nD τ) mc fullShare xc ∗ owns (c : Thread nD τ) md fullShare xd ∗ owns (c : Thread nD τ) mw fullShare xw ∗ owns (c : Thread nD τ) ml fullShare xl ∗ owns (c : Thread nD τ) mp fullShare xp ∗ owns (c : Thread nD τ) mq fullShare xq ∗ owns (c : Thread nD τ) mh fullShare xh ∗ owns (c : Thread nD τ) mo fullShare xo ∗ owns (c : Thread nD τ) ms fullShare (accStep3 xw xa xb xc xd s)) -∗ K ⟨⟩))
      ⊢ wp frame (wpE (defs₀ (F := F)) Variants.none c none) E (cc3__agg_kernel i ma ha mb hb mc hc md hd mw hw ml hl mp hp mq hq mh hh mo ho ms hs) K := by
  simp only [cc3__agg_kernel_eq_skeleton]; unfold cc3__agg_kernel_skel
  simp only [k3_part1_eq_skeleton]; unfold k3_part1_skel
  unfold owns
  iintro ⟨⟨%fa, %hfa, Ha⟩, ⟨%fb, %hfb, Hb⟩, ⟨%fc, %hfc, Hc⟩, ⟨%fd, %hfd, Hd⟩, ⟨%fw, %hfw, Hw⟩, ⟨%fl, %hfl, Hl⟩, ⟨%fp, %hfp, Hp⟩, ⟨%fq, %hfq, Hq⟩, ⟨%fh, %hfh, Hh⟩, ⟨%fo, %hfo, Ho⟩, ⟨%fs, %hfs, Hs⟩, Hk⟩
  obtain rfl := ha.eq_unread hfa; obtain rfl := hb.eq_unread hfb; obtain rfl := hc.eq_unread hfc; obtain rfl := hd.eq_unread hfd
  obtain rfl := hw.eq_unread hfw; obtain rfl := hl.eq_unread hfl; obtain rfl := hp.eq_unread hfp; obtain rfl := hq.eq_unread hfq
  obtain rfl := hh.eq_unread hfh; obtain rfl := ho.eq_unread hfo; obtain rfl := hs.eq_unread hfs
  sl_exec (disch := first | exact hka | exact hkb)
  sl_step
  iapply Hk
  isplitl [Ha]
  · iexists _; isplitr
    · ipureintro; exact hfa
    · iexact Ha
  isplitl [Hb]
  · iexists _; isplitr
    · ipureintro; exact hfb
    · iexact Hb
  isplitl [Hc]
  · iexists _; isplitr
    · ipureintro; exact hfc
    · iexact Hc
  isplitl [Hd]
  · iexists _; isplitr
    · ipureintro; exact hfd
    · iexact Hd
  isplitl [Hw]
  · iexists _; isplitr
    · ipureintro; exact hfw
    · iexact Hw
  isplitl [Hl]
  · iexists _; isplitr
    · ipureintro; exact hfl
    · iexact Hl
  isplitl [Hp]
  · iexists _; isplitr
    · ipureintro; exact hfp
    · iexact Hp
  isplitl [Hq]
  · iexists _; isplitr
    · ipureintro; exact hfq
    · iexact Hq
  isplitl [Hh]
  · iexists _; isplitr
    · ipureintro; exact hfh
    · iexact Hh
  isplitl [Ho]
  · iexists _; isplitr
    · ipureintro; exact hfo
    · iexact Ho
  iexists _; isplitr; swap
  · iexact Hs
  ipureintro
  refine (View.read_writes_eq_canon _ _ _ ?_).trans ?_
  · exact View.cover_of_tiledL _ S2048x256.size (by sl_kernel_rfl)
  unfold accStep3
  sl_unfold_run_names
  dsimp only
  simp only [View.readAt_eq_ld, hfa, hfb, hfc, hfd, hfw, hfs, View.ld_unit_zero (S := S2048x512) hz3_off,
    View.ld_unit_zero (S := S512x1024) hz3_off]
  try rfl

set_option maxHeartbeats 2000000 in
/-- A point that finishes a row block (contraction coordinate 7): the accumulator goes from `s` to `accStep3 … s`, and
    the output's buffer, whatever it held, ends at `finStep3` of that. -/
theorem sound_kernel3_C (c : Dev nD) (i : grid3.Coords) (ma : Memref sig .tc .vmem S2048x512 .f32) (ha : ma.IsWhole) (mb : Memref sig .tc .vmem S2048x512 .f32) (hb : mb.IsWhole) (mc : Memref sig .tc .vmem S2048x512 .f32) (hc : mc.IsWhole) (md : Memref sig .tc .vmem S2048x512 .f32) (hd : md.IsWhole) (mw : Memref sig .tc .vmem S512x1024 .bf16) (hw : mw.IsWhole) (ml : Memref sig .tc .vmem S512x512 .f32) (hl : ml.IsWhole) (mp : Memref sig .tc .vmem S1x512 .f32) (hp : mp.IsWhole) (mq : Memref sig .tc .vmem S1x512 .f32) (hq : mq.IsWhole) (mh : Memref sig .tc .vmem S2048x512 .f32) (hh : mh.IsWhole) (mo : Memref sig .tc .vmem S2048x512 .f32) (ho : mo.IsWhole) (ms : Memref sig .tc .vmem S2048x512 .f32) (hs : ms.IsWhole)
    (hka : ¬cond3_a i) (hkb : cond3_b i) (xa xb xc xd : Vec F S2048x512 .f32) (xw : Vec F S512x1024 .bf16) (xl : Vec F S512x512 .f32) (xp xq : Vec F S1x512 .f32) (xh : Vec F S2048x512 .f32) (s : Vec F S2048x512 .f32)
    (E : Set ℕ) (K : PUnit → sProp 𝕄) :
    iprop(owns (c : Thread nD τ) ma fullShare xa ∗ owns (c : Thread nD τ) mb fullShare xb ∗ owns (c : Thread nD τ) mc fullShare xc ∗ owns (c : Thread nD τ) md fullShare xd ∗ owns (c : Thread nD τ) mw fullShare xw ∗ owns (c : Thread nD τ) ml fullShare xl ∗ owns (c : Thread nD τ) mp fullShare xp ∗ owns (c : Thread nD τ) mq fullShare xq ∗ owns (c : Thread nD τ) mh fullShare xh ∗ (∃ d, owns (c : Thread nD τ) mo fullShare d) ∗ owns (c : Thread nD τ) ms fullShare s
        ∗ (iprop(owns (c : Thread nD τ) ma fullShare xa ∗ owns (c : Thread nD τ) mb fullShare xb ∗ owns (c : Thread nD τ) mc fullShare xc ∗ owns (c : Thread nD τ) md fullShare xd ∗ owns (c : Thread nD τ) mw fullShare xw ∗ owns (c : Thread nD τ) ml fullShare xl ∗ owns (c : Thread nD τ) mp fullShare xp ∗ owns (c : Thread nD τ) mq fullShare xq ∗ owns (c : Thread nD τ) mh fullShare xh ∗ owns (c : Thread nD τ) mo fullShare (finStep3 (accStep3 xw xa xb xc xd s) xp xl xq xh)
            ∗ owns (c : Thread nD τ) ms fullShare (accStep3 xw xa xb xc xd s)) -∗ K ⟨⟩))
      ⊢ wp frame (wpE (defs₀ (F := F)) Variants.none c none) E (cc3__agg_kernel i ma ha mb hb mc hc md hd mw hw ml hl mp hp mq hq mh hh mo ho ms hs) K := by
  simp only [cc3__agg_kernel_eq_skeleton]; unfold cc3__agg_kernel_skel
  simp only [k3_part1_eq_skeleton]; unfold k3_part1_skel
  unfold owns
  iintro ⟨⟨%fa, %hfa, Ha⟩, ⟨%fb, %hfb, Hb⟩, ⟨%fc, %hfc, Hc⟩, ⟨%fd, %hfd, Hd⟩, ⟨%fw, %hfw, Hw⟩, ⟨%fl, %hfl, Hl⟩, ⟨%fp, %hfp, Hp⟩, ⟨%fq, %hfq, Hq⟩, ⟨%fh, %hfh, Hh⟩, ⟨%dout, %fo, -, Ho⟩, ⟨%fs, %hfs, Hs⟩, Hk⟩
  obtain rfl := ha.eq_unread hfa; obtain rfl := hb.eq_unread hfb; obtain rfl := hc.eq_unread hfc; obtain rfl := hd.eq_unread hfd
  obtain rfl := hw.eq_unread hfw; obtain rfl := hl.eq_unread hfl; obtain rfl := hp.eq_unread hfp; obtain rfl := hq.eq_unread hfq
  obtain rfl := hh.eq_unread hfh; obtain rfl := hs.eq_unread hfs
  sl_exec (disch := first | exact hka | exact hkb)
  sl_step
  iapply Hk
  isplitl [Ha]
  · iexists _; isplitr
    · ipureintro; exact hfa
    · iexact Ha
  isplitl [Hb]
  · iexists _; isplitr
    · ipureintro; exact hfb
    · iexact Hb
  isplitl [Hc]
  · iexists _; isplitr
    · ipureintro; exact hfc
    · iexact Hc
  isplitl [Hd]
  · iexists _; isplitr
    · ipureintro; exact hfd
    · iexact Hd
  isplitl [Hw]
  · iexists _; isplitr
    · ipureintro; exact hfw
    · iexact Hw
  isplitl [Hl]
  · iexists _; isplitr
    · ipureintro; exact hfl
    · iexact Hl
  isplitl [Hp]
  · iexists _; isplitr
    · ipureintro; exact hfp
    · iexact Hp
  isplitl [Hq]
  · iexists _; isplitr
    · ipureintro; exact hfq
    · iexact Hq
  isplitl [Hh]
  · iexists _; isplitr
    · ipureintro; exact hfh
    · iexact Hh
  isplitl [Ho]
  · iexists _; isplitr; swap
    · iexact Ho
    ipureintro
    refine (View.read_writes_eq_canon _ _ _ ?_).trans ?_
    · exact cover3_whole _
    unfold finStep3 accStep3
    sl_unfold_run_names
    rw [readCov3_whole]
    dsimp only
    simp only [View.readAt_eq_ld, hfa, hfb, hfc, hfd, hfw, hfl, hfp, hfq, hfh, hfs, View.ld_unit_zero (S := S2048x512) hz3_off,
      View.ld_unit_zero (S := S512x1024) hz3_off, View.ld_unit_zero (S := S512x512) hz3_off,
      View.ld_unit_zero (S := S1x512) hz3_off]
    try rfl
  iexists _; isplitr; swap
  · iexact Hs
  ipureintro
  sl_unfold_run_names
  refine (View.read_writes_eq_canon _ _ _ ?_).trans ?_
  · exact cover3_halves _ _
  unfold accStep3
  dsimp only
  simp only [View.readAt_eq_ld, hfa, hfb, hfc, hfd, hfw, hfs, View.ld_unit_zero (S := S2048x512) hz3_off,
    View.ld_unit_zero (S := S512x1024) hz3_off]
  try rfl

/-! ## What the body finds in the input windows' buffers, and leaves there -/

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]

/-- Each input's current staging buffer holds its block at every point, fetched there or not: unfetched, the block
    index has not moved. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl)
    (fun t => by rw [after3_5]; unfold Dat.blockOf iblk3; rw [A_eq3]; try rfl) t d).trans
    (by unfold Dat.fetched Dat.blockOf iblk3; rw [A_eq3]; try rfl)
theorem before3_6 (c : Dev nD) (t : Fin cfg3.N) (d) : (dat3 V c).before 6 t d = iblk3 V c 6 t :=
  ((dat3 V c).before_in_eq_fetched 6 rfl (fun _ => rfl) (fun _ _ _ => rfl)
    (fun t => by rw [after3_6]; unfold Dat.blockOf iblk3; rw [A_eq3]; try rfl) t d).trans
    (by unfold Dat.fetched Dat.blockOf iblk3; rw [A_eq3]; try rfl)
theorem before3_7 (c : Dev nD) (t : Fin cfg3.N) (d) : (dat3 V c).before 7 t d = iblk3 V c 7 t :=
  ((dat3 V c).before_in_eq_fetched 7 rfl (fun _ => rfl) (fun _ _ _ => rfl)
    (fun t => by rw [after3_7]; unfold Dat.blockOf iblk3; rw [A_eq3]; try rfl) t d).trans
    (by unfold Dat.fetched Dat.blockOf iblk3; rw [A_eq3]; try rfl)
theorem before3_8 (c : Dev nD) (t : Fin cfg3.N) (d) : (dat3 V c).before 8 t d = iblk3 V c 8 t :=
  ((dat3 V c).before_in_eq_fetched 8 rfl (fun _ => rfl) (fun _ _ _ => rfl)
    (fun t => by rw [after3_8]; unfold Dat.blockOf iblk3; rw [A_eq3]; try rfl) t d).trans
    (by unfold Dat.fetched Dat.blockOf iblk3; rw [A_eq3]; try rfl)

/-- Each window's current staging memref at point `t`, spelled as the pipeline passes it, and its wholeness. -/
abbrev ms3_0 (t : Fin cfg3.N) := win3_0.stage (cfg3.slots t 0)
abbrev hs3_0 (t : Fin cfg3.N) : (ms3_0 t).IsWhole := hstage3_0 ((cfg3.slots t 0).cast nbuf3_0)
abbrev ms3_1 (t : Fin cfg3.N) := win3_1.stage (cfg3.slots t 1)
abbrev hs3_1 (t : Fin cfg3.N) : (ms3_1 t).IsWhole := hstage3_1 ((cfg3.slots t 1).cast nbuf3_1)
abbrev ms3_2 (t : Fin cfg3.N) := win3_2.stage (cfg3.slots t 2)
abbrev hs3_2 (t : Fin cfg3.N) : (ms3_2 t).IsWhole := hstage3_2 ((cfg3.slots t 2).cast nbuf3_2)
abbrev ms3_3 (t : Fin cfg3.N) := win3_3.stage (cfg3.slots t 3)
abbrev hs3_3 (t : Fin cfg3.N) : (ms3_3 t).IsWhole := hstage3_3 ((cfg3.slots t 3).cast nbuf3_3)
abbrev ms3_4 (t : Fin cfg3.N) := win3_4.stage (cfg3.slots t 4)
abbrev hs3_4 (t : Fin cfg3.N) : (ms3_4 t).IsWhole := hstage3_4 ((cfg3.slots t 4).cast nbuf3_4)
abbrev ms3_5 (t : Fin cfg3.N) := win3_5.stage (cfg3.slots t 5)
abbrev hs3_5 (t : Fin cfg3.N) : (ms3_5 t).IsWhole := hstage3_5 ((cfg3.slots t 5).cast nbuf3_5)
abbrev ms3_6 (t : Fin cfg3.N) := win3_6.stage (cfg3.slots t 6)
abbrev hs3_6 (t : Fin cfg3.N) : (ms3_6 t).IsWhole := hstage3_6 ((cfg3.slots t 6).cast nbuf3_6)
abbrev ms3_7 (t : Fin cfg3.N) := win3_7.stage (cfg3.slots t 7)
abbrev hs3_7 (t : Fin cfg3.N) : (ms3_7 t).IsWhole := hstage3_7 ((cfg3.slots t 7).cast nbuf3_7)
abbrev ms3_8 (t : Fin cfg3.N) := win3_8.stage (cfg3.slots t 8)
abbrev hs3_8 (t : Fin cfg3.N) : (ms3_8 t).IsWhole := hstage3_8 ((cfg3.slots t 8).cast nbuf3_8)
abbrev ms3_9 (t : Fin cfg3.N) := win3_9.stage (cfg3.slots t 9)
abbrev hs3_9 (t : Fin cfg3.N) : (ms3_9 t).IsWhole := hstage3_9 ((cfg3.slots t 9).cast nbuf3_9)

/-- An input window is live everywhere: the body hands its buffer back at its block. -/
theorem leaves3_0 (c : Dev nD) (t : Fin cfg3.N) :
    (dat3 V c).leavesExact 0 t = owns (c : Thread nD τ) (ms3_0 t) fullShare (iblk3 V c 0 t) := by
  unfold Dat.leavesExact; rw [liveAt3_in 0 (by decide) (grid3.coords t), after3_0]
theorem leaves3_1 (c : Dev nD) (t : Fin cfg3.N) :
    (dat3 V c).leavesExact 1 t = owns (c : Thread nD τ) (ms3_1 t) fullShare (iblk3 V c 1 t) := by
  unfold Dat.leavesExact; rw [liveAt3_in 1 (by decide) (grid3.coords t), after3_1]
theorem leaves3_2 (c : Dev nD) (t : Fin cfg3.N) :
    (dat3 V c).leavesExact 2 t = owns (c : Thread nD τ) (ms3_2 t) fullShare (iblk3 V c 2 t) := by
  unfold Dat.leavesExact; rw [liveAt3_in 2 (by decide) (grid3.coords t), after3_2]
theorem leaves3_3 (c : Dev nD) (t : Fin cfg3.N) :
    (dat3 V c).leavesExact 3 t = owns (c : Thread nD τ) (ms3_3 t) fullShare (iblk3 V c 3 t) := by
  unfold Dat.leavesExact; rw [liveAt3_in 3 (by decide) (grid3.coords t), after3_3]
theorem leaves3_4 (c : Dev nD) (t : Fin cfg3.N) :
    (dat3 V c).leavesExact 4 t = owns (c : Thread nD τ) (ms3_4 t) fullShare (iblk3 V c 4 t) := by
  unfold Dat.leavesExact; rw [liveAt3_in 4 (by decide) (grid3.coords t), after3_4]
theorem leaves3_5 (c : Dev nD) (t : Fin cfg3.N) :
    (dat3 V c).leavesExact 5 t = owns (c : Thread nD τ) (ms3_5 t) fullShare (iblk3 V c 5 t) := by
  unfold Dat.leavesExact; rw [liveAt3_in 5 (by decide) (grid3.coords t), after3_5]
theorem leaves3_6 (c : Dev nD) (t : Fin cfg3.N) :
    (dat3 V c).leavesExact 6 t = owns (c : Thread nD τ) (ms3_6 t) fullShare (iblk3 V c 6 t) := by
  unfold Dat.leavesExact; rw [liveAt3_in 6 (by decide) (grid3.coords t), after3_6]
theorem leaves3_7 (c : Dev nD) (t : Fin cfg3.N) :
    (dat3 V c).leavesExact 7 t = owns (c : Thread nD τ) (ms3_7 t) fullShare (iblk3 V c 7 t) := by
  unfold Dat.leavesExact; rw [liveAt3_in 7 (by decide) (grid3.coords t), after3_7]
theorem leaves3_8 (c : Dev nD) (t : Fin cfg3.N) :
    (dat3 V c).leavesExact 8 t = owns (c : Thread nD τ) (ms3_8 t) fullShare (iblk3 V c 8 t) := by
  unfold Dat.leavesExact; rw [liveAt3_in 8 (by decide) (grid3.coords t), after3_8]

/-! ## The accumulation, point by point -/

/-- At a point that resets, the accumulator ends one step from the reset accumulator. -/
theorem sAt3_reset (c : Dev nD) (t : Fin cfg3.N) (hk : t.val % 8 = 0) :
    sAt3 V c t.val t.isLt
      = accStep3 (iblk3 V c 4 t) (iblk3 V c 0 t) (iblk3 V c 1 t) (iblk3 V c 2 t) (iblk3 V c 3 t) zeroS3 := by
  obtain ⟨n, hn⟩ := t
  cases n with
  | zero => rfl
  | succ n => dsimp only at hk ⊢; rw [sAt3, if_pos hk]

/-- At any other point, one step from what the point before left. -/
theorem sAt3_step (c : Dev nD) (t : Fin cfg3.N) (hk : ¬t.val % 8 = 0) :
    sAt3 V c t.val t.isLt
      = accStep3 (iblk3 V c 4 t) (iblk3 V c 0 t) (iblk3 V c 1 t) (iblk3 V c 2 t) (iblk3 V c 3 t)
          (sAt3 V c (t.val - 1) (Nat.lt_of_le_of_lt (Nat.sub_le _ _) t.isLt)) := by
  obtain ⟨n, hn⟩ := t
  cases n with
  | zero => exact absurd (Nat.zero_mod _) hk
  | succ n => dsimp only at hk ⊢; rw [sAt3, if_neg hk]; rfl

/-! ## The invariant, position by position -/

theorem PhiS3_zero (c : Dev nD) (n : ℕ) (h : n ≤ cfg3.N) (hz : n = 0) : PhiS3 V c n h = Pipeline.ΦA spec3 c := by
  subst hz; rfl

/-- After point `n`: the accumulator at that point's contents. -/
theorem PhiS3_succ (c : Dev nD) (n : ℕ) (hn : n < cfg3.N) :
    PhiS3 V c (n + 1) hn
      = iprop(iprop(owns (c : Thread nD τ) scM3 fullShare (sAt3 V c n hn) ∗ restS3 c) ∗ (∃ r, prngReg c r)) := rfl

/-- Before a point that is not the first: the accumulator at what the point before left. -/
theorem PhiS3_pos (c : Dev nD) (n : ℕ) (h : n ≤ cfg3.N) (hz : n ≠ 0) :
    PhiS3 V c n h
      = iprop(iprop(owns (c : Thread nD τ) scM3 fullShare (sAt3 V c (n - 1) (by omega)) ∗ restS3 c) ∗ (∃ r, prngReg c r)) := by
  cases n with
  | zero => exact absurd rfl hz
  | succ n => rfl

/-- The invariant at a point's start, restated at the point's position. -/
theorem PhiS3_castSucc (c : Dev nD) (t : Fin cfg3.N) :
    (dat3 V c).Φ t.castSucc = PhiS3 V c t.val (Nat.le_of_lt t.isLt) := by
  dsimp only [dat3]; simp only [Fin.coe_castSucc]

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t
    ∗ (dat3 V c).leavesExact 9 t)

set_option maxHeartbeats 4800000 in
/-- The body at any point: the inputs' memrefs hold their blocks; the contraction coordinate says which of the three
    cases the point is in; the invariant hands the body the accumulator at what the point before left (at anything at
    the first point) and takes it back one step on; the output's buffer is handed back untouched except at the last
    point of a row block, where it ends at the finished accumulator's image. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3, leaves3_4, leaves3_5, leaves3_6, leaves3_7, leaves3_8]
  have hN : t.val < 16 := lt_of_lt_of_eq t.isLt (show cfg3.N = 16 from N_3)
  by_cases hk : t.val % 8 = 0
  · have hkb : ¬cond3_b (grid3.coords t) := fun h => by have := (hcond3_b t).mp h; omega
    rw [Dat.leavesExact_idle (dat3 V c) 9 t (idleAt3_9 t hkb) (noFlush3_9 t hkb)]
    rw [sAt3_reset V c t hk]
    by_cases hz : t.val = 0
    · rw [PhiS3_castSucc V c t, PhiS3_zero V c _ _ hz, PhiA3_eq]
      iintro ⟨⟨⟨Hs, Hr⟩, Hg⟩, Ho, ⟨%da, Ha⟩, ⟨%db, Hb⟩, ⟨%dc, Hc⟩, ⟨%dd, Hd⟩, ⟨%dw, Hw⟩, ⟨%dl, Hl⟩, ⟨%dp, Hp⟩, ⟨%dq, Hq⟩, ⟨%dh, Hh⟩, ⟨%dout, Hout⟩⟩
      iapply (sound_kernel3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3 (Memref.isWhole_whole _) ((hcond3_a t).mpr hk) hkb
        (iblk3 V c 0 t) (iblk3 V c 1 t) (iblk3 V c 2 t) (iblk3 V c 3 t) (iblk3 V c 4 t) (iblk3 V c 5 t) (iblk3 V c 6 t) (iblk3 V c 7 t) (iblk3 V c 8 t) ((dat3 V c).before 9 t dout) Set.univ _)
      isplitl [Ha]; · iexact Ha
      isplitl [Hb]; · iexact Hb
      isplitl [Hc]; · iexact Hc
      isplitl [Hd]; · iexact Hd
      isplitl [Hw]; · iexact Hw
      isplitl [Hl]; · iexact Hl
      isplitl [Hp]; · iexact Hp
      isplitl [Hq]; · iexact Hq
      isplitl [Hh]; · iexact Hh
      isplitl [Hout]; · iexact Hout
      isplitl [Hs]; · iexact Hs
      iintro ⟨Ha, Hb, Hc, Hd, Hw, Hl, Hp, Hq, Hh, Hout, Hs⟩
      isplitl [Hs Hr Hg]
      · isplitl [Hs Hr]
        · isplitl [Hs]; · iexact Hs
          iexact Hr
        iexact Hg
      isplitl [Ho]; · iexact Ho
      isplitl [Ha]; · iexact Ha
      isplitl [Hb]; · iexact Hb
      isplitl [Hc]; · iexact Hc
      isplitl [Hd]; · iexact Hd
      isplitl [Hw]; · iexact Hw
      isplitl [Hl]; · iexact Hl
      isplitl [Hp]; · iexact Hp
      isplitl [Hq]; · iexact Hq
      isplitl [Hh]; · iexact Hh
      iexists _; iexact Hout
    · rw [PhiS3_castSucc V c t, PhiS3_pos V c _ _ hz]
      iintro ⟨⟨⟨Hs, Hr⟩, Hg⟩, Ho, ⟨%da, Ha⟩, ⟨%db, Hb⟩, ⟨%dc, Hc⟩, ⟨%dd, Hd⟩, ⟨%dw, Hw⟩, ⟨%dl, Hl⟩, ⟨%dp, Hp⟩, ⟨%dq, Hq⟩, ⟨%dh, Hh⟩, ⟨%dout, Hout⟩⟩
      iapply (sound_kernel3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3 (Memref.isWhole_whole _) ((hcond3_a t).mpr hk) hkb
        (iblk3 V c 0 t) (iblk3 V c 1 t) (iblk3 V c 2 t) (iblk3 V c 3 t) (iblk3 V c 4 t) (iblk3 V c 5 t) (iblk3 V c 6 t) (iblk3 V c 7 t) (iblk3 V c 8 t) ((dat3 V c).before 9 t dout) Set.univ _)
      isplitl [Ha]; · iexact Ha
      isplitl [Hb]; · iexact Hb
      isplitl [Hc]; · iexact Hc
      isplitl [Hd]; · iexact Hd
      isplitl [Hw]; · iexact Hw
      isplitl [Hl]; · iexact Hl
      isplitl [Hp]; · iexact Hp
      isplitl [Hq]; · iexact Hq
      isplitl [Hh]; · iexact Hh
      isplitl [Hout]; · iexact Hout
      isplitl [Hs]; · iexists _; iexact Hs
      iintro ⟨Ha, Hb, Hc, Hd, Hw, Hl, Hp, Hq, Hh, Hout, Hs⟩
      isplitl [Hs Hr Hg]
      · isplitl [Hs Hr]
        · isplitl [Hs]; · iexact Hs
          iexact Hr
        iexact Hg
      isplitl [Ho]; · iexact Ho
      isplitl [Ha]; · iexact Ha
      isplitl [Hb]; · iexact Hb
      isplitl [Hc]; · iexact Hc
      isplitl [Hd]; · iexact Hd
      isplitl [Hw]; · iexact Hw
      isplitl [Hl]; · iexact Hl
      isplitl [Hp]; · iexact Hp
      isplitl [Hq]; · iexact Hq
      isplitl [Hh]; · iexact Hh
      iexists _; iexact Hout
  · have hz : t.val ≠ 0 := fun h => hk (by omega)
    have hka : ¬cond3_a (grid3.coords t) := fun h => hk ((hcond3_a t).mp h)
    rw [sAt3_step V c t hk]
    rw [PhiS3_castSucc V c t, PhiS3_pos V c _ _ hz]
    by_cases hl : t.val % 8 = 7
    · have hkb : cond3_b (grid3.coords t) := (hcond3_b t).mpr hl
      rw [show (dat3 V c).leavesExact 9 t = owns (c : Thread nD τ) (ms3_9 t) fullShare ((dat3 V c).after 9 t) from by
        unfold Dat.leavesExact; rw [liveAt3_9 t hkb], after3_9]
      unfold oAt3
      rw [sAt3_step V c t hk]
      iintro ⟨⟨⟨Hs, Hr⟩, Hg⟩, Ho, ⟨%da, Ha⟩, ⟨%db, Hb⟩, ⟨%dc, Hc⟩, ⟨%dd, Hd⟩, ⟨%dw, Hw⟩, ⟨%dl, Hl⟩, ⟨%dp, Hp⟩, ⟨%dq, Hq⟩, ⟨%dh, Hh⟩, ⟨%dout, Hout⟩⟩
      iapply (sound_kernel3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3 (Memref.isWhole_whole _) hka hkb
        (iblk3 V c 0 t) (iblk3 V c 1 t) (iblk3 V c 2 t) (iblk3 V c 3 t) (iblk3 V c 4 t) (iblk3 V c 5 t) (iblk3 V c 6 t) (iblk3 V c 7 t) (iblk3 V c 8 t) (sAt3 V c (t.val - 1) (Nat.lt_of_le_of_lt (Nat.sub_le _ _) t.isLt)) Set.univ _)
      isplitl [Ha]; · iexact Ha
      isplitl [Hb]; · iexact Hb
      isplitl [Hc]; · iexact Hc
      isplitl [Hd]; · iexact Hd
      isplitl [Hw]; · iexact Hw
      isplitl [Hl]; · iexact Hl
      isplitl [Hp]; · iexact Hp
      isplitl [Hq]; · iexact Hq
      isplitl [Hh]; · iexact Hh
      isplitl [Hout]; · iexists _; iexact Hout
      isplitl [Hs]; · iexact Hs
      iintro ⟨Ha, Hb, Hc, Hd, Hw, Hl, Hp, Hq, Hh, Hout, Hs⟩
      isplitl [Hs Hr Hg]
      · isplitl [Hs Hr]
        · isplitl [Hs]; · iexact Hs
          iexact Hr
        iexact Hg
      isplitl [Ho]; · iexact Ho
      isplitl [Ha]; · iexact Ha
      isplitl [Hb]; · iexact Hb
      isplitl [Hc]; · iexact Hc
      isplitl [Hd]; · iexact Hd
      isplitl [Hw]; · iexact Hw
      isplitl [Hl]; · iexact Hl
      isplitl [Hp]; · iexact Hp
      isplitl [Hq]; · iexact Hq
      isplitl [Hh]; · iexact Hh
      iexact Hout
    · have hkb : ¬cond3_b (grid3.coords t) := fun h => hl ((hcond3_b t).mp h)
      rw [Dat.leavesExact_idle (dat3 V c) 9 t (idleAt3_9 t hkb) (noFlush3_9 t hkb)]
      iintro ⟨⟨⟨Hs, Hr⟩, Hg⟩, Ho, ⟨%da, Ha⟩, ⟨%db, Hb⟩, ⟨%dc, Hc⟩, ⟨%dd, Hd⟩, ⟨%dw, Hw⟩, ⟨%dl, Hl⟩, ⟨%dp, Hp⟩, ⟨%dq, Hq⟩, ⟨%dh, Hh⟩, ⟨%dout, Hout⟩⟩
      iapply (sound_kernel3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3 (Memref.isWhole_whole _) hka hkb
        (iblk3 V c 0 t) (iblk3 V c 1 t) (iblk3 V c 2 t) (iblk3 V c 3 t) (iblk3 V c 4 t) (iblk3 V c 5 t) (iblk3 V c 6 t) (iblk3 V c 7 t) (iblk3 V c 8 t) ((dat3 V c).before 9 t dout) (sAt3 V c (t.val - 1) (Nat.lt_of_le_of_lt (Nat.sub_le _ _) t.isLt)) Set.univ _)
      isplitl [Ha]; · iexact Ha
      isplitl [Hb]; · iexact Hb
      isplitl [Hc]; · iexact Hc
      isplitl [Hd]; · iexact Hd
      isplitl [Hw]; · iexact Hw
      isplitl [Hl]; · iexact Hl
      isplitl [Hp]; · iexact Hp
      isplitl [Hq]; · iexact Hq
      isplitl [Hh]; · iexact Hh
      isplitl [Hout]; · iexact Hout
      isplitl [Hs]; · iexact Hs
      iintro ⟨Ha, Hb, Hc, Hd, Hw, Hl, Hp, Hq, Hh, Hout, Hs⟩
      isplitl [Hs Hr Hg]
      · isplitl [Hs Hr]
        · isplitl [Hs]; · iexact Hs
          iexact Hr
        iexact Hg
      isplitl [Ho]; · iexact Ho
      isplitl [Ha]; · iexact Ha
      isplitl [Hb]; · iexact Hb
      isplitl [Hc]; · iexact Hc
      isplitl [Hd]; · iexact Hd
      isplitl [Hw]; · iexact Hw
      isplitl [Hl]; · iexact Hl
      isplitl [Hp]; · iexact Hp
      isplitl [Hq]; · iexact Hq
      isplitl [Hh]; · iexact Hh
      iexists _; iexact Hout

/-- The body obligation of the first aggregation, at every point. -/
theorem body_obligation3 (c : Dev nD) : BodyObligation (dat3 (F := F) V c) (defs₀ (F := F)) Variants.none () Set.univ := fun t => by
  rw [bigSep_W3, bigSep_W3]
  exact sound_body3 V c t

/-- The class's invariant is the proof data's at the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the accumulator's named contents are forgotten. -/
theorem Phi3_out (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨Hs, Hr⟩, Hg⟩
  isplitl [Hs Hr]
  · isplitl [Hs]
    · iexists _; iexact Hs
    iexact Hr
  iexact Hg

/-- The proof data's invariant at the last point gives the class's back. -/
theorem hout3 (c : Dev nD) : (dat3 V c).Φ (Fin.last cfg3.N) ⊢ Pipeline.ΦA spec3 c :=
  Phi3_out V c _ (by rw [Fin.val_last]; have : cfg3.N = 16 := N_3; omega)

end Cert.Kernel.Hand

end
-- ==== Proof.KbVals.lean ====
import proofs.«145376_g10471130268016_week1_w2_219_10_alg».proof.Proof.Gen.Kernel.Regions
import proofs.«145376_g10471130268016_week1_w2_219_10_alg».proof.Proof.KbProj0
import proofs.«145376_g10471130268016_week1_w2_219_10_alg».proof.Proof.KbAgg1
import proofs.«145376_g10471130268016_week1_w2_219_10_alg».proof.Proof.KbProj2
import proofs.«145376_g10471130268016_week1_w2_219_10_alg».proof.Proof.KbAgg3

set_option maxRecDepth 16384

noncomputable section

namespace Cert.Kernel.Hand

open Cert.Kernel Cert.Kernel.Gen
open Idealize.ShloMosaic Idealize.ShloMosaic.TcCoe
open Idealize.ShloMosaic.Pipeline (Dat)

variable {F : FTy → Type} [FloatOps F]
variable (m : (ℓ : Loc nD τ sig) → Buf (Elt F) ℓ)

/-! ## The buffers' contents at each boundary of the program, by name

  The program is: host operations, projection, aggregation, host operations, projection, aggregation. Each region changes
  exactly one array, its result; the contents it leaves there are what the pipeline's write-backs fold to. -/

/-- Core `c`'s buffers when the first projection is entered: the launch contents after the first host stretch. -/
abbrev VA (c : Dev nD) : Valuation τ sig (Elt F) := StableHlo.after hostOps0 (fun b => m (c, b))
/-- The same, read at the TensorCore's references (what a region's proof data take). -/
abbrev vA : (c : Dev nD) → (b : Ref sig .tc) → Buf (Elt F) ((c : Thread nD τ).loc b) := fun c b => VA m c b
/-- What the first projection leaves in its result array. -/
def o26 (c : Dev nD) : Buf (Elt F) ((c : Thread nD τ).loc main_v26) := (dat0 (vA m) c).arrAt 2 cfg0.N
/-- Core `c`'s buffers when the first aggregation is entered. -/
abbrev VB (c : Dev nD) : Valuation τ sig (Elt F) := Function.update (VA m c) main_v26 (o26 m c)
abbrev vB : (c : Dev nD) → (b : Ref sig .tc) → Buf (Elt F) ((c : Thread nD τ).loc b) := fun c b => VB m c b
/-- What the first aggregation leaves in its result array: the first layer's output. -/
def o27 (c : Dev nD) : Buf (Elt F) ((c : Thread nD τ).loc main_v27) := (dat1 (vB m) c).arrAt 9 cfg1.N
/-- Core `c`'s buffers after the first layer. -/
abbrev VC (c : Dev nD) : Valuation τ sig (Elt F) := Function.update (VB m c) main_v27 (o27 m c)
/-- Core `c`'s buffers when the second projection is entered: after the second host stretch. -/
abbrev VD (c : Dev nD) : Valuation τ sig (Elt F) := StableHlo.after hostOps2 (VC m c)
abbrev vD : (c : Dev nD) → (b : Ref sig .tc) → Buf (Elt F) ((c : Thread nD τ).loc b) := fun c b => VD m c b
/-- What the second projection leaves in its result array. -/
def o54 (c : Dev nD) : Buf (Elt F) ((c : Thread nD τ).loc main_v54) := (dat2 (vD m) c).arrAt 2 cfg2.N
/-- Core `c`'s buffers when the second aggregation is entered. -/
abbrev VE (c : Dev nD) : Valuation τ sig (Elt F) := Function.update (VD m c) main_v54 (o54 m c)
abbrev vE : (c : Dev nD) → (b : Ref sig .tc) → Buf (Elt F) ((c : Thread nD τ).loc b) := fun c b => VE m c b
/-- What the second aggregation leaves in its result array: the program's result. -/
def o55 (c : Dev nD) : Buf (Elt F) ((c : Thread nD τ).loc main_v55) := (dat3 (vE m) c).arrAt 9 cfg3.N
/-- Core `c`'s buffers at the end. -/
abbrev VF (c : Dev nD) : Valuation τ sig (Elt F) := Function.update (VE m c) main_v55 (o55 m c)

/-- A buffer no host operation writes and no region changes ends as launched. -/
theorem VF_of (c : Dev nD) (r : Ref sig .tc) (hA : r ∉ hostOps0_W) (hD : r ∉ hostOps2_W)
    (hr : r ∉ ([main_v26, main_v27, main_v54, main_v55] : List (Ref sig .tc))) : VF m c r = m (c, r) := by
  obtain ⟨h26, h27, h54, h55⟩ : r ≠ main_v26 ∧ r ≠ main_v27 ∧ r ≠ main_v54 ∧ r ≠ main_v55 := by
    refine ⟨fun e => hr ?_, fun e => hr ?_, fun e => hr ?_, fun e => hr ?_⟩ <;> subst e <;> decide
  have eF : VF m c r = VE m c r := by
    simp only [VF, Function.update_of_ne (StableHlo.devRef_ne_of_ne h55 : (Proc.devRef .tc r : DevRef τ sig) ≠ Proc.devRef .tc main_v55)]
  have eE : VE m c r = VD m c r := by
    simp only [VE, Function.update_of_ne (StableHlo.devRef_ne_of_ne h54 : (Proc.devRef .tc r : DevRef τ sig) ≠ Proc.devRef .tc main_v54)]
  have eD : VD m c r = VC m c r := StableHlo.after_of_writes_sub hostOps2 _ hostOps2_writes hD
  have eC : VC m c r = VB m c r := by
    simp only [VC, Function.update_of_ne (StableHlo.devRef_ne_of_ne h27 : (Proc.devRef .tc r : DevRef τ sig) ≠ Proc.devRef .tc main_v27)]
  have eB : VB m c r = VA m c r := by
    simp only [VB, Function.update_of_ne (StableHlo.devRef_ne_of_ne h26 : (Proc.devRef .tc r : DevRef τ sig) ≠ Proc.devRef .tc main_v26)]
  have eA : VA m c r = m (c, r) := StableHlo.after_of_writes_sub hostOps0 _ hostOps0_writes hA
  exact eF.trans (eE.trans (eD.trans (eC.trans (eB.trans eA))))

/-- The result array at the end is what the second aggregation left. -/
theorem VF_result (c : Dev nD) : VF m c main_v55 = o55 m c := by
  simp only [VF, Function.update_self]

end Cert.Kernel.Hand

end
-- ==== Proof.KbRun.lean ====
/-
  The run of the whole program: its six items — host operations, projection, aggregation, host operations, projection,
  aggregation — composed in order, each region entered from the buffers the item before it left and leaving them with its
  result array at what its write-backs fold to. Every weakly fair execution terminates without a fault, and at the end
  every buffer outside the regions' scopes holds the contents named in the module of the boundaries' contents: so the
  arguments are as launched, and the result array is what the second aggregation left.
-/
import proofs.«145376_g10471130268016_week1_w2_219_10_alg».proof.Proof.KbVals
import Idealize.ShloMosaic.Lib.Pipeline.Frame
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a region leaves: its result array at the write-backs' fold, every other buffer as entered

  Each region's exit contents are its entry contents updated at the one array it writes. An input window's array is not
  that array, so it ends as entered; the output window's array ends at the fold, by the definition of the named contents;
  a buffer behind no window is not the result array either. These are the two facts that put a region's arrays back among
  the core's unscoped buffers at the exit contents. -/

/-- Updating a valuation at one TensorCore reference leaves another one's contents alone. -/
theorem upd_other (W : Valuation τ sig (Elt F)) {r o : Ref sig .tc} (h : r ≠ o) (x : (Proc.devRef .tc o : DevRef τ sig).ty.Contents (Elt F)) :
    Function.update W (Proc.devRef .tc o) x (Proc.devRef .tc r) = W (Proc.devRef .tc r) :=
  Function.update_of_ne (StableHlo.devRef_ne_of_ne h) _ _

/-- Updating a valuation at a TensorCore reference puts the new contents there. -/
theorem upd_at (W : Valuation τ sig (Elt F)) (o : Ref sig .tc) (x : (Proc.devRef .tc o : DevRef τ sig).ty.Contents (Elt F)) :
    Function.update W (Proc.devRef .tc o) x (Proc.devRef .tc o) = x :=
  Function.update_self _ _ _

/-- The first projection's arrays at its exit. -/
theorem exitF0 (c : Dev nD) : ∀ w : Fin cfg0.W, (dat0 (vA m) c).arrAt w cfg0.N = vB m c (Pipeline.arrRef spec0 w)
  | ⟨0, _⟩ => (((dat0 (vA m) c).arrAt_in 0 rfl _).trans (A_eq0 (vA m) c 0)).trans (upd_other _ (by decide) _).symm
  | ⟨1, _⟩ => (((dat0 (vA m) c).arrAt_in 1 rfl _).trans (A_eq0 (vA m) c 1)).trans (upd_other _ (by decide) _).symm
  | ⟨2, _⟩ => (show (dat0 (vA m) c).arrAt 2 cfg0.N = o26 m c by unfold o26; rfl).trans (upd_at (VA m c) main_v26 (o26 m c)).symm
/-- Off its arrays the first projection changes nothing. -/
theorem exitRest0 (c : Dev nD) : ∀ b, b ∉ Finset.univ.image (Pipeline.arrRef spec0) → vB m c b = vA m c b :=
  fun b hb => upd_other _ (fun e => hb (Finset.mem_image.mpr ⟨2, Finset.mem_univ _, e.symm⟩)) _

/-- Every window of the first aggregation but the last reads; the last writes. -/
theorem agg1_reads : ∀ w : Fin cfg1.W, w ≠ 9 → (cfg1.win w).isOut = false := by decide
/-- The first aggregation's arrays at its exit. -/
theorem exitF1 (c : Dev nD) (w : Fin cfg1.W) : (dat1 (vB m) c).arrAt w cfg1.N = (fun b => VC m c b) (Pipeline.arrRef spec1 w) := by
  by_cases hw : w = 9
  · subst hw
    exact (show (dat1 (vB m) c).arrAt 9 cfg1.N = o27 m c by unfold o27; rfl).trans (upd_at (VB m c) main_v27 (o27 m c)).symm
  · exact (((dat1 (vB m) c).arrAt_in w (agg1_reads w hw) _).trans (A_eq1 (vB m) c w)).trans
      (upd_other _ (fun e => hw (launch1.win.arr_inj e)) _).symm
/-- Off its arrays the first aggregation changes nothing. -/
theorem exitRest1 (c : Dev nD) : ∀ b, b ∉ Finset.univ.image (Pipeline.arrRef spec1) → (fun b => VC m c b) b = vB m c b :=
  fun b hb => upd_other _ (fun e => hb (Finset.mem_image.mpr ⟨9, Finset.mem_univ _, e.symm⟩)) _

/-- The second projection's arrays at its exit. -/
theorem exitF2 (c : Dev nD) : ∀ w : Fin cfg2.W, (dat2 (vD m) c).arrAt w cfg2.N = vE m c (Pipeline.arrRef spec2 w)
  | ⟨0, _⟩ => (((dat2 (vD m) c).arrAt_in 0 rfl _).trans (A_eq2 (vD m) c 0)).trans (upd_other _ (by decide) _).symm
  | ⟨1, _⟩ => (((dat2 (vD m) c).arrAt_in 1 rfl _).trans (A_eq2 (vD m) c 1)).trans (upd_other _ (by decide) _).symm
  | ⟨2, _⟩ => (show (dat2 (vD m) c).arrAt 2 cfg2.N = o54 m c by unfold o54; rfl).trans (upd_at (VD m c) main_v54 (o54 m c)).symm
/-- Off its arrays the second projection changes nothing. -/
theorem exitRest2 (c : Dev nD) : ∀ b, b ∉ Finset.univ.image (Pipeline.arrRef spec2) → vE m c b = vD m c b :=
  fun b hb => upd_other _ (fun e => hb (Finset.mem_image.mpr ⟨2, Finset.mem_univ _, e.symm⟩)) _

/-- Every window of the second aggregation but the last reads; the last writes. -/
theorem agg3_reads : ∀ w : Fin cfg3.W, w ≠ 9 → (cfg3.win w).isOut = false := by decide
/-- The second aggregation's arrays at its exit. -/
theorem exitF3 (c : Dev nD) (w : Fin cfg3.W) : (dat3 (vE m) c).arrAt w cfg3.N = (fun b => VF m c b) (Pipeline.arrRef spec3 w) := by
  by_cases hw : w = 9
  · subst hw
    exact (show (dat3 (vE m) c).arrAt 9 cfg3.N = o55 m c by unfold o55; rfl).trans (upd_at (VE m c) main_v55 (o55 m c)).symm
  · exact (((dat3 (vE m) c).arrAt_in w (agg3_reads w hw) _).trans (A_eq3 (vE m) c w)).trans
      (upd_other _ (fun e => hw (launch3.win.arr_inj e)) _).symm
/-- Off its arrays the second aggregation changes nothing. -/
theorem exitRest3 (c : Dev nD) : ∀ b, b ∉ Finset.univ.image (Pipeline.arrRef spec3) → (fun b => VF m c b) b = vE m c b :=
  fun b hb => upd_other _ (fun e => hb (Finset.mem_image.mpr ⟨9, Finset.mem_univ _, e.symm⟩)) _

/-! ## The proof data of the four pipelines and the thread state between items -/

/-- Every pipeline's proof data, each at the contents its region is entered from. -/
def pdatsH : (p : Fin 4) → (c : Dev nD) → Dat τ (Elt F) Unit ℕ (UR sig nD τ) ℕ (Pipeline.pin (pcfgs (F := F)) adm p) c
  | ⟨0, _⟩ => fun c => dat0 (vA m) c
  | ⟨1, _⟩ => fun c => dat1 (vB m) c
  | ⟨2, _⟩ => fun c => dat2 (vD m) c
  | ⟨3, _⟩ => fun c => dat3 (vE m) c
abbrev 𝒱H : Variants := Variants.none
/-- No core owes another anything: no level is assigned. -/
abbrev LH : GSem nD τ sig → Finset Unit := fun _ => ∅
abbrev lvH : GSem nD τ sig → Unit → ℕ := fun _ _ => 0
/-- What a core holds beside its buffers between two items: the generator register at some state, and that it owes
    nothing. -/
abbrev RH (c : Dev nD) : sProp 𝕄 := iprop((∃ r, prngReg c r) ∗ ∃ W, owes (c : Thread nD τ) (0 : CellTallies nD τ sig Unit) W)
/-- A stretch of host operations as a segment over every unscoped buffer, from the contents `W`: it ends at those
    contents after the operations, the rest riding along. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
/-- An unscoped TensorCore reference is among those the thread state holds. -/
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for what is owed: every unscoped buffer at the last contents, the generator register at
    some state. -/
abbrev TH (c : Dev nD) : sProp 𝕄 := iprop(StableHlo.held (c : Thread nD τ) (Pipeline.ucRefs τ sig) (VF m c) ∗ ∃ r, prngReg c r)

/-! ## The four regions as segments -/

set_option backward.isDefEq.respectTransparency.types false in
/-- The first projection as a segment: entered with every unscoped buffer at the contents the host stretch before it left, left
    with the result array at the fold of its write-backs. Its arrays are split out of the unscoped buffers at entry and put
    back at the exit contents; the generator register goes into the invariant and comes back; nothing is owed. -/
def regH0 : Pipeline.RegionSeg (pcfgs (F := F)) adm (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (vA m) c).loose
  hwaits := Pipeline.hwaits_of_owed_zero _ _ _ _ LH lvH 0 fun _ _ => rfl
  pre c := iprop(StableHlo.held (c : Thread nD τ) (Pipeline.ucRefs τ sig) (VA m c) ∗ RH c)
  post c := iprop(StableHlo.held (c : Thread nD τ) (Pipeline.ucRefs τ sig) (VB m c) ∗ RH c)
  X c := iprop(∃ r, prngReg c r)
  Y c := iprop(∃ r, prngReg c r)
  Z c := Pipeline.unscopedRest (Ix := Unit) (Name := ℕ) (U := UR sig nD τ) (Lvl := ℕ) spec0 c (vA m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (vA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (vA m c) (vB m c) ((pdatsH m 0 c).arrAt · cfg0.N) (exitF0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The first aggregation as a segment: entered with every unscoped buffer at the contents the projection before it left, left
    with the result array at the fold of its write-backs. The invariant it threads is the accumulation's, reached from the
    class's at the first point and giving the class's back at the last; the rest as for a projection. -/
def regH1 : Pipeline.RegionSeg (pcfgs (F := F)) adm (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (vB m) c).loose
  hwaits := Pipeline.hwaits_of_owed_zero _ _ _ _ LH lvH 1 fun _ _ => rfl
  pre c := iprop(StableHlo.held (c : Thread nD τ) (Pipeline.ucRefs τ sig) (VB m c) ∗ RH c)
  post c := iprop(StableHlo.held (c : Thread nD τ) (Pipeline.ucRefs τ sig) (VC m c) ∗ RH c)
  X c := iprop(∃ r, prngReg c r)
  Y c := iprop(∃ r, prngReg c r)
  Z c := Pipeline.unscopedRest (Ix := Unit) (Name := ℕ) (U := UR sig nD τ) (Lvl := ℕ) spec1 c (vB m c)
  hentry c := by
    rw [Pipeline.ownSems0_none]
    have hsplit := Pipeline.arrays_of_unscopedBufs (p := 1) (pcfgs (F := F)) adm (pdatsH m) launch1.win launch1.arr_whole c
      ((pdatsH m 1 c).share_full fun _ => rfl) (vB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (vB m) c)
    unfold Pipeline.ΦA
    iintro ⟨Hp, -, Hr⟩
    isplitl [Hr]; · iexact Hr
    iexact Hp
  hout c := by
    refine (hout1 (vB m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (vB m c) (fun b => VC m c b) ((pdatsH m 1 c).arrAt · cfg1.N) (exitF1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second projection as a segment: entered with every unscoped buffer at the contents the host stretch before it left, left
    with the result array at the fold of its write-backs. Its arrays are split out of the unscoped buffers at entry and put
    back at the exit contents; the generator register goes into the invariant and comes back; nothing is owed. -/
def regH2 : Pipeline.RegionSeg (pcfgs (F := F)) adm (pdatsH m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (vD m) c).loose
  hwaits := Pipeline.hwaits_of_owed_zero _ _ _ _ LH lvH 2 fun _ _ => rfl
  pre c := iprop(StableHlo.held (c : Thread nD τ) (Pipeline.ucRefs τ sig) (VD m c) ∗ RH c)
  post c := iprop(StableHlo.held (c : Thread nD τ) (Pipeline.ucRefs τ sig) (VE m c) ∗ RH c)
  X c := iprop(∃ r, prngReg c r)
  Y c := iprop(∃ r, prngReg c r)
  Z c := Pipeline.unscopedRest (Ix := Unit) (Name := ℕ) (U := UR sig nD τ) (Lvl := ℕ) spec2 c (vD m c)
  hentry c := by
    rw [Pipeline.ownSems0_none]
    have hsplit := Pipeline.arrays_of_unscopedBufs (p := 2) (pcfgs (F := F)) adm (pdatsH m) launch2.win launch2.arr_whole c
      ((pdatsH m 2 c).share_full fun _ => rfl) (vD m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdatsH m) ((pdatsH m 2 c).share_full fun _ => rfl)
      (vD m c) (vE m c) ((pdatsH m 2 c).arrAt · cfg2.N) (exitF2 m c) (exitRest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second aggregation as a segment: entered with every unscoped buffer at the contents the projection before it left, left
    with the result array at the fold of its write-backs — the last contents of the run. The invariant it threads is the
    accumulation's, reached from the class's at the first point and giving the class's back at the last; the rest as for a
    projection. -/
def regH3 : Pipeline.RegionSeg (pcfgs (F := F)) adm (pdatsH m) () defs₀ 𝒱H LH lvH 3 where
  win := launch3.win.to₀
  block_pos := launch3.block_pos
  stage_whole := launch3.stage_whole
  K := PEmpty
  osem k := k.elim
  ho := Pipeline.OwnSemFacts.none _
  hbody c := (body_obligation3 (vE m) c).loose
  hwaits := Pipeline.hwaits_of_owed_zero _ _ _ _ LH lvH 3 fun _ _ => rfl
  pre c := iprop(StableHlo.held (c : Thread nD τ) (Pipeline.ucRefs τ sig) (VE m c) ∗ RH c)
  post c := iprop(TH m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (vE m c)
  hentry c := by
    rw [Pipeline.ownSems0_none]
    have hsplit := Pipeline.arrays_of_unscopedBufs (p := 3) (pcfgs (F := F)) adm (pdatsH m) launch3.win launch3.arr_whole c
      ((pdatsH m 3 c).share_full fun _ => rfl) (vE m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec3 c : sProp 𝕄)).trans (hin3 (vE m) c)
    unfold Pipeline.ΦA
    iintro ⟨Hp, -, Hr⟩
    isplitl [Hr]; · iexact Hr
    iexact Hp
  hout c := by
    refine (hout3 (vE m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdatsH m) ((pdatsH m 3 c).share_full fun _ => rfl)
      (vE m c) (fun b => VF m c b) ((pdatsH m 3 c).arrAt · cfg3.N) (exitF3 m c) (exitRest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its six segments, and the launch -/

/-- The program's six items in order: a host segment per stretch from the contents it starts at, a region per pipeline. -/
abbrev segsH : List (Pipeline.Seg (pcfgs (F := F)) adm (pdatsH m) () defs₀ 𝒱H LH lvH) :=
  [ .host (hsegH hostOps0 hostOps0_sub hostOps0_fresh (fun c b => m (c, b))),
    .region (regH0 m),
    .region (regH1 m),
    .host (hsegH hostOps2 hostOps2_sub hostOps2_fresh (VC m)),
    .region (regH2 m),
    .region (regH3 m) ]
/-- The program is the run of those segments: it is the chain of its items, and so is the segments' run. -/
theorem main_runH (c : Dev nD) : main (F := F) c = Pipeline.Seg.run (segsH m) := by
  rw [main_chain c, Pipeline.Seg.run_eq_chain]
  rfl

set_option backward.isDefEq.respectTransparency.types false in
/-- THE RUN: every weakly fair execution from `m` with zero counters terminates, nothing faulting, and every buffer
    outside the regions' scopes ends at the last boundary's contents. The launch deals every core its unscoped buffers at
    the launch contents, its generator register and nothing owed; the six segments chain, each entered from exactly what
    the one before it left; the last thread state, read against a final state, says what that state's memory holds. -/
theorem run_all : θ_run defs (onTc (τ := τ) (main (F := F))) ⟨m, fun _ => 0, ρ⟩
    (fun r => ∀ c : Dev nD, ∀ b ∈ Pipeline.ucRefs τ sig, r.2.mem (((c : Thread nD τ)).1, b) = VF m c b) :=
  Pipeline.θ_run_regions_kit (pcfgs (F := F)) adm (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ RH c)) (Tₙ := TH m)
    (hch := ⟨fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = VF m c b)
    (hfin := fun c s' => by
      iintro ⟨⟨Hh, -⟩, HSI⟩
      unfold StableHlo.held
      imodintro
      iapply (pointsTo_read_all (Pipeline.ucRefs τ sig) (fun b => (((c : Thread nD τ)).1, b)) (VF m c) s')
      isplitl [Hh] <;> iassumption)
    (hQ := fun s h => h)

/-- The run with the result array named and the arguments unchanged: the result array is among the buffers the run
    accounts for and ends at what the second aggregation left; an argument array is among them too, and no host operation
    and no region writes it. -/
theorem run_value : θ_run defs (onTc (τ := τ) (main (F := F))) ⟨m, fun _ => 0, ρ⟩ (fun r => ∀ c : Dev nD,
      r.2.mem ((c.tc : Thread nD τ).loc main_v55) = o55 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_ucH main_v55 (by decide))).trans (VF_result m c),
      (h c _ (mem_ucH main_arg0 (by decide))).trans (VF_of m c main_arg0 (by decide) (by decide) (by decide)),
      (h c _ (mem_ucH main_arg1 (by decide))).trans (VF_of m c main_arg1 (by decide) (by decide) (by decide)),
      (h c _ (mem_ucH main_arg2 (by decide))).trans (VF_of m c main_arg2 (by decide) (by decide) (by decide)),
      (h c _ (mem_ucH main_arg3 (by decide))).trans (VF_of m c main_arg3 (by decide) (by decide) (by decide)),
      (h c _ (mem_ucH main_arg4 (by decide))).trans (VF_of m c main_arg4 (by decide) (by decide) (by decide)),
      (h c _ (mem_ucH main_arg5 (by decide))).trans (VF_of m c main_arg5 (by decide) (by decide) (by decide)),
      (h c _ (mem_ucH main_arg6 (by decide))).trans (VF_of m c main_arg6 (by decide) (by decide) (by decide)),
      (h c _ (mem_ucH main_arg7 (by decide))).trans (VF_of m c main_arg7 (by decide) (by decide) (by decide)),
      (h c _ (mem_ucH main_arg8 (by decide))).trans (VF_of m c main_arg8 (by decide) (by decide) (by decide)),
      (h c _ (mem_ucH main_arg9 (by decide))).trans (VF_of m c main_arg9 (by decide) (by decide) (by decide)),
      (h c _ (mem_ucH main_arg10 (by decide))).trans (VF_of m c main_arg10 (by decide) (by decide) (by decide))⟩) (run_all m ρ)

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2) (run_value m ρ)

end Cert.Kernel.Hand

end
-- ==== Proof.KiProj0.lean ====
import proofs.«145376_g10471130268016_week1_w2_219_10_alg».proof.Proof.Gen.KernelIdeal.Launch
import proofs.«145376_g10471130268016_week1_w2_219_10_alg».proof.Proof.Gen.KernelIdeal.Skeleton
import proofs.«145376_g10471130268016_week1_w2_219_10_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the projection body leaves in its output buffer: the product of the row block with the whole weight matrix. -/
def out0_2 (xh : Vec F S2048x512 .f32) (xW : Vec F S512x1024 .f32) : Vec F S2048x1024 .bf16 :=
  k0_pay1 xh xW

/-- The proof data of the first projection. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## The input windows hold their blocks -/

/-- The row window's current staging buffer holds its block at every point: the window is uncut and never idle, and
    the body leaves the block where it found it, so the buffer holds what a fetch would put there; for an uncut window
    that is the block read off the array. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  have hblk : ∀ s, dat.blockOf 0 s = iblk0 V c 0 s := fun s => by
    unfold Dat.blockOf iblk0; rw [hA]; try rfl
  have hfetched : dat.fetched 0 t d = dat.blockOf 0 t := by
    unfold Dat.fetched; try rfl
  rw [dat.before_in_eq_fetched 0 rfl (fun _ => rfl) (fun _ _ _ => rfl)
    (fun s => (congrArg _ (hafter s)).trans (hblk s).symm) t d, hfetched, hblk]

/-- The weight window's current staging buffer holds its block at every point, although it is fetched only at the
    first: where it is not fetched its block index has not moved, so what the previous point left is this point's
    block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t := by
  have hblk : ∀ s, dat.blockOf 1 s = iblk0 V c 1 s := fun s => by
    unfold Dat.blockOf iblk0; rw [hA]; try rfl
  have hfetched : dat.fetched 1 t d = dat.blockOf 1 t := by
    unfold Dat.fetched; try rfl
  rw [dat.before_in_eq_fetched 1 rfl (fun _ => rfl) (fun _ _ _ => rfl)
    (fun s => (congrArg _ (hafter s)).trans (hblk s).symm) t d, hfetched, hblk]

/-! ## The body's accesses: each buffer through its whole rectangle -/

abbrev r0_0 : Rect S2048x512 := Rect.unit (s := S2048x512) ![0, 0] S2048x512.size inb_S2048x512_S2048x512_0_0
abbrev r0_1 : Rect S512x1024 := Rect.unit (s := S512x1024) ![0, 0] S512x1024.size inb_S512x1024_S512x1024_0_0
abbrev r0_2 : Rect S2048x1024 := Rect.unit (s := S2048x1024) ![0, 0] S2048x1024.size inb_S2048x1024_S2048x1024_0_0

/-- The output buffer after the body as the one store laid over it: the product's payload through the whole
    rectangle, over loads of the two inputs through theirs. -/
def canon0_2 (xh : Vec F S2048x512 .f32) (xW : Vec F S512x1024 .f32) : Vec F S2048x1024 .bf16 :=
  View.canon [⟨r0_2, k0_pay1 (View.ld xh r0_0) (View.ld xW r0_1)⟩]

/-- The one store covers the output buffer. -/
theorem cover0_2 (p : Vec F S2048x1024 .bf16) (y : S2048x1024.Idx) :
    ∃ pc ∈ ([⟨r0_2, p⟩] : List (View.Piece (Elt F) S2048x1024 .bf16)), y ∈ pc.1.set :=
  View.cover_of_tiled [⟨r0_2, p⟩] S2048x1024.size (by rfl) y

/-! ## The body's triple -/

set_option maxHeartbeats 1000000 in
/-- The body on whole staging memrefs, the two inputs' at read contents `xh` and `xW` and the output's at anything,
    runs to the continuation holding the inputs' as they were and the output's at the one store's canon: two loads,
    a load of the output buffer whose value is not used, and the store that covers it. -/
theorem sound_kernel0 (c : Dev nD) (E : Set ℕ) (i : grid0.Coords)
    (argh : Memref sig .tc .vmem S2048x512 .f32) (hargh : argh.IsWhole)
    (argW : Memref sig .tc .vmem S512x1024 .f32) (hargW : argW.IsWhole)
    (argo : Memref sig .tc .vmem S2048x1024 .bf16) (hargo : argo.IsWhole)
    (xh : Vec F S2048x512 .f32) (xW : Vec F S512x1024 .f32) (K : PUnit → sProp 𝕄) :
    iprop(owns (c : Thread nD τ) argh fullShare xh ∗ owns (c : Thread nD τ) argW fullShare xW
        ∗ (∃ d, owns (c : Thread nD τ) argo fullShare d)
        ∗ (iprop(owns (c : Thread nD τ) argh fullShare xh ∗ owns (c : Thread nD τ) argW fullShare xW
            ∗ owns (c : Thread nD τ) argo fullShare (canon0_2 xh xW)) -∗ K ⟨⟩))
      ⊢ wp frame (wpE (defs₀ (F := F)) Variants.none c none) E (cc0__proj_kernel i argh hargh argW hargW argo hargo) K := by
  simp only [cc0__proj_kernel_eq_skeleton]; unfold cc0__proj_kernel_skel
  unfold owns
  iintro ⟨⟨%fh, %hfh, Hh⟩, ⟨%fW, %hfW, HW⟩, ⟨%dd, %fo, -, Ho⟩, Hk⟩
  subst hfh; subst hfW
  sl_exec
  sl_step
  iapply Hk
  isplitl [Hh]
  · iexists fh; isplitr; · ipureintro; rfl
    iexact Hh
  isplitl [HW]
  · iexists fW; isplitr; · ipureintro; rfl
    iexact HW
  iexists _; isplitr
  swap; · iexact Ho
  ipureintro
  exact View.read_writes_eq_canon _ _ _ (cover0_2 _)

/-! ## The store's canon is the product itself -/

/-- A rectangle of the shape's own sizes at zero offsets and unit strides places every index at itself. -/
theorem emb0_2 (y : r0_2.shape.Idx) : r0_2.emb y = y := by
  funext a; apply Fin.ext
  show (![0, 0] : Fin 2 → ℕ) a + 1 * (y a : Nat) = y a
  fin_cases a <;> simp

theorem idx0_0 (y : r0_0.shape.Idx) : r0_0.idx y = y := by
  funext a; apply Fin.ext
  show (![0, 0] : Fin 2 → ℕ) a + 1 * (y a : Nat) = y a
  fin_cases a <;> simp

theorem idx0_1 (y : r0_1.shape.Idx) : r0_1.idx y = y := by
  funext a; apply Fin.ext
  show (![0, 0] : Fin 2 → ℕ) a + 1 * (y a : Nat) = y a
  fin_cases a <;> simp

/-- Every access of the body goes through a whole rectangle, so the loads read the inputs as they are and the one
    store's canon is its payload: the product of the two inputs. -/
theorem canon0_2_eq (xh : Vec F S2048x512 .f32) (xW : Vec F S512x1024 .f32) : canon0_2 xh xW = out0_2 xh xW := by
  have eh : View.ld xh r0_0 = xh := funext fun y => congrArg xh (idx0_0 y)
  have eW : View.ld xW r0_1 = xW := funext fun y => congrArg xW (idx0_1 y)
  unfold canon0_2 out0_2
  rw [eh, eW]
  funext y
  have h := View.canon_cons_emb (Val := Elt F) (e := .bf16) r0_2 (k0_pay1 xh xW) [] y
  rw [emb0_2] at h
  exact h

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`: the invariant, the core's debt, and each window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: the same with each buffer at what the body leaves there. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two input buffers hold their blocks, so the body's triple applies; the invariant and
    the core's debt pass through untouched, and the output buffer ends at the product of the two blocks. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, ← canon0_2_eq]
  iintro ⟨HΦ, Ho, ⟨%dh, Hh⟩, ⟨%dW, HW⟩, ⟨%dd, Hd⟩⟩
  iapply (sound_kernel0 c Set.univ _ _ _ _ _ _ _ (iblk0 V c 0 t) (iblk0 V c 1 t) _)
  isplitl [Hh]; · iexact Hh
  isplitl [HW]; · iexact HW
  isplitl [Hd]; · iexists _; iexact Hd
  iintro ⟨Hh, HW, Hd⟩
  isplitl [HΦ]; · iexact HΦ
  isplitl [Ho]; · iexact Ho
  isplitl [Hh]; · iexact Hh
  isplitl [HW]; · iexact HW
  iexact Hd

/-- The body obligation of the first projection, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiAgg1.lean ====
import proofs.«145376_g10471130268016_week1_w2_219_10_alg».proof.Proof.Gen.KernelIdeal.Launch
import proofs.«145376_g10471130268016_week1_w2_219_10_alg».proof.Proof.Gen.KernelIdeal.Skeleton
import proofs.«145376_g10471130268016_week1_w2_219_10_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses to the accumulator: its left and right halves, and the whole -/

abbrev rL1 : Rect S2048x512 := Rect.unit (s := S2048x512) ![0, 0] S2048x256.size inb_S2048x512_S2048x256_0_0
abbrev rR1 : Rect S2048x512 := Rect.unit (s := S2048x512) ![0, 256] S2048x256.size inb_S2048x512_S2048x256_0_256
abbrev rW1 : Rect S2048x512 := Rect.unit (s := S2048x512) ![0, 0] S2048x512.size inb_S2048x512_S2048x512_0_0
/-- The accumulator the kernel keeps between grid points. -/
abbrev scM1 : Memref sig .tc .vmem S2048x512 .f32 := Memref.whole cc1_scratch0

/-- The accumulator as the first point of a row block resets it. -/
def zeroS1 : Vec F S2048x512 .f32 := View.canon [⟨rW1, k1_pay3⟩]

/-- The accumulator after one point's two updates, from what it held before them (`s`): the left half gains the two
    backward products, the right half the two forward ones. The pieces are listed last store first. -/
def accStep1 (xw : Vec F S512x1024 .bf16) (aBa aBb aFa aFb : Vec F S2048x512 .f32) (s : Vec F S2048x512 .f32) : Vec F S2048x512 .f32 :=
  View.canon [⟨rR1, k1_pay1 (k1_pay6 xw aFa aFb (View.ld s rR1))⟩, ⟨rL1, k1_pay5 xw aBa aBb (View.ld s rL1)⟩]

/-- What the last point of a row block stores into the output buffer, from the finished accumulator. -/
def finStep1 (s : Vec F S2048x512 .f32) (bpre : Vec F S1x512 .f32) (wl : Vec F S512x512 .f32) (blin : Vec F S1x512 .f32)
    (h : Vec F S2048x512 .f32) : Vec F S2048x512 .f32 :=
  View.canon [⟨rW1, k1_pay2 s bpre wl blin h⟩]

/-- THE ACCUMULATION: the accumulator after the body at position `n`. A point whose contraction coordinate is 0
    starts from the reset accumulator, any other from what the point before left. -/
def sAt1 (c : Dev nD) : (n : ℕ) → n < cfg1.N → Vec F S2048x512 .f32
  | 0, hn => accStep1 (iblk1 V c 4 ⟨0, hn⟩) (iblk1 V c 0 ⟨0, hn⟩) (iblk1 V c 1 ⟨0, hn⟩) (iblk1 V c 2 ⟨0, hn⟩) (iblk1 V c 3 ⟨0, hn⟩) zeroS1
  | n + 1, hn => accStep1 (iblk1 V c 4 ⟨n + 1, hn⟩) (iblk1 V c 0 ⟨n + 1, hn⟩) (iblk1 V c 1 ⟨n + 1, hn⟩) (iblk1 V c 2 ⟨n + 1, hn⟩) (iblk1 V c 3 ⟨n + 1, hn⟩)
      (if (n + 1) % 8 = 0 then zeroS1 else sAt1 c n (Nat.lt_of_succ_lt hn))

/-- What the output buffer holds after a point that stores it (the last of a row block); at the other points the
    window is idle and this value is consulted by nothing. -/
def oAt1 (c : Dev nD) (t : Fin cfg1.N) : Vec F S2048x512 .f32 :=
  finStep1 (sAt1 V c t.val t.isLt) (iblk1 V c 6 t) (iblk1 V c 5 t) (iblk1 V c 7 t) (iblk1 V c 8 t)

/-- The core's scoped buffers that are neither a staging buffer of this region nor its accumulator, each at some
    contents: the region carries them unopened. -/
abbrev restS1 (c : Dev nD) : sProp 𝕄 :=
  Pipeline.scopedRestBut (Ix := Unit) (Name := ℕ) (U := UR sig nD τ) (Lvl := ℕ) (Val := Elt F) spec1 c [cc1_scratch0]

/-- The region invariant before position `n`: before the first point the class's; afterwards the accumulator at what
    the point before left, the other scoped buffers at some contents and the generator register at some state. -/
def PhiS1 (c : Dev nD) : (n : ℕ) → n ≤ cfg1.N → sProp 𝕄
  | 0, _ => Pipeline.ΦA spec1 c
  | n + 1, hn => iprop(iprop(owns (c : Thread nD τ) scM1 fullShare (sAt1 V c n hn) ∗ restS1 c) ∗ (∃ r, prngReg c r))

/-- The proof data of the first aggregation. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => oAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_9 (c : Dev nD) (t : Fin cfg1.N) : (dat1 V c).after 9 t = oAt1 V c t := by dsimp only [dat1]

/-! ## The class's invariant, the accumulator named -/

/-- The class's invariant with the accumulator as a memref owned at some contents, the other scoped buffers unopened. -/
theorem PhiA1_eq (c : Dev nD) :
    (Pipeline.ΦA spec1 c : sProp 𝕄)
      = iprop(iprop((∃ d, owns (c : Thread nD τ) scM1 fullShare d) ∗ restS1 c) ∗ (∃ r, prngReg c r)) := by
  unfold Pipeline.ΦA; rw [scopedRest1_split]; simp only [scM1, owns_whole]; try rfl

/-! ## The body's two conditions, decided over the grid -/

/-- The condition of the body's first `scf.if` (the reset of the accumulator), from the grid coordinates. -/
abbrev cond1_a (i : grid1.Coords) : Prop :=
  (Scalar.cmpi .ne (Scalar.extui (Scalar.cmpi .eq (BitVec.ofNat 32 (i 1).val) 0#32)) 0#32) = 1#1
/-- It holds at the points whose contraction coordinate is 0. -/
theorem hcond1_a : ∀ t : Fin cfg1.N, cond1_a (grid1.coords t) ↔ t.val % 8 = 0 :=
  (by decide +kernel : ∀ t : Fin grid1.N, cond1_a (grid1.coords t) ↔ t.val % 8 = 0)

/-- The condition of the body's second `scf.if` (the output's store). -/
abbrev cond1_b (i : grid1.Coords) : Prop := k1_cond2 i = 1#1
/-- It holds at the points whose contraction coordinate is 7. -/
theorem hcond1_b : ∀ t : Fin cfg1.N, cond1_b (grid1.coords t) ↔ t.val % 8 = 7 :=
  (by decide +kernel : ∀ t : Fin grid1.N, cond1_b (grid1.coords t) ↔ t.val % 8 = 7)

/-! ## Where the windows are idle -/

/-- An input window is never idle. -/
theorem liveAt1_in (w : Fin cfg1.W) (hw : w.val < 9) : ∀ i, cfg1.idle w i = false := by
  intro i
  match w, hw with
  | ⟨0, _⟩, _ => rfl | ⟨1, _⟩, _ => rfl | ⟨2, _⟩, _ => rfl | ⟨3, _⟩, _ => rfl | ⟨4, _⟩, _ => rfl
  | ⟨5, _⟩, _ => rfl | ⟨6, _⟩, _ => rfl | ⟨7, _⟩, _ => rfl | ⟨8, _⟩, _ => rfl
/-- Where the second condition fails the output window is idle, -/
theorem idleAt1_9 : ∀ t : Fin cfg1.N, ¬cond1_b (grid1.coords t) → cfg1.idle 9 (grid1.coords t) = true := by decide +kernel
/-- and not written back; -/
theorem noFlush1_9 : ∀ t : Fin cfg1.N, ¬cond1_b (grid1.coords t) → (cfg1.win 9).flush t = false := by decide +kernel
/-- where it holds the window is live. -/
theorem liveAt1_9 : ∀ t : Fin cfg1.N, cond1_b (grid1.coords t) → cfg1.idle 9 (grid1.coords t) = false := by decide +kernel

/-- The zero offsets, however spelt. -/
theorem hz1_off : (![0, 0] : Fin 2 → Nat) = fun _ => 0 := funext fun a => by fin_cases a <;> rfl

/-! ## The accumulator's pieces -/

/-- The two halves cover the accumulator, whatever is stored through them. -/
theorem cover1_halves (p : rR1.shape.Idx → Elt F .f32) (q : rL1.shape.Idx → Elt F .f32) :
    ∀ y : S2048x512.Idx, ∃ pc ∈ ([⟨rR1, p⟩, ⟨rL1, q⟩] : List (View.Piece (Elt F) S2048x512 .f32)), y ∈ pc.1.set :=
  View.cover_of_tiledL _ S2048x256.size (by sl_kernel_rfl)

/-- One store through the whole accumulator covers it. -/
theorem cover1_whole (p : rW1.shape.Idx → Elt F .f32) :
    ∀ y : S2048x512.Idx, ∃ pc ∈ ([⟨rW1, p⟩] : List (View.Piece (Elt F) S2048x512 .f32)), y ∈ pc.1.set :=
  fun y => ⟨_, List.mem_singleton_self _, View.mem_set_unit_zero hz1_off inb_S2048x512_S2048x512_0_0 y⟩

/-- The left half ends where the right half begins. -/
theorem disj1_halves : Disjoint rL1.set rR1.toLoadRect.set := Rect.unit_disjoint 1 (.inl (by decide))

/-- A load of the whole accumulator after both halves were stored reads the two pieces. -/
theorem readCov1_whole (v : View sig .tc .vmem S2048x512 .f32) (p : rR1.shape.Idx → Elt F .f32) (q : rL1.shape.Idx → Elt F .f32) :
    v.readCov [⟨rR1, p⟩, ⟨rL1, q⟩] rW1.toLoadRect
      = View.canon ([⟨rR1, p⟩, ⟨rL1, q⟩] : List (View.Piece (Elt F) S2048x512 .f32)) := by
  rw [View.readCov_eq_canon_ld _ _ _ (cover1_halves p q)]; exact View.ld_unit_zero hz1_off _ _

/-- After the reset a load of the left half reads the reset accumulator's, -/
theorem readCov1_reset_L (v : View sig .tc .vmem S2048x512 .f32) :
    v.readCov [⟨rW1, k1_pay3 (F := F)⟩] rL1.toLoadRect = View.ld (zeroS1 (F := F)) rL1 := by
  unfold zeroS1; exact View.readCov_eq_canon_ld _ _ _ (cover1_whole _)

/-- and so does a load of the right half after the left half's store: the halves are disjoint. -/
theorem readCov1_reset_R (v : View sig .tc .vmem S2048x512 .f32) (q : rL1.shape.Idx → Elt F .f32) :
    v.readCov [⟨rL1, q⟩, ⟨rW1, k1_pay3 (F := F)⟩] rR1.toLoadRect = View.ld (zeroS1 (F := F)) rR1 := by
  rw [View.readCov_cons_of_disjoint v ⟨rL1, q⟩ [⟨rW1, k1_pay3 (F := F)⟩] rR1.toLoadRect disj1_halves]; unfold zeroS1
  exact View.readCov_eq_canon_ld _ _ _ (cover1_whole _)

/-! ## The body's triple, case by case -/
set_option maxHeartbeats 2000000 in
/-- A point that resets (contraction coordinate 0): whatever the accumulator held, it ends at `accStep1 … zeroS1`;
    every window's buffer is handed back as found. -/
theorem sound_kernel1_A (c : Dev nD) (i : grid1.Coords) (ma : Memref sig .tc .vmem S2048x512 .f32) (ha : ma.IsWhole) (mb : Memref sig .tc .vmem S2048x512 .f32) (hb : mb.IsWhole) (mc : Memref sig .tc .vmem S2048x512 .f32) (hc : mc.IsWhole) (md : Memref sig .tc .vmem S2048x512 .f32) (hd : md.IsWhole) (mw : Memref sig .tc .vmem S512x1024 .bf16) (hw : mw.IsWhole) (ml : Memref sig .tc .vmem S512x512 .f32) (hl : ml.IsWhole) (mp : Memref sig .tc .vmem S1x512 .f32) (hp : mp.IsWhole) (mq : Memref sig .tc .vmem S1x512 .f32) (hq : mq.IsWhole) (mh : Memref sig .tc .vmem S2048x512 .f32) (hh : mh.IsWhole) (mo : Memref sig .tc .vmem S2048x512 .f32) (ho : mo.IsWhole) (ms : Memref sig .tc .vmem S2048x512 .f32) (hs : ms.IsWhole)
    (hka : cond1_a i) (hkb : ¬cond1_b i) (xa xb xc xd : Vec F S2048x512 .f32) (xw : Vec F S512x1024 .bf16) (xl : Vec F S512x512 .f32) (xp xq : Vec F S1x512 .f32) (xh : Vec F S2048x512 .f32) (xo : Vec F S2048x512 .f32)
    (E : Set ℕ) (K : PUnit → sProp 𝕄) :
    iprop(owns (c : Thread nD τ) ma fullShare xa ∗ owns (c : Thread nD τ) mb fullShare xb ∗ owns (c : Thread nD τ) mc fullShare xc ∗ owns (c : Thread nD τ) md fullShare xd ∗ owns (c : Thread nD τ) mw fullShare xw ∗ owns (c : Thread nD τ) ml fullShare xl ∗ owns (c : Thread nD τ) mp fullShare xp ∗ owns (c : Thread nD τ) mq fullShare xq ∗ owns (c : Thread nD τ) mh fullShare xh ∗ owns (c : Thread nD τ) mo fullShare xo ∗ (∃ d, owns (c : Thread nD τ) ms fullShare d)
        ∗ (iprop(owns (c : Thread nD τ) ma fullShare xa ∗ owns (c : Thread nD τ) mb fullShare xb ∗ owns (c : Thread nD τ) mc fullShare xc ∗ owns (c : Thread nD τ) md fullShare xd ∗ owns (c : Thread nD τ) mw fullShare xw ∗ owns (c : Thread nD τ) ml fullShare xl ∗ owns (c : Thread nD τ) mp fullShare xp ∗ owns (c : Thread nD τ) mq fullShare xq ∗ owns (c : Thread nD τ) mh fullShare xh ∗ owns (c : Thread nD τ) mo fullShare xo ∗ owns (c : Thread nD τ) ms fullShare (accStep1 xw xa xb xc xd zeroS1)) -∗ K ⟨⟩))
      ⊢ wp frame (wpE (defs₀ (F := F)) Variants.none c none) E (cc1__agg_kernel i ma ha mb hb mc hc md hd mw hw ml hl mp hp mq hq mh hh mo ho ms hs) K := by
  simp only [cc1__agg_kernel_eq_skeleton]; unfold cc1__agg_kernel_skel
  simp only [k1_part1_eq_skeleton]; unfold k1_part1_skel
  unfold owns
  iintro ⟨⟨%fa, %hfa, Ha⟩, ⟨%fb, %hfb, Hb⟩, ⟨%fc, %hfc, Hc⟩, ⟨%fd, %hfd, Hd⟩, ⟨%fw, %hfw, Hw⟩, ⟨%fl, %hfl, Hl⟩, ⟨%fp, %hfp, Hp⟩, ⟨%fq, %hfq, Hq⟩, ⟨%fh, %hfh, Hh⟩, ⟨%fo, %hfo, Ho⟩, ⟨%ds, %fs, -, Hs⟩, Hk⟩
  obtain rfl := ha.eq_unread hfa; obtain rfl := hb.eq_unread hfb; obtain rfl := hc.eq_unread hfc; obtain rfl := hd.eq_unread hfd
  obtain rfl := hw.eq_unread hfw; obtain rfl := hl.eq_unread hfl; obtain rfl := hp.eq_unread hfp; obtain rfl := hq.eq_unread hfq
  obtain rfl := hh.eq_unread hfh; obtain rfl := ho.eq_unread hfo
  sl_exec (disch := first | exact hka | exact hkb)
  sl_step
  iapply Hk
  isplitl [Ha]
  · iexists _; isplitr
    · ipureintro; exact hfa
    · iexact Ha
  isplitl [Hb]
  · iexists _; isplitr
    · ipureintro; exact hfb
    · iexact Hb
  isplitl [Hc]
  · iexists _; isplitr
    · ipureintro; exact hfc
    · iexact Hc
  isplitl [Hd]
  · iexists _; isplitr
    · ipureintro; exact hfd
    · iexact Hd
  isplitl [Hw]
  · iexists _; isplitr
    · ipureintro; exact hfw
    · iexact Hw
  isplitl [Hl]
  · iexists _; isplitr
    · ipureintro; exact hfl
    · iexact Hl
  isplitl [Hp]
  · iexists _; isplitr
    · ipureintro; exact hfp
    · iexact Hp
  isplitl [Hq]
  · iexists _; isplitr
    · ipureintro; exact hfq
    · iexact Hq
  isplitl [Hh]
  · iexists _; isplitr
    · ipureintro; exact hfh
    · iexact Hh
  isplitl [Ho]
  · iexists _; isplitr
    · ipureintro; exact hfo
    · iexact Ho
  iexists _; isplitr; swap
  · iexact Hs
  ipureintro
  sl_unfold_run_names
  refine (View.read_writes_eq_canon _ (View.writes _ _ fs [_]) [_, _] ?_).trans ?_
  · exact cover1_halves _ _
  unfold accStep1
  rw [readCov1_reset_R, readCov1_reset_L]
  dsimp only
  simp only [View.readAt_eq_ld, hfa, hfb, hfc, hfd, hfw, View.ld_unit_zero (S := S2048x512) hz1_off,
    View.ld_unit_zero (S := S512x1024) hz1_off]
  try rfl

set_option maxHeartbeats 2000000 in
/-- A point that neither resets nor finishes (contraction coordinate strictly between 0 and 7): the accumulator goes
    from `s` to `accStep1 … s`; every window's buffer is handed back as found. -/
theorem sound_kernel1_B (c : Dev nD) (i : grid1.Coords) (ma : Memref sig .tc .vmem S2048x512 .f32) (ha : ma.IsWhole) (mb : Memref sig .tc .vmem S2048x512 .f32) (hb : mb.IsWhole) (mc : Memref sig .tc .vmem S2048x512 .f32) (hc : mc.IsWhole) (md : Memref sig .tc .vmem S2048x512 .f32) (hd : md.IsWhole) (mw : Memref sig .tc .vmem S512x1024 .bf16) (hw : mw.IsWhole) (ml : Memref sig .tc .vmem S512x512 .f32) (hl : ml.IsWhole) (mp : Memref sig .tc .vmem S1x512 .f32) (hp : mp.IsWhole) (mq : Memref sig .tc .vmem S1x512 .f32) (hq : mq.IsWhole) (mh : Memref sig .tc .vmem S2048x512 .f32) (hh : mh.IsWhole) (mo : Memref sig .tc .vmem S2048x512 .f32) (ho : mo.IsWhole) (ms : Memref sig .tc .vmem S2048x512 .f32) (hs : ms.IsWhole)
    (hka : ¬cond1_a i) (hkb : ¬cond1_b i) (xa xb xc xd : Vec F S2048x512 .f32) (xw : Vec F S512x1024 .bf16) (xl : Vec F S512x512 .f32) (xp xq : Vec F S1x512 .f32) (xh : Vec F S2048x512 .f32) (xo s : Vec F S2048x512 .f32)
    (E : Set ℕ) (K : PUnit → sProp 𝕄) :
    iprop(owns (c : Thread nD τ) ma fullShare xa ∗ owns (c : Thread nD τ) mb fullShare xb ∗ owns (c : Thread nD τ) mc fullShare xc ∗ owns (c : Thread nD τ) md fullShare xd ∗ owns (c : Thread nD τ) mw fullShare xw ∗ owns (c : Thread nD τ) ml fullShare xl ∗ owns (c : Thread nD τ) mp fullShare xp ∗ owns (c : Thread nD τ) mq fullShare xq ∗ owns (c : Thread nD τ) mh fullShare xh ∗ owns (c : Thread nD τ) mo fullShare xo ∗ owns (c : Thread nD τ) ms fullShare s
        ∗ (iprop(owns (c : Thread nD τ) ma fullShare xa ∗ owns (c : Thread nD τ) mb fullShare xb ∗ owns (c : Thread nD τ) mc fullShare xc ∗ owns (c : Thread nD τ) md fullShare xd ∗ owns (c : Thread nD τ) mw fullShare xw ∗ owns (c : Thread nD τ) ml fullShare xl ∗ owns (c : Thread nD τ) mp fullShare xp ∗ owns (c : Thread nD τ) mq fullShare xq ∗ owns (c : Thread nD τ) mh fullShare xh ∗ owns (c : Thread nD τ) mo fullShare xo ∗ owns (c : Thread nD τ) ms fullShare (accStep1 xw xa xb xc xd s)) -∗ K ⟨⟩))
      ⊢ wp frame (wpE (defs₀ (F := F)) Variants.none c none) E (cc1__agg_kernel i ma ha mb hb mc hc md hd mw hw ml hl mp hp mq hq mh hh mo ho ms hs) K := by
  simp only [cc1__agg_kernel_eq_skeleton]; unfold cc1__agg_kernel_skel
  simp only [k1_part1_eq_skeleton]; unfold k1_part1_skel
  unfold owns
  iintro ⟨⟨%fa, %hfa, Ha⟩, ⟨%fb, %hfb, Hb⟩, ⟨%fc, %hfc, Hc⟩, ⟨%fd, %hfd, Hd⟩, ⟨%fw, %hfw, Hw⟩, ⟨%fl, %hfl, Hl⟩, ⟨%fp, %hfp, Hp⟩, ⟨%fq, %hfq, Hq⟩, ⟨%fh, %hfh, Hh⟩, ⟨%fo, %hfo, Ho⟩, ⟨%fs, %hfs, Hs⟩, Hk⟩
  obtain rfl := ha.eq_unread hfa; obtain rfl := hb.eq_unread hfb; obtain rfl := hc.eq_unread hfc; obtain rfl := hd.eq_unread hfd
  obtain rfl := hw.eq_unread hfw; obtain rfl := hl.eq_unread hfl; obtain rfl := hp.eq_unread hfp; obtain rfl := hq.eq_unread hfq
  obtain rfl := hh.eq_unread hfh; obtain rfl := ho.eq_unread hfo; obtain rfl := hs.eq_unread hfs
  sl_exec (disch := first | exact hka | exact hkb)
  sl_step
  iapply Hk
  isplitl [Ha]
  · iexists _; isplitr
    · ipureintro; exact hfa
    · iexact Ha
  isplitl [Hb]
  · iexists _; isplitr
    · ipureintro; exact hfb
    · iexact Hb
  isplitl [Hc]
  · iexists _; isplitr
    · ipureintro; exact hfc
    · iexact Hc
  isplitl [Hd]
  · iexists _; isplitr
    · ipureintro; exact hfd
    · iexact Hd
  isplitl [Hw]
  · iexists _; isplitr
    · ipureintro; exact hfw
    · iexact Hw
  isplitl [Hl]
  · iexists _; isplitr
    · ipureintro; exact hfl
    · iexact Hl
  isplitl [Hp]
  · iexists _; isplitr
    · ipureintro; exact hfp
    · iexact Hp
  isplitl [Hq]
  · iexists _; isplitr
    · ipureintro; exact hfq
    · iexact Hq
  isplitl [Hh]
  · iexists _; isplitr
    · ipureintro; exact hfh
    · iexact Hh
  isplitl [Ho]
  · iexists _; isplitr
    · ipureintro; exact hfo
    · iexact Ho
  iexists _; isplitr; swap
  · iexact Hs
  ipureintro
  refine (View.read_writes_eq_canon _ _ _ ?_).trans ?_
  · exact View.cover_of_tiledL _ S2048x256.size (by sl_kernel_rfl)
  unfold accStep1
  sl_unfold_run_names
  dsimp only
  simp only [View.readAt_eq_ld, hfa, hfb, hfc, hfd, hfw, hfs, View.ld_unit_zero (S := S2048x512) hz1_off,
    View.ld_unit_zero (S := S512x1024) hz1_off]
  try rfl

set_option maxHeartbeats 2000000 in
/-- A point that finishes a row block (contraction coordinate 7): the accumulator goes from `s` to `accStep1 … s`, and
    the output's buffer, whatever it held, ends at `finStep1` of that. -/
theorem sound_kernel1_C (c : Dev nD) (i : grid1.Coords) (ma : Memref sig .tc .vmem S2048x512 .f32) (ha : ma.IsWhole) (mb : Memref sig .tc .vmem S2048x512 .f32) (hb : mb.IsWhole) (mc : Memref sig .tc .vmem S2048x512 .f32) (hc : mc.IsWhole) (md : Memref sig .tc .vmem S2048x512 .f32) (hd : md.IsWhole) (mw : Memref sig .tc .vmem S512x1024 .bf16) (hw : mw.IsWhole) (ml : Memref sig .tc .vmem S512x512 .f32) (hl : ml.IsWhole) (mp : Memref sig .tc .vmem S1x512 .f32) (hp : mp.IsWhole) (mq : Memref sig .tc .vmem S1x512 .f32) (hq : mq.IsWhole) (mh : Memref sig .tc .vmem S2048x512 .f32) (hh : mh.IsWhole) (mo : Memref sig .tc .vmem S2048x512 .f32) (ho : mo.IsWhole) (ms : Memref sig .tc .vmem S2048x512 .f32) (hs : ms.IsWhole)
    (hka : ¬cond1_a i) (hkb : cond1_b i) (xa xb xc xd : Vec F S2048x512 .f32) (xw : Vec F S512x1024 .bf16) (xl : Vec F S512x512 .f32) (xp xq : Vec F S1x512 .f32) (xh : Vec F S2048x512 .f32) (s : Vec F S2048x512 .f32)
    (E : Set ℕ) (K : PUnit → sProp 𝕄) :
    iprop(owns (c : Thread nD τ) ma fullShare xa ∗ owns (c : Thread nD τ) mb fullShare xb ∗ owns (c : Thread nD τ) mc fullShare xc ∗ owns (c : Thread nD τ) md fullShare xd ∗ owns (c : Thread nD τ) mw fullShare xw ∗ owns (c : Thread nD τ) ml fullShare xl ∗ owns (c : Thread nD τ) mp fullShare xp ∗ owns (c : Thread nD τ) mq fullShare xq ∗ owns (c : Thread nD τ) mh fullShare xh ∗ (∃ d, owns (c : Thread nD τ) mo fullShare d) ∗ owns (c : Thread nD τ) ms fullShare s
        ∗ (iprop(owns (c : Thread nD τ) ma fullShare xa ∗ owns (c : Thread nD τ) mb fullShare xb ∗ owns (c : Thread nD τ) mc fullShare xc ∗ owns (c : Thread nD τ) md fullShare xd ∗ owns (c : Thread nD τ) mw fullShare xw ∗ owns (c : Thread nD τ) ml fullShare xl ∗ owns (c : Thread nD τ) mp fullShare xp ∗ owns (c : Thread nD τ) mq fullShare xq ∗ owns (c : Thread nD τ) mh fullShare xh ∗ owns (c : Thread nD τ) mo fullShare (finStep1 (accStep1 xw xa xb xc xd s) xp xl xq xh)
            ∗ owns (c : Thread nD τ) ms fullShare (accStep1 xw xa xb xc xd s)) -∗ K ⟨⟩))
      ⊢ wp frame (wpE (defs₀ (F := F)) Variants.none c none) E (cc1__agg_kernel i ma ha mb hb mc hc md hd mw hw ml hl mp hp mq hq mh hh mo ho ms hs) K := by
  simp only [cc1__agg_kernel_eq_skeleton]; unfold cc1__agg_kernel_skel
  simp only [k1_part1_eq_skeleton]; unfold k1_part1_skel
  unfold owns
  iintro ⟨⟨%fa, %hfa, Ha⟩, ⟨%fb, %hfb, Hb⟩, ⟨%fc, %hfc, Hc⟩, ⟨%fd, %hfd, Hd⟩, ⟨%fw, %hfw, Hw⟩, ⟨%fl, %hfl, Hl⟩, ⟨%fp, %hfp, Hp⟩, ⟨%fq, %hfq, Hq⟩, ⟨%fh, %hfh, Hh⟩, ⟨%dout, %fo, -, Ho⟩, ⟨%fs, %hfs, Hs⟩, Hk⟩
  obtain rfl := ha.eq_unread hfa; obtain rfl := hb.eq_unread hfb; obtain rfl := hc.eq_unread hfc; obtain rfl := hd.eq_unread hfd
  obtain rfl := hw.eq_unread hfw; obtain rfl := hl.eq_unread hfl; obtain rfl := hp.eq_unread hfp; obtain rfl := hq.eq_unread hfq
  obtain rfl := hh.eq_unread hfh; obtain rfl := hs.eq_unread hfs
  sl_exec (disch := first | exact hka | exact hkb)
  sl_step
  iapply Hk
  isplitl [Ha]
  · iexists _; isplitr
    · ipureintro; exact hfa
    · iexact Ha
  isplitl [Hb]
  · iexists _; isplitr
    · ipureintro; exact hfb
    · iexact Hb
  isplitl [Hc]
  · iexists _; isplitr
    · ipureintro; exact hfc
    · iexact Hc
  isplitl [Hd]
  · iexists _; isplitr
    · ipureintro; exact hfd
    · iexact Hd
  isplitl [Hw]
  · iexists _; isplitr
    · ipureintro; exact hfw
    · iexact Hw
  isplitl [Hl]
  · iexists _; isplitr
    · ipureintro; exact hfl
    · iexact Hl
  isplitl [Hp]
  · iexists _; isplitr
    · ipureintro; exact hfp
    · iexact Hp
  isplitl [Hq]
  · iexists _; isplitr
    · ipureintro; exact hfq
    · iexact Hq
  isplitl [Hh]
  · iexists _; isplitr
    · ipureintro; exact hfh
    · iexact Hh
  isplitl [Ho]
  · iexists _; isplitr; swap
    · iexact Ho
    ipureintro
    refine (View.read_writes_eq_canon _ _ _ ?_).trans ?_
    · exact cover1_whole _
    unfold finStep1 accStep1
    sl_unfold_run_names
    rw [readCov1_whole]
    dsimp only
    simp only [View.readAt_eq_ld, hfa, hfb, hfc, hfd, hfw, hfl, hfp, hfq, hfh, hfs, View.ld_unit_zero (S := S2048x512) hz1_off,
      View.ld_unit_zero (S := S512x1024) hz1_off, View.ld_unit_zero (S := S512x512) hz1_off,
      View.ld_unit_zero (S := S1x512) hz1_off]
    try rfl
  iexists _; isplitr; swap
  · iexact Hs
  ipureintro
  sl_unfold_run_names
  refine (View.read_writes_eq_canon _ _ _ ?_).trans ?_
  · exact cover1_halves _ _
  unfold accStep1
  dsimp only
  simp only [View.readAt_eq_ld, hfa, hfb, hfc, hfd, hfw, hfs, View.ld_unit_zero (S := S2048x512) hz1_off,
    View.ld_unit_zero (S := S512x1024) hz1_off]
  try rfl

/-! ## What the body finds in the input windows' buffers, and leaves there -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]

/-- Each input's current staging buffer holds its block at every point, fetched there or not: unfetched, the block
    index has not moved. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl)
    (fun t => by rw [after1_8]; unfold Dat.blockOf iblk1; rw [A_eq1]; try rfl) t d).trans
    (by unfold Dat.fetched Dat.blockOf iblk1; rw [A_eq1]; try rfl)

/-- Each window's current staging memref at point `t`, spelled as the pipeline passes it, and its wholeness. -/
abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)
abbrev ms1_5 (t : Fin cfg1.N) := win1_5.stage (cfg1.slots t 5)
abbrev hs1_5 (t : Fin cfg1.N) : (ms1_5 t).IsWhole := hstage1_5 ((cfg1.slots t 5).cast nbuf1_5)
abbrev ms1_6 (t : Fin cfg1.N) := win1_6.stage (cfg1.slots t 6)
abbrev hs1_6 (t : Fin cfg1.N) : (ms1_6 t).IsWhole := hstage1_6 ((cfg1.slots t 6).cast nbuf1_6)
abbrev ms1_7 (t : Fin cfg1.N) := win1_7.stage (cfg1.slots t 7)
abbrev hs1_7 (t : Fin cfg1.N) : (ms1_7 t).IsWhole := hstage1_7 ((cfg1.slots t 7).cast nbuf1_7)
abbrev ms1_8 (t : Fin cfg1.N) := win1_8.stage (cfg1.slots t 8)
abbrev hs1_8 (t : Fin cfg1.N) : (ms1_8 t).IsWhole := hstage1_8 ((cfg1.slots t 8).cast nbuf1_8)
abbrev ms1_9 (t : Fin cfg1.N) := win1_9.stage (cfg1.slots t 9)
abbrev hs1_9 (t : Fin cfg1.N) : (ms1_9 t).IsWhole := hstage1_9 ((cfg1.slots t 9).cast nbuf1_9)

/-- An input window is live everywhere: the body hands its buffer back at its block. -/
theorem leaves1_0 (c : Dev nD) (t : Fin cfg1.N) :
    (dat1 V c).leavesExact 0 t = owns (c : Thread nD τ) (ms1_0 t) fullShare (iblk1 V c 0 t) := by
  unfold Dat.leavesExact; rw [liveAt1_in 0 (by decide) (grid1.coords t), after1_0]
theorem leaves1_1 (c : Dev nD) (t : Fin cfg1.N) :
    (dat1 V c).leavesExact 1 t = owns (c : Thread nD τ) (ms1_1 t) fullShare (iblk1 V c 1 t) := by
  unfold Dat.leavesExact; rw [liveAt1_in 1 (by decide) (grid1.coords t), after1_1]
theorem leaves1_2 (c : Dev nD) (t : Fin cfg1.N) :
    (dat1 V c).leavesExact 2 t = owns (c : Thread nD τ) (ms1_2 t) fullShare (iblk1 V c 2 t) := by
  unfold Dat.leavesExact; rw [liveAt1_in 2 (by decide) (grid1.coords t), after1_2]
theorem leaves1_3 (c : Dev nD) (t : Fin cfg1.N) :
    (dat1 V c).leavesExact 3 t = owns (c : Thread nD τ) (ms1_3 t) fullShare (iblk1 V c 3 t) := by
  unfold Dat.leavesExact; rw [liveAt1_in 3 (by decide) (grid1.coords t), after1_3]
theorem leaves1_4 (c : Dev nD) (t : Fin cfg1.N) :
    (dat1 V c).leavesExact 4 t = owns (c : Thread nD τ) (ms1_4 t) fullShare (iblk1 V c 4 t) := by
  unfold Dat.leavesExact; rw [liveAt1_in 4 (by decide) (grid1.coords t), after1_4]
theorem leaves1_5 (c : Dev nD) (t : Fin cfg1.N) :
    (dat1 V c).leavesExact 5 t = owns (c : Thread nD τ) (ms1_5 t) fullShare (iblk1 V c 5 t) := by
  unfold Dat.leavesExact; rw [liveAt1_in 5 (by decide) (grid1.coords t), after1_5]
theorem leaves1_6 (c : Dev nD) (t : Fin cfg1.N) :
    (dat1 V c).leavesExact 6 t = owns (c : Thread nD τ) (ms1_6 t) fullShare (iblk1 V c 6 t) := by
  unfold Dat.leavesExact; rw [liveAt1_in 6 (by decide) (grid1.coords t), after1_6]
theorem leaves1_7 (c : Dev nD) (t : Fin cfg1.N) :
    (dat1 V c).leavesExact 7 t = owns (c : Thread nD τ) (ms1_7 t) fullShare (iblk1 V c 7 t) := by
  unfold Dat.leavesExact; rw [liveAt1_in 7 (by decide) (grid1.coords t), after1_7]
theorem leaves1_8 (c : Dev nD) (t : Fin cfg1.N) :
    (dat1 V c).leavesExact 8 t = owns (c : Thread nD τ) (ms1_8 t) fullShare (iblk1 V c 8 t) := by
  unfold Dat.leavesExact; rw [liveAt1_in 8 (by decide) (grid1.coords t), after1_8]

/-! ## The accumulation, point by point -/

/-- At a point that resets, the accumulator ends one step from the reset accumulator. -/
theorem sAt1_reset (c : Dev nD) (t : Fin cfg1.N) (hk : t.val % 8 = 0) :
    sAt1 V c t.val t.isLt
      = accStep1 (iblk1 V c 4 t) (iblk1 V c 0 t) (iblk1 V c 1 t) (iblk1 V c 2 t) (iblk1 V c 3 t) zeroS1 := by
  obtain ⟨n, hn⟩ := t
  cases n with
  | zero => rfl
  | succ n => dsimp only at hk ⊢; rw [sAt1, if_pos hk]

/-- At any other point, one step from what the point before left. -/
theorem sAt1_step (c : Dev nD) (t : Fin cfg1.N) (hk : ¬t.val % 8 = 0) :
    sAt1 V c t.val t.isLt
      = accStep1 (iblk1 V c 4 t) (iblk1 V c 0 t) (iblk1 V c 1 t) (iblk1 V c 2 t) (iblk1 V c 3 t)
          (sAt1 V c (t.val - 1) (Nat.lt_of_le_of_lt (Nat.sub_le _ _) t.isLt)) := by
  obtain ⟨n, hn⟩ := t
  cases n with
  | zero => exact absurd (Nat.zero_mod _) hk
  | succ n => dsimp only at hk ⊢; rw [sAt1, if_neg hk]; rfl

/-! ## The invariant, position by position -/

theorem PhiS1_zero (c : Dev nD) (n : ℕ) (h : n ≤ cfg1.N) (hz : n = 0) : PhiS1 V c n h = Pipeline.ΦA spec1 c := by
  subst hz; rfl

/-- After point `n`: the accumulator at that point's contents. -/
theorem PhiS1_succ (c : Dev nD) (n : ℕ) (hn : n < cfg1.N) :
    PhiS1 V c (n + 1) hn
      = iprop(iprop(owns (c : Thread nD τ) scM1 fullShare (sAt1 V c n hn) ∗ restS1 c) ∗ (∃ r, prngReg c r)) := rfl

/-- Before a point that is not the first: the accumulator at what the point before left. -/
theorem PhiS1_pos (c : Dev nD) (n : ℕ) (h : n ≤ cfg1.N) (hz : n ≠ 0) :
    PhiS1 V c n h
      = iprop(iprop(owns (c : Thread nD τ) scM1 fullShare (sAt1 V c (n - 1) (by omega)) ∗ restS1 c) ∗ (∃ r, prngReg c r)) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

set_option maxHeartbeats 4800000 in
/-- The body at any point: the inputs' memrefs hold their blocks; the contraction coordinate says which of the three
    cases the point is in; the invariant hands the body the accumulator at what the point before left (at anything at
    the first point) and takes it back one step on; the output's buffer is handed back untouched except at the last
    point of a row block, where it ends at the finished accumulator's image. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5, leaves1_6, leaves1_7, leaves1_8]
  have hN : t.val < 16 := lt_of_lt_of_eq t.isLt (show cfg1.N = 16 from N_1)
  by_cases hk : t.val % 8 = 0
  · have hkb : ¬cond1_b (grid1.coords t) := fun h => by have := (hcond1_b t).mp h; omega
    rw [Dat.leavesExact_idle (dat1 V c) 9 t (idleAt1_9 t hkb) (noFlush1_9 t hkb)]
    rw [sAt1_reset V c t hk]
    by_cases hz : t.val = 0
    · rw [PhiS1_castSucc V c t, PhiS1_zero V c _ _ hz, PhiA1_eq]
      iintro ⟨⟨⟨Hs, Hr⟩, Hg⟩, Ho, ⟨%da, Ha⟩, ⟨%db, Hb⟩, ⟨%dc, Hc⟩, ⟨%dd, Hd⟩, ⟨%dw, Hw⟩, ⟨%dl, Hl⟩, ⟨%dp, Hp⟩, ⟨%dq, Hq⟩, ⟨%dh, Hh⟩, ⟨%dout, Hout⟩⟩
      iapply (sound_kernel1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1 (Memref.isWhole_whole _) ((hcond1_a t).mpr hk) hkb
        (iblk1 V c 0 t) (iblk1 V c 1 t) (iblk1 V c 2 t) (iblk1 V c 3 t) (iblk1 V c 4 t) (iblk1 V c 5 t) (iblk1 V c 6 t) (iblk1 V c 7 t) (iblk1 V c 8 t) ((dat1 V c).before 9 t dout) Set.univ _)
      isplitl [Ha]; · iexact Ha
      isplitl [Hb]; · iexact Hb
      isplitl [Hc]; · iexact Hc
      isplitl [Hd]; · iexact Hd
      isplitl [Hw]; · iexact Hw
      isplitl [Hl]; · iexact Hl
      isplitl [Hp]; · iexact Hp
      isplitl [Hq]; · iexact Hq
      isplitl [Hh]; · iexact Hh
      isplitl [Hout]; · iexact Hout
      isplitl [Hs]; · iexact Hs
      iintro ⟨Ha, Hb, Hc, Hd, Hw, Hl, Hp, Hq, Hh, Hout, Hs⟩
      isplitl [Hs Hr Hg]
      · isplitl [Hs Hr]
        · isplitl [Hs]; · iexact Hs
          iexact Hr
        iexact Hg
      isplitl [Ho]; · iexact Ho
      isplitl [Ha]; · iexact Ha
      isplitl [Hb]; · iexact Hb
      isplitl [Hc]; · iexact Hc
      isplitl [Hd]; · iexact Hd
      isplitl [Hw]; · iexact Hw
      isplitl [Hl]; · iexact Hl
      isplitl [Hp]; · iexact Hp
      isplitl [Hq]; · iexact Hq
      isplitl [Hh]; · iexact Hh
      iexists _; iexact Hout
    · rw [PhiS1_castSucc V c t, PhiS1_pos V c _ _ hz]
      iintro ⟨⟨⟨Hs, Hr⟩, Hg⟩, Ho, ⟨%da, Ha⟩, ⟨%db, Hb⟩, ⟨%dc, Hc⟩, ⟨%dd, Hd⟩, ⟨%dw, Hw⟩, ⟨%dl, Hl⟩, ⟨%dp, Hp⟩, ⟨%dq, Hq⟩, ⟨%dh, Hh⟩, ⟨%dout, Hout⟩⟩
      iapply (sound_kernel1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1 (Memref.isWhole_whole _) ((hcond1_a t).mpr hk) hkb
        (iblk1 V c 0 t) (iblk1 V c 1 t) (iblk1 V c 2 t) (iblk1 V c 3 t) (iblk1 V c 4 t) (iblk1 V c 5 t) (iblk1 V c 6 t) (iblk1 V c 7 t) (iblk1 V c 8 t) ((dat1 V c).before 9 t dout) Set.univ _)
      isplitl [Ha]; · iexact Ha
      isplitl [Hb]; · iexact Hb
      isplitl [Hc]; · iexact Hc
      isplitl [Hd]; · iexact Hd
      isplitl [Hw]; · iexact Hw
      isplitl [Hl]; · iexact Hl
      isplitl [Hp]; · iexact Hp
      isplitl [Hq]; · iexact Hq
      isplitl [Hh]; · iexact Hh
      isplitl [Hout]; · iexact Hout
      isplitl [Hs]; · iexists _; iexact Hs
      iintro ⟨Ha, Hb, Hc, Hd, Hw, Hl, Hp, Hq, Hh, Hout, Hs⟩
      isplitl [Hs Hr Hg]
      · isplitl [Hs Hr]
        · isplitl [Hs]; · iexact Hs
          iexact Hr
        iexact Hg
      isplitl [Ho]; · iexact Ho
      isplitl [Ha]; · iexact Ha
      isplitl [Hb]; · iexact Hb
      isplitl [Hc]; · iexact Hc
      isplitl [Hd]; · iexact Hd
      isplitl [Hw]; · iexact Hw
      isplitl [Hl]; · iexact Hl
      isplitl [Hp]; · iexact Hp
      isplitl [Hq]; · iexact Hq
      isplitl [Hh]; · iexact Hh
      iexists _; iexact Hout
  · have hz : t.val ≠ 0 := fun h => hk (by omega)
    have hka : ¬cond1_a (grid1.coords t) := fun h => hk ((hcond1_a t).mp h)
    rw [sAt1_step V c t hk]
    rw [PhiS1_castSucc V c t, PhiS1_pos V c _ _ hz]
    by_cases hl : t.val % 8 = 7
    · have hkb : cond1_b (grid1.coords t) := (hcond1_b t).mpr hl
      rw [show (dat1 V c).leavesExact 9 t = owns (c : Thread nD τ) (ms1_9 t) fullShare ((dat1 V c).after 9 t) from by
        unfold Dat.leavesExact; rw [liveAt1_9 t hkb], after1_9]
      unfold oAt1
      rw [sAt1_step V c t hk]
      iintro ⟨⟨⟨Hs, Hr⟩, Hg⟩, Ho, ⟨%da, Ha⟩, ⟨%db, Hb⟩, ⟨%dc, Hc⟩, ⟨%dd, Hd⟩, ⟨%dw, Hw⟩, ⟨%dl, Hl⟩, ⟨%dp, Hp⟩, ⟨%dq, Hq⟩, ⟨%dh, Hh⟩, ⟨%dout, Hout⟩⟩
      iapply (sound_kernel1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1 (Memref.isWhole_whole _) hka hkb
        (iblk1 V c 0 t) (iblk1 V c 1 t) (iblk1 V c 2 t) (iblk1 V c 3 t) (iblk1 V c 4 t) (iblk1 V c 5 t) (iblk1 V c 6 t) (iblk1 V c 7 t) (iblk1 V c 8 t) (sAt1 V c (t.val - 1) (Nat.lt_of_le_of_lt (Nat.sub_le _ _) t.isLt)) Set.univ _)
      isplitl [Ha]; · iexact Ha
      isplitl [Hb]; · iexact Hb
      isplitl [Hc]; · iexact Hc
      isplitl [Hd]; · iexact Hd
      isplitl [Hw]; · iexact Hw
      isplitl [Hl]; · iexact Hl
      isplitl [Hp]; · iexact Hp
      isplitl [Hq]; · iexact Hq
      isplitl [Hh]; · iexact Hh
      isplitl [Hout]; · iexists _; iexact Hout
      isplitl [Hs]; · iexact Hs
      iintro ⟨Ha, Hb, Hc, Hd, Hw, Hl, Hp, Hq, Hh, Hout, Hs⟩
      isplitl [Hs Hr Hg]
      · isplitl [Hs Hr]
        · isplitl [Hs]; · iexact Hs
          iexact Hr
        iexact Hg
      isplitl [Ho]; · iexact Ho
      isplitl [Ha]; · iexact Ha
      isplitl [Hb]; · iexact Hb
      isplitl [Hc]; · iexact Hc
      isplitl [Hd]; · iexact Hd
      isplitl [Hw]; · iexact Hw
      isplitl [Hl]; · iexact Hl
      isplitl [Hp]; · iexact Hp
      isplitl [Hq]; · iexact Hq
      isplitl [Hh]; · iexact Hh
      iexact Hout
    · have hkb : ¬cond1_b (grid1.coords t) := fun h => hl ((hcond1_b t).mp h)
      rw [Dat.leavesExact_idle (dat1 V c) 9 t (idleAt1_9 t hkb) (noFlush1_9 t hkb)]
      iintro ⟨⟨⟨Hs, Hr⟩, Hg⟩, Ho, ⟨%da, Ha⟩, ⟨%db, Hb⟩, ⟨%dc, Hc⟩, ⟨%dd, Hd⟩, ⟨%dw, Hw⟩, ⟨%dl, Hl⟩, ⟨%dp, Hp⟩, ⟨%dq, Hq⟩, ⟨%dh, Hh⟩, ⟨%dout, Hout⟩⟩
      iapply (sound_kernel1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1 (Memref.isWhole_whole _) hka hkb
        (iblk1 V c 0 t) (iblk1 V c 1 t) (iblk1 V c 2 t) (iblk1 V c 3 t) (iblk1 V c 4 t) (iblk1 V c 5 t) (iblk1 V c 6 t) (iblk1 V c 7 t) (iblk1 V c 8 t) ((dat1 V c).before 9 t dout) (sAt1 V c (t.val - 1) (Nat.lt_of_le_of_lt (Nat.sub_le _ _) t.isLt)) Set.univ _)
      isplitl [Ha]; · iexact Ha
      isplitl [Hb]; · iexact Hb
      isplitl [Hc]; · iexact Hc
      isplitl [Hd]; · iexact Hd
      isplitl [Hw]; · iexact Hw
      isplitl [Hl]; · iexact Hl
      isplitl [Hp]; · iexact Hp
      isplitl [Hq]; · iexact Hq
      isplitl [Hh]; · iexact Hh
      isplitl [Hout]; · iexact Hout
      isplitl [Hs]; · iexact Hs
      iintro ⟨Ha, Hb, Hc, Hd, Hw, Hl, Hp, Hq, Hh, Hout, Hs⟩
      isplitl [Hs Hr Hg]
      · isplitl [Hs Hr]
        · isplitl [Hs]; · iexact Hs
          iexact Hr
        iexact Hg
      isplitl [Ho]; · iexact Ho
      isplitl [Ha]; · iexact Ha
      isplitl [Hb]; · iexact Hb
      isplitl [Hc]; · iexact Hc
      isplitl [Hd]; · iexact Hd
      isplitl [Hw]; · iexact Hw
      isplitl [Hl]; · iexact Hl
      isplitl [Hp]; · iexact Hp
      isplitl [Hq]; · iexact Hq
      isplitl [Hh]; · iexact Hh
      iexists _; iexact Hout

/-- The body obligation of the first aggregation, at every point. -/
theorem body_obligation1 (c : Dev nD) : BodyObligation (dat1 (F := F) V c) (defs₀ (F := F)) Variants.none () Set.univ := fun t => by
  rw [bigSep_W1, bigSep_W1]
  exact sound_body1 V c t

/-- The class's invariant is the proof data's at the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hs, Hr⟩, Hg⟩
  isplitl [Hs Hr]
  · isplitl [Hs]
    · iexists _; iexact Hs
    iexact Hr
  iexact Hg

/-- The proof data's invariant at the last point gives the class's back. -/
theorem hout1 (c : Dev nD) : (dat1 V c).Φ (Fin.last cfg1.N) ⊢ Pipeline.ΦA spec1 c :=
  Phi1_out V c _ (by rw [Fin.val_last]; have : cfg1.N = 16 := N_1; omega)

end Cert.KernelIdeal.Hand

end
-- ==== Proof.KiProj2.lean ====
import proofs.«145376_g10471130268016_week1_w2_219_10_alg».proof.Proof.Gen.KernelIdeal.Launch
import proofs.«145376_g10471130268016_week1_w2_219_10_alg».proof.Proof.Gen.KernelIdeal.Skeleton
import proofs.«145376_g10471130268016_week1_w2_219_10_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the projection body leaves in its output buffer: the product of the row block with the whole weight matrix. -/
def out2_2 (xh : Vec F S2048x512 .f32) (xW : Vec F S512x1024 .f32) : Vec F S2048x1024 .bf16 :=
  k2_pay1 xh xW

/-- The proof data of the first projection. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-! ## The input windows hold their blocks -/

/-- The row window's current staging buffer holds its block at every point: the window is uncut and never idle, and
    the body leaves the block where it found it, so the buffer holds what a fetch would put there; for an uncut window
    that is the block read off the array. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t := by
  have hblk : ∀ s, dat.blockOf 0 s = iblk2 V c 0 s := fun s => by
    unfold Dat.blockOf iblk2; rw [hA]; try rfl
  have hfetched : dat.fetched 0 t d = dat.blockOf 0 t := by
    unfold Dat.fetched; try rfl
  rw [dat.before_in_eq_fetched 0 rfl (fun _ => rfl) (fun _ _ _ => rfl)
    (fun s => (congrArg _ (hafter s)).trans (hblk s).symm) t d, hfetched, hblk]

/-- The weight window's current staging buffer holds its block at every point, although it is fetched only at the
    first: where it is not fetched its block index has not moved, so what the previous point left is this point's
    block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t := by
  have hblk : ∀ s, dat.blockOf 1 s = iblk2 V c 1 s := fun s => by
    unfold Dat.blockOf iblk2; rw [hA]; try rfl
  have hfetched : dat.fetched 1 t d = dat.blockOf 1 t := by
    unfold Dat.fetched; try rfl
  rw [dat.before_in_eq_fetched 1 rfl (fun _ => rfl) (fun _ _ _ => rfl)
    (fun s => (congrArg _ (hafter s)).trans (hblk s).symm) t d, hfetched, hblk]

/-! ## The body's accesses: each buffer through its whole rectangle -/

abbrev r2_0 : Rect S2048x512 := Rect.unit (s := S2048x512) ![0, 0] S2048x512.size inb_S2048x512_S2048x512_0_0
abbrev r2_1 : Rect S512x1024 := Rect.unit (s := S512x1024) ![0, 0] S512x1024.size inb_S512x1024_S512x1024_0_0
abbrev r2_2 : Rect S2048x1024 := Rect.unit (s := S2048x1024) ![0, 0] S2048x1024.size inb_S2048x1024_S2048x1024_0_0

/-- The output buffer after the body as the one store laid over it: the product's payload through the whole
    rectangle, over loads of the two inputs through theirs. -/
def canon2_2 (xh : Vec F S2048x512 .f32) (xW : Vec F S512x1024 .f32) : Vec F S2048x1024 .bf16 :=
  View.canon [⟨r2_2, k2_pay1 (View.ld xh r2_0) (View.ld xW r2_1)⟩]

/-- The one store covers the output buffer. -/
theorem cover2_2 (p : Vec F S2048x1024 .bf16) (y : S2048x1024.Idx) :
    ∃ pc ∈ ([⟨r2_2, p⟩] : List (View.Piece (Elt F) S2048x1024 .bf16)), y ∈ pc.1.set :=
  View.cover_of_tiled [⟨r2_2, p⟩] S2048x1024.size (by rfl) y

/-! ## The body's triple -/

set_option maxHeartbeats 1000000 in
/-- The body on whole staging memrefs, the two inputs' at read contents `xh` and `xW` and the output's at anything,
    runs to the continuation holding the inputs' as they were and the output's at the one store's canon: two loads,
    a load of the output buffer whose value is not used, and the store that covers it. -/
theorem sound_kernel2 (c : Dev nD) (E : Set ℕ) (i : grid2.Coords)
    (argh : Memref sig .tc .vmem S2048x512 .f32) (hargh : argh.IsWhole)
    (argW : Memref sig .tc .vmem S512x1024 .f32) (hargW : argW.IsWhole)
    (argo : Memref sig .tc .vmem S2048x1024 .bf16) (hargo : argo.IsWhole)
    (xh : Vec F S2048x512 .f32) (xW : Vec F S512x1024 .f32) (K : PUnit → sProp 𝕄) :
    iprop(owns (c : Thread nD τ) argh fullShare xh ∗ owns (c : Thread nD τ) argW fullShare xW
        ∗ (∃ d, owns (c : Thread nD τ) argo fullShare d)
        ∗ (iprop(owns (c : Thread nD τ) argh fullShare xh ∗ owns (c : Thread nD τ) argW fullShare xW
            ∗ owns (c : Thread nD τ) argo fullShare (canon2_2 xh xW)) -∗ K ⟨⟩))
      ⊢ wp frame (wpE (defs₀ (F := F)) Variants.none c none) E (cc2__proj_kernel i argh hargh argW hargW argo hargo) K := by
  simp only [cc2__proj_kernel_eq_skeleton]; unfold cc2__proj_kernel_skel
  unfold owns
  iintro ⟨⟨%fh, %hfh, Hh⟩, ⟨%fW, %hfW, HW⟩, ⟨%dd, %fo, -, Ho⟩, Hk⟩
  subst hfh; subst hfW
  sl_exec
  sl_step
  iapply Hk
  isplitl [Hh]
  · iexists fh; isplitr; · ipureintro; rfl
    iexact Hh
  isplitl [HW]
  · iexists fW; isplitr; · ipureintro; rfl
    iexact HW
  iexists _; isplitr
  swap; · iexact Ho
  ipureintro
  exact View.read_writes_eq_canon _ _ _ (cover2_2 _)

/-! ## The store's canon is the product itself -/

/-- A rectangle of the shape's own sizes at zero offsets and unit strides places every index at itself. -/
theorem emb2_2 (y : r2_2.shape.Idx) : r2_2.emb y = y := by
  funext a; apply Fin.ext
  show (![0, 0] : Fin 2 → ℕ) a + 1 * (y a : Nat) = y a
  fin_cases a <;> simp

theorem idx2_0 (y : r2_0.shape.Idx) : r2_0.idx y = y := by
  funext a; apply Fin.ext
  show (![0, 0] : Fin 2 → ℕ) a + 1 * (y a : Nat) = y a
  fin_cases a <;> simp

theorem idx2_1 (y : r2_1.shape.Idx) : r2_1.idx y = y := by
  funext a; apply Fin.ext
  show (![0, 0] : Fin 2 → ℕ) a + 1 * (y a : Nat) = y a
  fin_cases a <;> simp

/-- Every access of the body goes through a whole rectangle, so the loads read the inputs as they are and the one
    store's canon is its payload: the product of the two inputs. -/
theorem canon2_2_eq (xh : Vec F S2048x512 .f32) (xW : Vec F S512x1024 .f32) : canon2_2 xh xW = out2_2 xh xW := by
  have eh : View.ld xh r2_0 = xh := funext fun y => congrArg xh (idx2_0 y)
  have eW : View.ld xW r2_1 = xW := funext fun y => congrArg xW (idx2_1 y)
  unfold canon2_2 out2_2
  rw [eh, eW]
  funext y
  have h := View.canon_cons_emb (Val := Elt F) (e := .bf16) r2_2 (k2_pay1 xh xW) [] y
  rw [emb2_2] at h
  exact h

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`: the invariant, the core's debt, and each window's current staging
    buffer at what the pipeline left in it, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns: the same with each buffer at what the body leaves there. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the two input buffers hold their blocks, so the body's triple applies; the invariant and
    the core's debt pass through untouched, and the output buffer ends at the product of the two blocks. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, ← canon2_2_eq]
  iintro ⟨HΦ, Ho, ⟨%dh, Hh⟩, ⟨%dW, HW⟩, ⟨%dd, Hd⟩⟩
  iapply (sound_kernel2 c Set.univ _ _ _ _ _ _ _ (iblk2 V c 0 t) (iblk2 V c 1 t) _)
  isplitl [Hh]; · iexact Hh
  isplitl [HW]; · iexact HW
  isplitl [Hd]; · iexists _; iexact Hd
  iintro ⟨Hh, HW, Hd⟩
  isplitl [HΦ]; · iexact HΦ
  isplitl [Ho]; · iexact Ho
  isplitl [Hh]; · iexact Hh
  isplitl [HW]; · iexact HW
  iexact Hd

/-- The body obligation of the first projection, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KiAgg3.lean ====
import proofs.«145376_g10471130268016_week1_w2_219_10_alg».proof.Proof.Gen.KernelIdeal.Launch
import proofs.«145376_g10471130268016_week1_w2_219_10_alg».proof.Proof.Gen.KernelIdeal.Skeleton
import proofs.«145376_g10471130268016_week1_w2_219_10_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses to the accumulator: its left and right halves, and the whole -/

abbrev rL3 : Rect S2048x512 := Rect.unit (s := S2048x512) ![0, 0] S2048x256.size inb_S2048x512_S2048x256_0_0
abbrev rR3 : Rect S2048x512 := Rect.unit (s := S2048x512) ![0, 256] S2048x256.size inb_S2048x512_S2048x256_0_256
abbrev rW3 : Rect S2048x512 := Rect.unit (s := S2048x512) ![0, 0] S2048x512.size inb_S2048x512_S2048x512_0_0
/-- The accumulator the kernel keeps between grid points. -/
abbrev scM3 : Memref sig .tc .vmem S2048x512 .f32 := Memref.whole cc3_scratch0

/-- The accumulator as the first point of a row block resets it. -/
def zeroS3 : Vec F S2048x512 .f32 := View.canon [⟨rW3, k3_pay3⟩]

/-- The accumulator after one point's two updates, from what it held before them (`s`): the left half gains the two
    backward products, the right half the two forward ones. The pieces are listed last store first. -/
def accStep3 (xw : Vec F S512x1024 .bf16) (aBa aBb aFa aFb : Vec F S2048x512 .f32) (s : Vec F S2048x512 .f32) : Vec F S2048x512 .f32 :=
  View.canon [⟨rR3, k3_pay1 (k3_pay6 xw aFa aFb (View.ld s rR3))⟩, ⟨rL3, k3_pay5 xw aBa aBb (View.ld s rL3)⟩]

/-- What the last point of a row block stores into the output buffer, from the finished accumulator. -/
def finStep3 (s : Vec F S2048x512 .f32) (bpre : Vec F S1x512 .f32) (wl : Vec F S512x512 .f32) (blin : Vec F S1x512 .f32)
    (h : Vec F S2048x512 .f32) : Vec F S2048x512 .f32 :=
  View.canon [⟨rW3, k3_pay2 s bpre wl blin h⟩]

/-- THE ACCUMULATION: the accumulator after the body at position `n`. A point whose contraction coordinate is 0
    starts from the reset accumulator, any other from what the point before left. -/
def sAt3 (c : Dev nD) : (n : ℕ) → n < cfg3.N → Vec F S2048x512 .f32
  | 0, hn => accStep3 (iblk3 V c 4 ⟨0, hn⟩) (iblk3 V c 0 ⟨0, hn⟩) (iblk3 V c 1 ⟨0, hn⟩) (iblk3 V c 2 ⟨0, hn⟩) (iblk3 V c 3 ⟨0, hn⟩) zeroS3
  | n + 1, hn => accStep3 (iblk3 V c 4 ⟨n + 1, hn⟩) (iblk3 V c 0 ⟨n + 1, hn⟩) (iblk3 V c 1 ⟨n + 1, hn⟩) (iblk3 V c 2 ⟨n + 1, hn⟩) (iblk3 V c 3 ⟨n + 1, hn⟩)
      (if (n + 1) % 8 = 0 then zeroS3 else sAt3 c n (Nat.lt_of_succ_lt hn))

/-- What the output buffer holds after a point that stores it (the last of a row block); at the other points the
    window is idle and this value is consulted by nothing. -/
def oAt3 (c : Dev nD) (t : Fin cfg3.N) : Vec F S2048x512 .f32 :=
  finStep3 (sAt3 V c t.val t.isLt) (iblk3 V c 6 t) (iblk3 V c 5 t) (iblk3 V c 7 t) (iblk3 V c 8 t)

/-- The core's scoped buffers that are neither a staging buffer of this region nor its accumulator, each at some
    contents: the region carries them unopened. -/
abbrev restS3 (c : Dev nD) : sProp 𝕄 :=
  Pipeline.scopedRestBut (Ix := Unit) (Name := ℕ) (U := UR sig nD τ) (Lvl := ℕ) (Val := Elt F) spec3 c [cc3_scratch0]

/-- The region invariant before position `n`: before the first point the class's; afterwards the accumulator at what
    the point before left, the other scoped buffers at some contents and the generator register at some state. -/
def PhiS3 (c : Dev nD) : (n : ℕ) → n ≤ cfg3.N → sProp 𝕄
  | 0, _ => Pipeline.ΦA spec3 c
  | n + 1, hn => iprop(iprop(owns (c : Thread nD τ) scM3 fullShare (sAt3 V c n hn) ∗ restS3 c) ∗ (∃ r, prngReg c r))

/-- The proof data of the first aggregation. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => oAt3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem after3_9 (c : Dev nD) (t : Fin cfg3.N) : (dat3 V c).after 9 t = oAt3 V c t := by dsimp only [dat3]

/-! ## The class's invariant, the accumulator named -/

/-- The class's invariant with the accumulator as a memref owned at some contents, the other scoped buffers unopened. -/
theorem PhiA3_eq (c : Dev nD) :
    (Pipeline.ΦA spec3 c : sProp 𝕄)
      = iprop(iprop((∃ d, owns (c : Thread nD τ) scM3 fullShare d) ∗ restS3 c) ∗ (∃ r, prngReg c r)) := by
  unfold Pipeline.ΦA; rw [scopedRest3_split]; simp only [scM3, owns_whole]; try rfl

/-! ## The body's two conditions, decided over the grid -/

/-- The condition of the body's first `scf.if` (the reset of the accumulator), from the grid coordinates. -/
abbrev cond3_a (i : grid3.Coords) : Prop :=
  (Scalar.cmpi .ne (Scalar.extui (Scalar.cmpi .eq (BitVec.ofNat 32 (i 1).val) 0#32)) 0#32) = 1#1
/-- It holds at the points whose contraction coordinate is 0. -/
theorem hcond3_a : ∀ t : Fin cfg3.N, cond3_a (grid3.coords t) ↔ t.val % 8 = 0 :=
  (by decide +kernel : ∀ t : Fin grid3.N, cond3_a (grid3.coords t) ↔ t.val % 8 = 0)

/-- The condition of the body's second `scf.if` (the output's store). -/
abbrev cond3_b (i : grid3.Coords) : Prop := k3_cond2 i = 1#1
/-- It holds at the points whose contraction coordinate is 7. -/
theorem hcond3_b : ∀ t : Fin cfg3.N, cond3_b (grid3.coords t) ↔ t.val % 8 = 7 :=
  (by decide +kernel : ∀ t : Fin grid3.N, cond3_b (grid3.coords t) ↔ t.val % 8 = 7)

/-! ## Where the windows are idle -/

/-- An input window is never idle. -/
theorem liveAt3_in (w : Fin cfg3.W) (hw : w.val < 9) : ∀ i, cfg3.idle w i = false := by
  intro i
  match w, hw with
  | ⟨0, _⟩, _ => rfl | ⟨1, _⟩, _ => rfl | ⟨2, _⟩, _ => rfl | ⟨3, _⟩, _ => rfl | ⟨4, _⟩, _ => rfl
  | ⟨5, _⟩, _ => rfl | ⟨6, _⟩, _ => rfl | ⟨7, _⟩, _ => rfl | ⟨8, _⟩, _ => rfl
/-- Where the second condition fails the output window is idle, -/
theorem idleAt3_9 : ∀ t : Fin cfg3.N, ¬cond3_b (grid3.coords t) → cfg3.idle 9 (grid3.coords t) = true := by decide +kernel
/-- and not written back; -/
theorem noFlush3_9 : ∀ t : Fin cfg3.N, ¬cond3_b (grid3.coords t) → (cfg3.win 9).flush t = false := by decide +kernel
/-- where it holds the window is live. -/
theorem liveAt3_9 : ∀ t : Fin cfg3.N, cond3_b (grid3.coords t) → cfg3.idle 9 (grid3.coords t) = false := by decide +kernel

/-- The zero offsets, however spelt. -/
theorem hz3_off : (![0, 0] : Fin 2 → Nat) = fun _ => 0 := funext fun a => by fin_cases a <;> rfl

/-! ## The accumulator's pieces -/

/-- The two halves cover the accumulator, whatever is stored through them. -/
theorem cover3_halves (p : rR3.shape.Idx → Elt F .f32) (q : rL3.shape.Idx → Elt F .f32) :
    ∀ y : S2048x512.Idx, ∃ pc ∈ ([⟨rR3, p⟩, ⟨rL3, q⟩] : List (View.Piece (Elt F) S2048x512 .f32)), y ∈ pc.1.set :=
  View.cover_of_tiledL _ S2048x256.size (by sl_kernel_rfl)

/-- One store through the whole accumulator covers it. -/
theorem cover3_whole (p : rW3.shape.Idx → Elt F .f32) :
    ∀ y : S2048x512.Idx, ∃ pc ∈ ([⟨rW3, p⟩] : List (View.Piece (Elt F) S2048x512 .f32)), y ∈ pc.1.set :=
  fun y => ⟨_, List.mem_singleton_self _, View.mem_set_unit_zero hz3_off inb_S2048x512_S2048x512_0_0 y⟩

/-- The left half ends where the right half begins. -/
theorem disj3_halves : Disjoint rL3.set rR3.toLoadRect.set := Rect.unit_disjoint 1 (.inl (by decide))

/-- A load of the whole accumulator after both halves were stored reads the two pieces. -/
theorem readCov3_whole (v : View sig .tc .vmem S2048x512 .f32) (p : rR3.shape.Idx → Elt F .f32) (q : rL3.shape.Idx → Elt F .f32) :
    v.readCov [⟨rR3, p⟩, ⟨rL3, q⟩] rW3.toLoadRect
      = View.canon ([⟨rR3, p⟩, ⟨rL3, q⟩] : List (View.Piece (Elt F) S2048x512 .f32)) := by
  rw [View.readCov_eq_canon_ld _ _ _ (cover3_halves p q)]; exact View.ld_unit_zero hz3_off _ _

/-- After the reset a load of the left half reads the reset accumulator's, -/
theorem readCov3_reset_L (v : View sig .tc .vmem S2048x512 .f32) :
    v.readCov [⟨rW3, k3_pay3 (F := F)⟩] rL3.toLoadRect = View.ld (zeroS3 (F := F)) rL3 := by
  unfold zeroS3; exact View.readCov_eq_canon_ld _ _ _ (cover3_whole _)

/-- and so does a load of the right half after the left half's store: the halves are disjoint. -/
theorem readCov3_reset_R (v : View sig .tc .vmem S2048x512 .f32) (q : rL3.shape.Idx → Elt F .f32) :
    v.readCov [⟨rL3, q⟩, ⟨rW3, k3_pay3 (F := F)⟩] rR3.toLoadRect = View.ld (zeroS3 (F := F)) rR3 := by
  rw [View.readCov_cons_of_disjoint v ⟨rL3, q⟩ [⟨rW3, k3_pay3 (F := F)⟩] rR3.toLoadRect disj3_halves]; unfold zeroS3
  exact View.readCov_eq_canon_ld _ _ _ (cover3_whole _)

/-! ## The body's triple, case by case -/
set_option maxHeartbeats 2000000 in
/-- A point that resets (contraction coordinate 0): whatever the accumulator held, it ends at `accStep3 … zeroS3`;
    every window's buffer is handed back as found. -/
theorem sound_kernel3_A (c : Dev nD) (i : grid3.Coords) (ma : Memref sig .tc .vmem S2048x512 .f32) (ha : ma.IsWhole) (mb : Memref sig .tc .vmem S2048x512 .f32) (hb : mb.IsWhole) (mc : Memref sig .tc .vmem S2048x512 .f32) (hc : mc.IsWhole) (md : Memref sig .tc .vmem S2048x512 .f32) (hd : md.IsWhole) (mw : Memref sig .tc .vmem S512x1024 .bf16) (hw : mw.IsWhole) (ml : Memref sig .tc .vmem S512x512 .f32) (hl : ml.IsWhole) (mp : Memref sig .tc .vmem S1x512 .f32) (hp : mp.IsWhole) (mq : Memref sig .tc .vmem S1x512 .f32) (hq : mq.IsWhole) (mh : Memref sig .tc .vmem S2048x512 .f32) (hh : mh.IsWhole) (mo : Memref sig .tc .vmem S2048x512 .f32) (ho : mo.IsWhole) (ms : Memref sig .tc .vmem S2048x512 .f32) (hs : ms.IsWhole)
    (hka : cond3_a i) (hkb : ¬cond3_b i) (xa xb xc xd : Vec F S2048x512 .f32) (xw : Vec F S512x1024 .bf16) (xl : Vec F S512x512 .f32) (xp xq : Vec F S1x512 .f32) (xh : Vec F S2048x512 .f32) (xo : Vec F S2048x512 .f32)
    (E : Set ℕ) (K : PUnit → sProp 𝕄) :
    iprop(owns (c : Thread nD τ) ma fullShare xa ∗ owns (c : Thread nD τ) mb fullShare xb ∗ owns (c : Thread nD τ) mc fullShare xc ∗ owns (c : Thread nD τ) md fullShare xd ∗ owns (c : Thread nD τ) mw fullShare xw ∗ owns (c : Thread nD τ) ml fullShare xl ∗ owns (c : Thread nD τ) mp fullShare xp ∗ owns (c : Thread nD τ) mq fullShare xq ∗ owns (c : Thread nD τ) mh fullShare xh ∗ owns (c : Thread nD τ) mo fullShare xo ∗ (∃ d, owns (c : Thread nD τ) ms fullShare d)
        ∗ (iprop(owns (c : Thread nD τ) ma fullShare xa ∗ owns (c : Thread nD τ) mb fullShare xb ∗ owns (c : Thread nD τ) mc fullShare xc ∗ owns (c : Thread nD τ) md fullShare xd ∗ owns (c : Thread nD τ) mw fullShare xw ∗ owns (c : Thread nD τ) ml fullShare xl ∗ owns (c : Thread nD τ) mp fullShare xp ∗ owns (c : Thread nD τ) mq fullShare xq ∗ owns (c : Thread nD τ) mh fullShare xh ∗ owns (c : Thread nD τ) mo fullShare xo ∗ owns (c : Thread nD τ) ms fullShare (accStep3 xw xa xb xc xd zeroS3)) -∗ K ⟨⟩))
      ⊢ wp frame (wpE (defs₀ (F := F)) Variants.none c none) E (cc3__agg_kernel i ma ha mb hb mc hc md hd mw hw ml hl mp hp mq hq mh hh mo ho ms hs) K := by
  simp only [cc3__agg_kernel_eq_skeleton]; unfold cc3__agg_kernel_skel
  simp only [k3_part1_eq_skeleton]; unfold k3_part1_skel
  unfold owns
  iintro ⟨⟨%fa, %hfa, Ha⟩, ⟨%fb, %hfb, Hb⟩, ⟨%fc, %hfc, Hc⟩, ⟨%fd, %hfd, Hd⟩, ⟨%fw, %hfw, Hw⟩, ⟨%fl, %hfl, Hl⟩, ⟨%fp, %hfp, Hp⟩, ⟨%fq, %hfq, Hq⟩, ⟨%fh, %hfh, Hh⟩, ⟨%fo, %hfo, Ho⟩, ⟨%ds, %fs, -, Hs⟩, Hk⟩
  obtain rfl := ha.eq_unread hfa; obtain rfl := hb.eq_unread hfb; obtain rfl := hc.eq_unread hfc; obtain rfl := hd.eq_unread hfd
  obtain rfl := hw.eq_unread hfw; obtain rfl := hl.eq_unread hfl; obtain rfl := hp.eq_unread hfp; obtain rfl := hq.eq_unread hfq
  obtain rfl := hh.eq_unread hfh; obtain rfl := ho.eq_unread hfo
  sl_exec (disch := first | exact hka | exact hkb)
  sl_step
  iapply Hk
  isplitl [Ha]
  · iexists _; isplitr
    · ipureintro; exact hfa
    · iexact Ha
  isplitl [Hb]
  · iexists _; isplitr
    · ipureintro; exact hfb
    · iexact Hb
  isplitl [Hc]
  · iexists _; isplitr
    · ipureintro; exact hfc
    · iexact Hc
  isplitl [Hd]
  · iexists _; isplitr
    · ipureintro; exact hfd
    · iexact Hd
  isplitl [Hw]
  · iexists _; isplitr
    · ipureintro; exact hfw
    · iexact Hw
  isplitl [Hl]
  · iexists _; isplitr
    · ipureintro; exact hfl
    · iexact Hl
  isplitl [Hp]
  · iexists _; isplitr
    · ipureintro; exact hfp
    · iexact Hp
  isplitl [Hq]
  · iexists _; isplitr
    · ipureintro; exact hfq
    · iexact Hq
  isplitl [Hh]
  · iexists _; isplitr
    · ipureintro; exact hfh
    · iexact Hh
  isplitl [Ho]
  · iexists _; isplitr
    · ipureintro; exact hfo
    · iexact Ho
  iexists _; isplitr; swap
  · iexact Hs
  ipureintro
  sl_unfold_run_names
  refine (View.read_writes_eq_canon _ (View.writes _ _ fs [_]) [_, _] ?_).trans ?_
  · exact cover3_halves _ _
  unfold accStep3
  rw [readCov3_reset_R, readCov3_reset_L]
  dsimp only
  simp only [View.readAt_eq_ld, hfa, hfb, hfc, hfd, hfw, View.ld_unit_zero (S := S2048x512) hz3_off,
    View.ld_unit_zero (S := S512x1024) hz3_off]
  try rfl

set_option maxHeartbeats 2000000 in
/-- A point that neither resets nor finishes (contraction coordinate strictly between 0 and 7): the accumulator goes
    from `s` to `accStep3 … s`; every window's buffer is handed back as found. -/
theorem sound_kernel3_B (c : Dev nD) (i : grid3.Coords) (ma : Memref sig .tc .vmem S2048x512 .f32) (ha : ma.IsWhole) (mb : Memref sig .tc .vmem S2048x512 .f32) (hb : mb.IsWhole) (mc : Memref sig .tc .vmem S2048x512 .f32) (hc : mc.IsWhole) (md : Memref sig .tc .vmem S2048x512 .f32) (hd : md.IsWhole) (mw : Memref sig .tc .vmem S512x1024 .bf16) (hw : mw.IsWhole) (ml : Memref sig .tc .vmem S512x512 .f32) (hl : ml.IsWhole) (mp : Memref sig .tc .vmem S1x512 .f32) (hp : mp.IsWhole) (mq : Memref sig .tc .vmem S1x512 .f32) (hq : mq.IsWhole) (mh : Memref sig .tc .vmem S2048x512 .f32) (hh : mh.IsWhole) (mo : Memref sig .tc .vmem S2048x512 .f32) (ho : mo.IsWhole) (ms : Memref sig .tc .vmem S2048x512 .f32) (hs : ms.IsWhole)
    (hka : ¬cond3_a i) (hkb : ¬cond3_b i) (xa xb xc xd : Vec F S2048x512 .f32) (xw : Vec F S512x1024 .bf16) (xl : Vec F S512x512 .f32) (xp xq : Vec F S1x512 .f32) (xh : Vec F S2048x512 .f32) (xo s : Vec F S2048x512 .f32)
    (E : Set ℕ) (K : PUnit → sProp 𝕄) :
    iprop(owns (c : Thread nD τ) ma fullShare xa ∗ owns (c : Thread nD τ) mb fullShare xb ∗ owns (c : Thread nD τ) mc fullShare xc ∗ owns (c : Thread nD τ) md fullShare xd ∗ owns (c : Thread nD τ) mw fullShare xw ∗ owns (c : Thread nD τ) ml fullShare xl ∗ owns (c : Thread nD τ) mp fullShare xp ∗ owns (c : Thread nD τ) mq fullShare xq ∗ owns (c : Thread nD τ) mh fullShare xh ∗ owns (c : Thread nD τ) mo fullShare xo ∗ owns (c : Thread nD τ) ms fullShare s
        ∗ (iprop(owns (c : Thread nD τ) ma fullShare xa ∗ owns (c : Thread nD τ) mb fullShare xb ∗ owns (c : Thread nD τ) mc fullShare xc ∗ owns (c : Thread nD τ) md fullShare xd ∗ owns (c : Thread nD τ) mw fullShare xw ∗ owns (c : Thread nD τ) ml fullShare xl ∗ owns (c : Thread nD τ) mp fullShare xp ∗ owns (c : Thread nD τ) mq fullShare xq ∗ owns (c : Thread nD τ) mh fullShare xh ∗ owns (c : Thread nD τ) mo fullShare xo ∗ owns (c : Thread nD τ) ms fullShare (accStep3 xw xa xb xc xd s)) -∗ K ⟨⟩))
      ⊢ wp frame (wpE (defs₀ (F := F)) Variants.none c none) E (cc3__agg_kernel i ma ha mb hb mc hc md hd mw hw ml hl mp hp mq hq mh hh mo ho ms hs) K := by
  simp only [cc3__agg_kernel_eq_skeleton]; unfold cc3__agg_kernel_skel
  simp only [k3_part1_eq_skeleton]; unfold k3_part1_skel
  unfold owns
  iintro ⟨⟨%fa, %hfa, Ha⟩, ⟨%fb, %hfb, Hb⟩, ⟨%fc, %hfc, Hc⟩, ⟨%fd, %hfd, Hd⟩, ⟨%fw, %hfw, Hw⟩, ⟨%fl, %hfl, Hl⟩, ⟨%fp, %hfp, Hp⟩, ⟨%fq, %hfq, Hq⟩, ⟨%fh, %hfh, Hh⟩, ⟨%fo, %hfo, Ho⟩, ⟨%fs, %hfs, Hs⟩, Hk⟩
  obtain rfl := ha.eq_unread hfa; obtain rfl := hb.eq_unread hfb; obtain rfl := hc.eq_unread hfc; obtain rfl := hd.eq_unread hfd
  obtain rfl := hw.eq_unread hfw; obtain rfl := hl.eq_unread hfl; obtain rfl := hp.eq_unread hfp; obtain rfl := hq.eq_unread hfq
  obtain rfl := hh.eq_unread hfh; obtain rfl := ho.eq_unread hfo; obtain rfl := hs.eq_unread hfs
  sl_exec (disch := first | exact hka | exact hkb)
  sl_step
  iapply Hk
  isplitl [Ha]
  · iexists _; isplitr
    · ipureintro; exact hfa
    · iexact Ha
  isplitl [Hb]
  · iexists _; isplitr
    · ipureintro; exact hfb
    · iexact Hb
  isplitl [Hc]
  · iexists _; isplitr
    · ipureintro; exact hfc
    · iexact Hc
  isplitl [Hd]
  · iexists _; isplitr
    · ipureintro; exact hfd
    · iexact Hd
  isplitl [Hw]
  · iexists _; isplitr
    · ipureintro; exact hfw
    · iexact Hw
  isplitl [Hl]
  · iexists _; isplitr
    · ipureintro; exact hfl
    · iexact Hl
  isplitl [Hp]
  · iexists _; isplitr
    · ipureintro; exact hfp
    · iexact Hp
  isplitl [Hq]
  · iexists _; isplitr
    · ipureintro; exact hfq
    · iexact Hq
  isplitl [Hh]
  · iexists _; isplitr
    · ipureintro; exact hfh
    · iexact Hh
  isplitl [Ho]
  · iexists _; isplitr
    · ipureintro; exact hfo
    · iexact Ho
  iexists _; isplitr; swap
  · iexact Hs
  ipureintro
  refine (View.read_writes_eq_canon _ _ _ ?_).trans ?_
  · exact View.cover_of_tiledL _ S2048x256.size (by sl_kernel_rfl)
  unfold accStep3
  sl_unfold_run_names
  dsimp only
  simp only [View.readAt_eq_ld, hfa, hfb, hfc, hfd, hfw, hfs, View.ld_unit_zero (S := S2048x512) hz3_off,
    View.ld_unit_zero (S := S512x1024) hz3_off]
  try rfl

set_option maxHeartbeats 2000000 in
/-- A point that finishes a row block (contraction coordinate 7): the accumulator goes from `s` to `accStep3 … s`, and
    the output's buffer, whatever it held, ends at `finStep3` of that. -/
theorem sound_kernel3_C (c : Dev nD) (i : grid3.Coords) (ma : Memref sig .tc .vmem S2048x512 .f32) (ha : ma.IsWhole) (mb : Memref sig .tc .vmem S2048x512 .f32) (hb : mb.IsWhole) (mc : Memref sig .tc .vmem S2048x512 .f32) (hc : mc.IsWhole) (md : Memref sig .tc .vmem S2048x512 .f32) (hd : md.IsWhole) (mw : Memref sig .tc .vmem S512x1024 .bf16) (hw : mw.IsWhole) (ml : Memref sig .tc .vmem S512x512 .f32) (hl : ml.IsWhole) (mp : Memref sig .tc .vmem S1x512 .f32) (hp : mp.IsWhole) (mq : Memref sig .tc .vmem S1x512 .f32) (hq : mq.IsWhole) (mh : Memref sig .tc .vmem S2048x512 .f32) (hh : mh.IsWhole) (mo : Memref sig .tc .vmem S2048x512 .f32) (ho : mo.IsWhole) (ms : Memref sig .tc .vmem S2048x512 .f32) (hs : ms.IsWhole)
    (hka : ¬cond3_a i) (hkb : cond3_b i) (xa xb xc xd : Vec F S2048x512 .f32) (xw : Vec F S512x1024 .bf16) (xl : Vec F S512x512 .f32) (xp xq : Vec F S1x512 .f32) (xh : Vec F S2048x512 .f32) (s : Vec F S2048x512 .f32)
    (E : Set ℕ) (K : PUnit → sProp 𝕄) :
    iprop(owns (c : Thread nD τ) ma fullShare xa ∗ owns (c : Thread nD τ) mb fullShare xb ∗ owns (c : Thread nD τ) mc fullShare xc ∗ owns (c : Thread nD τ) md fullShare xd ∗ owns (c : Thread nD τ) mw fullShare xw ∗ owns (c : Thread nD τ) ml fullShare xl ∗ owns (c : Thread nD τ) mp fullShare xp ∗ owns (c : Thread nD τ) mq fullShare xq ∗ owns (c : Thread nD τ) mh fullShare xh ∗ (∃ d, owns (c : Thread nD τ) mo fullShare d) ∗ owns (c : Thread nD τ) ms fullShare s
        ∗ (iprop(owns (c : Thread nD τ) ma fullShare xa ∗ owns (c : Thread nD τ) mb fullShare xb ∗ owns (c : Thread nD τ) mc fullShare xc ∗ owns (c : Thread nD τ) md fullShare xd ∗ owns (c : Thread nD τ) mw fullShare xw ∗ owns (c : Thread nD τ) ml fullShare xl ∗ owns (c : Thread nD τ) mp fullShare xp ∗ owns (c : Thread nD τ) mq fullShare xq ∗ owns (c : Thread nD τ) mh fullShare xh ∗ owns (c : Thread nD τ) mo fullShare (finStep3 (accStep3 xw xa xb xc xd s) xp xl xq xh)
            ∗ owns (c : Thread nD τ) ms fullShare (accStep3 xw xa xb xc xd s)) -∗ K ⟨⟩))
      ⊢ wp frame (wpE (defs₀ (F := F)) Variants.none c none) E (cc3__agg_kernel i ma ha mb hb mc hc md hd mw hw ml hl mp hp mq hq mh hh mo ho ms hs) K := by
  simp only [cc3__agg_kernel_eq_skeleton]; unfold cc3__agg_kernel_skel
  simp only [k3_part1_eq_skeleton]; unfold k3_part1_skel
  unfold owns
  iintro ⟨⟨%fa, %hfa, Ha⟩, ⟨%fb, %hfb, Hb⟩, ⟨%fc, %hfc, Hc⟩, ⟨%fd, %hfd, Hd⟩, ⟨%fw, %hfw, Hw⟩, ⟨%fl, %hfl, Hl⟩, ⟨%fp, %hfp, Hp⟩, ⟨%fq, %hfq, Hq⟩, ⟨%fh, %hfh, Hh⟩, ⟨%dout, %fo, -, Ho⟩, ⟨%fs, %hfs, Hs⟩, Hk⟩
  obtain rfl := ha.eq_unread hfa; obtain rfl := hb.eq_unread hfb; obtain rfl := hc.eq_unread hfc; obtain rfl := hd.eq_unread hfd
  obtain rfl := hw.eq_unread hfw; obtain rfl := hl.eq_unread hfl; obtain rfl := hp.eq_unread hfp; obtain rfl := hq.eq_unread hfq
  obtain rfl := hh.eq_unread hfh; obtain rfl := hs.eq_unread hfs
  sl_exec (disch := first | exact hka | exact hkb)
  sl_step
  iapply Hk
  isplitl [Ha]
  · iexists _; isplitr
    · ipureintro; exact hfa
    · iexact Ha
  isplitl [Hb]
  · iexists _; isplitr
    · ipureintro; exact hfb
    · iexact Hb
  isplitl [Hc]
  · iexists _; isplitr
    · ipureintro; exact hfc
    · iexact Hc
  isplitl [Hd]
  · iexists _; isplitr
    · ipureintro; exact hfd
    · iexact Hd
  isplitl [Hw]
  · iexists _; isplitr
    · ipureintro; exact hfw
    · iexact Hw
  isplitl [Hl]
  · iexists _; isplitr
    · ipureintro; exact hfl
    · iexact Hl
  isplitl [Hp]
  · iexists _; isplitr
    · ipureintro; exact hfp
    · iexact Hp
  isplitl [Hq]
  · iexists _; isplitr
    · ipureintro; exact hfq
    · iexact Hq
  isplitl [Hh]
  · iexists _; isplitr
    · ipureintro; exact hfh
    · iexact Hh
  isplitl [Ho]
  · iexists _; isplitr; swap
    · iexact Ho
    ipureintro
    refine (View.read_writes_eq_canon _ _ _ ?_).trans ?_
    · exact cover3_whole _
    unfold finStep3 accStep3
    sl_unfold_run_names
    rw [readCov3_whole]
    dsimp only
    simp only [View.readAt_eq_ld, hfa, hfb, hfc, hfd, hfw, hfl, hfp, hfq, hfh, hfs, View.ld_unit_zero (S := S2048x512) hz3_off,
      View.ld_unit_zero (S := S512x1024) hz3_off, View.ld_unit_zero (S := S512x512) hz3_off,
      View.ld_unit_zero (S := S1x512) hz3_off]
    try rfl
  iexists _; isplitr; swap
  · iexact Hs
  ipureintro
  sl_unfold_run_names
  refine (View.read_writes_eq_canon _ _ _ ?_).trans ?_
  · exact cover3_halves _ _
  unfold accStep3
  dsimp only
  simp only [View.readAt_eq_ld, hfa, hfb, hfc, hfd, hfw, hfs, View.ld_unit_zero (S := S2048x512) hz3_off,
    View.ld_unit_zero (S := S512x1024) hz3_off]
  try rfl

/-! ## What the body finds in the input windows' buffers, and leaves there -/

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]

/-- Each input's current staging buffer holds its block at every point, fetched there or not: unfetched, the block
    index has not moved. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl)
    (fun t => by rw [after3_5]; unfold Dat.blockOf iblk3; rw [A_eq3]; try rfl) t d).trans
    (by unfold Dat.fetched Dat.blockOf iblk3; rw [A_eq3]; try rfl)
theorem before3_6 (c : Dev nD) (t : Fin cfg3.N) (d) : (dat3 V c).before 6 t d = iblk3 V c 6 t :=
  ((dat3 V c).before_in_eq_fetched 6 rfl (fun _ => rfl) (fun _ _ _ => rfl)
    (fun t => by rw [after3_6]; unfold Dat.blockOf iblk3; rw [A_eq3]; try rfl) t d).trans
    (by unfold Dat.fetched Dat.blockOf iblk3; rw [A_eq3]; try rfl)
theorem before3_7 (c : Dev nD) (t : Fin cfg3.N) (d) : (dat3 V c).before 7 t d = iblk3 V c 7 t :=
  ((dat3 V c).before_in_eq_fetched 7 rfl (fun _ => rfl) (fun _ _ _ => rfl)
    (fun t => by rw [after3_7]; unfold Dat.blockOf iblk3; rw [A_eq3]; try rfl) t d).trans
    (by unfold Dat.fetched Dat.blockOf iblk3; rw [A_eq3]; try rfl)
theorem before3_8 (c : Dev nD) (t : Fin cfg3.N) (d) : (dat3 V c).before 8 t d = iblk3 V c 8 t :=
  ((dat3 V c).before_in_eq_fetched 8 rfl (fun _ => rfl) (fun _ _ _ => rfl)
    (fun t => by rw [after3_8]; unfold Dat.blockOf iblk3; rw [A_eq3]; try rfl) t d).trans
    (by unfold Dat.fetched Dat.blockOf iblk3; rw [A_eq3]; try rfl)

/-- Each window's current staging memref at point `t`, spelled as the pipeline passes it, and its wholeness. -/
abbrev ms3_0 (t : Fin cfg3.N) := win3_0.stage (cfg3.slots t 0)
abbrev hs3_0 (t : Fin cfg3.N) : (ms3_0 t).IsWhole := hstage3_0 ((cfg3.slots t 0).cast nbuf3_0)
abbrev ms3_1 (t : Fin cfg3.N) := win3_1.stage (cfg3.slots t 1)
abbrev hs3_1 (t : Fin cfg3.N) : (ms3_1 t).IsWhole := hstage3_1 ((cfg3.slots t 1).cast nbuf3_1)
abbrev ms3_2 (t : Fin cfg3.N) := win3_2.stage (cfg3.slots t 2)
abbrev hs3_2 (t : Fin cfg3.N) : (ms3_2 t).IsWhole := hstage3_2 ((cfg3.slots t 2).cast nbuf3_2)
abbrev ms3_3 (t : Fin cfg3.N) := win3_3.stage (cfg3.slots t 3)
abbrev hs3_3 (t : Fin cfg3.N) : (ms3_3 t).IsWhole := hstage3_3 ((cfg3.slots t 3).cast nbuf3_3)
abbrev ms3_4 (t : Fin cfg3.N) := win3_4.stage (cfg3.slots t 4)
abbrev hs3_4 (t : Fin cfg3.N) : (ms3_4 t).IsWhole := hstage3_4 ((cfg3.slots t 4).cast nbuf3_4)
abbrev ms3_5 (t : Fin cfg3.N) := win3_5.stage (cfg3.slots t 5)
abbrev hs3_5 (t : Fin cfg3.N) : (ms3_5 t).IsWhole := hstage3_5 ((cfg3.slots t 5).cast nbuf3_5)
abbrev ms3_6 (t : Fin cfg3.N) := win3_6.stage (cfg3.slots t 6)
abbrev hs3_6 (t : Fin cfg3.N) : (ms3_6 t).IsWhole := hstage3_6 ((cfg3.slots t 6).cast nbuf3_6)
abbrev ms3_7 (t : Fin cfg3.N) := win3_7.stage (cfg3.slots t 7)
abbrev hs3_7 (t : Fin cfg3.N) : (ms3_7 t).IsWhole := hstage3_7 ((cfg3.slots t 7).cast nbuf3_7)
abbrev ms3_8 (t : Fin cfg3.N) := win3_8.stage (cfg3.slots t 8)
abbrev hs3_8 (t : Fin cfg3.N) : (ms3_8 t).IsWhole := hstage3_8 ((cfg3.slots t 8).cast nbuf3_8)
abbrev ms3_9 (t : Fin cfg3.N) := win3_9.stage (cfg3.slots t 9)
abbrev hs3_9 (t : Fin cfg3.N) : (ms3_9 t).IsWhole := hstage3_9 ((cfg3.slots t 9).cast nbuf3_9)

/-- An input window is live everywhere: the body hands its buffer back at its block. -/
theorem leaves3_0 (c : Dev nD) (t : Fin cfg3.N) :
    (dat3 V c).leavesExact 0 t = owns (c : Thread nD τ) (ms3_0 t) fullShare (iblk3 V c 0 t) := by
  unfold Dat.leavesExact; rw [liveAt3_in 0 (by decide) (grid3.coords t), after3_0]
theorem leaves3_1 (c : Dev nD) (t : Fin cfg3.N) :
    (dat3 V c).leavesExact 1 t = owns (c : Thread nD τ) (ms3_1 t) fullShare (iblk3 V c 1 t) := by
  unfold Dat.leavesExact; rw [liveAt3_in 1 (by decide) (grid3.coords t), after3_1]
theorem leaves3_2 (c : Dev nD) (t : Fin cfg3.N) :
    (dat3 V c).leavesExact 2 t = owns (c : Thread nD τ) (ms3_2 t) fullShare (iblk3 V c 2 t) := by
  unfold Dat.leavesExact; rw [liveAt3_in 2 (by decide) (grid3.coords t), after3_2]
theorem leaves3_3 (c : Dev nD) (t : Fin cfg3.N) :
    (dat3 V c).leavesExact 3 t = owns (c : Thread nD τ) (ms3_3 t) fullShare (iblk3 V c 3 t) := by
  unfold Dat.leavesExact; rw [liveAt3_in 3 (by decide) (grid3.coords t), after3_3]
theorem leaves3_4 (c : Dev nD) (t : Fin cfg3.N) :
    (dat3 V c).leavesExact 4 t = owns (c : Thread nD τ) (ms3_4 t) fullShare (iblk3 V c 4 t) := by
  unfold Dat.leavesExact; rw [liveAt3_in 4 (by decide) (grid3.coords t), after3_4]
theorem leaves3_5 (c : Dev nD) (t : Fin cfg3.N) :
    (dat3 V c).leavesExact 5 t = owns (c : Thread nD τ) (ms3_5 t) fullShare (iblk3 V c 5 t) := by
  unfold Dat.leavesExact; rw [liveAt3_in 5 (by decide) (grid3.coords t), after3_5]
theorem leaves3_6 (c : Dev nD) (t : Fin cfg3.N) :
    (dat3 V c).leavesExact 6 t = owns (c : Thread nD τ) (ms3_6 t) fullShare (iblk3 V c 6 t) := by
  unfold Dat.leavesExact; rw [liveAt3_in 6 (by decide) (grid3.coords t), after3_6]
theorem leaves3_7 (c : Dev nD) (t : Fin cfg3.N) :
    (dat3 V c).leavesExact 7 t = owns (c : Thread nD τ) (ms3_7 t) fullShare (iblk3 V c 7 t) := by
  unfold Dat.leavesExact; rw [liveAt3_in 7 (by decide) (grid3.coords t), after3_7]
theorem leaves3_8 (c : Dev nD) (t : Fin cfg3.N) :
    (dat3 V c).leavesExact 8 t = owns (c : Thread nD τ) (ms3_8 t) fullShare (iblk3 V c 8 t) := by
  unfold Dat.leavesExact; rw [liveAt3_in 8 (by decide) (grid3.coords t), after3_8]

/-! ## The accumulation, point by point -/

/-- At a point that resets, the accumulator ends one step from the reset accumulator. -/
theorem sAt3_reset (c : Dev nD) (t : Fin cfg3.N) (hk : t.val % 8 = 0) :
    sAt3 V c t.val t.isLt
      = accStep3 (iblk3 V c 4 t) (iblk3 V c 0 t) (iblk3 V c 1 t) (iblk3 V c 2 t) (iblk3 V c 3 t) zeroS3 := by
  obtain ⟨n, hn⟩ := t
  cases n with
  | zero => rfl
  | succ n => dsimp only at hk ⊢; rw [sAt3, if_pos hk]

/-- At any other point, one step from what the point before left. -/
theorem sAt3_step (c : Dev nD) (t : Fin cfg3.N) (hk : ¬t.val % 8 = 0) :
    sAt3 V c t.val t.isLt
      = accStep3 (iblk3 V c 4 t) (iblk3 V c 0 t) (iblk3 V c 1 t) (iblk3 V c 2 t) (iblk3 V c 3 t)
          (sAt3 V c (t.val - 1) (Nat.lt_of_le_of_lt (Nat.sub_le _ _) t.isLt)) := by
  obtain ⟨n, hn⟩ := t
  cases n with
  | zero => exact absurd (Nat.zero_mod _) hk
  | succ n => dsimp only at hk ⊢; rw [sAt3, if_neg hk]; rfl

/-! ## The invariant, position by position -/

theorem PhiS3_zero (c : Dev nD) (n : ℕ) (h : n ≤ cfg3.N) (hz : n = 0) : PhiS3 V c n h = Pipeline.ΦA spec3 c := by
  subst hz; rfl

/-- After point `n`: the accumulator at that point's contents. -/
theorem PhiS3_succ (c : Dev nD) (n : ℕ) (hn : n < cfg3.N) :
    PhiS3 V c (n + 1) hn
      = iprop(iprop(owns (c : Thread nD τ) scM3 fullShare (sAt3 V c n hn) ∗ restS3 c) ∗ (∃ r, prngReg c r)) := rfl

/-- Before a point that is not the first: the accumulator at what the point before left. -/
theorem PhiS3_pos (c : Dev nD) (n : ℕ) (h : n ≤ cfg3.N) (hz : n ≠ 0) :
    PhiS3 V c n h
      = iprop(iprop(owns (c : Thread nD τ) scM3 fullShare (sAt3 V c (n - 1) (by omega)) ∗ restS3 c) ∗ (∃ r, prngReg c r)) := by
  cases n with
  | zero => exact absurd rfl hz
  | succ n => rfl

/-- The invariant at a point's start, restated at the point's position. -/
theorem PhiS3_castSucc (c : Dev nD) (t : Fin cfg3.N) :
    (dat3 V c).Φ t.castSucc = PhiS3 V c t.val (Nat.le_of_lt t.isLt) := by
  dsimp only [dat3]; simp only [Fin.coe_castSucc]

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t
    ∗ (dat3 V c).leavesExact 9 t)

set_option maxHeartbeats 4800000 in
/-- The body at any point: the inputs' memrefs hold their blocks; the contraction coordinate says which of the three
    cases the point is in; the invariant hands the body the accumulator at what the point before left (at anything at
    the first point) and takes it back one step on; the output's buffer is handed back untouched except at the last
    point of a row block, where it ends at the finished accumulator's image. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3, leaves3_4, leaves3_5, leaves3_6, leaves3_7, leaves3_8]
  have hN : t.val < 16 := lt_of_lt_of_eq t.isLt (show cfg3.N = 16 from N_3)
  by_cases hk : t.val % 8 = 0
  · have hkb : ¬cond3_b (grid3.coords t) := fun h => by have := (hcond3_b t).mp h; omega
    rw [Dat.leavesExact_idle (dat3 V c) 9 t (idleAt3_9 t hkb) (noFlush3_9 t hkb)]
    rw [sAt3_reset V c t hk]
    by_cases hz : t.val = 0
    · rw [PhiS3_castSucc V c t, PhiS3_zero V c _ _ hz, PhiA3_eq]
      iintro ⟨⟨⟨Hs, Hr⟩, Hg⟩, Ho, ⟨%da, Ha⟩, ⟨%db, Hb⟩, ⟨%dc, Hc⟩, ⟨%dd, Hd⟩, ⟨%dw, Hw⟩, ⟨%dl, Hl⟩, ⟨%dp, Hp⟩, ⟨%dq, Hq⟩, ⟨%dh, Hh⟩, ⟨%dout, Hout⟩⟩
      iapply (sound_kernel3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3 (Memref.isWhole_whole _) ((hcond3_a t).mpr hk) hkb
        (iblk3 V c 0 t) (iblk3 V c 1 t) (iblk3 V c 2 t) (iblk3 V c 3 t) (iblk3 V c 4 t) (iblk3 V c 5 t) (iblk3 V c 6 t) (iblk3 V c 7 t) (iblk3 V c 8 t) ((dat3 V c).before 9 t dout) Set.univ _)
      isplitl [Ha]; · iexact Ha
      isplitl [Hb]; · iexact Hb
      isplitl [Hc]; · iexact Hc
      isplitl [Hd]; · iexact Hd
      isplitl [Hw]; · iexact Hw
      isplitl [Hl]; · iexact Hl
      isplitl [Hp]; · iexact Hp
      isplitl [Hq]; · iexact Hq
      isplitl [Hh]; · iexact Hh
      isplitl [Hout]; · iexact Hout
      isplitl [Hs]; · iexact Hs
      iintro ⟨Ha, Hb, Hc, Hd, Hw, Hl, Hp, Hq, Hh, Hout, Hs⟩
      isplitl [Hs Hr Hg]
      · isplitl [Hs Hr]
        · isplitl [Hs]; · iexact Hs
          iexact Hr
        iexact Hg
      isplitl [Ho]; · iexact Ho
      isplitl [Ha]; · iexact Ha
      isplitl [Hb]; · iexact Hb
      isplitl [Hc]; · iexact Hc
      isplitl [Hd]; · iexact Hd
      isplitl [Hw]; · iexact Hw
      isplitl [Hl]; · iexact Hl
      isplitl [Hp]; · iexact Hp
      isplitl [Hq]; · iexact Hq
      isplitl [Hh]; · iexact Hh
      iexists _; iexact Hout
    · rw [PhiS3_castSucc V c t, PhiS3_pos V c _ _ hz]
      iintro ⟨⟨⟨Hs, Hr⟩, Hg⟩, Ho, ⟨%da, Ha⟩, ⟨%db, Hb⟩, ⟨%dc, Hc⟩, ⟨%dd, Hd⟩, ⟨%dw, Hw⟩, ⟨%dl, Hl⟩, ⟨%dp, Hp⟩, ⟨%dq, Hq⟩, ⟨%dh, Hh⟩, ⟨%dout, Hout⟩⟩
      iapply (sound_kernel3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3 (Memref.isWhole_whole _) ((hcond3_a t).mpr hk) hkb
        (iblk3 V c 0 t) (iblk3 V c 1 t) (iblk3 V c 2 t) (iblk3 V c 3 t) (iblk3 V c 4 t) (iblk3 V c 5 t) (iblk3 V c 6 t) (iblk3 V c 7 t) (iblk3 V c 8 t) ((dat3 V c).before 9 t dout) Set.univ _)
      isplitl [Ha]; · iexact Ha
      isplitl [Hb]; · iexact Hb
      isplitl [Hc]; · iexact Hc
      isplitl [Hd]; · iexact Hd
      isplitl [Hw]; · iexact Hw
      isplitl [Hl]; · iexact Hl
      isplitl [Hp]; · iexact Hp
      isplitl [Hq]; · iexact Hq
      isplitl [Hh]; · iexact Hh
      isplitl [Hout]; · iexact Hout
      isplitl [Hs]; · iexists _; iexact Hs
      iintro ⟨Ha, Hb, Hc, Hd, Hw, Hl, Hp, Hq, Hh, Hout, Hs⟩
      isplitl [Hs Hr Hg]
      · isplitl [Hs Hr]
        · isplitl [Hs]; · iexact Hs
          iexact Hr
        iexact Hg
      isplitl [Ho]; · iexact Ho
      isplitl [Ha]; · iexact Ha
      isplitl [Hb]; · iexact Hb
      isplitl [Hc]; · iexact Hc
      isplitl [Hd]; · iexact Hd
      isplitl [Hw]; · iexact Hw
      isplitl [Hl]; · iexact Hl
      isplitl [Hp]; · iexact Hp
      isplitl [Hq]; · iexact Hq
      isplitl [Hh]; · iexact Hh
      iexists _; iexact Hout
  · have hz : t.val ≠ 0 := fun h => hk (by omega)
    have hka : ¬cond3_a (grid3.coords t) := fun h => hk ((hcond3_a t).mp h)
    rw [sAt3_step V c t hk]
    rw [PhiS3_castSucc V c t, PhiS3_pos V c _ _ hz]
    by_cases hl : t.val % 8 = 7
    · have hkb : cond3_b (grid3.coords t) := (hcond3_b t).mpr hl
      rw [show (dat3 V c).leavesExact 9 t = owns (c : Thread nD τ) (ms3_9 t) fullShare ((dat3 V c).after 9 t) from by
        unfold Dat.leavesExact; rw [liveAt3_9 t hkb], after3_9]
      unfold oAt3
      rw [sAt3_step V c t hk]
      iintro ⟨⟨⟨Hs, Hr⟩, Hg⟩, Ho, ⟨%da, Ha⟩, ⟨%db, Hb⟩, ⟨%dc, Hc⟩, ⟨%dd, Hd⟩, ⟨%dw, Hw⟩, ⟨%dl, Hl⟩, ⟨%dp, Hp⟩, ⟨%dq, Hq⟩, ⟨%dh, Hh⟩, ⟨%dout, Hout⟩⟩
      iapply (sound_kernel3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3 (Memref.isWhole_whole _) hka hkb
        (iblk3 V c 0 t) (iblk3 V c 1 t) (iblk3 V c 2 t) (iblk3 V c 3 t) (iblk3 V c 4 t) (iblk3 V c 5 t) (iblk3 V c 6 t) (iblk3 V c 7 t) (iblk3 V c 8 t) (sAt3 V c (t.val - 1) (Nat.lt_of_le_of_lt (Nat.sub_le _ _) t.isLt)) Set.univ _)
      isplitl [Ha]; · iexact Ha
      isplitl [Hb]; · iexact Hb
      isplitl [Hc]; · iexact Hc
      isplitl [Hd]; · iexact Hd
      isplitl [Hw]; · iexact Hw
      isplitl [Hl]; · iexact Hl
      isplitl [Hp]; · iexact Hp
      isplitl [Hq]; · iexact Hq
      isplitl [Hh]; · iexact Hh
      isplitl [Hout]; · iexists _; iexact Hout
      isplitl [Hs]; · iexact Hs
      iintro ⟨Ha, Hb, Hc, Hd, Hw, Hl, Hp, Hq, Hh, Hout, Hs⟩
      isplitl [Hs Hr Hg]
      · isplitl [Hs Hr]
        · isplitl [Hs]; · iexact Hs
          iexact Hr
        iexact Hg
      isplitl [Ho]; · iexact Ho
      isplitl [Ha]; · iexact Ha
      isplitl [Hb]; · iexact Hb
      isplitl [Hc]; · iexact Hc
      isplitl [Hd]; · iexact Hd
      isplitl [Hw]; · iexact Hw
      isplitl [Hl]; · iexact Hl
      isplitl [Hp]; · iexact Hp
      isplitl [Hq]; · iexact Hq
      isplitl [Hh]; · iexact Hh
      iexact Hout
    · have hkb : ¬cond3_b (grid3.coords t) := fun h => hl ((hcond3_b t).mp h)
      rw [Dat.leavesExact_idle (dat3 V c) 9 t (idleAt3_9 t hkb) (noFlush3_9 t hkb)]
      iintro ⟨⟨⟨Hs, Hr⟩, Hg⟩, Ho, ⟨%da, Ha⟩, ⟨%db, Hb⟩, ⟨%dc, Hc⟩, ⟨%dd, Hd⟩, ⟨%dw, Hw⟩, ⟨%dl, Hl⟩, ⟨%dp, Hp⟩, ⟨%dq, Hq⟩, ⟨%dh, Hh⟩, ⟨%dout, Hout⟩⟩
      iapply (sound_kernel3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3 (Memref.isWhole_whole _) hka hkb
        (iblk3 V c 0 t) (iblk3 V c 1 t) (iblk3 V c 2 t) (iblk3 V c 3 t) (iblk3 V c 4 t) (iblk3 V c 5 t) (iblk3 V c 6 t) (iblk3 V c 7 t) (iblk3 V c 8 t) ((dat3 V c).before 9 t dout) (sAt3 V c (t.val - 1) (Nat.lt_of_le_of_lt (Nat.sub_le _ _) t.isLt)) Set.univ _)
      isplitl [Ha]; · iexact Ha
      isplitl [Hb]; · iexact Hb
      isplitl [Hc]; · iexact Hc
      isplitl [Hd]; · iexact Hd
      isplitl [Hw]; · iexact Hw
      isplitl [Hl]; · iexact Hl
      isplitl [Hp]; · iexact Hp
      isplitl [Hq]; · iexact Hq
      isplitl [Hh]; · iexact Hh
      isplitl [Hout]; · iexact Hout
      isplitl [Hs]; · iexact Hs
      iintro ⟨Ha, Hb, Hc, Hd, Hw, Hl, Hp, Hq, Hh, Hout, Hs⟩
      isplitl [Hs Hr Hg]
      · isplitl [Hs Hr]
        · isplitl [Hs]; · iexact Hs
          iexact Hr
        iexact Hg
      isplitl [Ho]; · iexact Ho
      isplitl [Ha]; · iexact Ha
      isplitl [Hb]; · iexact Hb
      isplitl [Hc]; · iexact Hc
      isplitl [Hd]; · iexact Hd
      isplitl [Hw]; · iexact Hw
      isplitl [Hl]; · iexact Hl
      isplitl [Hp]; · iexact Hp
      isplitl [Hq]; · iexact Hq
      isplitl [Hh]; · iexact Hh
      iexists _; iexact Hout

/-- The body obligation of the first aggregation, at every point. -/
theorem body_obligation3 (c : Dev nD) : BodyObligation (dat3 (F := F) V c) (defs₀ (F := F)) Variants.none () Set.univ := fun t => by
  rw [bigSep_W3, bigSep_W3]
  exact sound_body3 V c t

/-- The class's invariant is the proof data's at the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the accumulator's named contents are forgotten. -/
theorem Phi3_out (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨Hs, Hr⟩, Hg⟩
  isplitl [Hs Hr]
  · isplitl [Hs]
    · iexists _; iexact Hs
    iexact Hr
  iexact Hg

/-- The proof data's invariant at the last point gives the class's back. -/
theorem hout3 (c : Dev nD) : (dat3 V c).Φ (Fin.last cfg3.N) ⊢ Pipeline.ΦA spec3 c :=
  Phi3_out V c _ (by rw [Fin.val_last]; have : cfg3.N = 16 := N_3; omega)

end Cert.KernelIdeal.Hand

end
-- ==== Proof.KiVals.lean ====
import proofs.«145376_g10471130268016_week1_w2_219_10_alg».proof.Proof.Gen.KernelIdeal.Regions
import proofs.«145376_g10471130268016_week1_w2_219_10_alg».proof.Proof.KiProj0
import proofs.«145376_g10471130268016_week1_w2_219_10_alg».proof.Proof.KiAgg1
import proofs.«145376_g10471130268016_week1_w2_219_10_alg».proof.Proof.KiProj2
import proofs.«145376_g10471130268016_week1_w2_219_10_alg».proof.Proof.KiAgg3

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

variable {F : FTy → Type} [FloatOps F]
variable (m : (ℓ : Loc nD τ sig) → Buf (Elt F) ℓ)

/-! ## The buffers' contents at each boundary of the program, by name

  The program is: host operations, projection, aggregation, host operations, projection, aggregation. Each region changes
  exactly one array, its result; the contents it leaves there are what the pipeline's write-backs fold to. -/

/-- Core `c`'s buffers when the first projection is entered: the launch contents after the first host stretch. -/
abbrev VA (c : Dev nD) : Valuation τ sig (Elt F) := StableHlo.after hostOps0 (fun b => m (c, b))
/-- The same, read at the TensorCore's references (what a region's proof data take). -/
abbrev vA : (c : Dev nD) → (b : Ref sig .tc) → Buf (Elt F) ((c : Thread nD τ).loc b) := fun c b => VA m c b
/-- What the first projection leaves in its result array. -/
def o26 (c : Dev nD) : Buf (Elt F) ((c : Thread nD τ).loc main_v26) := (dat0 (vA m) c).arrAt 2 cfg0.N
/-- Core `c`'s buffers when the first aggregation is entered. -/
abbrev VB (c : Dev nD) : Valuation τ sig (Elt F) := Function.update (VA m c) main_v26 (o26 m c)
abbrev vB : (c : Dev nD) → (b : Ref sig .tc) → Buf (Elt F) ((c : Thread nD τ).loc b) := fun c b => VB m c b
/-- What the first aggregation leaves in its result array: the first layer's output. -/
def o27 (c : Dev nD) : Buf (Elt F) ((c : Thread nD τ).loc main_v27) := (dat1 (vB m) c).arrAt 9 cfg1.N
/-- Core `c`'s buffers after the first layer. -/
abbrev VC (c : Dev nD) : Valuation τ sig (Elt F) := Function.update (VB m c) main_v27 (o27 m c)
/-- Core `c`'s buffers when the second projection is entered: after the second host stretch. -/
abbrev VD (c : Dev nD) : Valuation τ sig (Elt F) := StableHlo.after hostOps2 (VC m c)
abbrev vD : (c : Dev nD) → (b : Ref sig .tc) → Buf (Elt F) ((c : Thread nD τ).loc b) := fun c b => VD m c b
/-- What the second projection leaves in its result array. -/
def o54 (c : Dev nD) : Buf (Elt F) ((c : Thread nD τ).loc main_v54) := (dat2 (vD m) c).arrAt 2 cfg2.N
/-- Core `c`'s buffers when the second aggregation is entered. -/
abbrev VE (c : Dev nD) : Valuation τ sig (Elt F) := Function.update (VD m c) main_v54 (o54 m c)
abbrev vE : (c : Dev nD) → (b : Ref sig .tc) → Buf (Elt F) ((c : Thread nD τ).loc b) := fun c b => VE m c b
/-- What the second aggregation leaves in its result array: the program's result. -/
def o55 (c : Dev nD) : Buf (Elt F) ((c : Thread nD τ).loc main_v55) := (dat3 (vE m) c).arrAt 9 cfg3.N
/-- Core `c`'s buffers at the end. -/
abbrev VF (c : Dev nD) : Valuation τ sig (Elt F) := Function.update (VE m c) main_v55 (o55 m c)

/-- A buffer no host operation writes and no region changes ends as launched. -/
theorem VF_of (c : Dev nD) (r : Ref sig .tc) (hA : r ∉ hostOps0_W) (hD : r ∉ hostOps2_W)
    (hr : r ∉ ([main_v26, main_v27, main_v54, main_v55] : List (Ref sig .tc))) : VF m c r = m (c, r) := by
  obtain ⟨h26, h27, h54, h55⟩ : r ≠ main_v26 ∧ r ≠ main_v27 ∧ r ≠ main_v54 ∧ r ≠ main_v55 := by
    refine ⟨fun e => hr ?_, fun e => hr ?_, fun e => hr ?_, fun e => hr ?_⟩ <;> subst e <;> decide
  have eF : VF m c r = VE m c r := by
    simp only [VF, Function.update_of_ne (StableHlo.devRef_ne_of_ne h55 : (Proc.devRef .tc r : DevRef τ sig) ≠ Proc.devRef .tc main_v55)]
  have eE : VE m c r = VD m c r := by
    simp only [VE, Function.update_of_ne (StableHlo.devRef_ne_of_ne h54 : (Proc.devRef .tc r : DevRef τ sig) ≠ Proc.devRef .tc main_v54)]
  have eD : VD m c r = VC m c r := StableHlo.after_of_writes_sub hostOps2 _ hostOps2_writes hD
  have eC : VC m c r = VB m c r := by
    simp only [VC, Function.update_of_ne (StableHlo.devRef_ne_of_ne h27 : (Proc.devRef .tc r : DevRef τ sig) ≠ Proc.devRef .tc main_v27)]
  have eB : VB m c r = VA m c r := by
    simp only [VB, Function.update_of_ne (StableHlo.devRef_ne_of_ne h26 : (Proc.devRef .tc r : DevRef τ sig) ≠ Proc.devRef .tc main_v26)]
  have eA : VA m c r = m (c, r) := StableHlo.after_of_writes_sub hostOps0 _ hostOps0_writes hA
  exact eF.trans (eE.trans (eD.trans (eC.trans (eB.trans eA))))

/-- The result array at the end is what the second aggregation left. -/
theorem VF_result (c : Dev nD) : VF m c main_v55 = o55 m c := by
  simp only [VF, Function.update_self]

end Cert.KernelIdeal.Hand

end
-- ==== Proof.KiRun.lean ====
/-
  The run of the whole program: its six items — host operations, projection, aggregation, host operations, projection,
  aggregation — composed in order, each region entered from the buffers the item before it left and leaving them with its
  result array at what its write-backs fold to. Every weakly fair execution terminates without a fault, and at the end
  every buffer outside the regions' scopes holds the contents named in the module of the boundaries' contents: so the
  arguments are as launched, and the result array is what the second aggregation left.
-/
import proofs.«145376_g10471130268016_week1_w2_219_10_alg».proof.Proof.KiVals
import Idealize.ShloMosaic.Lib.Pipeline.Frame
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a region leaves: its result array at the write-backs' fold, every other buffer as entered

  Each region's exit contents are its entry contents updated at the one array it writes. An input window's array is not
  that array, so it ends as entered; the output window's array ends at the fold, by the definition of the named contents;
  a buffer behind no window is not the result array either. These are the two facts that put a region's arrays back among
  the core's unscoped buffers at the exit contents. -/

/-- Updating a valuation at one TensorCore reference leaves another one's contents alone. -/
theorem upd_other (W : Valuation τ sig (Elt F)) {r o : Ref sig .tc} (h : r ≠ o) (x : (Proc.devRef .tc o : DevRef τ sig).ty.Contents (Elt F)) :
    Function.update W (Proc.devRef .tc o) x (Proc.devRef .tc r) = W (Proc.devRef .tc r) :=
  Function.update_of_ne (StableHlo.devRef_ne_of_ne h) _ _

/-- Updating a valuation at a TensorCore reference puts the new contents there. -/
theorem upd_at (W : Valuation τ sig (Elt F)) (o : Ref sig .tc) (x : (Proc.devRef .tc o : DevRef τ sig).ty.Contents (Elt F)) :
    Function.update W (Proc.devRef .tc o) x (Proc.devRef .tc o) = x :=
  Function.update_self _ _ _

/-- The first projection's arrays at its exit. -/
theorem exitF0 (c : Dev nD) : ∀ w : Fin cfg0.W, (dat0 (vA m) c).arrAt w cfg0.N = vB m c (Pipeline.arrRef spec0 w)
  | ⟨0, _⟩ => (((dat0 (vA m) c).arrAt_in 0 rfl _).trans (A_eq0 (vA m) c 0)).trans (upd_other _ (by decide) _).symm
  | ⟨1, _⟩ => (((dat0 (vA m) c).arrAt_in 1 rfl _).trans (A_eq0 (vA m) c 1)).trans (upd_other _ (by decide) _).symm
  | ⟨2, _⟩ => (show (dat0 (vA m) c).arrAt 2 cfg0.N = o26 m c by unfold o26; rfl).trans (upd_at (VA m c) main_v26 (o26 m c)).symm
/-- Off its arrays the first projection changes nothing. -/
theorem exitRest0 (c : Dev nD) : ∀ b, b ∉ Finset.univ.image (Pipeline.arrRef spec0) → vB m c b = vA m c b :=
  fun b hb => upd_other _ (fun e => hb (Finset.mem_image.mpr ⟨2, Finset.mem_univ _, e.symm⟩)) _

/-- Every window of the first aggregation but the last reads; the last writes. -/
theorem agg1_reads : ∀ w : Fin cfg1.W, w ≠ 9 → (cfg1.win w).isOut = false := by decide
/-- The first aggregation's arrays at its exit. -/
theorem exitF1 (c : Dev nD) (w : Fin cfg1.W) : (dat1 (vB m) c).arrAt w cfg1.N = (fun b => VC m c b) (Pipeline.arrRef spec1 w) := by
  by_cases hw : w = 9
  · subst hw
    exact (show (dat1 (vB m) c).arrAt 9 cfg1.N = o27 m c by unfold o27; rfl).trans (upd_at (VB m c) main_v27 (o27 m c)).symm
  · exact (((dat1 (vB m) c).arrAt_in w (agg1_reads w hw) _).trans (A_eq1 (vB m) c w)).trans
      (upd_other _ (fun e => hw (launch1.win.arr_inj e)) _).symm
/-- Off its arrays the first aggregation changes nothing. -/
theorem exitRest1 (c : Dev nD) : ∀ b, b ∉ Finset.univ.image (Pipeline.arrRef spec1) → (fun b => VC m c b) b = vB m c b :=
  fun b hb => upd_other _ (fun e => hb (Finset.mem_image.mpr ⟨9, Finset.mem_univ _, e.symm⟩)) _

/-- The second projection's arrays at its exit. -/
theorem exitF2 (c : Dev nD) : ∀ w : Fin cfg2.W, (dat2 (vD m) c).arrAt w cfg2.N = vE m c (Pipeline.arrRef spec2 w)
  | ⟨0, _⟩ => (((dat2 (vD m) c).arrAt_in 0 rfl _).trans (A_eq2 (vD m) c 0)).trans (upd_other _ (by decide) _).symm
  | ⟨1, _⟩ => (((dat2 (vD m) c).arrAt_in 1 rfl _).trans (A_eq2 (vD m) c 1)).trans (upd_other _ (by decide) _).symm
  | ⟨2, _⟩ => (show (dat2 (vD m) c).arrAt 2 cfg2.N = o54 m c by unfold o54; rfl).trans (upd_at (VD m c) main_v54 (o54 m c)).symm
/-- Off its arrays the second projection changes nothing. -/
theorem exitRest2 (c : Dev nD) : ∀ b, b ∉ Finset.univ.image (Pipeline.arrRef spec2) → vE m c b = vD m c b :=
  fun b hb => upd_other _ (fun e => hb (Finset.mem_image.mpr ⟨2, Finset.mem_univ _, e.symm⟩)) _

/-- Every window of the second aggregation but the last reads; the last writes. -/
theorem agg3_reads : ∀ w : Fin cfg3.W, w ≠ 9 → (cfg3.win w).isOut = false := by decide
/-- The second aggregation's arrays at its exit. -/
theorem exitF3 (c : Dev nD) (w : Fin cfg3.W) : (dat3 (vE m) c).arrAt w cfg3.N = (fun b => VF m c b) (Pipeline.arrRef spec3 w) := by
  by_cases hw : w = 9
  · subst hw
    exact (show (dat3 (vE m) c).arrAt 9 cfg3.N = o55 m c by unfold o55; rfl).trans (upd_at (VE m c) main_v55 (o55 m c)).symm
  · exact (((dat3 (vE m) c).arrAt_in w (agg3_reads w hw) _).trans (A_eq3 (vE m) c w)).trans
      (upd_other _ (fun e => hw (launch3.win.arr_inj e)) _).symm
/-- Off its arrays the second aggregation changes nothing. -/
theorem exitRest3 (c : Dev nD) : ∀ b, b ∉ Finset.univ.image (Pipeline.arrRef spec3) → (fun b => VF m c b) b = vE m c b :=
  fun b hb => upd_other _ (fun e => hb (Finset.mem_image.mpr ⟨9, Finset.mem_univ _, e.symm⟩)) _

/-! ## The proof data of the four pipelines and the thread state between items -/

/-- Every pipeline's proof data, each at the contents its region is entered from. -/
def pdatsH : (p : Fin 4) → (c : Dev nD) → Dat τ (Elt F) Unit ℕ (UR sig nD τ) ℕ (Pipeline.pin (pcfgs (F := F)) adm p) c
  | ⟨0, _⟩ => fun c => dat0 (vA m) c
  | ⟨1, _⟩ => fun c => dat1 (vB m) c
  | ⟨2, _⟩ => fun c => dat2 (vD m) c
  | ⟨3, _⟩ => fun c => dat3 (vE m) c
abbrev 𝒱H : Variants := Variants.none
/-- No core owes another anything: no level is assigned. -/
abbrev LH : GSem nD τ sig → Finset Unit := fun _ => ∅
abbrev lvH : GSem nD τ sig → Unit → ℕ := fun _ _ => 0
/-- What a core holds beside its buffers between two items: the generator register at some state, and that it owes
    nothing. -/
abbrev RH (c : Dev nD) : sProp 𝕄 := iprop((∃ r, prngReg c r) ∗ ∃ W, owes (c : Thread nD τ) (0 : CellTallies nD τ sig Unit) W)
/-- A stretch of host operations as a segment over every unscoped buffer, from the contents `W`: it ends at those
    contents after the operations, the rest riding along. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
/-- An unscoped TensorCore reference is among those the thread state holds. -/
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for what is owed: every unscoped buffer at the last contents, the generator register at
    some state. -/
abbrev TH (c : Dev nD) : sProp 𝕄 := iprop(StableHlo.held (c : Thread nD τ) (Pipeline.ucRefs τ sig) (VF m c) ∗ ∃ r, prngReg c r)

/-! ## The four regions as segments -/

set_option backward.isDefEq.respectTransparency.types false in
/-- The first projection as a segment: entered with every unscoped buffer at the contents the host stretch before it left, left
    with the result array at the fold of its write-backs. Its arrays are split out of the unscoped buffers at entry and put
    back at the exit contents; the generator register goes into the invariant and comes back; nothing is owed. -/
def regH0 : Pipeline.RegionSeg (pcfgs (F := F)) adm (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (vA m) c).loose
  hwaits := Pipeline.hwaits_of_owed_zero _ _ _ _ LH lvH 0 fun _ _ => rfl
  pre c := iprop(StableHlo.held (c : Thread nD τ) (Pipeline.ucRefs τ sig) (VA m c) ∗ RH c)
  post c := iprop(StableHlo.held (c : Thread nD τ) (Pipeline.ucRefs τ sig) (VB m c) ∗ RH c)
  X c := iprop(∃ r, prngReg c r)
  Y c := iprop(∃ r, prngReg c r)
  Z c := Pipeline.unscopedRest (Ix := Unit) (Name := ℕ) (U := UR sig nD τ) (Lvl := ℕ) spec0 c (vA m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (vA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (vA m c) (vB m c) ((pdatsH m 0 c).arrAt · cfg0.N) (exitF0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The first aggregation as a segment: entered with every unscoped buffer at the contents the projection before it left, left
    with the result array at the fold of its write-backs. The invariant it threads is the accumulation's, reached from the
    class's at the first point and giving the class's back at the last; the rest as for a projection. -/
def regH1 : Pipeline.RegionSeg (pcfgs (F := F)) adm (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (vB m) c).loose
  hwaits := Pipeline.hwaits_of_owed_zero _ _ _ _ LH lvH 1 fun _ _ => rfl
  pre c := iprop(StableHlo.held (c : Thread nD τ) (Pipeline.ucRefs τ sig) (VB m c) ∗ RH c)
  post c := iprop(StableHlo.held (c : Thread nD τ) (Pipeline.ucRefs τ sig) (VC m c) ∗ RH c)
  X c := iprop(∃ r, prngReg c r)
  Y c := iprop(∃ r, prngReg c r)
  Z c := Pipeline.unscopedRest (Ix := Unit) (Name := ℕ) (U := UR sig nD τ) (Lvl := ℕ) spec1 c (vB m c)
  hentry c := by
    rw [Pipeline.ownSems0_none]
    have hsplit := Pipeline.arrays_of_unscopedBufs (p := 1) (pcfgs (F := F)) adm (pdatsH m) launch1.win launch1.arr_whole c
      ((pdatsH m 1 c).share_full fun _ => rfl) (vB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (vB m) c)
    unfold Pipeline.ΦA
    iintro ⟨Hp, -, Hr⟩
    isplitl [Hr]; · iexact Hr
    iexact Hp
  hout c := by
    refine (hout1 (vB m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (vB m c) (fun b => VC m c b) ((pdatsH m 1 c).arrAt · cfg1.N) (exitF1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second projection as a segment: entered with every unscoped buffer at the contents the host stretch before it left, left
    with the result array at the fold of its write-backs. Its arrays are split out of the unscoped buffers at entry and put
    back at the exit contents; the generator register goes into the invariant and comes back; nothing is owed. -/
def regH2 : Pipeline.RegionSeg (pcfgs (F := F)) adm (pdatsH m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (vD m) c).loose
  hwaits := Pipeline.hwaits_of_owed_zero _ _ _ _ LH lvH 2 fun _ _ => rfl
  pre c := iprop(StableHlo.held (c : Thread nD τ) (Pipeline.ucRefs τ sig) (VD m c) ∗ RH c)
  post c := iprop(StableHlo.held (c : Thread nD τ) (Pipeline.ucRefs τ sig) (VE m c) ∗ RH c)
  X c := iprop(∃ r, prngReg c r)
  Y c := iprop(∃ r, prngReg c r)
  Z c := Pipeline.unscopedRest (Ix := Unit) (Name := ℕ) (U := UR sig nD τ) (Lvl := ℕ) spec2 c (vD m c)
  hentry c := by
    rw [Pipeline.ownSems0_none]
    have hsplit := Pipeline.arrays_of_unscopedBufs (p := 2) (pcfgs (F := F)) adm (pdatsH m) launch2.win launch2.arr_whole c
      ((pdatsH m 2 c).share_full fun _ => rfl) (vD m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdatsH m) ((pdatsH m 2 c).share_full fun _ => rfl)
      (vD m c) (vE m c) ((pdatsH m 2 c).arrAt · cfg2.N) (exitF2 m c) (exitRest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second aggregation as a segment: entered with every unscoped buffer at the contents the projection before it left, left
    with the result array at the fold of its write-backs — the last contents of the run. The invariant it threads is the
    accumulation's, reached from the class's at the first point and giving the class's back at the last; the rest as for a
    projection. -/
def regH3 : Pipeline.RegionSeg (pcfgs (F := F)) adm (pdatsH m) () defs₀ 𝒱H LH lvH 3 where
  win := launch3.win.to₀
  block_pos := launch3.block_pos
  stage_whole := launch3.stage_whole
  K := PEmpty
  osem k := k.elim
  ho := Pipeline.OwnSemFacts.none _
  hbody c := (body_obligation3 (vE m) c).loose
  hwaits := Pipeline.hwaits_of_owed_zero _ _ _ _ LH lvH 3 fun _ _ => rfl
  pre c := iprop(StableHlo.held (c : Thread nD τ) (Pipeline.ucRefs τ sig) (VE m c) ∗ RH c)
  post c := iprop(TH m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (vE m c)
  hentry c := by
    rw [Pipeline.ownSems0_none]
    have hsplit := Pipeline.arrays_of_unscopedBufs (p := 3) (pcfgs (F := F)) adm (pdatsH m) launch3.win launch3.arr_whole c
      ((pdatsH m 3 c).share_full fun _ => rfl) (vE m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec3 c : sProp 𝕄)).trans (hin3 (vE m) c)
    unfold Pipeline.ΦA
    iintro ⟨Hp, -, Hr⟩
    isplitl [Hr]; · iexact Hr
    iexact Hp
  hout c := by
    refine (hout3 (vE m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdatsH m) ((pdatsH m 3 c).share_full fun _ => rfl)
      (vE m c) (fun b => VF m c b) ((pdatsH m 3 c).arrAt · cfg3.N) (exitF3 m c) (exitRest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its six segments, and the launch -/

/-- The program's six items in order: a host segment per stretch from the contents it starts at, a region per pipeline. -/
abbrev segsH : List (Pipeline.Seg (pcfgs (F := F)) adm (pdatsH m) () defs₀ 𝒱H LH lvH) :=
  [ .host (hsegH hostOps0 hostOps0_sub hostOps0_fresh (fun c b => m (c, b))),
    .region (regH0 m),
    .region (regH1 m),
    .host (hsegH hostOps2 hostOps2_sub hostOps2_fresh (VC m)),
    .region (regH2 m),
    .region (regH3 m) ]
/-- The program is the run of those segments: it is the chain of its items, and so is the segments' run. -/
theorem main_runH (c : Dev nD) : main (F := F) c = Pipeline.Seg.run (segsH m) := by
  rw [main_chain c, Pipeline.Seg.run_eq_chain]
  rfl

set_option backward.isDefEq.respectTransparency.types false in
/-- THE RUN: every weakly fair execution from `m` with zero counters terminates, nothing faulting, and every buffer
    outside the regions' scopes ends at the last boundary's contents. The launch deals every core its unscoped buffers at
    the launch contents, its generator register and nothing owed; the six segments chain, each entered from exactly what
    the one before it left; the last thread state, read against a final state, says what that state's memory holds. -/
theorem run_all : θ_run defs (onTc (τ := τ) (main (F := F))) ⟨m, fun _ => 0, ρ⟩
    (fun r => ∀ c : Dev nD, ∀ b ∈ Pipeline.ucRefs τ sig, r.2.mem (((c : Thread nD τ)).1, b) = VF m c b) :=
  Pipeline.θ_run_regions_kit (pcfgs (F := F)) adm (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ RH c)) (Tₙ := TH m)
    (hch := ⟨fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = VF m c b)
    (hfin := fun c s' => by
      iintro ⟨⟨Hh, -⟩, HSI⟩
      unfold StableHlo.held
      imodintro
      iapply (pointsTo_read_all (Pipeline.ucRefs τ sig) (fun b => (((c : Thread nD τ)).1, b)) (VF m c) s')
      isplitl [Hh] <;> iassumption)
    (hQ := fun s h => h)

/-- The run with the result array named and the arguments unchanged: the result array is among the buffers the run
    accounts for and ends at what the second aggregation left; an argument array is among them too, and no host operation
    and no region writes it. -/
theorem run_value : θ_run defs (onTc (τ := τ) (main (F := F))) ⟨m, fun _ => 0, ρ⟩ (fun r => ∀ c : Dev nD,
      r.2.mem ((c.tc : Thread nD τ).loc main_v55) = o55 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_ucH main_v55 (by decide))).trans (VF_result m c),
      (h c _ (mem_ucH main_arg0 (by decide))).trans (VF_of m c main_arg0 (by decide) (by decide) (by decide)),
      (h c _ (mem_ucH main_arg1 (by decide))).trans (VF_of m c main_arg1 (by decide) (by decide) (by decide)),
      (h c _ (mem_ucH main_arg2 (by decide))).trans (VF_of m c main_arg2 (by decide) (by decide) (by decide)),
      (h c _ (mem_ucH main_arg3 (by decide))).trans (VF_of m c main_arg3 (by decide) (by decide) (by decide)),
      (h c _ (mem_ucH main_arg4 (by decide))).trans (VF_of m c main_arg4 (by decide) (by decide) (by decide)),
      (h c _ (mem_ucH main_arg5 (by decide))).trans (VF_of m c main_arg5 (by decide) (by decide) (by decide)),
      (h c _ (mem_ucH main_arg6 (by decide))).trans (VF_of m c main_arg6 (by decide) (by decide) (by decide)),
      (h c _ (mem_ucH main_arg7 (by decide))).trans (VF_of m c main_arg7 (by decide) (by decide) (by decide)),
      (h c _ (mem_ucH main_arg8 (by decide))).trans (VF_of m c main_arg8 (by decide) (by decide) (by decide)),
      (h c _ (mem_ucH main_arg9 (by decide))).trans (VF_of m c main_arg9 (by decide) (by decide) (by decide)),
      (h c _ (mem_ucH main_arg10 (by decide))).trans (VF_of m c main_arg10 (by decide) (by decide) (by decide))⟩) (run_all m ρ)

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2) (run_value m ρ)

end Cert.KernelIdeal.Hand

end
-- ==== Proof.Spec.lean ====
/-
  The function both programs compute, over the extended reals, as ONE term of the eleven argument arrays.

  A layer of the bidirectional graph convolution takes node features `h` (4096 × 512) to
      out i j = (∑ e, max (pre i e) 0 * Wl e j + bl j) + h i j
  where the pre-activation's 512 columns are two halves of 256: the left half aggregates over the two BACKWARD
  adjacencies, the right half over the two FORWARD ones,
      half a₀ a₁ W₀ W₁ b₀ b₁ i e = (∑ K, a₀ i K * xw W₀ K e + ∑ K, a₁ i K * xw W₁ K e) + (b₀ e + b₁ e),
      xw W K e = ∑ d, h K d * W d e.
  The network is two such layers, the second fed the first's output, each with its own slice of the weights.
  Nothing here needs a finite entry: only sums and products of extended reals are formed.
-/
import Idealize.ShloMosaic.PureOps.Ideal
import Idealize.ShloMosaic.Lib.ValueIdx

noncomputable section

namespace Cert.Spec

open Idealize.ShloMosaic

/-- Node features projected by one weight matrix: `xw h W K e = ∑ d, h K d * W d e`. -/
def xw (h : Fin 4096 → Fin 512 → EReal) (W : Fin 512 → Fin 256 → EReal) (K : Fin 4096) (e : Fin 256) : EReal :=
  ∑ d : Fin 512, h K d * W d e

/-- One relation's aggregate: row `i` of the adjacency against the projected features. -/
def gcn (adj : Fin 4096 → Fin 4096 → EReal) (h : Fin 4096 → Fin 512 → EReal) (W : Fin 512 → Fin 256 → EReal)
    (i : Fin 4096) (e : Fin 256) : EReal :=
  ∑ K : Fin 4096, adj i K * xw h W K e

/-- One direction's half of the pre-activation: the two relations' aggregates, then the two biases. -/
def half (a0 a1 : Fin 4096 → Fin 4096 → EReal) (h : Fin 4096 → Fin 512 → EReal) (W0 W1 : Fin 512 → Fin 256 → EReal)
    (b0 b1 : Fin 256 → EReal) (i : Fin 4096) (e : Fin 256) : EReal :=
  (gcn a0 h W0 i e + gcn a1 h W1 i e) + (b0 e + b1 e)

/-- The pre-activation: columns below 256 are the backward half, the others the forward half. -/
def pre (bw0 bw1 fw0 fw1 : Fin 4096 → Fin 4096 → EReal) (h : Fin 4096 → Fin 512 → EReal)
    (Wb0 Wb1 Wf0 Wf1 : Fin 512 → Fin 256 → EReal) (bb0 bb1 bf0 bf1 : Fin 256 → EReal)
    (i : Fin 4096) (e : Fin 512) : EReal :=
  if he : e.val < 256 then half bw0 bw1 h Wb0 Wb1 bb0 bb1 i ⟨e.val, he⟩
  else half fw0 fw1 h Wf0 Wf1 bf0 bf1 i ⟨e.val - 256, by have := e.isLt; omega⟩

/-- One layer: rectify, apply the linear map and its bias, add the residual. -/
def layer (bw0 bw1 fw0 fw1 : Fin 4096 → Fin 4096 → EReal) (h : Fin 4096 → Fin 512 → EReal)
    (Wb0 Wb1 Wf0 Wf1 : Fin 512 → Fin 256 → EReal) (bb0 bb1 bf0 bf1 : Fin 256 → EReal)
    (Wl : Fin 512 → Fin 512 → EReal) (bl : Fin 512 → EReal) (i : Fin 4096) (j : Fin 512) : EReal :=
  ((∑ e : Fin 512, max (pre bw0 bw1 fw0 fw1 h Wb0 Wb1 Wf0 Wf1 bb0 bb1 bf0 bf1 i e) 0 * Wl e j) + bl j) + h i j

/-! ## The arguments read at coordinates -/

abbrev Sh2 (a b : ℕ) : Shape := ⟨2, ![a, b]⟩
abbrev Sh3 (a b c : ℕ) : Shape := ⟨3, ![a, b, c]⟩
abbrev Sh4 (a b c d : ℕ) : Shape := ⟨4, ![a, b, c, d]⟩

/-- A rank-2 array read at two coordinates. -/
def at2 {a b : ℕ} (v : (Sh2 a b).Idx → EReal) (p : Fin a) (q : Fin b) : EReal := v (ValueIdx.ix2 p q)
/-- A rank-3 array read at three coordinates. -/
def at3 {a b c : ℕ} (v : (Sh3 a b c).Idx → EReal) (p : Fin a) (q : Fin b) (r : Fin c) : EReal := v (ValueIdx.ix3 p q r)
/-- A rank-4 array read at four coordinates. -/
def at4 {a b c d : ℕ} (v : (Sh4 a b c d).Idx → EReal) (p : Fin a) (q : Fin b) (r : Fin c) (s : Fin d) : EReal :=
  v (ValueIdx.ix4 p q r s)

/-- Layer `l` of the network on features `h`, its weights sliced out of the stacked arguments
    (`Wfw`, `bfw`: forward; `Wbw`, `bbw`: backward; relation index 0 or 1). -/
def layerAt (l : Fin 2) (fw0 fw1 bw0 bw1 : (Sh2 4096 4096).Idx → EReal)
    (Wfw : (Sh4 2 2 512 256).Idx → EReal) (bfw : (Sh3 2 2 256).Idx → EReal)
    (Wbw : (Sh4 2 2 512 256).Idx → EReal) (bbw : (Sh3 2 2 256).Idx → EReal)
    (Wlin : (Sh3 2 512 512).Idx → EReal) (blin : (Sh2 2 512).Idx → EReal)
    (h : Fin 4096 → Fin 512 → EReal) : Fin 4096 → Fin 512 → EReal :=
  layer (at2 bw0) (at2 bw1) (at2 fw0) (at2 fw1) h
    (at4 Wbw l 0) (at4 Wbw l 1) (at4 Wfw l 0) (at4 Wfw l 1)
    (at3 bbw l 0) (at3 bbw l 1) (at3 bfw l 0) (at3 bfw l 1)
    (at3 Wlin l) (at2 blin l)

/-- The whole network: layer 1 of layer 0 of the embeddings, as an array over `[4096, 512]`.
    The arguments are in the programs' order: embs, fw_adj_0, fw_adj_1, bw_adj_0, bw_adj_1, W_fw, b_fw, W_bw, b_bw,
    W_lin, b_lin. -/
def net (embs : (Sh2 4096 512).Idx → EReal) (fw0 fw1 bw0 bw1 : (Sh2 4096 4096).Idx → EReal)
    (Wfw : (Sh4 2 2 512 256).Idx → EReal) (bfw : (Sh3 2 2 256).Idx → EReal)
    (Wbw : (Sh4 2 2 512 256).Idx → EReal) (bbw : (Sh3 2 2 256).Idx → EReal)
    (Wlin : (Sh3 2 512 512).Idx → EReal) (blin : (Sh2 2 512).Idx → EReal) : (Sh2 4096 512).Idx → EReal :=
  fun j => layerAt 1 fw0 fw1 bw0 bw1 Wfw bfw Wbw bbw Wlin blin
    (layerAt 0 fw0 fw1 bw0 bw1 Wfw bfw Wbw bbw Wlin blin (at2 embs)) (j 0) (j 1)

/-! ## The same layer as the kernel arranges it

  The kernel projects the features ONCE against the four weight matrices laid side by side (1024 columns), aggregates
  each adjacency against its own 256 columns of that product, adds the two biases of a direction as one vector, and
  only then rectifies. These are the shapes its regions are read in; `aggOut_eq_layer` (proved in another module) says
  they compute `layer`. -/

/-- The projection against the stacked weights. -/
def proj (h : Fin 4096 → Fin 512 → EReal) (W : Fin 512 → Fin 1024 → EReal) (K : Fin 4096) (j : Fin 1024) : EReal :=
  ∑ d : Fin 512, h K d * W d j

/-- The pre-activation less its bias, from the stacked projection `xw`: adjacency `aBa` against columns 0–255 plus
    `aBb` against 256–511 in the left half; `aFa` against 512–767 plus `aFb` against 768–1023 in the right half. -/
def aggS (aBa aBb aFa aFb : Fin 4096 → Fin 4096 → EReal) (xw : Fin 4096 → Fin 1024 → EReal) (i : Fin 4096) (e : Fin 512) : EReal :=
  if he : e.val < 256 then
    (∑ K : Fin 4096, aBa i K * xw K ⟨e.val, by omega⟩) + (∑ K : Fin 4096, aBb i K * xw K ⟨e.val + 256, by omega⟩)
  else
    (∑ K : Fin 4096, aFa i K * xw K ⟨e.val + 256, by have := e.isLt; omega⟩) + (∑ K : Fin 4096, aFb i K * xw K ⟨e.val + 512, by have := e.isLt; omega⟩)

/-- The aggregation region's result: bias, rectify, the linear map, its bias, the residual. -/
def aggOut (aBa aBb aFa aFb : Fin 4096 → Fin 4096 → EReal) (xw : Fin 4096 → Fin 1024 → EReal)
    (wl : Fin 512 → Fin 512 → EReal) (bpre blin : Fin 512 → EReal) (h : Fin 4096 → Fin 512 → EReal)
    (i : Fin 4096) (j : Fin 512) : EReal :=
  ((∑ e : Fin 512, max (aggS aBa aBb aFa aFb xw i e + bpre e) 0 * wl e j) + blin j) + h i j

/-- The four weight matrices side by side: backward 0, backward 1, forward 0, forward 1. -/
def wcat (Wb0 Wb1 Wf0 Wf1 : Fin 512 → Fin 256 → EReal) (d : Fin 512) (j : Fin 1024) : EReal :=
  if h1 : j.val < 256 then Wb0 d ⟨j.val, h1⟩
  else if h2 : j.val < 512 then Wb1 d ⟨j.val - 256, by omega⟩
  else if h3 : j.val < 768 then Wf0 d ⟨j.val - 512, by omega⟩
  else Wf1 d ⟨j.val - 768, by have := j.isLt; omega⟩

/-- The two directions' summed biases end to end. -/
def bcat (bb0 bb1 bf0 bf1 : Fin 256 → EReal) (e : Fin 512) : EReal :=
  if he : e.val < 256 then bb0 ⟨e.val, he⟩ + bb1 ⟨e.val, he⟩
  else bf0 ⟨e.val - 256, by have := e.isLt; omega⟩ + bf1 ⟨e.val - 256, by have := e.isLt; omega⟩

/-- Row 0 of a `[1, n]` array. -/
def row0 {n : ℕ} (v : (Sh2 1 n).Idx → EReal) (q : Fin n) : EReal := v (ValueIdx.ix2 0 q)

end Cert.Spec

end
-- ==== Proof.KiHost.lean ====
/-
  What the first host stretch leaves in the buffers the first layer's regions read, at the ideal instance: the four weight
  matrices of the layer side by side, the two directions' summed biases end to end (as a row), the linear map's bias as a
  row, the linear map's matrix; and that no argument array is touched. The reads of a slice, a reshape, a row broadcast and
  a concatenation at coordinates are stated for either layer of the stacked arguments.
-/
import proofs.«145376_g10471130268016_week1_w2_219_10_alg».proof.Proof.KiVals
import proofs.«145376_g10471130268016_week1_w2_219_10_alg».proof.Proof.Spec
import Idealize.ShloMosaic.Lib.StableHlo.Run
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)
open Cert.Spec (at2 at3 at4 row0)

variable (m : (ℓ : Loc nD τ sig) → Buf (Elt Ideal) ℓ) (c : Dev nD)

/-! ## Layout operations read at coordinates -/

section Reads
variable {α : Type}

/-- A unit slice of a stacked rank-3 array at layer `l`, reshaped to a matrix, read at `(p, q)`. -/
theorem slice3_reshape_at {n a b : ℕ} (off : Fin 3 → ℕ) (l : Fin n) (h0 : off 0 = l.val) (h1 : off 1 = 0) (h2 : off 2 = 0)
    (X : (⟨3, ![n, a, b]⟩ : Shape).Idx → α) (hs : (⟨3, ![n, a, b]⟩ : Shape).Slices off ⟨3, ![1, a, b]⟩)
    (hc : (⟨3, ![1, a, b]⟩ : Shape).ShapeCasts ⟨2, ![a, b]⟩) (p : Fin a) (q : Fin b) :
    shapeCast (⟨2, ![a, b]⟩ : Shape) (extractStridedSlice (⟨3, ![1, a, b]⟩ : Shape) off X hs) hc (ValueIdx.ix2 p q)
      = X (ValueIdx.ix3 l p q) := by
  rw [shapeCast_apply _ hc (ValueIdx.ix2 p q) (ValueIdx.ix3 (0 : Fin 1) p q)
    (by rewrite [Shape.rowMajor_val_three, Shape.rowMajor_val_two]
        show (0 * a + p.val) * b + q.val = p.val * b + q.val
        simp only [Nat.zero_mul, Nat.zero_add])]
  exact extractStridedSlice_apply off X hs _ (ValueIdx.ix3 l p q) (fun x => match x with
    | ⟨0, _⟩ => by show l.val = off 0 + 0; omega
    | ⟨1, _⟩ => by show p.val = off 1 + p.val; omega
    | ⟨2, _⟩ => by show q.val = off 2 + q.val; omega)

/-- A unit slice of a stacked rank-4 array at `(l, r)`, reshaped to a matrix, read at `(p, q)`. -/
theorem slice4_reshape_at {n k a b : ℕ} (off : Fin 4 → ℕ) (l : Fin n) (r : Fin k) (h0 : off 0 = l.val) (h1 : off 1 = r.val)
    (h2 : off 2 = 0) (h3 : off 3 = 0)
    (X : (⟨4, ![n, k, a, b]⟩ : Shape).Idx → α) (hs : (⟨4, ![n, k, a, b]⟩ : Shape).Slices off ⟨4, ![1, 1, a, b]⟩)
    (hc : (⟨4, ![1, 1, a, b]⟩ : Shape).ShapeCasts ⟨2, ![a, b]⟩) (p : Fin a) (q : Fin b) :
    shapeCast (⟨2, ![a, b]⟩ : Shape) (extractStridedSlice (⟨4, ![1, 1, a, b]⟩ : Shape) off X hs) hc (ValueIdx.ix2 p q)
      = X (ValueIdx.ix4 l r p q) := by
  rw [shapeCast_apply _ hc (ValueIdx.ix2 p q) (ValueIdx.ix4 (0 : Fin 1) (0 : Fin 1) p q)
    (by rewrite [Shape.rowMajor_val_four, Shape.rowMajor_val_two]
        show ((0 * 1 + 0) * a + p.val) * b + q.val = p.val * b + q.val
        simp only [Nat.zero_mul, Nat.zero_add])]
  exact extractStridedSlice_apply off X hs _ (ValueIdx.ix4 l r p q) (fun x => match x with
    | ⟨0, _⟩ => by show l.val = off 0 + 0; omega
    | ⟨1, _⟩ => by show r.val = off 1 + 0; omega
    | ⟨2, _⟩ => by show p.val = off 2 + p.val; omega
    | ⟨3, _⟩ => by show q.val = off 3 + q.val; omega)

/-- A unit slice of a stacked rank-3 array at `(l, r)`, reshaped to a vector, read at `e`. -/
theorem slice3_reshape1_at {n k a : ℕ} (off : Fin 3 → ℕ) (l : Fin n) (r : Fin k) (h0 : off 0 = l.val) (h1 : off 1 = r.val)
    (h2 : off 2 = 0)
    (X : (⟨3, ![n, k, a]⟩ : Shape).Idx → α) (hs : (⟨3, ![n, k, a]⟩ : Shape).Slices off ⟨3, ![1, 1, a]⟩)
    (hc : (⟨3, ![1, 1, a]⟩ : Shape).ShapeCasts ⟨1, ![a]⟩) (e : Fin a) :
    shapeCast (⟨1, ![a]⟩ : Shape) (extractStridedSlice (⟨3, ![1, 1, a]⟩ : Shape) off X hs) hc (ValueIdx.ix1 e)
      = X (ValueIdx.ix3 l r e) := by
  rw [shapeCast_apply _ hc (ValueIdx.ix1 e) (ValueIdx.ix3 (0 : Fin 1) (0 : Fin 1) e)
    (by rewrite [Shape.rowMajor_val_three, Shape.rowMajor_val_one]
        show (0 * 1 + 0) * a + e.val = e.val
        simp only [Nat.zero_mul, Nat.zero_add])]
  exact extractStridedSlice_apply off X hs _ (ValueIdx.ix3 l r e) (fun x => match x with
    | ⟨0, _⟩ => by show l.val = off 0 + 0; omega
    | ⟨1, _⟩ => by show r.val = off 1 + 0; omega
    | ⟨2, _⟩ => by show e.val = off 2 + e.val; omega)

/-- A unit slice of a stacked matrix at row `l`, reshaped to a vector, read at `e`. -/
theorem slice2_reshape1_at {n a : ℕ} (off : Fin 2 → ℕ) (l : Fin n) (h0 : off 0 = l.val) (h1 : off 1 = 0)
    (X : (⟨2, ![n, a]⟩ : Shape).Idx → α) (hs : (⟨2, ![n, a]⟩ : Shape).Slices off ⟨2, ![1, a]⟩)
    (hc : (⟨2, ![1, a]⟩ : Shape).ShapeCasts ⟨1, ![a]⟩) (e : Fin a) :
    shapeCast (⟨1, ![a]⟩ : Shape) (extractStridedSlice (⟨2, ![1, a]⟩ : Shape) off X hs) hc (ValueIdx.ix1 e)
      = X (ValueIdx.ix2 l e) := by
  rw [shapeCast_apply _ hc (ValueIdx.ix1 e) (ValueIdx.ix2 (0 : Fin 1) e)
    (by rewrite [Shape.rowMajor_val_two, Shape.rowMajor_val_one]
        show 0 * a + e.val = e.val
        simp only [Nat.zero_mul, Nat.zero_add])]
  exact extractStridedSlice_apply off X hs _ (ValueIdx.ix2 l e) (fun x => match x with
    | ⟨0, _⟩ => by show l.val = off 0 + 0; omega
    | ⟨1, _⟩ => by show e.val = off 1 + e.val; omega)

end Reads

section Joins
variable {α : Type}

/-- A vector laid as a row, read at row 0. -/
theorem bcast_row_at (h : S512.BroadcastsInDim S1x512 (![1] : Fin 1 → Fin S1x512.rank)) (y : S512.Idx → α) (q : Fin 512) :
    broadcastInDim S1x512 ![1] h y (ValueIdx.ix2 (0 : Fin 1) q) = y (ValueIdx.ix1 q) :=
  broadcastInDim_apply _ h y _ (ValueIdx.ix1 q) (fun x => match x with
    | ⟨0, _⟩ => by show q.val = if (512 : ℕ) = 1 then 0 else q.val; rw [if_neg (by decide)])

/-- Two vectors of 256 end to end, read at `e`. -/
theorem concat2_at (x₁ x₂ : S256.Idx → α) (h : Shape.Concatenates [S256, S256] S512 0) (e : Fin 512) :
    concatenate S512 0 [⟨S256, x₁⟩, ⟨S256, x₂⟩] h (ValueIdx.ix1 e)
      = if he : e.val < 256 then x₁ (ValueIdx.ix1 ⟨e.val, he⟩)
        else x₂ (ValueIdx.ix1 ⟨e.val - 256, by have := e.isLt; omega⟩) := by
  by_cases he : e.val < 256
  · rw [dif_pos he]
    exact concatenate_pair_apply_left 0 x₁ x₂ h (ValueIdx.ix1 e) rfl (ValueIdx.ix1 ⟨e.val, he⟩) (fun b => match b with
      | ⟨0, _⟩ => rfl)
  · rw [dif_neg he]
    exact concatenate_pair_apply_right 0 x₁ x₂ h (ValueIdx.ix1 e) rfl rfl (ValueIdx.ix1 ⟨e.val - 256, by have := e.isLt; omega⟩)
      (fun b => match b with
        | ⟨0, _⟩ => fun hb => absurd rfl hb)
      (by show (e.val - 256) + 256 = e.val; omega)

/-- Four matrices of 256 columns side by side, read at `(d, j)`. -/
theorem concat4_at (x0 x1 x2 x3 : S512x256.Idx → α)
    (h : Shape.Concatenates [S512x256, S512x256, S512x256, S512x256] S512x1024 1) (d : Fin 512) (j : Fin 1024) :
    concatenate S512x1024 1 [⟨S512x256, x0⟩, ⟨S512x256, x1⟩, ⟨S512x256, x2⟩, ⟨S512x256, x3⟩] h (ValueIdx.ix2 d j)
      = if h1 : j.val < 256 then x0 (ValueIdx.ix2 d ⟨j.val, h1⟩)
        else if h2 : j.val < 512 then x1 (ValueIdx.ix2 d ⟨j.val - 256, by omega⟩)
        else if h3 : j.val < 768 then x2 (ValueIdx.ix2 d ⟨j.val - 512, by omega⟩)
        else x3 (ValueIdx.ix2 d ⟨j.val - 768, by have := j.isLt; omega⟩) := by
  by_cases h1 : j.val < 256
  · rw [dif_pos h1]
    exact concatenate_apply_piece 1 [⟨S512x256, x0⟩, ⟨S512x256, x1⟩, ⟨S512x256, x2⟩, ⟨S512x256, x3⟩] h (ValueIdx.ix2 d j) 0 (by show 0 < 4; omega) S512x256 x0 rfl rfl 0 rfl
      (ValueIdx.ix2 d ⟨j.val, h1⟩)
      (fun b => match b with
        | ⟨0, _⟩ => fun _ => rfl
        | ⟨1, _⟩ => fun hb => absurd rfl hb)
      (by show 0 + j.val = j.val; omega)
  · rw [dif_neg h1]
    by_cases h2 : j.val < 512
    · rw [dif_pos h2]
      exact concatenate_apply_piece 1 [⟨S512x256, x0⟩, ⟨S512x256, x1⟩, ⟨S512x256, x2⟩, ⟨S512x256, x3⟩] h (ValueIdx.ix2 d j) 1 (by show 1 < 4; omega) S512x256 x1 rfl rfl 256 rfl
        (ValueIdx.ix2 d ⟨j.val - 256, by omega⟩)
        (fun b => match b with
          | ⟨0, _⟩ => fun _ => rfl
          | ⟨1, _⟩ => fun hb => absurd rfl hb)
        (by show 256 + (j.val - 256) = j.val; omega)
    · rw [dif_neg h2]
      by_cases h3 : j.val < 768
      · rw [dif_pos h3]
        exact concatenate_apply_piece 1 [⟨S512x256, x0⟩, ⟨S512x256, x1⟩, ⟨S512x256, x2⟩, ⟨S512x256, x3⟩] h (ValueIdx.ix2 d j) 2 (by show 2 < 4; omega) S512x256 x2 rfl rfl 512 rfl
          (ValueIdx.ix2 d ⟨j.val - 512, by omega⟩)
          (fun b => match b with
            | ⟨0, _⟩ => fun _ => rfl
            | ⟨1, _⟩ => fun hb => absurd rfl hb)
          (by show 512 + (j.val - 512) = j.val; omega)
      · rw [dif_neg h3]
        exact concatenate_apply_piece 1 [⟨S512x256, x0⟩, ⟨S512x256, x1⟩, ⟨S512x256, x2⟩, ⟨S512x256, x3⟩] h (ValueIdx.ix2 d j) 3 (by show 3 < 4; omega) S512x256 x3 rfl rfl 768 rfl
          (ValueIdx.ix2 d ⟨j.val - 768, by have := j.isLt; omega⟩)
          (fun b => match b with
            | ⟨0, _⟩ => fun _ => rfl
            | ⟨1, _⟩ => fun hb => absurd rfl hb)
          (by show 768 + (j.val - 768) = j.val; omega)

end Joins

/-! ## What each host stretch computes, from any contents of the argument arrays -/

section Stretch
variable (V : Valuation τ sig (Elt Ideal))

/-- A matrix slice `[l, r]` of a stacked rank-4 weight array. -/
abbrev wsl (X : S2x2x512x256.Idx → EReal) (off : Fin 4 → ℕ) (hs : S2x2x512x256.Slices off S1x1x512x256) : S512x256.Idx → EReal :=
  shapeCast S512x256 (extractStridedSlice S1x1x512x256 off X hs) shapeCasts_S1x1x512x256_S512x256
/-- A vector slice `[l, r]` of a stacked rank-3 bias array. -/
abbrev bsl (X : S2x2x256.Idx → EReal) (off : Fin 3 → ℕ) (hs : S2x2x256.Slices off S1x1x256) : S256.Idx → EReal :=
  shapeCast S256 (extractStridedSlice S1x1x256 off X hs) shapeCasts_S1x1x256_S256

theorem host0_v8 : (StableHlo.after hostOps0 V (Proc.devRef .tc main_v8) : S512x1024.Idx → EReal)
    = concatenate S512x1024 1
        [⟨S512x256, wsl (V (Proc.devRef .tc main_arg7)) ![0, 0, 0, 0] slices_S2x2x512x256_S1x1x512x256_0_0_0_0⟩,
         ⟨S512x256, wsl (V (Proc.devRef .tc main_arg7)) ![0, 1, 0, 0] slices_S2x2x512x256_S1x1x512x256_0_1_0_0⟩,
         ⟨S512x256, wsl (V (Proc.devRef .tc main_arg5)) ![0, 0, 0, 0] slices_S2x2x512x256_S1x1x512x256_0_0_0_0⟩,
         ⟨S512x256, wsl (V (Proc.devRef .tc main_arg5)) ![0, 1, 0, 0] slices_S2x2x512x256_S1x1x512x256_0_1_0_0⟩]
        concatenates_S512x256_S512x256_S512x256_S512x256_S512x1024_d1 := by
  simp only [hostOps0]
  after_results_simp
  rfl

theorem host0_v20 : (StableHlo.after hostOps0 V (Proc.devRef .tc main_v20) : S1x512.Idx → EReal)
    = broadcastInDim S1x512 ![1] bcast_S512_S1x512_1 (concatenate S512 0
        [⟨S256, addf (F := Ideal) (φ := .f32) (bsl (V (Proc.devRef .tc main_arg8)) ![0, 0, 0] slices_S2x2x256_S1x1x256_0_0_0)
                  (bsl (V (Proc.devRef .tc main_arg8)) ![0, 1, 0] slices_S2x2x256_S1x1x256_0_1_0)⟩,
         ⟨S256, addf (F := Ideal) (φ := .f32) (bsl (V (Proc.devRef .tc main_arg6)) ![0, 0, 0] slices_S2x2x256_S1x1x256_0_0_0)
                  (bsl (V (Proc.devRef .tc main_arg6)) ![0, 1, 0] slices_S2x2x256_S1x1x256_0_1_0)⟩]
        concatenates_S256_S256_S512_d0) := by
  simp only [hostOps0]
  after_results_simp
  rfl

theorem host0_v23 : (StableHlo.after hostOps0 V (Proc.devRef .tc main_v23) : S1x512.Idx → EReal)
    = broadcastInDim S1x512 ![1] bcast_S512_S1x512_1
        (shapeCast S512 (extractStridedSlice S1x512 ![0, 0] (V (Proc.devRef .tc main_arg10)) slices_S2x512_S1x512_0_0) shapeCasts_S1x512_S512) := by
  simp only [hostOps0]
  after_results_simp
  rfl

theorem host0_v25 : (StableHlo.after hostOps0 V (Proc.devRef .tc main_v25) : S512x512.Idx → EReal)
    = shapeCast S512x512 (extractStridedSlice S1x512x512 ![0, 0, 0] (V (Proc.devRef .tc main_arg9)) slices_S2x512x512_S1x512x512_0_0_0) shapeCasts_S1x512x512_S512x512 := by
  simp only [hostOps0]
  after_results_simp
  rfl

end Stretch

/-! ## The joined arrays read at coordinates -/

section Joined

/-- Four matrix slices of layer `l` side by side are the stacked weights. -/
theorem wcat_of (X7 X5 : S2x2x512x256.Idx → EReal) (l : Fin 2) (o0 o1 : Fin 4 → ℕ)
    (h00 : o0 0 = l.val) (h01 : o0 1 = 0) (h02 : o0 2 = 0) (h03 : o0 3 = 0)
    (h10 : o1 0 = l.val) (h11 : o1 1 = 1) (h12 : o1 2 = 0) (h13 : o1 3 = 0)
    (s0 : S2x2x512x256.Slices o0 S1x1x512x256) (s1 : S2x2x512x256.Slices o1 S1x1x512x256)
    (hc : Shape.Concatenates [S512x256, S512x256, S512x256, S512x256] S512x1024 1) :
    at2 (concatenate S512x1024 1 [⟨S512x256, wsl X7 o0 s0⟩, ⟨S512x256, wsl X7 o1 s1⟩, ⟨S512x256, wsl X5 o0 s0⟩,
        ⟨S512x256, wsl X5 o1 s1⟩] hc)
      = Cert.Spec.wcat (at4 X7 l 0) (at4 X7 l 1) (at4 X5 l 0) (at4 X5 l 1) := by
  funext d j
  refine Eq.trans (concat4_at _ _ _ _ hc d j) ?_
  unfold Cert.Spec.wcat
  by_cases h1 : j.val < 256
  · rw [dif_pos h1, dif_pos h1]
    exact slice4_reshape_at o0 l (0 : Fin 2) h00 h01 h02 h03 X7 s0 _ d _
  · rw [dif_neg h1, dif_neg h1]
    by_cases h2 : j.val < 512
    · rw [dif_pos h2, dif_pos h2]
      exact slice4_reshape_at o1 l (1 : Fin 2) h10 h11 h12 h13 X7 s1 _ d _
    · rw [dif_neg h2, dif_neg h2]
      by_cases h3 : j.val < 768
      · rw [dif_pos h3, dif_pos h3]
        exact slice4_reshape_at o0 l (0 : Fin 2) h00 h01 h02 h03 X5 s0 _ d _
      · rw [dif_neg h3, dif_neg h3]
        exact slice4_reshape_at o1 l (1 : Fin 2) h10 h11 h12 h13 X5 s1 _ d _

/-- The two directions' bias sums of layer `l` end to end, laid as a row. -/
theorem bcat_of (X8 X6 : S2x2x256.Idx → EReal) (l : Fin 2) (o0 o1 : Fin 3 → ℕ)
    (h00 : o0 0 = l.val) (h01 : o0 1 = 0) (h02 : o0 2 = 0)
    (h10 : o1 0 = l.val) (h11 : o1 1 = 1) (h12 : o1 2 = 0)
    (s0 : S2x2x256.Slices o0 S1x1x256) (s1 : S2x2x256.Slices o1 S1x1x256)
    (hc : Shape.Concatenates [S256, S256] S512 0) (hb : S512.BroadcastsInDim S1x512 (![1] : Fin 1 → Fin S1x512.rank)) :
    row0 (broadcastInDim S1x512 ![1] hb (concatenate S512 0
        [⟨S256, addf (F := Ideal) (φ := .f32) (bsl X8 o0 s0) (bsl X8 o1 s1)⟩,
         ⟨S256, addf (F := Ideal) (φ := .f32) (bsl X6 o0 s0) (bsl X6 o1 s1)⟩] hc))
      = Cert.Spec.bcat (at3 X8 l 0) (at3 X8 l 1) (at3 X6 l 0) (at3 X6 l 1) := by
  funext e
  refine Eq.trans (bcast_row_at hb _ e) ?_
  rw [concat2_at]
  unfold Cert.Spec.bcat
  by_cases he : e.val < 256
  · rw [dif_pos he, dif_pos he]
    show (bsl X8 o0 s0 (ValueIdx.ix1 ⟨e.val, he⟩) : EReal) + bsl X8 o1 s1 (ValueIdx.ix1 ⟨e.val, he⟩) = _
    exact congrArg₂ (· + ·) (slice3_reshape1_at o0 l (0 : Fin 2) h00 h01 h02 X8 s0 _ _)
      (slice3_reshape1_at o1 l (1 : Fin 2) h10 h11 h12 X8 s1 _ _)
  · rw [dif_neg he, dif_neg he]
    show (bsl X6 o0 s0 (ValueIdx.ix1 ⟨e.val - 256, _⟩) : EReal) + bsl X6 o1 s1 (ValueIdx.ix1 ⟨e.val - 256, _⟩) = _
    exact congrArg₂ (· + ·) (slice3_reshape1_at o0 l (0 : Fin 2) h00 h01 h02 X6 s0 _ _)
      (slice3_reshape1_at o1 l (1 : Fin 2) h10 h11 h12 X6 s1 _ _)

/-- The linear map's bias of layer `l` laid as a row. -/
theorem blin_of (X : S2x512.Idx → EReal) (l : Fin 2) (o : Fin 2 → ℕ) (h0 : o 0 = l.val) (h1 : o 1 = 0)
    (s : S2x512.Slices o S1x512) (hc : S1x512.ShapeCasts S512)
    (hb : S512.BroadcastsInDim S1x512 (![1] : Fin 1 → Fin S1x512.rank)) :
    row0 (broadcastInDim S1x512 ![1] hb (shapeCast S512 (extractStridedSlice S1x512 o X s) hc)) = at2 X l := by
  funext e
  exact Eq.trans (bcast_row_at hb _ e) (slice2_reshape1_at o l h0 h1 X s hc e)

/-- The linear map's matrix of layer `l`. -/
theorem wlin_of (X : S2x512x512.Idx → EReal) (l : Fin 2) (o : Fin 3 → ℕ) (h0 : o 0 = l.val) (h1 : o 1 = 0) (h2 : o 2 = 0)
    (s : S2x512x512.Slices o S1x512x512) (hc : S1x512x512.ShapeCasts S512x512) :
    at2 (shapeCast S512x512 (extractStridedSlice S1x512x512 o X s) hc) = at3 X l := by
  funext p q
  exact slice3_reshape_at o l h0 h1 h2 X s hc p q

end Joined

/-! ## Before the first layer's regions -/

theorem VA_arg (r : Ref sig .tc) (h : r ∉ hostOps0_W) : VA m c r = m (c, r) :=
  StableHlo.after_of_writes_sub hostOps0 _ hostOps0_writes h
/-- The stacked weights of layer 0. -/
theorem VA_wcat : at2 (VA m c main_v8) = Cert.Spec.wcat (at4 (m ((c : Thread nD τ).loc main_arg7)) 0 0) (at4 (m ((c : Thread nD τ).loc main_arg7)) 0 1) (at4 (m ((c : Thread nD τ).loc main_arg5)) 0 0) (at4 (m ((c : Thread nD τ).loc main_arg5)) 0 1) := by
  show at2 (StableHlo.after hostOps0 (fun b => m (c, b)) (Proc.devRef .tc main_v8) : S512x1024.Idx → EReal) = _
  rw [host0_v8]
  exact wcat_of _ _ (0 : Fin 2) ![0, 0, 0, 0] ![0, 1, 0, 0] rfl rfl rfl rfl rfl rfl rfl rfl _ _ _
/-- The summed biases of layer 0, as the row the region reads. -/
theorem VA_bcat : row0 (VA m c main_v20) = Cert.Spec.bcat (at3 (m ((c : Thread nD τ).loc main_arg8)) 0 0) (at3 (m ((c : Thread nD τ).loc main_arg8)) 0 1) (at3 (m ((c : Thread nD τ).loc main_arg6)) 0 0) (at3 (m ((c : Thread nD τ).loc main_arg6)) 0 1) := by
  show row0 (StableHlo.after hostOps0 (fun b => m (c, b)) (Proc.devRef .tc main_v20) : S1x512.Idx → EReal) = _
  rw [host0_v20]
  exact bcat_of _ _ (0 : Fin 2) ![0, 0, 0] ![0, 1, 0] rfl rfl rfl rfl rfl rfl _ _ _ _
/-- The linear map's bias of layer 0, as a row. -/
theorem VA_blin : row0 (VA m c main_v23) = at2 (m ((c : Thread nD τ).loc main_arg10)) 0 := by
  show row0 (StableHlo.after hostOps0 (fun b => m (c, b)) (Proc.devRef .tc main_v23) : S1x512.Idx → EReal) = _
  rw [host0_v23]
  exact blin_of _ (0 : Fin 2) ![0, 0] rfl rfl _ _ _
/-- The linear map's matrix of layer 0. -/
theorem VA_wlin : at2 (VA m c main_v25) = at3 (m ((c : Thread nD τ).loc main_arg9)) 0 := by
  show at2 (StableHlo.after hostOps0 (fun b => m (c, b)) (Proc.devRef .tc main_v25) : S512x512.Idx → EReal) = _
  rw [host0_v25]
  exact wlin_of _ (0 : Fin 2) ![0, 0, 0] rfl rfl rfl _ _

end Cert.KernelIdeal.Hand

end
-- ==== Proof.KiHostD.lean ====
/-
  What the second host stretch leaves in the buffers the second layer's regions read, at the ideal instance: layer 1's four
  weight matrices side by side, its two directions' summed biases end to end (as a row), its linear map's bias as a row, its
  linear map's matrix; the first layer's output and the argument arrays untouched.
-/
import proofs.«145376_g10471130268016_week1_w2_219_10_alg».proof.Proof.KiHost
import proofs.«145376_g10471130268016_week1_w2_219_10_alg».proof.Proof.Spec
import Idealize.ShloMosaic.Lib.StableHlo.Run
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)
open Cert.Spec (at2 at3 at4 row0)

variable (m : (ℓ : Loc nD τ sig) → Buf (Elt Ideal) ℓ) (c : Dev nD)

/-! ## Before the second layer's regions: what the stretch does not touch -/

/-- After the first layer, a buffer the first host stretch does not write and that is neither region's result is as
    launched. -/
theorem VC_launch (r : Ref sig .tc) (hA : r ∉ hostOps0_W) (hr : r ∉ ([main_v26, main_v27] : List (Ref sig .tc))) :
    VC m c r = m (c, r) := by
  have hP : r ≠ main_v26 := fun e => hr (by subst e; decide)
  have hQ : r ≠ main_v27 := fun e => hr (by subst e; decide)
  have eC : VC m c r = VB m c r := by
    simp only [VC, Function.update_of_ne (StableHlo.devRef_ne_of_ne hQ : (Proc.devRef .tc r : DevRef τ sig) ≠ Proc.devRef .tc main_v27)]
  have eB : VB m c r = VA m c r := by
    simp only [VB, Function.update_of_ne (StableHlo.devRef_ne_of_ne hP : (Proc.devRef .tc r : DevRef τ sig) ≠ Proc.devRef .tc main_v26)]
  exact eC.trans (eB.trans (StableHlo.after_of_writes_sub hostOps0 _ hostOps0_writes hA))

theorem VD_arg (r : Ref sig .tc) (hA : r ∉ hostOps0_W) (hD : r ∉ hostOps2_W)
    (hr : r ∉ ([main_v26, main_v27] : List (Ref sig .tc))) : VD m c r = m (c, r) :=
  (StableHlo.after_of_writes_sub hostOps2 _ hostOps2_writes hD).trans (VC_launch m c r hA hr)

/-- The first layer's output is untouched by the second host stretch. -/
theorem VD_feat : VD m c main_v27 = o27 m c := by
  have eD : VD m c main_v27 = VC m c main_v27 := StableHlo.after_of_writes_sub hostOps2 _ hostOps2_writes (by decide)
  rw [eD]
  simp only [VC, Function.update_self]

/-! ## The stretch's results as terms of the arrays it reads -/

theorem hostD_wlin (W : Valuation τ sig (Elt Ideal)) :
    (StableHlo.after hostOps2 W (Proc.devRef .tc main_v53) : S512x512.Idx → EReal)
      = shapeCast S512x512 (extractStridedSlice S1x512x512 ![1, 0, 0] (W (Proc.devRef .tc main_arg9)) slices_S2x512x512_S1x512x512_1_0_0) shapeCasts_S1x512x512_S512x512 := by
  simp only [hostOps2]; after_results; rfl

theorem hostD_blin (W : Valuation τ sig (Elt Ideal)) :
    (StableHlo.after hostOps2 W (Proc.devRef .tc main_v51) : S1x512.Idx → EReal)
      = broadcastInDim S1x512 ![1] bcast_S512_S1x512_1
          (shapeCast S512 (extractStridedSlice S1x512 ![1, 0] (W (Proc.devRef .tc main_arg10)) slices_S2x512_S1x512_1_0) shapeCasts_S1x512_S512) := by
  simp only [hostOps2]; after_results; rfl

theorem hostD_bcat (W : Valuation τ sig (Elt Ideal)) :
    (StableHlo.after hostOps2 W (Proc.devRef .tc main_v48) : S1x512.Idx → EReal)
      = broadcastInDim S1x512 ![1] bcast_S512_S1x512_1
          (concatenate S512 0
            [⟨S256, addf (F := Ideal) (φ := .f32) (bsl (W (Proc.devRef .tc main_arg8)) ![1, 0, 0] slices_S2x2x256_S1x1x256_1_0_0)
                (bsl (W (Proc.devRef .tc main_arg8)) ![1, 1, 0] slices_S2x2x256_S1x1x256_1_1_0)⟩,
             ⟨S256, addf (F := Ideal) (φ := .f32) (bsl (W (Proc.devRef .tc main_arg6)) ![1, 0, 0] slices_S2x2x256_S1x1x256_1_0_0)
                (bsl (W (Proc.devRef .tc main_arg6)) ![1, 1, 0] slices_S2x2x256_S1x1x256_1_1_0)⟩]
            concatenates_S256_S256_S512_d0) := by
  simp only [hostOps2]; after_results; rfl

theorem hostD_wcat (W : Valuation τ sig (Elt Ideal)) :
    (StableHlo.after hostOps2 W (Proc.devRef .tc main_v36) : S512x1024.Idx → EReal)
      = concatenate S512x1024 1
          [⟨S512x256, wsl (W (Proc.devRef .tc main_arg7)) ![1, 0, 0, 0] slices_S2x2x512x256_S1x1x512x256_1_0_0_0⟩,
           ⟨S512x256, wsl (W (Proc.devRef .tc main_arg7)) ![1, 1, 0, 0] slices_S2x2x512x256_S1x1x512x256_1_1_0_0⟩,
           ⟨S512x256, wsl (W (Proc.devRef .tc main_arg5)) ![1, 0, 0, 0] slices_S2x2x512x256_S1x1x512x256_1_0_0_0⟩,
           ⟨S512x256, wsl (W (Proc.devRef .tc main_arg5)) ![1, 1, 0, 0] slices_S2x2x512x256_S1x1x512x256_1_1_0_0⟩]
          concatenates_S512x256_S512x256_S512x256_S512x256_S512x1024_d1 := by
  simp only [hostOps2]; after_results; rfl

/-! ## Before the second layer's regions: what the stretch computes -/

/-- The stacked weights of layer 1. -/
theorem VD_wcat : at2 (VD m c main_v36) = Cert.Spec.wcat (at4 (m ((c : Thread nD τ).loc main_arg7)) 1 0) (at4 (m ((c : Thread nD τ).loc main_arg7)) 1 1) (at4 (m ((c : Thread nD τ).loc main_arg5)) 1 0) (at4 (m ((c : Thread nD τ).loc main_arg5)) 1 1) := by
  show at2 (StableHlo.after hostOps2 (VC m c) (Proc.devRef .tc main_v36) : S512x1024.Idx → EReal) = _
  rw [hostD_wcat, VC_launch m c main_arg7 (by decide) (by decide), VC_launch m c main_arg5 (by decide) (by decide)]
  exact wcat_of _ _ (1 : Fin 2) ![1, 0, 0, 0] ![1, 1, 0, 0] rfl rfl rfl rfl rfl rfl rfl rfl _ _ _
/-- The summed biases of layer 1, as the row the region reads. -/
theorem VD_bcat : row0 (VD m c main_v48) = Cert.Spec.bcat (at3 (m ((c : Thread nD τ).loc main_arg8)) 1 0) (at3 (m ((c : Thread nD τ).loc main_arg8)) 1 1) (at3 (m ((c : Thread nD τ).loc main_arg6)) 1 0) (at3 (m ((c : Thread nD τ).loc main_arg6)) 1 1) := by
  show row0 (StableHlo.after hostOps2 (VC m c) (Proc.devRef .tc main_v48) : S1x512.Idx → EReal) = _
  rw [hostD_bcat, VC_launch m c main_arg8 (by decide) (by decide), VC_launch m c main_arg6 (by decide) (by decide)]
  exact bcat_of _ _ (1 : Fin 2) ![1, 0, 0] ![1, 1, 0] rfl rfl rfl rfl rfl rfl _ _ _ _
/-- The linear map's bias of layer 1, as a row. -/
theorem VD_blin : row0 (VD m c main_v51) = at2 (m ((c : Thread nD τ).loc main_arg10)) 1 := by
  show row0 (StableHlo.after hostOps2 (VC m c) (Proc.devRef .tc main_v51) : S1x512.Idx → EReal) = _
  rw [hostD_blin, VC_launch m c main_arg10 (by decide) (by decide)]
  exact blin_of _ (1 : Fin 2) ![1, 0] rfl rfl _ _ _
/-- The linear map's matrix of layer 1. -/
theorem VD_wlin : at2 (VD m c main_v53) = at3 (m ((c : Thread nD τ).loc main_arg9)) 1 := by
  show at2 (StableHlo.after hostOps2 (VC m c) (Proc.devRef .tc main_v53) : S512x512.Idx → EReal) = _
  rw [hostD_wlin, VC_launch m c main_arg9 (by decide) (by decide)]
  exact wlin_of _ (1 : Fin 2) ![1, 0, 0] rfl rfl rfl _ _

end Cert.KernelIdeal.Hand

end
-- ==== Proof.ValProj0.lean ====
/-
  What the first projection leaves in its result array, at the ideal instance: entry (K, j) is the row K of the features
  against column j of the stacked weights — each grid point writes the product of its block of 2048 rows with the whole
  weight matrix, and the two blocks tile the array.
-/
import proofs.«145376_g10471130268016_week1_w2_219_10_alg».proof.Proof.KiProj0
import proofs.«145376_g10471130268016_week1_w2_219_10_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)
open Cert.Spec (at2)

variable (V : (c : Dev nD) → (b : Ref sig .tc) → Buf (Elt Ideal) ((c : Thread nD τ).loc b))

/-! ## The product at an index -/

theorem lhs0_0 (i : S2048x1024.Idx) (q : dot_S2048x512_S512x1024_S2048x1024_1_0_0_1_n_n.contr.Idx) :
    (dot_S2048x512_S512x1024_S2048x1024_1_0_0_1_n_n.lhsIdx i q 0).val = (i 0).val := by
  unfold DotDims.lhsIdx
  rw [dif_neg (show ¬(0 : Fin S2048x512.rank) ∈ dot_S2048x512_S512x1024_S2048x1024_1_0_0_1_n_n.lhsBatch by decide), dif_pos (show (0 : Fin S2048x512.rank) ∈ dot_S2048x512_S512x1024_S2048x1024_1_0_0_1_n_n.lhsNonContracting by decide)]
  rfl
theorem lhs0_1 (i : S2048x1024.Idx) (q : dot_S2048x512_S512x1024_S2048x1024_1_0_0_1_n_n.contr.Idx) :
    (dot_S2048x512_S512x1024_S2048x1024_1_0_0_1_n_n.lhsIdx i q 1).val = (q ⟨0, by decide⟩).val :=
  dot_S2048x512_S512x1024_S2048x1024_1_0_0_1_n_n.lhsIdx_val_of_single rfl i q
theorem rhs0_0 (i : S2048x1024.Idx) (q : dot_S2048x512_S512x1024_S2048x1024_1_0_0_1_n_n.contr.Idx) :
    (dot_S2048x512_S512x1024_S2048x1024_1_0_0_1_n_n.rhsIdx i q 0).val = (q ⟨0, by decide⟩).val :=
  dot_S2048x512_S512x1024_S2048x1024_1_0_0_1_n_n.rhsIdx_val_of_single rfl i q
theorem rhs0_1 (i : S2048x1024.Idx) (q : dot_S2048x512_S512x1024_S2048x1024_1_0_0_1_n_n.contr.Idx) :
    (dot_S2048x512_S512x1024_S2048x1024_1_0_0_1_n_n.rhsIdx i q 1).val = (i 1).val := by
  unfold DotDims.rhsIdx
  rw [dif_neg (show ¬(1 : Fin S512x1024.rank) ∈ dot_S2048x512_S512x1024_S2048x1024_1_0_0_1_n_n.rhsBatch by decide), dif_pos (show (1 : Fin S512x1024.rank) ∈ dot_S2048x512_S512x1024_S2048x1024_1_0_0_1_n_n.rhsNonContracting by decide)]
  rfl

/-- The body's payload at an index, over the extended reals: the format changes are the identity there and the
    accumulator is zero, so entry (p, q) is row p of the left operand against column q of the right. -/
theorem pay0_apply (xh : Vec Ideal S2048x512 .f32) (xW : Vec Ideal S512x1024 .f32) (p : Fin 2048) (q : Fin 1024) :
    k0_pay1 (F := Ideal) xh xW (ValueIdx.ix2 p q) = ∑ d : Fin 512, xh (ValueIdx.ix2 p d) * xW (ValueIdx.ix2 d q) := by
  unfold k0_pay1
  simp only [shapeCast_self, ValueIdx.truncf_apply]
  refine (Ideal.matmul_constant_zero_apply dot_S2048x512_S512x1024_S2048x1024_1_0_0_1_n_n none _ _ (ValueIdx.ix2 p q)).trans ?_
  rw [← Equiv.sum_comp (ValueIdx.contrEquiv1 dot_S2048x512_S512x1024_S2048x1024_1_0_0_1_n_n 512 rfl rfl).symm]
  refine Finset.sum_congr rfl fun k _ => ?_
  have hk := ValueIdx.contrEquiv1_symm_val dot_S2048x512_S512x1024_S2048x1024_1_0_0_1_n_n 512 rfl rfl k
  have el : dot_S2048x512_S512x1024_S2048x1024_1_0_0_1_n_n.lhsIdx (ValueIdx.ix2 p q) ((ValueIdx.contrEquiv1 dot_S2048x512_S512x1024_S2048x1024_1_0_0_1_n_n 512 rfl rfl).symm k) = ValueIdx.ix2 p k := funext fun a => Fin.ext (by
    match a with
    | ⟨0, _⟩ => exact lhs0_0 _ _
    | ⟨1, _⟩ => exact (lhs0_1 _ _).trans hk)
  have er : dot_S2048x512_S512x1024_S2048x1024_1_0_0_1_n_n.rhsIdx (ValueIdx.ix2 p q) ((ValueIdx.contrEquiv1 dot_S2048x512_S512x1024_S2048x1024_1_0_0_1_n_n 512 rfl rfl).symm k) = ValueIdx.ix2 k q := funext fun a => Fin.ext (by
    match a with
    | ⟨0, _⟩ => exact (rhs0_0 _ _).trans hk
    | ⟨1, _⟩ => exact rhs0_1 _ _)
  rw [el, er]
  simp only [ValueIdx.truncf_apply]

/-- The same at any index of the block. -/
theorem pay0_at (xh : Vec Ideal S2048x512 .f32) (xW : Vec Ideal S512x1024 .f32) (y : S2048x1024.Idx) :
    out0_2 (F := Ideal) xh xW y = ∑ d : Fin 512, xh (ValueIdx.ix2 (y 0) d) * xW (ValueIdx.ix2 d (y 1)) := by
  obtain ⟨p, q, rfl⟩ : ∃ (p : Fin 2048) (q : Fin 1024), y = ValueIdx.ix2 p q := ⟨y 0, y 1, ValueIdx.eq_ix2 y⟩
  exact pay0_apply xh xW p q

/-! ## From the blocks to the array -/

/-- The result array as ONE function of the two operand arrays: entry `i` is row `i 0` of the first against column
    `i 1` of the second. -/
def whole0 (ah : S4096x512.Idx → EReal) (aW : S512x1024.Idx → EReal) : S4096x1024.Idx → EReal :=
  fun i => Cert.Spec.proj (at2 ah) (at2 aW) (i 0) (i 1)

/-- The windows' block indices over the grid: the row window and the output move down one block of rows per point,
    the weight window stays on its one block, and no window moves along the columns. -/
theorem index0_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `whole0` of the operand arrays as the region finds them: an element of a
    block sits in its array at block index × block size + its coordinate in the block, on each axis. -/
theorem flushed0_eq (c : Dev nD) (t : Fin cfg0.N) :
    (dat0 V c).flushed 2 t
      = ((cfg0.win 2).blk t).view.read (Elt Ideal) (whole0 (V c (Pipeline.arrRef spec0 0)) (V c (Pipeline.arrRef spec0 1))) := by
  show (cfg0.win 2).cut (grid0.coords t) ((dat0 V c).after 2 t) = _
  rw [after0_2]
  obtain ⟨ehr, ehc, eWr, eWc, eor, eoc⟩ := index0_facts t
  funext y
  refine (pay0_at _ _ y).trans ?_
  show _ = ∑ d : Fin 512, at2 (V c (Pipeline.arrRef spec0 0)) ((((cfg0.win 2).blk t).view.emb y) 0) d
      * at2 (V c (Pipeline.arrRef spec0 1)) d ((((cfg0.win 2).blk t).view.emb y) 1)
  refine Finset.sum_congr rfl fun d _ => ?_
  have hh : iblk0 V c 0 t (ValueIdx.ix2 (y 0) d)
      = at2 (V c (Pipeline.arrRef spec0 0)) ((((cfg0.win 2).blk t).view.emb y) 0) d := by
    show V c (Pipeline.arrRef spec0 0) (((cfg0.win 0).blk t).view.emb (ValueIdx.ix2 (y 0) d))
      = V c (Pipeline.arrRef spec0 0) (ValueIdx.ix2 ((((cfg0.win 2).blk t).view.emb y) 0) d)
    refine congrArg _ (funext fun a => Fin.ext ?_)
    match a with
    | ⟨0, _⟩ => show win0_0.index t (0 : Fin 2) * 2048 + 1 * (y 0).val = win0_2.index t (0 : Fin 2) * 2048 + 1 * (y 0).val; omega
    | ⟨1, _⟩ => show win0_0.index t (1 : Fin 2) * 512 + 1 * d.val = d.val; omega
  have hW : iblk0 V c 1 t (ValueIdx.ix2 d (y 1))
      = at2 (V c (Pipeline.arrRef spec0 1)) d ((((cfg0.win 2).blk t).view.emb y) 1) := by
    show V c (Pipeline.arrRef spec0 1) (((cfg0.win 1).blk t).view.emb (ValueIdx.ix2 d (y 1)))
      = V c (Pipeline.arrRef spec0 1) (ValueIdx.ix2 d ((((cfg0.win 2).blk t).view.emb y) 1))
    refine congrArg _ (funext fun a => Fin.ext ?_)
    match a with
    | ⟨0, _⟩ => show win0_1.index t (0 : Fin 2) * 512 + 1 * d.val = d.val; omega
    | ⟨1, _⟩ => show win0_1.index t (1 : Fin 2) * 1024 + 1 * (y 1).val = win0_2.index t (1 : Fin 2) * 1024 + 1 * (y 1).val; omega
  rw [hh, hW]

/-- An index of the array is in point `t`'s block iff each coordinate is in the block's range on its axis. -/
theorem mem_blk0 (t : Fin cfg0.N) (i : S4096x1024.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole (Pipeline.arrRef spec0 2)).slice (win0_2.rect t)).set ↔ _
  rw [View.set_slice_whole, Rect.mem_set_unit]
  exact Iff.rfl

/-- The two blocks of 2048 rows tile the array: row `r` is in the block of point `r / 2048`. -/
theorem cover0 (i : S4096x1024.Idx) :
    ∃ t : Fin cfg0.N, (cfg0.win 2).flush t = true ∧ i ∈ ((cfg0.win 2).blk t).view.set := by
  have hr : (i 0).val < 4096 := (i 0).isLt
  have hc : (i 1).val < 1024 := (i 1).isLt
  refine ⟨⟨(i 0).val / 2048, by show (i 0).val / 2048 < 2; omega⟩, flush0_2 _, ?_⟩
  obtain ⟨-, -, -, -, eor, eoc⟩ := index0_facts ⟨(i 0).val / 2048, by show (i 0).val / 2048 < 2; omega⟩
  rw [mem_blk0]
  intro a
  match a with
  | ⟨0, _⟩ =>
    show win0_2.index _ (0 : Fin 2) * 2048 ≤ (i 0).val ∧ (i 0).val < win0_2.index _ (0 : Fin 2) * 2048 + 2048
    rw [eor]; show (i 0).val / 2048 * 2048 ≤ (i 0).val ∧ (i 0).val < (i 0).val / 2048 * 2048 + 2048; omega
  | ⟨1, _⟩ =>
    show win0_2.index _ (1 : Fin 2) * 1024 ≤ (i 1).val ∧ (i 1).val < win0_2.index _ (1 : Fin 2) * 1024 + 1024
    rw [eoc]; omega

/-- So the array ends holding `whole0` of the operand arrays. -/
theorem final0 (c : Dev nD) :
    (dat0 V c).arrAt 2 cfg0.N = whole0 (V c (Pipeline.arrRef spec0 0)) (V c (Pipeline.arrRef spec0 1)) :=
  (dat0 V c).arrAt_eq_of_cover 2 _ (fun t _ => flushed0_eq V c t) cover0

/-- The projection's result array, entry by entry. -/
theorem proj0_val (c : Dev nD) (K : Fin 4096) (j : Fin 1024) :
    ((dat0 V c).arrAt 2 cfg0.N : S4096x1024.Idx → EReal) (ValueIdx.ix2 K j)
      = Cert.Spec.proj (at2 (V c (Pipeline.arrRef spec0 0))) (at2 (V c (Pipeline.arrRef spec0 1))) K j := by
  rw [final0]
  rfl

end Cert.KernelIdeal.Hand

end
-- ==== Proof.ValProj2.lean ====
/-
  What the first projection leaves in its result array, at the ideal instance: entry (K, j) is the row K of the features
  against column j of the stacked weights — each grid point writes the product of its block of 2048 rows with the whole
  weight matrix, and the two blocks tile the array.
-/
import proofs.«145376_g10471130268016_week1_w2_219_10_alg».proof.Proof.KiProj2
import proofs.«145376_g10471130268016_week1_w2_219_10_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)
open Cert.Spec (at2)

variable (V : (c : Dev nD) → (b : Ref sig .tc) → Buf (Elt Ideal) ((c : Thread nD τ).loc b))

/-! ## The product at an index -/

theorem lhs2_0 (i : S2048x1024.Idx) (q : dot_S2048x512_S512x1024_S2048x1024_1_0_0_1_n_n.contr.Idx) :
    (dot_S2048x512_S512x1024_S2048x1024_1_0_0_1_n_n.lhsIdx i q 0).val = (i 0).val := by
  unfold DotDims.lhsIdx
  rw [dif_neg (show ¬(0 : Fin S2048x512.rank) ∈ dot_S2048x512_S512x1024_S2048x1024_1_0_0_1_n_n.lhsBatch by decide), dif_pos (show (0 : Fin S2048x512.rank) ∈ dot_S2048x512_S512x1024_S2048x1024_1_0_0_1_n_n.lhsNonContracting by decide)]
  rfl
theorem lhs2_1 (i : S2048x1024.Idx) (q : dot_S2048x512_S512x1024_S2048x1024_1_0_0_1_n_n.contr.Idx) :
    (dot_S2048x512_S512x1024_S2048x1024_1_0_0_1_n_n.lhsIdx i q 1).val = (q ⟨0, by decide⟩).val :=
  dot_S2048x512_S512x1024_S2048x1024_1_0_0_1_n_n.lhsIdx_val_of_single rfl i q
theorem rhs2_0 (i : S2048x1024.Idx) (q : dot_S2048x512_S512x1024_S2048x1024_1_0_0_1_n_n.contr.Idx) :
    (dot_S2048x512_S512x1024_S2048x1024_1_0_0_1_n_n.rhsIdx i q 0).val = (q ⟨0, by decide⟩).val :=
  dot_S2048x512_S512x1024_S2048x1024_1_0_0_1_n_n.rhsIdx_val_of_single rfl i q
theorem rhs2_1 (i : S2048x1024.Idx) (q : dot_S2048x512_S512x1024_S2048x1024_1_0_0_1_n_n.contr.Idx) :
    (dot_S2048x512_S512x1024_S2048x1024_1_0_0_1_n_n.rhsIdx i q 1).val = (i 1).val := by
  unfold DotDims.rhsIdx
  rw [dif_neg (show ¬(1 : Fin S512x1024.rank) ∈ dot_S2048x512_S512x1024_S2048x1024_1_0_0_1_n_n.rhsBatch by decide), dif_pos (show (1 : Fin S512x1024.rank) ∈ dot_S2048x512_S512x1024_S2048x1024_1_0_0_1_n_n.rhsNonContracting by decide)]
  rfl

/-- The body's payload at an index, over the extended reals: the format changes are the identity there and the
    accumulator is zero, so entry (p, q) is row p of the left operand against column q of the right. -/
theorem pay2_apply (xh : Vec Ideal S2048x512 .f32) (xW : Vec Ideal S512x1024 .f32) (p : Fin 2048) (q : Fin 1024) :
    k2_pay1 (F := Ideal) xh xW (ValueIdx.ix2 p q) = ∑ d : Fin 512, xh (ValueIdx.ix2 p d) * xW (ValueIdx.ix2 d q) := by
  unfold k2_pay1
  simp only [shapeCast_self, ValueIdx.truncf_apply]
  refine (Ideal.matmul_constant_zero_apply dot_S2048x512_S512x1024_S2048x1024_1_0_0_1_n_n none _ _ (ValueIdx.ix2 p q)).trans ?_
  rw [← Equiv.sum_comp (ValueIdx.contrEquiv1 dot_S2048x512_S512x1024_S2048x1024_1_0_0_1_n_n 512 rfl rfl).symm]
  refine Finset.sum_congr rfl fun k _ => ?_
  have hk := ValueIdx.contrEquiv1_symm_val dot_S2048x512_S512x1024_S2048x1024_1_0_0_1_n_n 512 rfl rfl k
  have el : dot_S2048x512_S512x1024_S2048x1024_1_0_0_1_n_n.lhsIdx (ValueIdx.ix2 p q) ((ValueIdx.contrEquiv1 dot_S2048x512_S512x1024_S2048x1024_1_0_0_1_n_n 512 rfl rfl).symm k) = ValueIdx.ix2 p k := funext fun a => Fin.ext (by
    match a with
    | ⟨0, _⟩ => exact lhs2_0 _ _
    | ⟨1, _⟩ => exact (lhs2_1 _ _).trans hk)
  have er : dot_S2048x512_S512x1024_S2048x1024_1_0_0_1_n_n.rhsIdx (ValueIdx.ix2 p q) ((ValueIdx.contrEquiv1 dot_S2048x512_S512x1024_S2048x1024_1_0_0_1_n_n 512 rfl rfl).symm k) = ValueIdx.ix2 k q := funext fun a => Fin.ext (by
    match a with
    | ⟨0, _⟩ => exact (rhs2_0 _ _).trans hk
    | ⟨1, _⟩ => exact rhs2_1 _ _)
  rw [el, er]
  simp only [ValueIdx.truncf_apply]

/-- The same at any index of the block. -/
theorem pay2_at (xh : Vec Ideal S2048x512 .f32) (xW : Vec Ideal S512x1024 .f32) (y : S2048x1024.Idx) :
    out2_2 (F := Ideal) xh xW y = ∑ d : Fin 512, xh (ValueIdx.ix2 (y 0) d) * xW (ValueIdx.ix2 d (y 1)) := by
  obtain ⟨p, q, rfl⟩ : ∃ (p : Fin 2048) (q : Fin 1024), y = ValueIdx.ix2 p q := ⟨y 0, y 1, ValueIdx.eq_ix2 y⟩
  exact pay2_apply xh xW p q

/-! ## From the blocks to the array -/

/-- The result array as ONE function of the two operand arrays: entry `i` is row `i 0` of the first against column
    `i 1` of the second. -/
def whole2 (ah : S4096x512.Idx → EReal) (aW : S512x1024.Idx → EReal) : S4096x1024.Idx → EReal :=
  fun i => Cert.Spec.proj (at2 ah) (at2 aW) (i 0) (i 1)

/-- The windows' block indices over the grid: the row window and the output move down one block of rows per point,
    the weight window stays on its one block, and no window moves along the columns. -/
theorem index2_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of `whole2` of the operand arrays as the region finds them: an element of a
    block sits in its array at block index × block size + its coordinate in the block, on each axis. -/
theorem flushed2_eq (c : Dev nD) (t : Fin cfg2.N) :
    (dat2 V c).flushed 2 t
      = ((cfg2.win 2).blk t).view.read (Elt Ideal) (whole2 (V c (Pipeline.arrRef spec2 0)) (V c (Pipeline.arrRef spec2 1))) := by
  show (cfg2.win 2).cut (grid2.coords t) ((dat2 V c).after 2 t) = _
  rw [after2_2]
  obtain ⟨ehr, ehc, eWr, eWc, eor, eoc⟩ := index2_facts t
  funext y
  refine (pay2_at _ _ y).trans ?_
  show _ = ∑ d : Fin 512, at2 (V c (Pipeline.arrRef spec2 0)) ((((cfg2.win 2).blk t).view.emb y) 0) d
      * at2 (V c (Pipeline.arrRef spec2 1)) d ((((cfg2.win 2).blk t).view.emb y) 1)
  refine Finset.sum_congr rfl fun d _ => ?_
  have hh : iblk2 V c 0 t (ValueIdx.ix2 (y 0) d)
      = at2 (V c (Pipeline.arrRef spec2 0)) ((((cfg2.win 2).blk t).view.emb y) 0) d := by
    show V c (Pipeline.arrRef spec2 0) (((cfg2.win 0).blk t).view.emb (ValueIdx.ix2 (y 0) d))
      = V c (Pipeline.arrRef spec2 0) (ValueIdx.ix2 ((((cfg2.win 2).blk t).view.emb y) 0) d)
    refine congrArg _ (funext fun a => Fin.ext ?_)
    match a with
    | ⟨0, _⟩ => show win2_0.index t (0 : Fin 2) * 2048 + 1 * (y 0).val = win2_2.index t (0 : Fin 2) * 2048 + 1 * (y 0).val; omega
    | ⟨1, _⟩ => show win2_0.index t (1 : Fin 2) * 512 + 1 * d.val = d.val; omega
  have hW : iblk2 V c 1 t (ValueIdx.ix2 d (y 1))
      = at2 (V c (Pipeline.arrRef spec2 1)) d ((((cfg2.win 2).blk t).view.emb y) 1) := by
    show V c (Pipeline.arrRef spec2 1) (((cfg2.win 1).blk t).view.emb (ValueIdx.ix2 d (y 1)))
      = V c (Pipeline.arrRef spec2 1) (ValueIdx.ix2 d ((((cfg2.win 2).blk t).view.emb y) 1))
    refine congrArg _ (funext fun a => Fin.ext ?_)
    match a with
    | ⟨0, _⟩ => show win2_1.index t (0 : Fin 2) * 512 + 1 * d.val = d.val; omega
    | ⟨1, _⟩ => show win2_1.index t (1 : Fin 2) * 1024 + 1 * (y 1).val = win2_2.index t (1 : Fin 2) * 1024 + 1 * (y 1).val; omega
  rw [hh, hW]

/-- An index of the array is in point `t`'s block iff each coordinate is in the block's range on its axis. -/
theorem mem_blk2 (t : Fin cfg2.N) (i : S4096x1024.Idx) :
    i ∈ ((cfg2.win 2).blk t).view.set ↔ ∀ a : Fin 2, win2_2.index t a * S2048x1024.size a ≤ (i a).val
      ∧ (i a).val < win2_2.index t a * S2048x1024.size a + S2048x1024.size a := by
  show i ∈ ((View.whole (Pipeline.arrRef spec2 2)).slice (win2_2.rect t)).set ↔ _
  rw [View.set_slice_whole, Rect.mem_set_unit]
  exact Iff.rfl

/-- The two blocks of 2048 rows tile the array: row `r` is in the block of point `r / 2048`. -/
theorem cover2 (i : S4096x1024.Idx) :
    ∃ t : Fin cfg2.N, (cfg2.win 2).flush t = true ∧ i ∈ ((cfg2.win 2).blk t).view.set := by
  have hr : (i 0).val < 4096 := (i 0).isLt
  have hc : (i 1).val < 1024 := (i 1).isLt
  refine ⟨⟨(i 0).val / 2048, by show (i 0).val / 2048 < 2; omega⟩, flush2_2 _, ?_⟩
  obtain ⟨-, -, -, -, eor, eoc⟩ := index2_facts ⟨(i 0).val / 2048, by show (i 0).val / 2048 < 2; omega⟩
  rw [mem_blk2]
  intro a
  match a with
  | ⟨0, _⟩ =>
    show win2_2.index _ (0 : Fin 2) * 2048 ≤ (i 0).val ∧ (i 0).val < win2_2.index _ (0 : Fin 2) * 2048 + 2048
    rw [eor]; show (i 0).val / 2048 * 2048 ≤ (i 0).val ∧ (i 0).val < (i 0).val / 2048 * 2048 + 2048; omega
  | ⟨1, _⟩ =>
    show win2_2.index _ (1 : Fin 2) * 1024 ≤ (i 1).val ∧ (i 1).val < win2_2.index _ (1 : Fin 2) * 1024 + 1024
    rw [eoc]; omega

/-- So the array ends holding `whole2` of the operand arrays. -/
theorem final2 (c : Dev nD) :
    (dat2 V c).arrAt 2 cfg2.N = whole2 (V c (Pipeline.arrRef spec2 0)) (V c (Pipeline.arrRef spec2 1)) :=
  (dat2 V c).arrAt_eq_of_cover 2 _ (fun t _ => flushed2_eq V c t) cover2

/-- The projection's result array, entry by entry. -/
theorem proj2_val (c : Dev nD) (K : Fin 4096) (j : Fin 1024) :
    ((dat2 V c).arrAt 2 cfg2.N : S4096x1024.Idx → EReal) (ValueIdx.ix2 K j)
      = Cert.Spec.proj (at2 (V c (Pipeline.arrRef spec2 0))) (at2 (V c (Pipeline.arrRef spec2 1))) K j := by
  rw [final2]
  rfl

end Cert.KernelIdeal.Hand

end
-- ==== Proof.ValAggStep1.lean ====
/-
  One grid point of the aggregation read at an index, at the ideal instance: the reset accumulator is zero; a point adds to
  the accumulator's left half the two backward adjacency blocks against their 256 columns of the projected block, to its
  right half the two forward ones; the last point's store is the biased, rectified accumulator against the linear map, plus
  its bias, plus the residual.
-/
import proofs.«145376_g10471130268016_week1_w2_219_10_alg».proof.Proof.KiAgg1
import proofs.«145376_g10471130268016_week1_w2_219_10_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

/-! ## The two matrix products at an index -/

theorem lhs1_hr (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
theorem lhs1_hc (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
theorem rhs1_hr (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
theorem rhs1_hc (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl

theorem mmHalf1_apply (xa : FVec Ideal S2048x512 .bf16) (xb : FVec Ideal S512x256 .bf16) (p : Fin 2048) (q : Fin 256) :
    matmul dot_S2048x512_S512x256_S2048x256_1_0_0_1_n_n none xa xb (constant (F := Ideal) S2048x256 .f32 0x00000000#32) (ValueIdx.ix2 p q)
      = ∑ kk : Fin 512, xa (ValueIdx.ix2 p kk) * xb (ValueIdx.ix2 kk q) := by
  refine (Ideal.matmul_constant_zero_apply dot_S2048x512_S512x256_S2048x256_1_0_0_1_n_n none _ _ (ValueIdx.ix2 p q)).trans ?_
  rw [← Equiv.sum_comp (ValueIdx.contrEquiv1 dot_S2048x512_S512x256_S2048x256_1_0_0_1_n_n 512 rfl rfl).symm]
  refine Finset.sum_congr rfl fun kk _ => ?_
  have hk := ValueIdx.contrEquiv1_symm_val dot_S2048x512_S512x256_S2048x256_1_0_0_1_n_n 512 rfl rfl kk
  have el : dot_S2048x512_S512x256_S2048x256_1_0_0_1_n_n.lhsIdx (ValueIdx.ix2 p q) ((ValueIdx.contrEquiv1 dot_S2048x512_S512x256_S2048x256_1_0_0_1_n_n 512 rfl rfl).symm kk) = ValueIdx.ix2 p kk := funext fun a => Fin.ext (by
    match a with
    | ⟨0, _⟩ => exact lhs1_hr _ _
    | ⟨1, _⟩ => exact (lhs1_hc _ _).trans hk)
  have er : dot_S2048x512_S512x256_S2048x256_1_0_0_1_n_n.rhsIdx (ValueIdx.ix2 p q) ((ValueIdx.contrEquiv1 dot_S2048x512_S512x256_S2048x256_1_0_0_1_n_n 512 rfl rfl).symm kk) = ValueIdx.ix2 kk q := funext fun a => Fin.ext (by
    match a with
    | ⟨0, _⟩ => exact (rhs1_hr _ _).trans hk
    | ⟨1, _⟩ => exact rhs1_hc _ _)
  rw [el, er]

theorem lhs1_lr (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem lhs1_lc (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem rhs1_lr (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem rhs1_lc (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

theorem mmLin1_apply (xa : FVec Ideal S2048x512 .bf16) (xb : FVec Ideal S512x512 .bf16) (p : Fin 2048) (q : Fin 512) :
    matmul dot_S2048x512_S512x512_S2048x512_1_0_0_1_n_n none xa xb (constant (F := Ideal) S2048x512 .f32 0x00000000#32) (ValueIdx.ix2 p q)
      = ∑ kk : Fin 512, xa (ValueIdx.ix2 p kk) * xb (ValueIdx.ix2 kk q) := by
  refine (Ideal.matmul_constant_zero_apply dot_S2048x512_S512x512_S2048x512_1_0_0_1_n_n none _ _ (ValueIdx.ix2 p q)).trans ?_
  rw [← Equiv.sum_comp (ValueIdx.contrEquiv1 dot_S2048x512_S512x512_S2048x512_1_0_0_1_n_n 512 rfl rfl).symm]
  refine Finset.sum_congr rfl fun kk _ => ?_
  have hk := ValueIdx.contrEquiv1_symm_val dot_S2048x512_S512x512_S2048x512_1_0_0_1_n_n 512 rfl rfl kk
  have el : dot_S2048x512_S512x512_S2048x512_1_0_0_1_n_n.lhsIdx (ValueIdx.ix2 p q) ((ValueIdx.contrEquiv1 dot_S2048x512_S512x512_S2048x512_1_0_0_1_n_n 512 rfl rfl).symm kk) = ValueIdx.ix2 p kk := funext fun a => Fin.ext (by
    match a with
    | ⟨0, _⟩ => exact lhs1_lr _ _
    | ⟨1, _⟩ => exact (lhs1_lc _ _).trans hk)
  have er : dot_S2048x512_S512x512_S2048x512_1_0_0_1_n_n.rhsIdx (ValueIdx.ix2 p q) ((ValueIdx.contrEquiv1 dot_S2048x512_S512x512_S2048x512_1_0_0_1_n_n 512 rfl rfl).symm kk) = ValueIdx.ix2 kk q := funext fun a => Fin.ext (by
    match a with
    | ⟨0, _⟩ => exact (rhs1_lr _ _).trans hk
    | ⟨1, _⟩ => exact rhs1_lc _ _)
  rw [el, er]

/-! ## The layout operations at an index -/

/-- A block of 256 columns of the projected block, read at an index: the column moves by the block's offset. -/
theorem slice1_apply (off : ℕ) (x : FVec Ideal S512x1024 .bf16) (h : S512x1024.Slices ![0, off] S512x256)
    (kk : Fin 512) (q : Fin 256) (r : Fin 1024) (hr : r.val = off + q.val) :
    extractStridedSlice S512x256 ![0, off] x h (ValueIdx.ix2 kk q) = x (ValueIdx.ix2 kk r) :=
  extractStridedSlice_apply _ x h _ _ fun a => by
    match a with
    | ⟨0, _⟩ => show kk.val = 0 + kk.val; omega
    | ⟨1, _⟩ => show r.val = off + q.val; exact hr

/-- A row vector broadcast down the rows, read at an index: its entry at the column. -/
theorem bcast1_apply (x : FVec Ideal S1x512 .f32) (h : S1x512.Broadcasts S2048x512) (p : Fin 2048) (e : Fin 512) :
    broadcastTo S2048x512 x h (ValueIdx.ix2 p e) = x (ValueIdx.ix2 (0 : Fin 1) e) :=
  broadcastTo_apply x h _ _ fun a => by
    match a with
    | ⟨0, _⟩ => rfl
    | ⟨1, _⟩ => rfl

/-! ## The accumulator's rectangles -/

theorem zeros1 : (![0, 0] : Fin 2 → Nat) = fun _ => 0 := funext fun a => by fin_cases a <;> rfl

theorem embL1 (p : Fin 2048) (q : Fin 256) : rL1.emb (ValueIdx.ix2 p q) = ValueIdx.ix2 p (⟨q.val, by omega⟩ : Fin 512) := by
  funext a; apply Fin.ext
  match a with
  | ⟨0, _⟩ => show 0 + 1 * p.val = p.val; omega
  | ⟨1, _⟩ => show 0 + 1 * q.val = q.val; omega

theorem embR1 (p : Fin 2048) (q : Fin 256) : rR1.emb (ValueIdx.ix2 p q) = ValueIdx.ix2 p (⟨q.val + 256, by omega⟩ : Fin 512) := by
  funext a; apply Fin.ext
  match a with
  | ⟨0, _⟩ => show 0 + 1 * p.val = p.val; omega
  | ⟨1, _⟩ => show 256 + 1 * q.val = q.val + 256; omega

/-- A column below 256 is outside the right half. -/
theorem notMemR1 (p : Fin 2048) (q : Fin 256) : ValueIdx.ix2 p (⟨q.val, by omega⟩ : Fin 512) ∉ rR1.set := by
  intro hm
  rw [Rect.mem_set_unit] at hm
  have hq : 256 ≤ q.val := (hm 1).1
  omega

/-- Of the two stores into the accumulator, the one into the left half is what a column below 256 reads, -/
theorem canonL1 (wR : rR1.shape.Idx → Elt Ideal .f32) (wL : rL1.shape.Idx → Elt Ideal .f32) (p : Fin 2048) (q : Fin 256) :
    View.canon [(⟨rR1, wR⟩ : View.Piece (Elt Ideal) S2048x512 .f32), ⟨rL1, wL⟩] (ValueIdx.ix2 p (⟨q.val, by omega⟩ : Fin 512))
      = wL (ValueIdx.ix2 p q) := by
  rw [View.canon_cons_of_not_mem (⟨rR1, wR⟩ : View.Piece (Elt Ideal) S2048x512 .f32) _ (notMemR1 p q), ← embL1 p q]
  exact View.canon_cons_emb rL1 wL [] _

/-- and the one into the right half, the later store, is what a column from 256 reads. -/
theorem canonR1 (wR : rR1.shape.Idx → Elt Ideal .f32) (wL : rL1.shape.Idx → Elt Ideal .f32) (p : Fin 2048) (q : Fin 256) :
    View.canon [(⟨rR1, wR⟩ : View.Piece (Elt Ideal) S2048x512 .f32), ⟨rL1, wL⟩] (ValueIdx.ix2 p (⟨q.val + 256, by omega⟩ : Fin 512))
      = wR (ValueIdx.ix2 p q) := by
  rw [← embR1 p q]
  exact View.canon_cons_emb rR1 wR _ _

/-! ## The payloads at an index -/

/-- The reset accumulator is zero everywhere. -/
theorem zeroS1_apply (y : S2048x512.Idx) : (zeroS1 (F := Ideal)) y = 0 := by
  unfold zeroS1
  rw [View.canon_unit_zero zeros1]
  unfold k1_pay3
  simp only [shapeCast_self]
  rw [ValueIdx.broadcast_apply]
  exact Ideal.ofBits_zero_f32

/-- One half's update at an index: what it held plus the two products. -/
theorem payL1_apply (xw : Vec Ideal S512x1024 .bf16) (aBa aBb : Vec Ideal S2048x512 .f32) (u : Vec Ideal S2048x256 .f32)
    (p : Fin 2048) (q : Fin 256) :
    k1_pay5 (F := Ideal) xw aBa aBb u (ValueIdx.ix2 p q)
      = u (ValueIdx.ix2 p q)
        + ((∑ kk : Fin 512, aBa (ValueIdx.ix2 p kk) * xw (ValueIdx.ix2 kk (⟨q.val, by omega⟩ : Fin 1024)))
          + (∑ kk : Fin 512, aBb (ValueIdx.ix2 p kk) * xw (ValueIdx.ix2 kk (⟨q.val + 256, by omega⟩ : Fin 1024)))) := by
  unfold k1_pay5 k1_pay4
  simp only [shapeCast_self]
  rw [ValueIdx.addf_apply, ValueIdx.addf_apply, mmHalf1_apply, mmHalf1_apply]
  refine congrArg (u (ValueIdx.ix2 p q) + ·) (congrArg₂ (· + ·) (Finset.sum_congr rfl fun kk _ => ?_) (Finset.sum_congr rfl fun kk _ => ?_))
  · rw [slice1_apply 0 _ _ kk q ⟨q.val, by omega⟩ (by simp)]; rfl
  · rw [slice1_apply 256 _ _ kk q ⟨q.val + 256, by omega⟩ (by simp; omega)]; rfl

theorem payR1_apply (xw : Vec Ideal S512x1024 .bf16) (aFa aFb : Vec Ideal S2048x512 .f32) (u : Vec Ideal S2048x256 .f32)
    (p : Fin 2048) (q : Fin 256) :
    k1_pay1 (F := Ideal) (k1_pay6 xw aFa aFb u) (ValueIdx.ix2 p q)
      = u (ValueIdx.ix2 p q)
        + ((∑ kk : Fin 512, aFa (ValueIdx.ix2 p kk) * xw (ValueIdx.ix2 kk (⟨q.val + 512, by omega⟩ : Fin 1024)))
          + (∑ kk : Fin 512, aFb (ValueIdx.ix2 p kk) * xw (ValueIdx.ix2 kk (⟨q.val + 768, by omega⟩ : Fin 1024)))) := by
  unfold k1_pay1 k1_pay6 k1_pay4
  simp only [shapeCast_self]
  rw [ValueIdx.addf_apply, ValueIdx.addf_apply, mmHalf1_apply, mmHalf1_apply]
  refine congrArg (u (ValueIdx.ix2 p q) + ·) (congrArg₂ (· + ·) (Finset.sum_congr rfl fun kk _ => ?_) (Finset.sum_congr rfl fun kk _ => ?_))
  · rw [slice1_apply 512 _ _ kk q ⟨q.val + 512, by omega⟩ (by simp; omega)]; rfl
  · rw [slice1_apply 768 _ _ kk q ⟨q.val + 768, by omega⟩ (by simp; omega)]; rfl

/-- One point's update of the accumulator's left half (columns below 256). -/
theorem accStep1_left (xw : Vec Ideal S512x1024 .bf16) (aBa aBb aFa aFb s : Vec Ideal S2048x512 .f32) (p : Fin 2048) (q : Fin 256) :
    accStep1 (F := Ideal) xw aBa aBb aFa aFb s (ValueIdx.ix2 p (⟨q.val, by omega⟩ : Fin 512))
      = s (ValueIdx.ix2 p (⟨q.val, by omega⟩ : Fin 512))
        + ((∑ kk : Fin 512, aBa (ValueIdx.ix2 p kk) * xw (ValueIdx.ix2 kk (⟨q.val, by omega⟩ : Fin 1024)))
          + (∑ kk : Fin 512, aBb (ValueIdx.ix2 p kk) * xw (ValueIdx.ix2 kk (⟨q.val + 256, by omega⟩ : Fin 1024)))) := by
  unfold accStep1
  refine (canonL1 _ _ p q).trans ((payL1_apply xw aBa aBb _ p q).trans ?_)
  exact congrArg (· + _) (congrArg s (embL1 p q))

/-- One point's update of the accumulator's right half (columns from 256). -/
theorem accStep1_right (xw : Vec Ideal S512x1024 .bf16) (aBa aBb aFa aFb s : Vec Ideal S2048x512 .f32) (p : Fin 2048) (q : Fin 256) :
    accStep1 (F := Ideal) xw aBa aBb aFa aFb s (ValueIdx.ix2 p (⟨q.val + 256, by omega⟩ : Fin 512))
      = s (ValueIdx.ix2 p (⟨q.val + 256, by omega⟩ : Fin 512))
        + ((∑ kk : Fin 512, aFa (ValueIdx.ix2 p kk) * xw (ValueIdx.ix2 kk (⟨q.val + 512, by omega⟩ : Fin 1024)))
          + (∑ kk : Fin 512, aFb (ValueIdx.ix2 p kk) * xw (ValueIdx.ix2 kk (⟨q.val + 768, by omega⟩ : Fin 1024)))) := by
  unfold accStep1
  refine (canonR1 _ _ p q).trans ((payR1_apply xw aFa aFb _ p q).trans ?_)
  exact congrArg (· + _) (congrArg s (embR1 p q))

/-- The last point's store, entry by entry. -/
theorem finStep1_apply (s : Vec Ideal S2048x512 .f32) (bpre : Vec Ideal S1x512 .f32) (wl : Vec Ideal S512x512 .f32)
    (blin : Vec Ideal S1x512 .f32) (h : Vec Ideal S2048x512 .f32) (p : Fin 2048) (j : Fin 512) :
    finStep1 (F := Ideal) s bpre wl blin h (ValueIdx.ix2 p j)
      = ((∑ e : Fin 512, max (s (ValueIdx.ix2 p e) + bpre (ValueIdx.ix2 (0 : Fin 1) e)) 0 * wl (ValueIdx.ix2 e j))
          + blin (ValueIdx.ix2 (0 : Fin 1) j)) + h (ValueIdx.ix2 p j) := by
  unfold finStep1
  rw [View.canon_unit_zero zeros1]
  unfold k1_pay2
  simp only [shapeCast_self]
  rw [ValueIdx.addf_apply, ValueIdx.addf_apply, mmLin1_apply, bcast1_apply]
  refine congrArg (· + h (ValueIdx.ix2 p j)) (congrArg (· + blin (ValueIdx.ix2 (0 : Fin 1) j)) (Finset.sum_congr rfl fun e _ => ?_))
  rw [ValueIdx.truncf_apply, ValueIdx.truncf_apply, ValueIdx.maximumf_apply, ValueIdx.addf_apply, bcast1_apply, ValueIdx.broadcast_apply]
  show max _ (Ideal.ofBits .f32 0x00000000#32) * _ = _
  rw [Ideal.ofBits_zero_f32]

end Cert.KernelIdeal.Hand

end
-- ==== Proof.ValAggBlk1.lean ====
/-
  The aggregation's result array from its blocks, at the ideal instance. Grid point `t` of the sixteen is row block
  `t / 8` and contraction block `t % 8`; the output window holds rows 2048·(t/8)… of the result and is written back once
  per row block, at the last contraction block. The two row blocks tile the array, so it ends holding whatever ONE
  function of its indices the storing points' buffers agree with.
-/
import proofs.«145376_g10471130268016_week1_w2_219_10_alg».proof.Proof.KiAgg1
import proofs.«145376_g10471130268016_week1_w2_219_10_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

variable (V : (c : Dev nD) → (b : Ref sig .tc) → Buf (Elt Ideal) ((c : Thread nD τ).loc b))

/-! ## From the blocks to the result array -/

/-- The output window's block index over the grid: the row block of the point, and no movement along the columns. -/
theorem indexOut1_facts : ∀ t : Fin cfg1.N, win1_9.index t (0 : Fin 2) = t.val / 8 ∧ win1_9.index t (1 : Fin 2) = 0 :=
  (by decide +kernel : ∀ t : Fin grid1.N, _)

/-- The hypothesis on the storing points, restated at indices given by their coordinates. -/
theorem outAt1 (c : Dev nD) (G : S4096x512.Idx → EReal)
    (hG : ∀ t : Fin cfg1.N, t.val % 8 = 7 → ∀ (p : Fin 2048) (j : Fin 512) (r : Fin 4096),
      r.val = 2048 * (t.val / 8) + p.val →
      (oAt1 V c t : S2048x512.Idx → EReal) (ValueIdx.ix2 p j) = G (ValueIdx.ix2 r j))
    (t : Fin cfg1.N) (hm : t.val % 8 = 7) (y : S2048x512.Idx) (i : S4096x512.Idx)
    (hr : (i 0).val = 2048 * (t.val / 8) + (y 0).val) (hc : (i 1).val = (y 1).val) :
    (oAt1 V c t : S2048x512.Idx → EReal) y = G i := by
  obtain ⟨p, j, rfl⟩ : ∃ (p : Fin 2048) (j : Fin 512), y = ValueIdx.ix2 p j := ⟨y 0, y 1, ValueIdx.eq_ix2 y⟩
  obtain ⟨r, jj, rfl⟩ : ∃ (r : Fin 4096) (jj : Fin 512), i = ValueIdx.ix2 r jj := ⟨i 0, i 1, ValueIdx.eq_ix2 i⟩
  obtain rfl : jj = j := Fin.ext hc
  exact hG t hm p jj r hr

/-- What a storing point writes back is its block of `G`: an element of the block sits in the array at block index ×
    block size + its coordinate in the block, on each axis. -/
theorem flushedOut1_eq (c : Dev nD) (G : S4096x512.Idx → EReal)
    (hG : ∀ t : Fin cfg1.N, t.val % 8 = 7 → ∀ (p : Fin 2048) (j : Fin 512) (r : Fin 4096),
      r.val = 2048 * (t.val / 8) + p.val →
      (oAt1 V c t : S2048x512.Idx → EReal) (ValueIdx.ix2 p j) = G (ValueIdx.ix2 r j))
    (t : Fin cfg1.N) (ht : (cfg1.win 9).flush t = true) :
    (dat1 V c).flushed 9 t = ((cfg1.win 9).blk t).view.read (Elt Ideal) G := by
  show (cfg1.win 9).cut (grid1.coords t) ((dat1 V c).after 9 t) = _
  rw [after1_9]
  have hm : t.val % 8 = 7 := (flush1_9 t).mp ht
  obtain ⟨er, ec⟩ := indexOut1_facts t
  funext y
  refine outAt1 V c G hG t hm y (((cfg1.win 9).blk t).view.emb y) ?_ ?_
  · show win1_9.index t (0 : Fin 2) * 2048 + 1 * (y 0).val = 2048 * (t.val / 8) + (y 0).val; omega
  · show win1_9.index t (1 : Fin 2) * 512 + 1 * (y 1).val = (y 1).val; omega

/-- An index of the array is in point `t`'s block iff each coordinate is in the block's range on its axis. -/
theorem memOut1 (t : Fin cfg1.N) (i : S4096x512.Idx) :
    i ∈ ((cfg1.win 9).blk t).view.set ↔ ∀ a : Fin 2, win1_9.index t a * S2048x512.size a ≤ (i a).val
      ∧ (i a).val < win1_9.index t a * S2048x512.size a + S2048x512.size a := by
  show i ∈ ((View.whole (Pipeline.arrRef spec1 9)).slice (win1_9.rect t)).set ↔ _
  rw [View.set_slice_whole, Rect.mem_set_unit]
  exact Iff.rfl

/-- The two row blocks tile the array, and each is written back at the last contraction block: row `r` is in the block
    of the point 8·(r / 2048) + 7. -/
theorem coverOut1 (i : S4096x512.Idx) :
    ∃ t : Fin cfg1.N, (cfg1.win 9).flush t = true ∧ i ∈ ((cfg1.win 9).blk t).view.set := by
  have hr : (i 0).val < 4096 := (i 0).isLt
  have hc : (i 1).val < 512 := (i 1).isLt
  have hN : 8 * ((i 0).val / 2048) + 7 < grid1.N := by rw [N_1]; omega
  refine ⟨⟨8 * ((i 0).val / 2048) + 7, hN⟩, (flush1_9 _).mpr (by show (8 * ((i 0).val / 2048) + 7) % 8 = 7; omega), ?_⟩
  obtain ⟨er, ec⟩ := indexOut1_facts ⟨8 * ((i 0).val / 2048) + 7, hN⟩
  rw [memOut1]
  intro a
  match a with
  | ⟨0, _⟩ =>
    show win1_9.index _ (0 : Fin 2) * 2048 ≤ (i 0).val ∧ (i 0).val < win1_9.index _ (0 : Fin 2) * 2048 + 2048
    rw [er]; show (8 * ((i 0).val / 2048) + 7) / 8 * 2048 ≤ (i 0).val ∧ (i 0).val < (8 * ((i 0).val / 2048) + 7) / 8 * 2048 + 2048; omega
  | ⟨1, _⟩ =>
    show win1_9.index _ (1 : Fin 2) * 512 ≤ (i 1).val ∧ (i 1).val < win1_9.index _ (1 : Fin 2) * 512 + 512
    rw [ec]; omega

/-- If what every storing point (the last contraction block of a row block) leaves in the output buffer is that row
    block of ONE function `G` of the array's indices, the result array ends holding `G`. -/
theorem final1 (c : Dev nD) (G : S4096x512.Idx → EReal)
    (hG : ∀ t : Fin cfg1.N, t.val % 8 = 7 → ∀ (p : Fin 2048) (j : Fin 512) (r : Fin 4096),
      r.val = 2048 * (t.val / 8) + p.val →
      (oAt1 V c t : S2048x512.Idx → EReal) (ValueIdx.ix2 p j) = G (ValueIdx.ix2 r j)) :
    ((dat1 V c).arrAt 9 cfg1.N : S4096x512.Idx → EReal) = G :=
  (dat1 V c).arrAt_eq_of_cover 9 G (fun t ht => flushedOut1_eq V c G hG t ht) coverOut1

end Cert.KernelIdeal.Hand

end
-- ==== Proof.ValAgg1.lean ====
/-
  What the first aggregation leaves in its result array, at the ideal instance. Along a row block the accumulator starts
  at zero and gains, at contraction block k, the products of the four adjacency blocks with rows 512k … 512k+511 of the
  stacked projection; after the eighth block it holds the full sums over all 4096 rows, and the last point stores the
  biased, rectified accumulator against the linear map, plus its bias, plus the residual. The two row blocks tile the array.
-/
import proofs.«145376_g10471130268016_week1_w2_219_10_alg».proof.Proof.KiAgg1
import proofs.«145376_g10471130268016_week1_w2_219_10_alg».proof.Proof.Spec
import proofs.«145376_g10471130268016_week1_w2_219_10_alg».proof.Proof.ValAggStep1
import proofs.«145376_g10471130268016_week1_w2_219_10_alg».proof.Proof.ValAggBlk1
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)
open Cert.Spec (at2 at3 at4 row0)

/-! ## Sums over 4096 rows as eight runs of 512 -/

/-- A sum over 4096 indices, taken as eight consecutive runs of 512. -/
theorem runs1_sum (f : Fin 4096 → EReal) :
    ∑ K : Fin 4096, f K = ∑ k : Fin 8, ∑ kk : Fin 512, f ⟨512 * k.val + kk.val, by omega⟩ := by
  have e := Equiv.sum_comp (finProdFinEquiv (m := 8) (n := 512)) f
  rw [← e, Fintype.sum_prod_type]
  refine Finset.sum_congr rfl fun a _ => Finset.sum_congr rfl fun b _ => congrArg f (Fin.ext ?_)
  show b.val + 512 * a.val = 512 * a.val + b.val
  omega

/-- Contraction block `k`'s share of the pre-activation less its bias: the four adjacencies' columns 512k … 512k+511
    against those rows of the stacked projection. -/
def part1 (aBa aBb aFa aFb : Fin 4096 → Fin 4096 → EReal) (xw : Fin 4096 → Fin 1024 → EReal) (i : Fin 4096) (k : Fin 8)
    (e : Fin 512) : EReal :=
  if he : e.val < 256 then
    (∑ kk : Fin 512, aBa i ⟨512 * k.val + kk.val, by omega⟩ * xw ⟨512 * k.val + kk.val, by omega⟩ ⟨e.val, by omega⟩)
      + (∑ kk : Fin 512, aBb i ⟨512 * k.val + kk.val, by omega⟩ * xw ⟨512 * k.val + kk.val, by omega⟩ ⟨e.val + 256, by omega⟩)
  else
    (∑ kk : Fin 512, aFa i ⟨512 * k.val + kk.val, by omega⟩ * xw ⟨512 * k.val + kk.val, by omega⟩ ⟨e.val + 256, by have := e.isLt; omega⟩)
      + (∑ kk : Fin 512, aFb i ⟨512 * k.val + kk.val, by omega⟩ * xw ⟨512 * k.val + kk.val, by omega⟩ ⟨e.val + 512, by have := e.isLt; omega⟩)

/-- The eight shares add up to the full sums over all 4096 rows. -/
theorem part1_sum (aBa aBb aFa aFb : Fin 4096 → Fin 4096 → EReal) (xw : Fin 4096 → Fin 1024 → EReal) (i : Fin 4096) (e : Fin 512) :
    ∑ k : Fin 8, part1 aBa aBb aFa aFb xw i k e = Cert.Spec.aggS aBa aBb aFa aFb xw i e := by
  unfold Cert.Spec.aggS
  by_cases he : e.val < 256
  · rw [dif_pos he]
    simp only [part1, dif_pos he]
    rw [Finset.sum_add_distrib, runs1_sum (fun K => aBa i K * xw K ⟨e.val, by omega⟩),
      runs1_sum (fun K => aBb i K * xw K ⟨e.val + 256, by omega⟩)]
  · rw [dif_neg he]
    simp only [part1, dif_neg he]
    rw [Finset.sum_add_distrib, runs1_sum (fun K => aFa i K * xw K ⟨e.val + 256, by have := e.isLt; omega⟩),
      runs1_sum (fun K => aFb i K * xw K ⟨e.val + 512, by have := e.isLt; omega⟩)]

variable (V : (c : Dev nD) → (b : Ref sig .tc) → Buf (Elt Ideal) ((c : Thread nD τ).loc b))

/-! ## The blocks read at the arrays' coordinates

  A block's element sits in its array at block index × block size + its coordinate inside the block, on each axis. The
  block indices over the grid, point `t` being row block `t / 8`, contraction block `t % 8`: -/

theorem index1_facts : ∀ t : Fin cfg1.N,
    (win1_0.index t (0 : Fin 2) = t.val / 8 ∧ win1_0.index t (1 : Fin 2) = t.val % 8)
    ∧ (win1_1.index t (0 : Fin 2) = t.val / 8 ∧ win1_1.index t (1 : Fin 2) = t.val % 8)
    ∧ (win1_2.index t (0 : Fin 2) = t.val / 8 ∧ win1_2.index t (1 : Fin 2) = t.val % 8)
    ∧ (win1_3.index t (0 : Fin 2) = t.val / 8 ∧ win1_3.index t (1 : Fin 2) = t.val % 8)
    ∧ (win1_4.index t (0 : Fin 2) = t.val % 8 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = t.val / 8 ∧ win1_8.index t (1 : Fin 2) = 0)
    ∧ (win1_9.index t (0 : Fin 2) = t.val / 8 ∧ win1_9.index t (1 : Fin 2) = 0) :=
  (by decide +kernel : ∀ t : Fin grid1.N, _)

/-- An adjacency block's entry (p, q) is the array's entry (2048 (t / 8) + p, 512 (t % 8) + q); the caller names the two
    coordinates. The four adjacencies alike. -/
theorem blk1_a (c : Dev nD) (t : Fin cfg1.N) (p : Fin 2048) (q : Fin 512) (r s : Fin 4096)
    (hr : r.val = 2048 * (t.val / 8) + p.val) (hs : s.val = 512 * (t.val % 8) + q.val) :
    iblk1 V c 0 t (ValueIdx.ix2 p q) = at2 (V c (Pipeline.arrRef spec1 0)) r s := by
  obtain ⟨⟨er, ec⟩, -⟩ := index1_facts t
  show V c (Pipeline.arrRef spec1 0) (((cfg1.win 0).blk t).view.emb (ValueIdx.ix2 p q))
      = V c (Pipeline.arrRef spec1 0) (ValueIdx.ix2 r s)
  refine congrArg _ (funext fun a => Fin.ext ?_)
  match a with
  | ⟨0, _⟩ => show win1_0.index t (0 : Fin 2) * 2048 + 1 * p.val = r.val; omega
  | ⟨1, _⟩ => show win1_0.index t (1 : Fin 2) * 512 + 1 * q.val = s.val; omega

theorem blk1_b (c : Dev nD) (t : Fin cfg1.N) (p : Fin 2048) (q : Fin 512) (r s : Fin 4096)
    (hr : r.val = 2048 * (t.val / 8) + p.val) (hs : s.val = 512 * (t.val % 8) + q.val) :
    iblk1 V c 1 t (ValueIdx.ix2 p q) = at2 (V c (Pipeline.arrRef spec1 1)) r s := by
  obtain ⟨-, ⟨er, ec⟩, -⟩ := index1_facts t
  show V c (Pipeline.arrRef spec1 1) (((cfg1.win 1).blk t).view.emb (ValueIdx.ix2 p q))
      = V c (Pipeline.arrRef spec1 1) (ValueIdx.ix2 r s)
  refine congrArg _ (funext fun a => Fin.ext ?_)
  match a with
  | ⟨0, _⟩ => show win1_1.index t (0 : Fin 2) * 2048 + 1 * p.val = r.val; omega
  | ⟨1, _⟩ => show win1_1.index t (1 : Fin 2) * 512 + 1 * q.val = s.val; omega

theorem blk1_c (c : Dev nD) (t : Fin cfg1.N) (p : Fin 2048) (q : Fin 512) (r s : Fin 4096)
    (hr : r.val = 2048 * (t.val / 8) + p.val) (hs : s.val = 512 * (t.val % 8) + q.val) :
    iblk1 V c 2 t (ValueIdx.ix2 p q) = at2 (V c (Pipeline.arrRef spec1 2)) r s := by
  obtain ⟨-, -, ⟨er, ec⟩, -⟩ := index1_facts t
  show V c (Pipeline.arrRef spec1 2) (((cfg1.win 2).blk t).view.emb (ValueIdx.ix2 p q))
      = V c (Pipeline.arrRef spec1 2) (ValueIdx.ix2 r s)
  refine congrArg _ (funext fun a => Fin.ext ?_)
  match a with
  | ⟨0, _⟩ => show win1_2.index t (0 : Fin 2) * 2048 + 1 * p.val = r.val; omega
  | ⟨1, _⟩ => show win1_2.index t (1 : Fin 2) * 512 + 1 * q.val = s.val; omega

theorem blk1_d (c : Dev nD) (t : Fin cfg1.N) (p : Fin 2048) (q : Fin 512) (r s : Fin 4096)
    (hr : r.val = 2048 * (t.val / 8) + p.val) (hs : s.val = 512 * (t.val % 8) + q.val) :
    iblk1 V c 3 t (ValueIdx.ix2 p q) = at2 (V c (Pipeline.arrRef spec1 3)) r s := by
  obtain ⟨-, -, -, ⟨er, ec⟩, -⟩ := index1_facts t
  show V c (Pipeline.arrRef spec1 3) (((cfg1.win 3).blk t).view.emb (ValueIdx.ix2 p q))
      = V c (Pipeline.arrRef spec1 3) (ValueIdx.ix2 r s)
  refine congrArg _ (funext fun a => Fin.ext ?_)
  match a with
  | ⟨0, _⟩ => show win1_3.index t (0 : Fin 2) * 2048 + 1 * p.val = r.val; omega
  | ⟨1, _⟩ => show win1_3.index t (1 : Fin 2) * 512 + 1 * q.val = s.val; omega

/-- The projected block's entry (q, j) is the array's entry (512 (t % 8) + q, j). -/
theorem blk1_x (c : Dev nD) (t : Fin cfg1.N) (q : Fin 512) (j : Fin 1024) (r : Fin 4096)
    (hr : r.val = 512 * (t.val % 8) + q.val) :
    iblk1 V c 4 t (ValueIdx.ix2 q j) = at2 (V c (Pipeline.arrRef spec1 4)) r j := by
  obtain ⟨-, -, -, -, ⟨er, ec⟩, -⟩ := index1_facts t
  show V c (Pipeline.arrRef spec1 4) (((cfg1.win 4).blk t).view.emb (ValueIdx.ix2 q j))
      = V c (Pipeline.arrRef spec1 4) (ValueIdx.ix2 r j)
  refine congrArg _ (funext fun a => Fin.ext ?_)
  match a with
  | ⟨0, _⟩ => show win1_4.index t (0 : Fin 2) * 512 + 1 * q.val = r.val; omega
  | ⟨1, _⟩ => show win1_4.index t (1 : Fin 2) * 1024 + 1 * j.val = j.val; omega

/-- The linear map and the two bias rows are read whole. -/
theorem blk1_w (c : Dev nD) (t : Fin cfg1.N) (e j : Fin 512) :
    iblk1 V c 5 t (ValueIdx.ix2 e j) = at2 (V c (Pipeline.arrRef spec1 5)) e j := by
  obtain ⟨-, -, -, -, -, ⟨er, ec⟩, -⟩ := index1_facts t
  show V c (Pipeline.arrRef spec1 5) (((cfg1.win 5).blk t).view.emb (ValueIdx.ix2 e j))
      = V c (Pipeline.arrRef spec1 5) (ValueIdx.ix2 e j)
  refine congrArg _ (funext fun a => Fin.ext ?_)
  match a with
  | ⟨0, _⟩ => show win1_5.index t (0 : Fin 2) * 512 + 1 * e.val = e.val; omega
  | ⟨1, _⟩ => show win1_5.index t (1 : Fin 2) * 512 + 1 * j.val = j.val; omega

theorem blk1_bpre (c : Dev nD) (t : Fin cfg1.N) (e : Fin 512) :
    iblk1 V c 6 t (ValueIdx.ix2 (0 : Fin 1) e) = row0 (V c (Pipeline.arrRef spec1 6)) e := by
  obtain ⟨-, -, -, -, -, -, ⟨er, ec⟩, -⟩ := index1_facts t
  show V c (Pipeline.arrRef spec1 6) (((cfg1.win 6).blk t).view.emb (ValueIdx.ix2 (0 : Fin 1) e))
      = V c (Pipeline.arrRef spec1 6) (ValueIdx.ix2 (0 : Fin 1) e)
  refine congrArg _ (funext fun a => Fin.ext ?_)
  match a with
  | ⟨0, _⟩ => show win1_6.index t (0 : Fin 2) * 1 + 1 * 0 = 0; omega
  | ⟨1, _⟩ => show win1_6.index t (1 : Fin 2) * 512 + 1 * e.val = e.val; omega

theorem blk1_blin (c : Dev nD) (t : Fin cfg1.N) (e : Fin 512) :
    iblk1 V c 7 t (ValueIdx.ix2 (0 : Fin 1) e) = row0 (V c (Pipeline.arrRef spec1 7)) e := by
  obtain ⟨-, -, -, -, -, -, -, ⟨er, ec⟩, -⟩ := index1_facts t
  show V c (Pipeline.arrRef spec1 7) (((cfg1.win 7).blk t).view.emb (ValueIdx.ix2 (0 : Fin 1) e))
      = V c (Pipeline.arrRef spec1 7) (ValueIdx.ix2 (0 : Fin 1) e)
  refine congrArg _ (funext fun a => Fin.ext ?_)
  match a with
  | ⟨0, _⟩ => show win1_7.index t (0 : Fin 2) * 1 + 1 * 0 = 0; omega
  | ⟨1, _⟩ => show win1_7.index t (1 : Fin 2) * 512 + 1 * e.val = e.val; omega

/-- The residual block's entry (p, j) is the array's entry (2048 (t / 8) + p, j). -/
theorem blk1_h (c : Dev nD) (t : Fin cfg1.N) (p : Fin 2048) (j : Fin 512) (r : Fin 4096)
    (hr : r.val = 2048 * (t.val / 8) + p.val) :
    iblk1 V c 8 t (ValueIdx.ix2 p j) = at2 (V c (Pipeline.arrRef spec1 8)) r j := by
  obtain ⟨-, -, -, -, -, -, -, -, ⟨er, ec⟩, -⟩ := index1_facts t
  show V c (Pipeline.arrRef spec1 8) (((cfg1.win 8).blk t).view.emb (ValueIdx.ix2 p j))
      = V c (Pipeline.arrRef spec1 8) (ValueIdx.ix2 r j)
  refine congrArg _ (funext fun a => Fin.ext ?_)
  match a with
  | ⟨0, _⟩ => show win1_8.index t (0 : Fin 2) * 2048 + 1 * p.val = r.val; omega
  | ⟨1, _⟩ => show win1_8.index t (1 : Fin 2) * 512 + 1 * j.val = j.val; omega

/-! ## One point's update at an index, either half -/

/-- One point's update of the accumulator at any column: what it held, plus the two backward products in the left
    half (columns below 256) or the two forward ones in the right half. -/
theorem acc1_apply (xw : Vec Ideal S512x1024 .bf16) (aBa aBb aFa aFb s : Vec Ideal S2048x512 .f32) (p : Fin 2048) (e : Fin 512) :
    accStep1 (F := Ideal) xw aBa aBb aFa aFb s (ValueIdx.ix2 p e)
      = s (ValueIdx.ix2 p e) + (if he : e.val < 256 then
          (∑ kk : Fin 512, aBa (ValueIdx.ix2 p kk) * xw (ValueIdx.ix2 kk (⟨e.val, by omega⟩ : Fin 1024)))
            + (∑ kk : Fin 512, aBb (ValueIdx.ix2 p kk) * xw (ValueIdx.ix2 kk (⟨e.val + 256, by omega⟩ : Fin 1024)))
        else
          (∑ kk : Fin 512, aFa (ValueIdx.ix2 p kk) * xw (ValueIdx.ix2 kk (⟨e.val + 256, by have := e.isLt; omega⟩ : Fin 1024)))
            + (∑ kk : Fin 512, aFb (ValueIdx.ix2 p kk) * xw (ValueIdx.ix2 kk (⟨e.val + 512, by have := e.isLt; omega⟩ : Fin 1024)))) := by
  by_cases he : e.val < 256
  · rw [dif_pos he]
    exact accStep1_left xw aBa aBb aFa aFb s p ⟨e.val, he⟩
  · rw [dif_neg he]
    have hlt := e.isLt
    obtain ⟨q, hq⟩ : ∃ q : Fin 256, q.val + 256 = e.val := ⟨⟨e.val - 256, by omega⟩, by show e.val - 256 + 256 = e.val; omega⟩
    have key := accStep1_right xw aBa aBb aFa aFb s p q
    have ea : (⟨q.val + 256, by omega⟩ : Fin 512) = e := Fin.ext hq
    have eb : (⟨q.val + 512, by omega⟩ : Fin 1024) = ⟨e.val + 256, by omega⟩ := Fin.ext (by show q.val + 512 = e.val + 256; omega)
    have ec : (⟨q.val + 768, by omega⟩ : Fin 1024) = ⟨e.val + 512, by omega⟩ := Fin.ext (by show q.val + 768 = e.val + 512; omega)
    rw [ea, eb, ec] at key
    exact key

/-- The same at point `t` = 8 b + k, in the arrays' coordinates: row 2048 b + p gains contraction block `k`'s share. -/
theorem acc1_at (c : Dev nD) (t : Fin cfg1.N) (b : ℕ) (k : Fin 8) (hb : b < 2) (ht : t.val = 8 * b + k.val)
    (s : Vec Ideal S2048x512 .f32) (p : Fin 2048) (e : Fin 512) :
    accStep1 (F := Ideal) (iblk1 V c 4 t) (iblk1 V c 0 t) (iblk1 V c 1 t) (iblk1 V c 2 t) (iblk1 V c 3 t) s (ValueIdx.ix2 p e)
      = s (ValueIdx.ix2 p e) + part1 (at2 (V c (Pipeline.arrRef spec1 0))) (at2 (V c (Pipeline.arrRef spec1 1)))
          (at2 (V c (Pipeline.arrRef spec1 2))) (at2 (V c (Pipeline.arrRef spec1 3))) (at2 (V c (Pipeline.arrRef spec1 4)))
          ⟨2048 * b + p.val, by omega⟩ k e := by
  refine (acc1_apply (iblk1 V c 4 t) (iblk1 V c 0 t) (iblk1 V c 1 t) (iblk1 V c 2 t) (iblk1 V c 3 t) s p e).trans ?_
  have hk := k.isLt
  have hdiv : t.val / 8 = b := by omega
  have hmod : t.val % 8 = k.val := by omega
  refine congrArg (fun z => s (ValueIdx.ix2 p e) + z) ?_
  unfold part1
  by_cases he : e.val < 256
  · rw [dif_pos he, dif_pos he]
    refine congr (congrArg HAdd.hAdd (Finset.sum_congr rfl fun kk _ => ?_)) (Finset.sum_congr rfl fun kk _ => ?_)
    · rw [blk1_a V c t p kk ⟨2048 * b + p.val, by omega⟩ ⟨512 * k.val + kk.val, by omega⟩ (by rw [hdiv]) (by rw [hmod]),
        blk1_x V c t kk ⟨e.val, by omega⟩ ⟨512 * k.val + kk.val, by omega⟩ (by rw [hmod])]
    · rw [blk1_b V c t p kk ⟨2048 * b + p.val, by omega⟩ ⟨512 * k.val + kk.val, by omega⟩ (by rw [hdiv]) (by rw [hmod]),
        blk1_x V c t kk ⟨e.val + 256, by omega⟩ ⟨512 * k.val + kk.val, by omega⟩ (by rw [hmod])]
  · rw [dif_neg he, dif_neg he]
    refine congr (congrArg HAdd.hAdd (Finset.sum_congr rfl fun kk _ => ?_)) (Finset.sum_congr rfl fun kk _ => ?_)
    · rw [blk1_c V c t p kk ⟨2048 * b + p.val, by omega⟩ ⟨512 * k.val + kk.val, by omega⟩ (by rw [hdiv]) (by rw [hmod]),
        blk1_x V c t kk ⟨e.val + 256, by have := e.isLt; omega⟩ ⟨512 * k.val + kk.val, by omega⟩ (by rw [hmod])]
    · rw [blk1_d V c t p kk ⟨2048 * b + p.val, by omega⟩ ⟨512 * k.val + kk.val, by omega⟩ (by rw [hdiv]) (by rw [hmod]),
        blk1_x V c t kk ⟨e.val + 512, by have := e.isLt; omega⟩ ⟨512 * k.val + kk.val, by omega⟩ (by rw [hmod])]

/-! ## The accumulator along a row block -/

/-- At the first point of a row block the accumulator is that point's update of the reset one. -/
theorem sAtV1_reset (c : Dev nD) : ∀ (n : ℕ) (hn : n < cfg1.N), n % 8 = 0 →
    sAt1 V c n hn = accStep1 (iblk1 V c 4 ⟨n, hn⟩) (iblk1 V c 0 ⟨n, hn⟩) (iblk1 V c 1 ⟨n, hn⟩) (iblk1 V c 2 ⟨n, hn⟩)
      (iblk1 V c 3 ⟨n, hn⟩) zeroS1
  | 0, hn, _ => by rw [sAt1]
  | n + 1, hn, hm => by rw [sAt1, if_pos hm]

/-- At any other point it is that point's update of what the point before left. -/
theorem sAtV1_step (c : Dev nD) (n : ℕ) (hn : n + 1 < cfg1.N) (hm : ¬(n + 1) % 8 = 0) :
    sAt1 V c (n + 1) hn = accStep1 (iblk1 V c 4 ⟨n + 1, hn⟩) (iblk1 V c 0 ⟨n + 1, hn⟩) (iblk1 V c 1 ⟨n + 1, hn⟩)
      (iblk1 V c 2 ⟨n + 1, hn⟩) (iblk1 V c 3 ⟨n + 1, hn⟩) (sAt1 V c n (Nat.lt_of_succ_lt hn)) := by
  rw [sAt1, if_neg hm]

/-- THE PARTIAL SUMS. After contraction block `k` of row block `b` the accumulator's entry (p, e) is the sum of the
    shares of blocks 0 … k at row 2048 b + p: by induction on `k`, using only that + is associative with unit 0. -/
theorem acc1_run (c : Dev nD) (b : ℕ) (hb : b < 2) : ∀ (k : ℕ) (hk : k < 8) (h : 8 * b + k < cfg1.N) (p : Fin 2048) (e : Fin 512),
    sAt1 V c (8 * b + k) h (ValueIdx.ix2 p e)
      = ∑ j : Fin (k + 1), part1 (at2 (V c (Pipeline.arrRef spec1 0))) (at2 (V c (Pipeline.arrRef spec1 1)))
          (at2 (V c (Pipeline.arrRef spec1 2))) (at2 (V c (Pipeline.arrRef spec1 3))) (at2 (V c (Pipeline.arrRef spec1 4)))
          ⟨2048 * b + p.val, by omega⟩ (Fin.castLE (Nat.succ_le_of_lt hk) j) e
  | 0, hk, h, p, e => by
    rw [sAtV1_reset V c (8 * b + 0) h (by omega)]
    rw [acc1_at V c ⟨8 * b + 0, h⟩ b (0 : Fin 8) hb rfl zeroS1 p e, zeroS1_apply, zero_add, Fin.sum_univ_one]
    rfl
  | k + 1, hk, h, p, e => by
    show sAt1 V c (8 * b + k + 1) h (ValueIdx.ix2 p e) = _
    rw [Fin.sum_univ_castSucc, sAtV1_step V c (8 * b + k) h (by omega)]
    rw [acc1_at V c ⟨8 * b + k + 1, h⟩ b (⟨k + 1, hk⟩ : Fin 8) hb rfl (sAt1 V c (8 * b + k) (Nat.lt_of_succ_lt h)) p e]
    rw [acc1_run c b hb k (Nat.lt_of_succ_lt hk) (Nat.lt_of_succ_lt h) p e]
    rfl

/-- THE FINISHED ACCUMULATOR. After the last point of a row block it holds the pre-activation less its bias: the eight
    shares are the full sums over all 4096 rows. -/
theorem acc1_done (c : Dev nD) (t : Fin cfg1.N) (ht : t.val % 8 = 7) (p : Fin 2048) (e : Fin 512) (r : Fin 4096)
    (hr : r.val = 2048 * (t.val / 8) + p.val) :
    sAt1 V c t.val t.isLt (ValueIdx.ix2 p e)
      = Cert.Spec.aggS (at2 (V c (Pipeline.arrRef spec1 0))) (at2 (V c (Pipeline.arrRef spec1 1)))
          (at2 (V c (Pipeline.arrRef spec1 2))) (at2 (V c (Pipeline.arrRef spec1 3))) (at2 (V c (Pipeline.arrRef spec1 4))) r e := by
  have hN : t.val < 16 := t.isLt
  have same : ∀ (u : ℕ) (hu : u < cfg1.N), u = t.val → sAt1 V c u hu = sAt1 V c t.val t.isLt := fun u hu eq => by subst eq; rfl
  rw [← same (8 * (t.val / 8) + 7) (by show 8 * (t.val / 8) + 7 < 16; omega) (by omega)]
  rw [acc1_run V c (t.val / 8) (by omega) 7 (by omega) (by show 8 * (t.val / 8) + 7 < 16; omega) p e]
  have er : (⟨2048 * (t.val / 8) + p.val, by omega⟩ : Fin 4096) = r := Fin.ext hr.symm
  rw [er]
  exact part1_sum _ _ _ _ _ r e

/-! ## What the last point of a row block stores -/

/-- The block the last point of a row block stores, in the arrays' coordinates: row 2048 (t / 8) + p of the result. -/
theorem out1_at (c : Dev nD) (t : Fin cfg1.N) (ht : t.val % 8 = 7) (p : Fin 2048) (j : Fin 512) (r : Fin 4096)
    (hr : r.val = 2048 * (t.val / 8) + p.val) :
    oAt1 V c t (ValueIdx.ix2 p j)
      = Cert.Spec.aggOut (at2 (V c (Pipeline.arrRef spec1 0))) (at2 (V c (Pipeline.arrRef spec1 1)))
          (at2 (V c (Pipeline.arrRef spec1 2))) (at2 (V c (Pipeline.arrRef spec1 3)))
          (at2 (V c (Pipeline.arrRef spec1 4))) (at2 (V c (Pipeline.arrRef spec1 5)))
          (row0 (V c (Pipeline.arrRef spec1 6))) (row0 (V c (Pipeline.arrRef spec1 7)))
          (at2 (V c (Pipeline.arrRef spec1 8))) r j := by
  unfold oAt1
  refine (finStep1_apply (sAt1 V c t.val t.isLt) (iblk1 V c 6 t) (iblk1 V c 5 t) (iblk1 V c 7 t) (iblk1 V c 8 t) p j).trans ?_
  unfold Cert.Spec.aggOut
  rw [blk1_blin V c t j, blk1_h V c t p j r hr]
  refine congrArg (fun z => (z + row0 (V c (Pipeline.arrRef spec1 7)) j) + at2 (V c (Pipeline.arrRef spec1 8)) r j) ?_
  refine Finset.sum_congr rfl fun e _ => ?_
  rw [acc1_done V c t ht p e r hr, blk1_bpre V c t e, blk1_w V c t e j]

/-! ## The result array -/

/-- The result array as ONE function of the nine input arrays: entry `i` is the layer's output at row `i 0`, column `i 1`. -/
def whole1 (aBa aBb aFa aFb : S4096x4096.Idx → EReal) (xw : S4096x1024.Idx → EReal) (wl : S512x512.Idx → EReal)
    (bpre blin : S1x512.Idx → EReal) (h : S4096x512.Idx → EReal) : S4096x512.Idx → EReal :=
  fun i => Cert.Spec.aggOut (at2 aBa) (at2 aBb) (at2 aFa) (at2 aFb) (at2 xw) (at2 wl) (row0 bpre) (row0 blin) (at2 h) (i 0) (i 1)

/-- The aggregation's result array, entry by entry. -/
theorem agg1_val (c : Dev nD) (i : Fin 4096) (j : Fin 512) :
    ((dat1 V c).arrAt 9 cfg1.N : S4096x512.Idx → EReal) (ValueIdx.ix2 i j)
      = Cert.Spec.aggOut (at2 (V c (Pipeline.arrRef spec1 0))) (at2 (V c (Pipeline.arrRef spec1 1)))
          (at2 (V c (Pipeline.arrRef spec1 2))) (at2 (V c (Pipeline.arrRef spec1 3)))
          (at2 (V c (Pipeline.arrRef spec1 4))) (at2 (V c (Pipeline.arrRef spec1 5)))
          (row0 (V c (Pipeline.arrRef spec1 6))) (row0 (V c (Pipeline.arrRef spec1 7)))
          (at2 (V c (Pipeline.arrRef spec1 8))) i j := by
  rw [final1 V c (whole1 (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    (V c (Pipeline.arrRef spec1 6)) (V c (Pipeline.arrRef spec1 7)) (V c (Pipeline.arrRef spec1 8)))
    (fun t hm p q r hr => out1_at V c t hm p q r hr)]
  rfl

end Cert.KernelIdeal.Hand

end
-- ==== Proof.ValAggStep3.lean ====
/-
  One grid point of the aggregation read at an index, at the ideal instance: the reset accumulator is zero; a point adds to
  the accumulator's left half the two backward adjacency blocks against their 256 columns of the projected block, to its
  right half the two forward ones; the last point's store is the biased, rectified accumulator against the linear map, plus
  its bias, plus the residual.
-/
import proofs.«145376_g10471130268016_week1_w2_219_10_alg».proof.Proof.KiAgg3
import proofs.«145376_g10471130268016_week1_w2_219_10_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

/-! ## The two matrix products at an index -/

theorem lhs3_hr (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
theorem lhs3_hc (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
theorem rhs3_hr (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
theorem rhs3_hc (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl

theorem mmHalf3_apply (xa : FVec Ideal S2048x512 .bf16) (xb : FVec Ideal S512x256 .bf16) (p : Fin 2048) (q : Fin 256) :
    matmul dot_S2048x512_S512x256_S2048x256_1_0_0_1_n_n none xa xb (constant (F := Ideal) S2048x256 .f32 0x00000000#32) (ValueIdx.ix2 p q)
      = ∑ kk : Fin 512, xa (ValueIdx.ix2 p kk) * xb (ValueIdx.ix2 kk q) := by
  refine (Ideal.matmul_constant_zero_apply dot_S2048x512_S512x256_S2048x256_1_0_0_1_n_n none _ _ (ValueIdx.ix2 p q)).trans ?_
  rw [← Equiv.sum_comp (ValueIdx.contrEquiv1 dot_S2048x512_S512x256_S2048x256_1_0_0_1_n_n 512 rfl rfl).symm]
  refine Finset.sum_congr rfl fun kk _ => ?_
  have hk := ValueIdx.contrEquiv1_symm_val dot_S2048x512_S512x256_S2048x256_1_0_0_1_n_n 512 rfl rfl kk
  have el : dot_S2048x512_S512x256_S2048x256_1_0_0_1_n_n.lhsIdx (ValueIdx.ix2 p q) ((ValueIdx.contrEquiv1 dot_S2048x512_S512x256_S2048x256_1_0_0_1_n_n 512 rfl rfl).symm kk) = ValueIdx.ix2 p kk := funext fun a => Fin.ext (by
    match a with
    | ⟨0, _⟩ => exact lhs3_hr _ _
    | ⟨1, _⟩ => exact (lhs3_hc _ _).trans hk)
  have er : dot_S2048x512_S512x256_S2048x256_1_0_0_1_n_n.rhsIdx (ValueIdx.ix2 p q) ((ValueIdx.contrEquiv1 dot_S2048x512_S512x256_S2048x256_1_0_0_1_n_n 512 rfl rfl).symm kk) = ValueIdx.ix2 kk q := funext fun a => Fin.ext (by
    match a with
    | ⟨0, _⟩ => exact (rhs3_hr _ _).trans hk
    | ⟨1, _⟩ => exact rhs3_hc _ _)
  rw [el, er]

theorem lhs3_lr (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem lhs3_lc (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem rhs3_lr (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem rhs3_lc (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

theorem mmLin3_apply (xa : FVec Ideal S2048x512 .bf16) (xb : FVec Ideal S512x512 .bf16) (p : Fin 2048) (q : Fin 512) :
    matmul dot_S2048x512_S512x512_S2048x512_1_0_0_1_n_n none xa xb (constant (F := Ideal) S2048x512 .f32 0x00000000#32) (ValueIdx.ix2 p q)
      = ∑ kk : Fin 512, xa (ValueIdx.ix2 p kk) * xb (ValueIdx.ix2 kk q) := by
  refine (Ideal.matmul_constant_zero_apply dot_S2048x512_S512x512_S2048x512_1_0_0_1_n_n none _ _ (ValueIdx.ix2 p q)).trans ?_
  rw [← Equiv.sum_comp (ValueIdx.contrEquiv1 dot_S2048x512_S512x512_S2048x512_1_0_0_1_n_n 512 rfl rfl).symm]
  refine Finset.sum_congr rfl fun kk _ => ?_
  have hk := ValueIdx.contrEquiv1_symm_val dot_S2048x512_S512x512_S2048x512_1_0_0_1_n_n 512 rfl rfl kk
  have el : dot_S2048x512_S512x512_S2048x512_1_0_0_1_n_n.lhsIdx (ValueIdx.ix2 p q) ((ValueIdx.contrEquiv1 dot_S2048x512_S512x512_S2048x512_1_0_0_1_n_n 512 rfl rfl).symm kk) = ValueIdx.ix2 p kk := funext fun a => Fin.ext (by
    match a with
    | ⟨0, _⟩ => exact lhs3_lr _ _
    | ⟨1, _⟩ => exact (lhs3_lc _ _).trans hk)
  have er : dot_S2048x512_S512x512_S2048x512_1_0_0_1_n_n.rhsIdx (ValueIdx.ix2 p q) ((ValueIdx.contrEquiv1 dot_S2048x512_S512x512_S2048x512_1_0_0_1_n_n 512 rfl rfl).symm kk) = ValueIdx.ix2 kk q := funext fun a => Fin.ext (by
    match a with
    | ⟨0, _⟩ => exact (rhs3_lr _ _).trans hk
    | ⟨1, _⟩ => exact rhs3_lc _ _)
  rw [el, er]

/-! ## The layout operations at an index -/

/-- A block of 256 columns of the projected block, read at an index: the column moves by the block's offset. -/
theorem slice3_apply (off : ℕ) (x : FVec Ideal S512x1024 .bf16) (h : S512x1024.Slices ![0, off] S512x256)
    (kk : Fin 512) (q : Fin 256) (r : Fin 1024) (hr : r.val = off + q.val) :
    extractStridedSlice S512x256 ![0, off] x h (ValueIdx.ix2 kk q) = x (ValueIdx.ix2 kk r) :=
  extractStridedSlice_apply _ x h _ _ fun a => by
    match a with
    | ⟨0, _⟩ => show kk.val = 0 + kk.val; omega
    | ⟨1, _⟩ => show r.val = off + q.val; exact hr

/-- A row vector broadcast down the rows, read at an index: its entry at the column. -/
theorem bcast3_apply (x : FVec Ideal S1x512 .f32) (h : S1x512.Broadcasts S2048x512) (p : Fin 2048) (e : Fin 512) :
    broadcastTo S2048x512 x h (ValueIdx.ix2 p e) = x (ValueIdx.ix2 (0 : Fin 1) e) :=
  broadcastTo_apply x h _ _ fun a => by
    match a with
    | ⟨0, _⟩ => rfl
    | ⟨1, _⟩ => rfl

/-! ## The accumulator's rectangles -/

theorem zeros3 : (![0, 0] : Fin 2 → Nat) = fun _ => 0 := funext fun a => by fin_cases a <;> rfl

theorem embL3 (p : Fin 2048) (q : Fin 256) : rL3.emb (ValueIdx.ix2 p q) = ValueIdx.ix2 p (⟨q.val, by omega⟩ : Fin 512) := by
  funext a; apply Fin.ext
  match a with
  | ⟨0, _⟩ => show 0 + 1 * p.val = p.val; omega
  | ⟨1, _⟩ => show 0 + 1 * q.val = q.val; omega

theorem embR3 (p : Fin 2048) (q : Fin 256) : rR3.emb (ValueIdx.ix2 p q) = ValueIdx.ix2 p (⟨q.val + 256, by omega⟩ : Fin 512) := by
  funext a; apply Fin.ext
  match a with
  | ⟨0, _⟩ => show 0 + 1 * p.val = p.val; omega
  | ⟨1, _⟩ => show 256 + 1 * q.val = q.val + 256; omega

/-- A column below 256 is outside the right half. -/
theorem notMemR3 (p : Fin 2048) (q : Fin 256) : ValueIdx.ix2 p (⟨q.val, by omega⟩ : Fin 512) ∉ rR3.set := by
  intro hm
  rw [Rect.mem_set_unit] at hm
  have hq : 256 ≤ q.val := (hm 1).1
  omega

/-- Of the two stores into the accumulator, the one into the left half is what a column below 256 reads, -/
theorem canonL3 (wR : rR3.shape.Idx → Elt Ideal .f32) (wL : rL3.shape.Idx → Elt Ideal .f32) (p : Fin 2048) (q : Fin 256) :
    View.canon [(⟨rR3, wR⟩ : View.Piece (Elt Ideal) S2048x512 .f32), ⟨rL3, wL⟩] (ValueIdx.ix2 p (⟨q.val, by omega⟩ : Fin 512))
      = wL (ValueIdx.ix2 p q) := by
  rw [View.canon_cons_of_not_mem (⟨rR3, wR⟩ : View.Piece (Elt Ideal) S2048x512 .f32) _ (notMemR3 p q), ← embL3 p q]
  exact View.canon_cons_emb rL3 wL [] _

/-- and the one into the right half, the later store, is what a column from 256 reads. -/
theorem canonR3 (wR : rR3.shape.Idx → Elt Ideal .f32) (wL : rL3.shape.Idx → Elt Ideal .f32) (p : Fin 2048) (q : Fin 256) :
    View.canon [(⟨rR3, wR⟩ : View.Piece (Elt Ideal) S2048x512 .f32), ⟨rL3, wL⟩] (ValueIdx.ix2 p (⟨q.val + 256, by omega⟩ : Fin 512))
      = wR (ValueIdx.ix2 p q) := by
  rw [← embR3 p q]
  exact View.canon_cons_emb rR3 wR _ _

/-! ## The payloads at an index -/

/-- The reset accumulator is zero everywhere. -/
theorem zeroS3_apply (y : S2048x512.Idx) : (zeroS3 (F := Ideal)) y = 0 := by
  unfold zeroS3
  rw [View.canon_unit_zero zeros3]
  unfold k3_pay3
  simp only [shapeCast_self]
  rw [ValueIdx.broadcast_apply]
  exact Ideal.ofBits_zero_f32

/-- One half's update at an index: what it held plus the two products. -/
theorem payL3_apply (xw : Vec Ideal S512x1024 .bf16) (aBa aBb : Vec Ideal S2048x512 .f32) (u : Vec Ideal S2048x256 .f32)
    (p : Fin 2048) (q : Fin 256) :
    k3_pay5 (F := Ideal) xw aBa aBb u (ValueIdx.ix2 p q)
      = u (ValueIdx.ix2 p q)
        + ((∑ kk : Fin 512, aBa (ValueIdx.ix2 p kk) * xw (ValueIdx.ix2 kk (⟨q.val, by omega⟩ : Fin 1024)))
          + (∑ kk : Fin 512, aBb (ValueIdx.ix2 p kk) * xw (ValueIdx.ix2 kk (⟨q.val + 256, by omega⟩ : Fin 1024)))) := by
  unfold k3_pay5 k3_pay4
  simp only [shapeCast_self]
  rw [ValueIdx.addf_apply, ValueIdx.addf_apply, mmHalf3_apply, mmHalf3_apply]
  refine congrArg (u (ValueIdx.ix2 p q) + ·) (congrArg₂ (· + ·) (Finset.sum_congr rfl fun kk _ => ?_) (Finset.sum_congr rfl fun kk _ => ?_))
  · rw [slice3_apply 0 _ _ kk q ⟨q.val, by omega⟩ (by simp)]; rfl
  · rw [slice3_apply 256 _ _ kk q ⟨q.val + 256, by omega⟩ (by simp; omega)]; rfl

theorem payR3_apply (xw : Vec Ideal S512x1024 .bf16) (aFa aFb : Vec Ideal S2048x512 .f32) (u : Vec Ideal S2048x256 .f32)
    (p : Fin 2048) (q : Fin 256) :
    k3_pay1 (F := Ideal) (k3_pay6 xw aFa aFb u) (ValueIdx.ix2 p q)
      = u (ValueIdx.ix2 p q)
        + ((∑ kk : Fin 512, aFa (ValueIdx.ix2 p kk) * xw (ValueIdx.ix2 kk (⟨q.val + 512, by omega⟩ : Fin 1024)))
          + (∑ kk : Fin 512, aFb (ValueIdx.ix2 p kk) * xw (ValueIdx.ix2 kk (⟨q.val + 768, by omega⟩ : Fin 1024)))) := by
  unfold k3_pay1 k3_pay6 k3_pay4
  simp only [shapeCast_self]
  rw [ValueIdx.addf_apply, ValueIdx.addf_apply, mmHalf3_apply, mmHalf3_apply]
  refine congrArg (u (ValueIdx.ix2 p q) + ·) (congrArg₂ (· + ·) (Finset.sum_congr rfl fun kk _ => ?_) (Finset.sum_congr rfl fun kk _ => ?_))
  · rw [slice3_apply 512 _ _ kk q ⟨q.val + 512, by omega⟩ (by simp; omega)]; rfl
  · rw [slice3_apply 768 _ _ kk q ⟨q.val + 768, by omega⟩ (by simp; omega)]; rfl

/-- One point's update of the accumulator's left half (columns below 256). -/
theorem accStep3_left (xw : Vec Ideal S512x1024 .bf16) (aBa aBb aFa aFb s : Vec Ideal S2048x512 .f32) (p : Fin 2048) (q : Fin 256) :
    accStep3 (F := Ideal) xw aBa aBb aFa aFb s (ValueIdx.ix2 p (⟨q.val, by omega⟩ : Fin 512))
      = s (ValueIdx.ix2 p (⟨q.val, by omega⟩ : Fin 512))
        + ((∑ kk : Fin 512, aBa (ValueIdx.ix2 p kk) * xw (ValueIdx.ix2 kk (⟨q.val, by omega⟩ : Fin 1024)))
          + (∑ kk : Fin 512, aBb (ValueIdx.ix2 p kk) * xw (ValueIdx.ix2 kk (⟨q.val + 256, by omega⟩ : Fin 1024)))) := by
  unfold accStep3
  refine (canonL3 _ _ p q).trans ((payL3_apply xw aBa aBb _ p q).trans ?_)
  exact congrArg (· + _) (congrArg s (embL3 p q))

/-- One point's update of the accumulator's right half (columns from 256). -/
theorem accStep3_right (xw : Vec Ideal S512x1024 .bf16) (aBa aBb aFa aFb s : Vec Ideal S2048x512 .f32) (p : Fin 2048) (q : Fin 256) :
    accStep3 (F := Ideal) xw aBa aBb aFa aFb s (ValueIdx.ix2 p (⟨q.val + 256, by omega⟩ : Fin 512))
      = s (ValueIdx.ix2 p (⟨q.val + 256, by omega⟩ : Fin 512))
        + ((∑ kk : Fin 512, aFa (ValueIdx.ix2 p kk) * xw (ValueIdx.ix2 kk (⟨q.val + 512, by omega⟩ : Fin 1024)))
          + (∑ kk : Fin 512, aFb (ValueIdx.ix2 p kk) * xw (ValueIdx.ix2 kk (⟨q.val + 768, by omega⟩ : Fin 1024)))) := by
  unfold accStep3
  refine (canonR3 _ _ p q).trans ((payR3_apply xw aFa aFb _ p q).trans ?_)
  exact congrArg (· + _) (congrArg s (embR3 p q))

/-- The last point's store, entry by entry. -/
theorem finStep3_apply (s : Vec Ideal S2048x512 .f32) (bpre : Vec Ideal S1x512 .f32) (wl : Vec Ideal S512x512 .f32)
    (blin : Vec Ideal S1x512 .f32) (h : Vec Ideal S2048x512 .f32) (p : Fin 2048) (j : Fin 512) :
    finStep3 (F := Ideal) s bpre wl blin h (ValueIdx.ix2 p j)
      = ((∑ e : Fin 512, max (s (ValueIdx.ix2 p e) + bpre (ValueIdx.ix2 (0 : Fin 1) e)) 0 * wl (ValueIdx.ix2 e j))
          + blin (ValueIdx.ix2 (0 : Fin 1) j)) + h (ValueIdx.ix2 p j) := by
  unfold finStep3
  rw [View.canon_unit_zero zeros3]
  unfold k3_pay2
  simp only [shapeCast_self]
  rw [ValueIdx.addf_apply, ValueIdx.addf_apply, mmLin3_apply, bcast3_apply]
  refine congrArg (· + h (ValueIdx.ix2 p j)) (congrArg (· + blin (ValueIdx.ix2 (0 : Fin 1) j)) (Finset.sum_congr rfl fun e _ => ?_))
  rw [ValueIdx.truncf_apply, ValueIdx.truncf_apply, ValueIdx.maximumf_apply, ValueIdx.addf_apply, bcast3_apply, ValueIdx.broadcast_apply]
  show max _ (Ideal.ofBits .f32 0x00000000#32) * _ = _
  rw [Ideal.ofBits_zero_f32]

end Cert.KernelIdeal.Hand

end
-- ==== Proof.ValAggBlk3.lean ====
/-
  The aggregation's result array from its blocks, at the ideal instance. Grid point `t` of the sixteen is row block
  `t / 8` and contraction block `t % 8`; the output window holds rows 2048·(t/8)… of the result and is written back once
  per row block, at the last contraction block. The two row blocks tile the array, so it ends holding whatever ONE
  function of its indices the storing points' buffers agree with.
-/
import proofs.«145376_g10471130268016_week1_w2_219_10_alg».proof.Proof.KiAgg3
import proofs.«145376_g10471130268016_week1_w2_219_10_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

variable (V : (c : Dev nD) → (b : Ref sig .tc) → Buf (Elt Ideal) ((c : Thread nD τ).loc b))

/-! ## From the blocks to the result array -/

/-- The output window's block index over the grid: the row block of the point, and no movement along the columns. -/
theorem indexOut3_facts : ∀ t : Fin cfg3.N, win3_9.index t (0 : Fin 2) = t.val / 8 ∧ win3_9.index t (1 : Fin 2) = 0 :=
  (by decide +kernel : ∀ t : Fin grid3.N, _)

/-- The hypothesis on the storing points, restated at indices given by their coordinates. -/
theorem outAt3 (c : Dev nD) (G : S4096x512.Idx → EReal)
    (hG : ∀ t : Fin cfg3.N, t.val % 8 = 7 → ∀ (p : Fin 2048) (j : Fin 512) (r : Fin 4096),
      r.val = 2048 * (t.val / 8) + p.val →
      (oAt3 V c t : S2048x512.Idx → EReal) (ValueIdx.ix2 p j) = G (ValueIdx.ix2 r j))
    (t : Fin cfg3.N) (hm : t.val % 8 = 7) (y : S2048x512.Idx) (i : S4096x512.Idx)
    (hr : (i 0).val = 2048 * (t.val / 8) + (y 0).val) (hc : (i 1).val = (y 1).val) :
    (oAt3 V c t : S2048x512.Idx → EReal) y = G i := by
  obtain ⟨p, j, rfl⟩ : ∃ (p : Fin 2048) (j : Fin 512), y = ValueIdx.ix2 p j := ⟨y 0, y 1, ValueIdx.eq_ix2 y⟩
  obtain ⟨r, jj, rfl⟩ : ∃ (r : Fin 4096) (jj : Fin 512), i = ValueIdx.ix2 r jj := ⟨i 0, i 1, ValueIdx.eq_ix2 i⟩
  obtain rfl : jj = j := Fin.ext hc
  exact hG t hm p jj r hr

/-- What a storing point writes back is its block of `G`: an element of the block sits in the array at block index ×
    block size + its coordinate in the block, on each axis. -/
theorem flushedOut3_eq (c : Dev nD) (G : S4096x512.Idx → EReal)
    (hG : ∀ t : Fin cfg3.N, t.val % 8 = 7 → ∀ (p : Fin 2048) (j : Fin 512) (r : Fin 4096),
      r.val = 2048 * (t.val / 8) + p.val →
      (oAt3 V c t : S2048x512.Idx → EReal) (ValueIdx.ix2 p j) = G (ValueIdx.ix2 r j))
    (t : Fin cfg3.N) (ht : (cfg3.win 9).flush t = true) :
    (dat3 V c).flushed 9 t = ((cfg3.win 9).blk t).view.read (Elt Ideal) G := by
  show (cfg3.win 9).cut (grid3.coords t) ((dat3 V c).after 9 t) = _
  rw [after3_9]
  have hm : t.val % 8 = 7 := (flush3_9 t).mp ht
  obtain ⟨er, ec⟩ := indexOut3_facts t
  funext y
  refine outAt3 V c G hG t hm y (((cfg3.win 9).blk t).view.emb y) ?_ ?_
  · show win3_9.index t (0 : Fin 2) * 2048 + 1 * (y 0).val = 2048 * (t.val / 8) + (y 0).val; omega
  · show win3_9.index t (1 : Fin 2) * 512 + 1 * (y 1).val = (y 1).val; omega

/-- An index of the array is in point `t`'s block iff each coordinate is in the block's range on its axis. -/
theorem memOut3 (t : Fin cfg3.N) (i : S4096x512.Idx) :
    i ∈ ((cfg3.win 9).blk t).view.set ↔ ∀ a : Fin 2, win3_9.index t a * S2048x512.size a ≤ (i a).val
      ∧ (i a).val < win3_9.index t a * S2048x512.size a + S2048x512.size a := by
  show i ∈ ((View.whole (Pipeline.arrRef spec3 9)).slice (win3_9.rect t)).set ↔ _
  rw [View.set_slice_whole, Rect.mem_set_unit]
  exact Iff.rfl

/-- The two row blocks tile the array, and each is written back at the last contraction block: row `r` is in the block
    of the point 8·(r / 2048) + 7. -/
theorem coverOut3 (i : S4096x512.Idx) :
    ∃ t : Fin cfg3.N, (cfg3.win 9).flush t = true ∧ i ∈ ((cfg3.win 9).blk t).view.set := by
  have hr : (i 0).val < 4096 := (i 0).isLt
  have hc : (i 1).val < 512 := (i 1).isLt
  have hN : 8 * ((i 0).val / 2048) + 7 < grid3.N := by rw [N_3]; omega
  refine ⟨⟨8 * ((i 0).val / 2048) + 7, hN⟩, (flush3_9 _).mpr (by show (8 * ((i 0).val / 2048) + 7) % 8 = 7; omega), ?_⟩
  obtain ⟨er, ec⟩ := indexOut3_facts ⟨8 * ((i 0).val / 2048) + 7, hN⟩
  rw [memOut3]
  intro a
  match a with
  | ⟨0, _⟩ =>
    show win3_9.index _ (0 : Fin 2) * 2048 ≤ (i 0).val ∧ (i 0).val < win3_9.index _ (0 : Fin 2) * 2048 + 2048
    rw [er]; show (8 * ((i 0).val / 2048) + 7) / 8 * 2048 ≤ (i 0).val ∧ (i 0).val < (8 * ((i 0).val / 2048) + 7) / 8 * 2048 + 2048; omega
  | ⟨1, _⟩ =>
    show win3_9.index _ (1 : Fin 2) * 512 ≤ (i 1).val ∧ (i 1).val < win3_9.index _ (1 : Fin 2) * 512 + 512
    rw [ec]; omega

/-- If what every storing point (the last contraction block of a row block) leaves in the output buffer is that row
    block of ONE function `G` of the array's indices, the result array ends holding `G`. -/
theorem final3 (c : Dev nD) (G : S4096x512.Idx → EReal)
    (hG : ∀ t : Fin cfg3.N, t.val % 8 = 7 → ∀ (p : Fin 2048) (j : Fin 512) (r : Fin 4096),
      r.val = 2048 * (t.val / 8) + p.val →
      (oAt3 V c t : S2048x512.Idx → EReal) (ValueIdx.ix2 p j) = G (ValueIdx.ix2 r j)) :
    ((dat3 V c).arrAt 9 cfg3.N : S4096x512.Idx → EReal) = G :=
  (dat3 V c).arrAt_eq_of_cover 9 G (fun t ht => flushedOut3_eq V c G hG t ht) coverOut3

end Cert.KernelIdeal.Hand

end
-- ==== Proof.ValAgg3.lean ====
/-
  What the first aggregation leaves in its result array, at the ideal instance. Along a row block the accumulator starts
  at zero and gains, at contraction block k, the products of the four adjacency blocks with rows 512k … 512k+511 of the
  stacked projection; after the eighth block it holds the full sums over all 4096 rows, and the last point stores the
  biased, rectified accumulator against the linear map, plus its bias, plus the residual. The two row blocks tile the array.
-/
import proofs.«145376_g10471130268016_week1_w2_219_10_alg».proof.Proof.KiAgg3
import proofs.«145376_g10471130268016_week1_w2_219_10_alg».proof.Proof.Spec
import proofs.«145376_g10471130268016_week1_w2_219_10_alg».proof.Proof.ValAggStep3
import proofs.«145376_g10471130268016_week1_w2_219_10_alg».proof.Proof.ValAggBlk3
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)
open Cert.Spec (at2 at3 at4 row0)

/-! ## Sums over 4096 rows as eight runs of 512 -/

/-- A sum over 4096 indices, taken as eight consecutive runs of 512. -/
theorem runs3_sum (f : Fin 4096 → EReal) :
    ∑ K : Fin 4096, f K = ∑ k : Fin 8, ∑ kk : Fin 512, f ⟨512 * k.val + kk.val, by omega⟩ := by
  have e := Equiv.sum_comp (finProdFinEquiv (m := 8) (n := 512)) f
  rw [← e, Fintype.sum_prod_type]
  refine Finset.sum_congr rfl fun a _ => Finset.sum_congr rfl fun b _ => congrArg f (Fin.ext ?_)
  show b.val + 512 * a.val = 512 * a.val + b.val
  omega

/-- Contraction block `k`'s share of the pre-activation less its bias: the four adjacencies' columns 512k … 512k+511
    against those rows of the stacked projection. -/
def part3 (aBa aBb aFa aFb : Fin 4096 → Fin 4096 → EReal) (xw : Fin 4096 → Fin 1024 → EReal) (i : Fin 4096) (k : Fin 8)
    (e : Fin 512) : EReal :=
  if he : e.val < 256 then
    (∑ kk : Fin 512, aBa i ⟨512 * k.val + kk.val, by omega⟩ * xw ⟨512 * k.val + kk.val, by omega⟩ ⟨e.val, by omega⟩)
      + (∑ kk : Fin 512, aBb i ⟨512 * k.val + kk.val, by omega⟩ * xw ⟨512 * k.val + kk.val, by omega⟩ ⟨e.val + 256, by omega⟩)
  else
    (∑ kk : Fin 512, aFa i ⟨512 * k.val + kk.val, by omega⟩ * xw ⟨512 * k.val + kk.val, by omega⟩ ⟨e.val + 256, by have := e.isLt; omega⟩)
      + (∑ kk : Fin 512, aFb i ⟨512 * k.val + kk.val, by omega⟩ * xw ⟨512 * k.val + kk.val, by omega⟩ ⟨e.val + 512, by have := e.isLt; omega⟩)

/-- The eight shares add up to the full sums over all 4096 rows. -/
theorem part3_sum (aBa aBb aFa aFb : Fin 4096 → Fin 4096 → EReal) (xw : Fin 4096 → Fin 1024 → EReal) (i : Fin 4096) (e : Fin 512) :
    ∑ k : Fin 8, part3 aBa aBb aFa aFb xw i k e = Cert.Spec.aggS aBa aBb aFa aFb xw i e := by
  unfold Cert.Spec.aggS
  by_cases he : e.val < 256
  · rw [dif_pos he]
    simp only [part3, dif_pos he]
    rw [Finset.sum_add_distrib, runs3_sum (fun K => aBa i K * xw K ⟨e.val, by omega⟩),
      runs3_sum (fun K => aBb i K * xw K ⟨e.val + 256, by omega⟩)]
  · rw [dif_neg he]
    simp only [part3, dif_neg he]
    rw [Finset.sum_add_distrib, runs3_sum (fun K => aFa i K * xw K ⟨e.val + 256, by have := e.isLt; omega⟩),
      runs3_sum (fun K => aFb i K * xw K ⟨e.val + 512, by have := e.isLt; omega⟩)]

variable (V : (c : Dev nD) → (b : Ref sig .tc) → Buf (Elt Ideal) ((c : Thread nD τ).loc b))

/-! ## The blocks read at the arrays' coordinates

  A block's element sits in its array at block index × block size + its coordinate inside the block, on each axis. The
  block indices over the grid, point `t` being row block `t / 8`, contraction block `t % 8`: -/

theorem index3_facts : ∀ t : Fin cfg3.N,
    (win3_0.index t (0 : Fin 2) = t.val / 8 ∧ win3_0.index t (1 : Fin 2) = t.val % 8)
    ∧ (win3_1.index t (0 : Fin 2) = t.val / 8 ∧ win3_1.index t (1 : Fin 2) = t.val % 8)
    ∧ (win3_2.index t (0 : Fin 2) = t.val / 8 ∧ win3_2.index t (1 : Fin 2) = t.val % 8)
    ∧ (win3_3.index t (0 : Fin 2) = t.val / 8 ∧ win3_3.index t (1 : Fin 2) = t.val % 8)
    ∧ (win3_4.index t (0 : Fin 2) = t.val % 8 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = t.val / 8 ∧ win3_8.index t (1 : Fin 2) = 0)
    ∧ (win3_9.index t (0 : Fin 2) = t.val / 8 ∧ win3_9.index t (1 : Fin 2) = 0) :=
  (by decide +kernel : ∀ t : Fin grid3.N, _)

/-- An adjacency block's entry (p, q) is the array's entry (2048 (t / 8) + p, 512 (t % 8) + q); the caller names the two
    coordinates. The four adjacencies alike. -/
theorem blk3_a (c : Dev nD) (t : Fin cfg3.N) (p : Fin 2048) (q : Fin 512) (r s : Fin 4096)
    (hr : r.val = 2048 * (t.val / 8) + p.val) (hs : s.val = 512 * (t.val % 8) + q.val) :
    iblk3 V c 0 t (ValueIdx.ix2 p q) = at2 (V c (Pipeline.arrRef spec3 0)) r s := by
  obtain ⟨⟨er, ec⟩, -⟩ := index3_facts t
  show V c (Pipeline.arrRef spec3 0) (((cfg3.win 0).blk t).view.emb (ValueIdx.ix2 p q))
      = V c (Pipeline.arrRef spec3 0) (ValueIdx.ix2 r s)
  refine congrArg _ (funext fun a => Fin.ext ?_)
  match a with
  | ⟨0, _⟩ => show win3_0.index t (0 : Fin 2) * 2048 + 1 * p.val = r.val; omega
  | ⟨1, _⟩ => show win3_0.index t (1 : Fin 2) * 512 + 1 * q.val = s.val; omega

theorem blk3_b (c : Dev nD) (t : Fin cfg3.N) (p : Fin 2048) (q : Fin 512) (r s : Fin 4096)
    (hr : r.val = 2048 * (t.val / 8) + p.val) (hs : s.val = 512 * (t.val % 8) + q.val) :
    iblk3 V c 1 t (ValueIdx.ix2 p q) = at2 (V c (Pipeline.arrRef spec3 1)) r s := by
  obtain ⟨-, ⟨er, ec⟩, -⟩ := index3_facts t
  show V c (Pipeline.arrRef spec3 1) (((cfg3.win 1).blk t).view.emb (ValueIdx.ix2 p q))
      = V c (Pipeline.arrRef spec3 1) (ValueIdx.ix2 r s)
  refine congrArg _ (funext fun a => Fin.ext ?_)
  match a with
  | ⟨0, _⟩ => show win3_1.index t (0 : Fin 2) * 2048 + 1 * p.val = r.val; omega
  | ⟨1, _⟩ => show win3_1.index t (1 : Fin 2) * 512 + 1 * q.val = s.val; omega

theorem blk3_c (c : Dev nD) (t : Fin cfg3.N) (p : Fin 2048) (q : Fin 512) (r s : Fin 4096)
    (hr : r.val = 2048 * (t.val / 8) + p.val) (hs : s.val = 512 * (t.val % 8) + q.val) :
    iblk3 V c 2 t (ValueIdx.ix2 p q) = at2 (V c (Pipeline.arrRef spec3 2)) r s := by
  obtain ⟨-, -, ⟨er, ec⟩, -⟩ := index3_facts t
  show V c (Pipeline.arrRef spec3 2) (((cfg3.win 2).blk t).view.emb (ValueIdx.ix2 p q))
      = V c (Pipeline.arrRef spec3 2) (ValueIdx.ix2 r s)
  refine congrArg _ (funext fun a => Fin.ext ?_)
  match a with
  | ⟨0, _⟩ => show win3_2.index t (0 : Fin 2) * 2048 + 1 * p.val = r.val; omega
  | ⟨1, _⟩ => show win3_2.index t (1 : Fin 2) * 512 + 1 * q.val = s.val; omega

theorem blk3_d (c : Dev nD) (t : Fin cfg3.N) (p : Fin 2048) (q : Fin 512) (r s : Fin 4096)
    (hr : r.val = 2048 * (t.val / 8) + p.val) (hs : s.val = 512 * (t.val % 8) + q.val) :
    iblk3 V c 3 t (ValueIdx.ix2 p q) = at2 (V c (Pipeline.arrRef spec3 3)) r s := by
  obtain ⟨-, -, -, ⟨er, ec⟩, -⟩ := index3_facts t
  show V c (Pipeline.arrRef spec3 3) (((cfg3.win 3).blk t).view.emb (ValueIdx.ix2 p q))
      = V c (Pipeline.arrRef spec3 3) (ValueIdx.ix2 r s)
  refine congrArg _ (funext fun a => Fin.ext ?_)
  match a with
  | ⟨0, _⟩ => show win3_3.index t (0 : Fin 2) * 2048 + 1 * p.val = r.val; omega
  | ⟨1, _⟩ => show win3_3.index t (1 : Fin 2) * 512 + 1 * q.val = s.val; omega

/-- The projected block's entry (q, j) is the array's entry (512 (t % 8) + q, j). -/
theorem blk3_x (c : Dev nD) (t : Fin cfg3.N) (q : Fin 512) (j : Fin 1024) (r : Fin 4096)
    (hr : r.val = 512 * (t.val % 8) + q.val) :
    iblk3 V c 4 t (ValueIdx.ix2 q j) = at2 (V c (Pipeline.arrRef spec3 4)) r j := by
  obtain ⟨-, -, -, -, ⟨er, ec⟩, -⟩ := index3_facts t
  show V c (Pipeline.arrRef spec3 4) (((cfg3.win 4).blk t).view.emb (ValueIdx.ix2 q j))
      = V c (Pipeline.arrRef spec3 4) (ValueIdx.ix2 r j)
  refine congrArg _ (funext fun a => Fin.ext ?_)
  match a with
  | ⟨0, _⟩ => show win3_4.index t (0 : Fin 2) * 512 + 1 * q.val = r.val; omega
  | ⟨1, _⟩ => show win3_4.index t (1 : Fin 2) * 1024 + 1 * j.val = j.val; omega

/-- The linear map and the two bias rows are read whole. -/
theorem blk3_w (c : Dev nD) (t : Fin cfg3.N) (e j : Fin 512) :
    iblk3 V c 5 t (ValueIdx.ix2 e j) = at2 (V c (Pipeline.arrRef spec3 5)) e j := by
  obtain ⟨-, -, -, -, -, ⟨er, ec⟩, -⟩ := index3_facts t
  show V c (Pipeline.arrRef spec3 5) (((cfg3.win 5).blk t).view.emb (ValueIdx.ix2 e j))
      = V c (Pipeline.arrRef spec3 5) (ValueIdx.ix2 e j)
  refine congrArg _ (funext fun a => Fin.ext ?_)
  match a with
  | ⟨0, _⟩ => show win3_5.index t (0 : Fin 2) * 512 + 1 * e.val = e.val; omega
  | ⟨1, _⟩ => show win3_5.index t (1 : Fin 2) * 512 + 1 * j.val = j.val; omega

theorem blk3_bpre (c : Dev nD) (t : Fin cfg3.N) (e : Fin 512) :
    iblk3 V c 6 t (ValueIdx.ix2 (0 : Fin 1) e) = row0 (V c (Pipeline.arrRef spec3 6)) e := by
  obtain ⟨-, -, -, -, -, -, ⟨er, ec⟩, -⟩ := index3_facts t
  show V c (Pipeline.arrRef spec3 6) (((cfg3.win 6).blk t).view.emb (ValueIdx.ix2 (0 : Fin 1) e))
      = V c (Pipeline.arrRef spec3 6) (ValueIdx.ix2 (0 : Fin 1) e)
  refine congrArg _ (funext fun a => Fin.ext ?_)
  match a with
  | ⟨0, _⟩ => show win3_6.index t (0 : Fin 2) * 1 + 1 * 0 = 0; omega
  | ⟨1, _⟩ => show win3_6.index t (1 : Fin 2) * 512 + 1 * e.val = e.val; omega

theorem blk3_blin (c : Dev nD) (t : Fin cfg3.N) (e : Fin 512) :
    iblk3 V c 7 t (ValueIdx.ix2 (0 : Fin 1) e) = row0 (V c (Pipeline.arrRef spec3 7)) e := by
  obtain ⟨-, -, -, -, -, -, -, ⟨er, ec⟩, -⟩ := index3_facts t
  show V c (Pipeline.arrRef spec3 7) (((cfg3.win 7).blk t).view.emb (ValueIdx.ix2 (0 : Fin 1) e))
      = V c (Pipeline.arrRef spec3 7) (ValueIdx.ix2 (0 : Fin 1) e)
  refine congrArg _ (funext fun a => Fin.ext ?_)
  match a with
  | ⟨0, _⟩ => show win3_7.index t (0 : Fin 2) * 1 + 1 * 0 = 0; omega
  | ⟨1, _⟩ => show win3_7.index t (1 : Fin 2) * 512 + 1 * e.val = e.val; omega

/-- The residual block's entry (p, j) is the array's entry (2048 (t / 8) + p, j). -/
theorem blk3_h (c : Dev nD) (t : Fin cfg3.N) (p : Fin 2048) (j : Fin 512) (r : Fin 4096)
    (hr : r.val = 2048 * (t.val / 8) + p.val) :
    iblk3 V c 8 t (ValueIdx.ix2 p j) = at2 (V c (Pipeline.arrRef spec3 8)) r j := by
  obtain ⟨-, -, -, -, -, -, -, -, ⟨er, ec⟩, -⟩ := index3_facts t
  show V c (Pipeline.arrRef spec3 8) (((cfg3.win 8).blk t).view.emb (ValueIdx.ix2 p j))
      = V c (Pipeline.arrRef spec3 8) (ValueIdx.ix2 r j)
  refine congrArg _ (funext fun a => Fin.ext ?_)
  match a with
  | ⟨0, _⟩ => show win3_8.index t (0 : Fin 2) * 2048 + 1 * p.val = r.val; omega
  | ⟨1, _⟩ => show win3_8.index t (1 : Fin 2) * 512 + 1 * j.val = j.val; omega

/-! ## One point's update at an index, either half -/

/-- One point's update of the accumulator at any column: what it held, plus the two backward products in the left
    half (columns below 256) or the two forward ones in the right half. -/
theorem acc3_apply (xw : Vec Ideal S512x1024 .bf16) (aBa aBb aFa aFb s : Vec Ideal S2048x512 .f32) (p : Fin 2048) (e : Fin 512) :
    accStep3 (F := Ideal) xw aBa aBb aFa aFb s (ValueIdx.ix2 p e)
      = s (ValueIdx.ix2 p e) + (if he : e.val < 256 then
          (∑ kk : Fin 512, aBa (ValueIdx.ix2 p kk) * xw (ValueIdx.ix2 kk (⟨e.val, by omega⟩ : Fin 1024)))
            + (∑ kk : Fin 512, aBb (ValueIdx.ix2 p kk) * xw (ValueIdx.ix2 kk (⟨e.val + 256, by omega⟩ : Fin 1024)))
        else
          (∑ kk : Fin 512, aFa (ValueIdx.ix2 p kk) * xw (ValueIdx.ix2 kk (⟨e.val + 256, by have := e.isLt; omega⟩ : Fin 1024)))
            + (∑ kk : Fin 512, aFb (ValueIdx.ix2 p kk) * xw (ValueIdx.ix2 kk (⟨e.val + 512, by have := e.isLt; omega⟩ : Fin 1024)))) := by
  by_cases he : e.val < 256
  · rw [dif_pos he]
    exact accStep3_left xw aBa aBb aFa aFb s p ⟨e.val, he⟩
  · rw [dif_neg he]
    have hlt := e.isLt
    obtain ⟨q, hq⟩ : ∃ q : Fin 256, q.val + 256 = e.val := ⟨⟨e.val - 256, by omega⟩, by show e.val - 256 + 256 = e.val; omega⟩
    have key := accStep3_right xw aBa aBb aFa aFb s p q
    have ea : (⟨q.val + 256, by omega⟩ : Fin 512) = e := Fin.ext hq
    have eb : (⟨q.val + 512, by omega⟩ : Fin 1024) = ⟨e.val + 256, by omega⟩ := Fin.ext (by show q.val + 512 = e.val + 256; omega)
    have ec : (⟨q.val + 768, by omega⟩ : Fin 1024) = ⟨e.val + 512, by omega⟩ := Fin.ext (by show q.val + 768 = e.val + 512; omega)
    rw [ea, eb, ec] at key
    exact key

/-- The same at point `t` = 8 b + k, in the arrays' coordinates: row 2048 b + p gains contraction block `k`'s share. -/
theorem acc3_at (c : Dev nD) (t : Fin cfg3.N) (b : ℕ) (k : Fin 8) (hb : b < 2) (ht : t.val = 8 * b + k.val)
    (s : Vec Ideal S2048x512 .f32) (p : Fin 2048) (e : Fin 512) :
    accStep3 (F := Ideal) (iblk3 V c 4 t) (iblk3 V c 0 t) (iblk3 V c 1 t) (iblk3 V c 2 t) (iblk3 V c 3 t) s (ValueIdx.ix2 p e)
      = s (ValueIdx.ix2 p e) + part3 (at2 (V c (Pipeline.arrRef spec3 0))) (at2 (V c (Pipeline.arrRef spec3 1)))
          (at2 (V c (Pipeline.arrRef spec3 2))) (at2 (V c (Pipeline.arrRef spec3 3))) (at2 (V c (Pipeline.arrRef spec3 4)))
          ⟨2048 * b + p.val, by omega⟩ k e := by
  refine (acc3_apply (iblk3 V c 4 t) (iblk3 V c 0 t) (iblk3 V c 1 t) (iblk3 V c 2 t) (iblk3 V c 3 t) s p e).trans ?_
  have hk := k.isLt
  have hdiv : t.val / 8 = b := by omega
  have hmod : t.val % 8 = k.val := by omega
  refine congrArg (fun z => s (ValueIdx.ix2 p e) + z) ?_
  unfold part3
  by_cases he : e.val < 256
  · rw [dif_pos he, dif_pos he]
    refine congr (congrArg HAdd.hAdd (Finset.sum_congr rfl fun kk _ => ?_)) (Finset.sum_congr rfl fun kk _ => ?_)
    · rw [blk3_a V c t p kk ⟨2048 * b + p.val, by omega⟩ ⟨512 * k.val + kk.val, by omega⟩ (by rw [hdiv]) (by rw [hmod]),
        blk3_x V c t kk ⟨e.val, by omega⟩ ⟨512 * k.val + kk.val, by omega⟩ (by rw [hmod])]
    · rw [blk3_b V c t p kk ⟨2048 * b + p.val, by omega⟩ ⟨512 * k.val + kk.val, by omega⟩ (by rw [hdiv]) (by rw [hmod]),
        blk3_x V c t kk ⟨e.val + 256, by omega⟩ ⟨512 * k.val + kk.val, by omega⟩ (by rw [hmod])]
  · rw [dif_neg he, dif_neg he]
    refine congr (congrArg HAdd.hAdd (Finset.sum_congr rfl fun kk _ => ?_)) (Finset.sum_congr rfl fun kk _ => ?_)
    · rw [blk3_c V c t p kk ⟨2048 * b + p.val, by omega⟩ ⟨512 * k.val + kk.val, by omega⟩ (by rw [hdiv]) (by rw [hmod]),
        blk3_x V c t kk ⟨e.val + 256, by have := e.isLt; omega⟩ ⟨512 * k.val + kk.val, by omega⟩ (by rw [hmod])]
    · rw [blk3_d V c t p kk ⟨2048 * b + p.val, by omega⟩ ⟨512 * k.val + kk.val, by omega⟩ (by rw [hdiv]) (by rw [hmod]),
        blk3_x V c t kk ⟨e.val + 512, by have := e.isLt; omega⟩ ⟨512 * k.val + kk.val, by omega⟩ (by rw [hmod])]

/-! ## The accumulator along a row block -/

/-- At the first point of a row block the accumulator is that point's update of the reset one. -/
theorem sAtV3_reset (c : Dev nD) : ∀ (n : ℕ) (hn : n < cfg3.N), n % 8 = 0 →
    sAt3 V c n hn = accStep3 (iblk3 V c 4 ⟨n, hn⟩) (iblk3 V c 0 ⟨n, hn⟩) (iblk3 V c 1 ⟨n, hn⟩) (iblk3 V c 2 ⟨n, hn⟩)
      (iblk3 V c 3 ⟨n, hn⟩) zeroS3
  | 0, hn, _ => by rw [sAt3]
  | n + 1, hn, hm => by rw [sAt3, if_pos hm]

/-- At any other point it is that point's update of what the point before left. -/
theorem sAtV3_step (c : Dev nD) (n : ℕ) (hn : n + 1 < cfg3.N) (hm : ¬(n + 1) % 8 = 0) :
    sAt3 V c (n + 1) hn = accStep3 (iblk3 V c 4 ⟨n + 1, hn⟩) (iblk3 V c 0 ⟨n + 1, hn⟩) (iblk3 V c 1 ⟨n + 1, hn⟩)
      (iblk3 V c 2 ⟨n + 1, hn⟩) (iblk3 V c 3 ⟨n + 1, hn⟩) (sAt3 V c n (Nat.lt_of_succ_lt hn)) := by
  rw [sAt3, if_neg hm]

/-- THE PARTIAL SUMS. After contraction block `k` of row block `b` the accumulator's entry (p, e) is the sum of the
    shares of blocks 0 … k at row 2048 b + p: by induction on `k`, using only that + is associative with unit 0. -/
theorem acc3_run (c : Dev nD) (b : ℕ) (hb : b < 2) : ∀ (k : ℕ) (hk : k < 8) (h : 8 * b + k < cfg3.N) (p : Fin 2048) (e : Fin 512),
    sAt3 V c (8 * b + k) h (ValueIdx.ix2 p e)
      = ∑ j : Fin (k + 1), part3 (at2 (V c (Pipeline.arrRef spec3 0))) (at2 (V c (Pipeline.arrRef spec3 1)))
          (at2 (V c (Pipeline.arrRef spec3 2))) (at2 (V c (Pipeline.arrRef spec3 3))) (at2 (V c (Pipeline.arrRef spec3 4)))
          ⟨2048 * b + p.val, by omega⟩ (Fin.castLE (Nat.succ_le_of_lt hk) j) e
  | 0, hk, h, p, e => by
    rw [sAtV3_reset V c (8 * b + 0) h (by omega)]
    rw [acc3_at V c ⟨8 * b + 0, h⟩ b (0 : Fin 8) hb rfl zeroS3 p e, zeroS3_apply, zero_add, Fin.sum_univ_one]
    rfl
  | k + 1, hk, h, p, e => by
    show sAt3 V c (8 * b + k + 1) h (ValueIdx.ix2 p e) = _
    rw [Fin.sum_univ_castSucc, sAtV3_step V c (8 * b + k) h (by omega)]
    rw [acc3_at V c ⟨8 * b + k + 1, h⟩ b (⟨k + 1, hk⟩ : Fin 8) hb rfl (sAt3 V c (8 * b + k) (Nat.lt_of_succ_lt h)) p e]
    rw [acc3_run c b hb k (Nat.lt_of_succ_lt hk) (Nat.lt_of_succ_lt h) p e]
    rfl

/-- THE FINISHED ACCUMULATOR. After the last point of a row block it holds the pre-activation less its bias: the eight
    shares are the full sums over all 4096 rows. -/
theorem acc3_done (c : Dev nD) (t : Fin cfg3.N) (ht : t.val % 8 = 7) (p : Fin 2048) (e : Fin 512) (r : Fin 4096)
    (hr : r.val = 2048 * (t.val / 8) + p.val) :
    sAt3 V c t.val t.isLt (ValueIdx.ix2 p e)
      = Cert.Spec.aggS (at2 (V c (Pipeline.arrRef spec3 0))) (at2 (V c (Pipeline.arrRef spec3 1)))
          (at2 (V c (Pipeline.arrRef spec3 2))) (at2 (V c (Pipeline.arrRef spec3 3))) (at2 (V c (Pipeline.arrRef spec3 4))) r e := by
  have hN : t.val < 16 := t.isLt
  have same : ∀ (u : ℕ) (hu : u < cfg3.N), u = t.val → sAt3 V c u hu = sAt3 V c t.val t.isLt := fun u hu eq => by subst eq; rfl
  rw [← same (8 * (t.val / 8) + 7) (by show 8 * (t.val / 8) + 7 < 16; omega) (by omega)]
  rw [acc3_run V c (t.val / 8) (by omega) 7 (by omega) (by show 8 * (t.val / 8) + 7 < 16; omega) p e]
  have er : (⟨2048 * (t.val / 8) + p.val, by omega⟩ : Fin 4096) = r := Fin.ext hr.symm
  rw [er]
  exact part3_sum _ _ _ _ _ r e

/-! ## What the last point of a row block stores -/

/-- The block the last point of a row block stores, in the arrays' coordinates: row 2048 (t / 8) + p of the result. -/
theorem out3_at (c : Dev nD) (t : Fin cfg3.N) (ht : t.val % 8 = 7) (p : Fin 2048) (j : Fin 512) (r : Fin 4096)
    (hr : r.val = 2048 * (t.val / 8) + p.val) :
    oAt3 V c t (ValueIdx.ix2 p j)
      = Cert.Spec.aggOut (at2 (V c (Pipeline.arrRef spec3 0))) (at2 (V c (Pipeline.arrRef spec3 1)))
          (at2 (V c (Pipeline.arrRef spec3 2))) (at2 (V c (Pipeline.arrRef spec3 3)))
          (at2 (V c (Pipeline.arrRef spec3 4))) (at2 (V c (Pipeline.arrRef spec3 5)))
          (row0 (V c (Pipeline.arrRef spec3 6))) (row0 (V c (Pipeline.arrRef spec3 7)))
          (at2 (V c (Pipeline.arrRef spec3 8))) r j := by
  unfold oAt3
  refine (finStep3_apply (sAt3 V c t.val t.isLt) (iblk3 V c 6 t) (iblk3 V c 5 t) (iblk3 V c 7 t) (iblk3 V c 8 t) p j).trans ?_
  unfold Cert.Spec.aggOut
  rw [blk3_blin V c t j, blk3_h V c t p j r hr]
  refine congrArg (fun z => (z + row0 (V c (Pipeline.arrRef spec3 7)) j) + at2 (V c (Pipeline.arrRef spec3 8)) r j) ?_
  refine Finset.sum_congr rfl fun e _ => ?_
  rw [acc3_done V c t ht p e r hr, blk3_bpre V c t e, blk3_w V c t e j]

/-! ## The result array -/

/-- The result array as ONE function of the nine input arrays: entry `i` is the layer's output at row `i 0`, column `i 1`. -/
def whole3 (aBa aBb aFa aFb : S4096x4096.Idx → EReal) (xw : S4096x1024.Idx → EReal) (wl : S512x512.Idx → EReal)
    (bpre blin : S1x512.Idx → EReal) (h : S4096x512.Idx → EReal) : S4096x512.Idx → EReal :=
  fun i => Cert.Spec.aggOut (at2 aBa) (at2 aBb) (at2 aFa) (at2 aFb) (at2 xw) (at2 wl) (row0 bpre) (row0 blin) (at2 h) (i 0) (i 1)

/-- The aggregation's result array, entry by entry. -/
theorem agg3_val (c : Dev nD) (i : Fin 4096) (j : Fin 512) :
    ((dat3 V c).arrAt 9 cfg3.N : S4096x512.Idx → EReal) (ValueIdx.ix2 i j)
      = Cert.Spec.aggOut (at2 (V c (Pipeline.arrRef spec3 0))) (at2 (V c (Pipeline.arrRef spec3 1)))
          (at2 (V c (Pipeline.arrRef spec3 2))) (at2 (V c (Pipeline.arrRef spec3 3)))
          (at2 (V c (Pipeline.arrRef spec3 4))) (at2 (V c (Pipeline.arrRef spec3 5)))
          (row0 (V c (Pipeline.arrRef spec3 6))) (row0 (V c (Pipeline.arrRef spec3 7)))
          (at2 (V c (Pipeline.arrRef spec3 8))) i j := by
  rw [final3 V c (whole3 (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5))
    (V c (Pipeline.arrRef spec3 6)) (V c (Pipeline.arrRef spec3 7)) (V c (Pipeline.arrRef spec3 8)))
    (fun t hm p q r hr => out3_at V c t hm p q r hr)]
  rfl

end Cert.KernelIdeal.Hand

end
-- ==== Proof.SpecAlg.lean ====
/-
  The kernel's arrangement of a layer computes the layer: the stacked projection restricted to a block of 256 columns is
  that weight matrix's projection, and the summed biases of a direction are added after the two aggregates either way.
-/
import proofs.«145376_g10471130268016_week1_w2_219_10_alg».proof.Proof.Spec

noncomputable section

namespace Cert.Spec

open Idealize.ShloMosaic

variable (Wb0 Wb1 Wf0 Wf1 : Fin 512 → Fin 256 → EReal)

/-- Columns 0–255 of the stacked weights are the first backward matrix. -/
theorem wcat_a (d : Fin 512) (n : ℕ) (hn : n < 256) (h' : n < 1024) :
    wcat Wb0 Wb1 Wf0 Wf1 d ⟨n, h'⟩ = Wb0 d ⟨n, hn⟩ := by
  unfold wcat; exact dif_pos hn

/-- Columns 256–511 are the second backward matrix. -/
theorem wcat_b (d : Fin 512) (n : ℕ) (hn : n < 256) (h' : n + 256 < 1024) :
    wcat Wb0 Wb1 Wf0 Wf1 d ⟨n + 256, h'⟩ = Wb1 d ⟨n, hn⟩ := by
  unfold wcat
  have h1 : ¬ ((⟨n + 256, h'⟩ : Fin 1024).val < 256) := by show ¬ (n + 256 < 256); omega
  have h2 : (⟨n + 256, h'⟩ : Fin 1024).val < 512 := by show n + 256 < 512; omega
  rw [dif_neg h1, dif_pos h2]
  exact congrArg (Wb1 d) (Fin.ext (by show n + 256 - 256 = n; omega))

/-- Columns 512–767 are the first forward matrix. -/
theorem wcat_c (d : Fin 512) (n : ℕ) (hn : n < 256) (h' : n + 512 < 1024) :
    wcat Wb0 Wb1 Wf0 Wf1 d ⟨n + 512, h'⟩ = Wf0 d ⟨n, hn⟩ := by
  unfold wcat
  have h1 : ¬ ((⟨n + 512, h'⟩ : Fin 1024).val < 256) := by show ¬ (n + 512 < 256); omega
  have h2 : ¬ ((⟨n + 512, h'⟩ : Fin 1024).val < 512) := by show ¬ (n + 512 < 512); omega
  have h3 : (⟨n + 512, h'⟩ : Fin 1024).val < 768 := by show n + 512 < 768; omega
  rw [dif_neg h1, dif_neg h2, dif_pos h3]
  exact congrArg (Wf0 d) (Fin.ext (by show n + 512 - 512 = n; omega))

/-- Columns 768–1023 are the second forward matrix. -/
theorem wcat_d (d : Fin 512) (n : ℕ) (hn : n < 256) (h' : n + 768 < 1024) :
    wcat Wb0 Wb1 Wf0 Wf1 d ⟨n + 768, h'⟩ = Wf1 d ⟨n, hn⟩ := by
  unfold wcat
  have h1 : ¬ ((⟨n + 768, h'⟩ : Fin 1024).val < 256) := by show ¬ (n + 768 < 256); omega
  have h2 : ¬ ((⟨n + 768, h'⟩ : Fin 1024).val < 512) := by show ¬ (n + 768 < 512); omega
  have h3 : ¬ ((⟨n + 768, h'⟩ : Fin 1024).val < 768) := by show ¬ (n + 768 < 768); omega
  rw [dif_neg h1, dif_neg h2, dif_neg h3]
  exact congrArg (Wf1 d) (Fin.ext (by show n + 768 - 768 = n; omega))

variable (h : Fin 4096 → Fin 512 → EReal)

/-- The stacked projection's column in each block of 256 is that matrix's projection. -/
theorem proj_a (K : Fin 4096) (n : ℕ) (hn : n < 256) (h' : n < 1024) :
    proj h (wcat Wb0 Wb1 Wf0 Wf1) K ⟨n, h'⟩ = xw h Wb0 K ⟨n, hn⟩ := by
  unfold proj xw; exact Finset.sum_congr rfl fun d _ => by rw [wcat_a Wb0 Wb1 Wf0 Wf1 d n hn h']
theorem proj_b (K : Fin 4096) (n : ℕ) (hn : n < 256) (h' : n + 256 < 1024) :
    proj h (wcat Wb0 Wb1 Wf0 Wf1) K ⟨n + 256, h'⟩ = xw h Wb1 K ⟨n, hn⟩ := by
  unfold proj xw; exact Finset.sum_congr rfl fun d _ => by rw [wcat_b Wb0 Wb1 Wf0 Wf1 d n hn h']
theorem proj_c (K : Fin 4096) (n : ℕ) (hn : n < 256) (h' : n + 512 < 1024) :
    proj h (wcat Wb0 Wb1 Wf0 Wf1) K ⟨n + 512, h'⟩ = xw h Wf0 K ⟨n, hn⟩ := by
  unfold proj xw; exact Finset.sum_congr rfl fun d _ => by rw [wcat_c Wb0 Wb1 Wf0 Wf1 d n hn h']
theorem proj_d (K : Fin 4096) (n : ℕ) (hn : n < 256) (h' : n + 768 < 1024) :
    proj h (wcat Wb0 Wb1 Wf0 Wf1) K ⟨n + 768, h'⟩ = xw h Wf1 K ⟨n, hn⟩ := by
  unfold proj xw; exact Finset.sum_congr rfl fun d _ => by rw [wcat_d Wb0 Wb1 Wf0 Wf1 d n hn h']

/-- The kernel's pre-activation, bias included, is the layer's. -/
theorem aggS_add_bcat (bw0 bw1 fw0 fw1 : Fin 4096 → Fin 4096 → EReal) (bb0 bb1 bf0 bf1 : Fin 256 → EReal)
    (i : Fin 4096) (e : Fin 512) :
    aggS bw0 bw1 fw0 fw1 (proj h (wcat Wb0 Wb1 Wf0 Wf1)) i e + bcat bb0 bb1 bf0 bf1 e
      = pre bw0 bw1 fw0 fw1 h Wb0 Wb1 Wf0 Wf1 bb0 bb1 bf0 bf1 i e := by
  unfold aggS bcat pre half gcn
  by_cases he : e.val < 256
  · rw [dif_pos he, dif_pos he, dif_pos he]
    simp only [proj_a Wb0 Wb1 Wf0 Wf1 h _ e.val he, proj_b Wb0 Wb1 Wf0 Wf1 h _ e.val he]
  · have hlt := e.isLt
    have he' : e.val - 256 < 256 := by omega
    rw [dif_neg he, dif_neg he, dif_neg he]
    have e1 : ∀ (K : Fin 4096) (p : e.val + 256 < 1024), proj h (wcat Wb0 Wb1 Wf0 Wf1) K ⟨e.val + 256, p⟩ = xw h Wf0 K ⟨e.val - 256, he'⟩ := by
      intro K p
      have := proj_c Wb0 Wb1 Wf0 Wf1 h K (e.val - 256) he' (by omega)
      have hidx : (⟨e.val - 256 + 512, by omega⟩ : Fin 1024) = ⟨e.val + 256, p⟩ := Fin.ext (by show e.val - 256 + 512 = e.val + 256; omega)
      rw [hidx] at this; exact this
    have e2 : ∀ (K : Fin 4096) (p : e.val + 512 < 1024), proj h (wcat Wb0 Wb1 Wf0 Wf1) K ⟨e.val + 512, p⟩ = xw h Wf1 K ⟨e.val - 256, he'⟩ := by
      intro K p
      have := proj_d Wb0 Wb1 Wf0 Wf1 h K (e.val - 256) he' (by omega)
      have hidx : (⟨e.val - 256 + 768, by omega⟩ : Fin 1024) = ⟨e.val + 512, p⟩ := Fin.ext (by show e.val - 256 + 768 = e.val + 512; omega)
      rw [hidx] at this; exact this
    simp only [e1, e2]

/-- The kernel's arrangement (one stacked projection, aggregates per 256 columns, biases summed first) is the layer. -/
theorem aggOut_eq_layer (bw0 bw1 fw0 fw1 : Fin 4096 → Fin 4096 → EReal)
    (bb0 bb1 bf0 bf1 : Fin 256 → EReal) (Wl : Fin 512 → Fin 512 → EReal) (bl : Fin 512 → EReal) :
    aggOut bw0 bw1 fw0 fw1 (proj h (wcat Wb0 Wb1 Wf0 Wf1)) Wl (bcat bb0 bb1 bf0 bf1) bl h
      = layer bw0 bw1 fw0 fw1 h Wb0 Wb1 Wf0 Wf1 bb0 bb1 bf0 bf1 Wl bl := by
  funext i j
  unfold aggOut layer
  simp only [aggS_add_bcat]

end Cert.Spec

end
-- ==== Proof.KernelNet.lean ====
/-
  The kernel program's result is the two-layer network of its arguments.

  Layer by layer: the projection region leaves the features against the stacked weights; the aggregation region reads that
  product, the four adjacencies, the summed biases, the linear map and its bias and the features, and leaves
  `Cert.Spec.aggOut` of them, which is the layer (`Cert.Spec.aggOut_eq_layer`). The host stretch before each layer builds
  the stacked weights and the bias rows from that layer's slices of the arguments, and touches no argument. The second
  layer's features are the first layer's result.
-/
import proofs.«145376_g10471130268016_week1_w2_219_10_alg».proof.Proof.KiVals
import proofs.«145376_g10471130268016_week1_w2_219_10_alg».proof.Proof.KiHost
import proofs.«145376_g10471130268016_week1_w2_219_10_alg».proof.Proof.KiHostD
import proofs.«145376_g10471130268016_week1_w2_219_10_alg».proof.Proof.ValProj0
import proofs.«145376_g10471130268016_week1_w2_219_10_alg».proof.Proof.ValProj2
import proofs.«145376_g10471130268016_week1_w2_219_10_alg».proof.Proof.ValAgg1
import proofs.«145376_g10471130268016_week1_w2_219_10_alg».proof.Proof.ValAgg3
import proofs.«145376_g10471130268016_week1_w2_219_10_alg».proof.Proof.SpecAlg

set_option maxRecDepth 16384

noncomputable section

namespace Cert.KernelIdeal.Hand

open Cert.KernelIdeal Cert.KernelIdeal.Gen
open Idealize.ShloMosaic Idealize.ShloMosaic.TcCoe
open Cert.Spec (at2 at3 at4 row0)

variable (m : (ℓ : Loc nD τ sig) → Buf (Elt Ideal) ℓ) (c : Dev nD)

/-- A buffer other than the first projection's result is, at the first aggregation's entry, what the host stretch left. -/
theorem VB_of (r : Ref sig .tc) (h : r ≠ main_v26) : VB m c r = VA m c r := by
  simp only [VB, Function.update_of_ne (StableHlo.devRef_ne_of_ne h : (Proc.devRef .tc r : DevRef τ sig) ≠ Proc.devRef .tc main_v26)]
theorem VB_proj : VB m c main_v26 = o26 m c := by
  simp only [VB, Function.update_self]
/-- A buffer other than the second projection's result is, at the second aggregation's entry, what the host stretch left. -/
theorem VE_of (r : Ref sig .tc) (h : r ≠ main_v54) : VE m c r = VD m c r := by
  simp only [VE, Function.update_of_ne (StableHlo.devRef_ne_of_ne h : (Proc.devRef .tc r : DevRef τ sig) ≠ Proc.devRef .tc main_v54)]
theorem VE_proj : VE m c main_v54 = o54 m c := by
  simp only [VE, Function.update_self]

/-- `aggOut` of equal arguments. -/
theorem aggOut_congr {aP aP' aQ aQ' aR aR' aS aS' : Fin 4096 → Fin 4096 → EReal} {xw xw' : Fin 4096 → Fin 1024 → EReal}
    {wl wl' : Fin 512 → Fin 512 → EReal} {bp bp' bl bl' : Fin 512 → EReal} {hf hf' : Fin 4096 → Fin 512 → EReal}
    (eP : aP = aP') (eQ : aQ = aQ') (eR : aR = aR') (eS : aS = aS') (ex : xw = xw') (ew : wl = wl') (ep : bp = bp')
    (el : bl = bl') (eh : hf = hf') :
    Cert.Spec.aggOut aP aQ aR aS xw wl bp bl hf = Cert.Spec.aggOut aP' aQ' aR' aS' xw' wl' bp' bl' hf' := by
  subst eP eQ eR eS ex ew ep el eh; rfl

/-! ## The first layer -/

/-- The first projection's result: the embeddings against layer 0's stacked weights. -/
theorem o26_eq : at2 (o26 m c) = Cert.Spec.proj (at2 (m ((c.tc : Thread nD τ).loc main_arg0)))
    (Cert.Spec.wcat (at4 (m ((c.tc : Thread nD τ).loc main_arg7)) 0 0) (at4 (m ((c.tc : Thread nD τ).loc main_arg7)) 0 1) (at4 (m ((c.tc : Thread nD τ).loc main_arg5)) 0 0) (at4 (m ((c.tc : Thread nD τ).loc main_arg5)) 0 1)) := by
  funext K j
  have hv := proj0_val (vA m) c K j
  have ha : vA m c (Pipeline.arrRef spec0 0) = (m ((c.tc : Thread nD τ).loc main_arg0)) := VA_arg m c main_arg0 (by decide)
  have hw : at2 (vA m c (Pipeline.arrRef spec0 1)) = _ := VA_wcat m c
  rw [ha, hw] at hv
  exact hv

/-- The first aggregation's result: layer 0 of the embeddings. -/
theorem o27_eq : at2 (o27 m c)
    = Cert.Spec.layerAt 0 (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (at2 (m ((c.tc : Thread nD τ).loc main_arg0))) := by
  funext i j
  have hv := agg1_val (vB m) c i j
  have h0 : vB m c (Pipeline.arrRef spec1 0) = (m ((c.tc : Thread nD τ).loc main_arg3)) := (VB_of m c main_arg3 (by decide)).trans (VA_arg m c main_arg3 (by decide))
  have h1 : vB m c (Pipeline.arrRef spec1 1) = (m ((c.tc : Thread nD τ).loc main_arg4)) := (VB_of m c main_arg4 (by decide)).trans (VA_arg m c main_arg4 (by decide))
  have h2 : vB m c (Pipeline.arrRef spec1 2) = (m ((c.tc : Thread nD τ).loc main_arg1)) := (VB_of m c main_arg1 (by decide)).trans (VA_arg m c main_arg1 (by decide))
  have h3 : vB m c (Pipeline.arrRef spec1 3) = (m ((c.tc : Thread nD τ).loc main_arg2)) := (VB_of m c main_arg2 (by decide)).trans (VA_arg m c main_arg2 (by decide))
  have h4 : at2 (vB m c (Pipeline.arrRef spec1 4)) = _ := (congrArg at2 (VB_proj m c)).trans (o26_eq m c)
  have h5 : at2 (vB m c (Pipeline.arrRef spec1 5)) = _ := (congrArg at2 (VB_of m c main_v25 (by decide))).trans (VA_wlin m c)
  have h6 : row0 (vB m c (Pipeline.arrRef spec1 6)) = _ := (congrArg row0 (VB_of m c main_v20 (by decide))).trans (VA_bcat m c)
  have h7 : row0 (vB m c (Pipeline.arrRef spec1 7)) = _ := (congrArg row0 (VB_of m c main_v23 (by decide))).trans (VA_blin m c)
  have h8 : vB m c (Pipeline.arrRef spec1 8) = (m ((c.tc : Thread nD τ).loc main_arg0)) := (VB_of m c main_arg0 (by decide)).trans (VA_arg m c main_arg0 (by decide))
  refine hv.trans ?_
  refine (congrFun (congrFun (aggOut_congr (congrArg at2 h0) (congrArg at2 h1) (congrArg at2 h2) (congrArg at2 h3)
    h4 h5 h6 h7 (congrArg at2 h8)) i) j).trans ?_
  rw [Cert.Spec.aggOut_eq_layer]
  rfl

/-! ## The second layer -/

/-- The second projection's result: the first layer's output against layer 1's stacked weights. -/
theorem o54_eq : at2 (o54 m c) = Cert.Spec.proj (at2 (o27 m c))
    (Cert.Spec.wcat (at4 (m ((c.tc : Thread nD τ).loc main_arg7)) 1 0) (at4 (m ((c.tc : Thread nD τ).loc main_arg7)) 1 1) (at4 (m ((c.tc : Thread nD τ).loc main_arg5)) 1 0) (at4 (m ((c.tc : Thread nD τ).loc main_arg5)) 1 1)) := by
  funext K j
  have hv := proj2_val (vD m) c K j
  have ha : vD m c (Pipeline.arrRef spec2 0) = o27 m c := VD_feat m c
  have hw : at2 (vD m c (Pipeline.arrRef spec2 1)) = _ := VD_wcat m c
  rw [ha, hw] at hv
  exact hv

/-- The second aggregation's result: layer 1 of the first layer's output. -/
theorem o55_eq : at2 (o55 m c)
    = Cert.Spec.layerAt 1 (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (at2 (o27 m c)) := by
  funext i j
  have hv := agg3_val (vE m) c i j
  have h0 : vE m c (Pipeline.arrRef spec3 0) = (m ((c.tc : Thread nD τ).loc main_arg3)) := (VE_of m c main_arg3 (by decide)).trans (VD_arg m c main_arg3 (by decide) (by decide) (by decide))
  have h1 : vE m c (Pipeline.arrRef spec3 1) = (m ((c.tc : Thread nD τ).loc main_arg4)) := (VE_of m c main_arg4 (by decide)).trans (VD_arg m c main_arg4 (by decide) (by decide) (by decide))
  have h2 : vE m c (Pipeline.arrRef spec3 2) = (m ((c.tc : Thread nD τ).loc main_arg1)) := (VE_of m c main_arg1 (by decide)).trans (VD_arg m c main_arg1 (by decide) (by decide) (by decide))
  have h3 : vE m c (Pipeline.arrRef spec3 3) = (m ((c.tc : Thread nD τ).loc main_arg2)) := (VE_of m c main_arg2 (by decide)).trans (VD_arg m c main_arg2 (by decide) (by decide) (by decide))
  have h4 : at2 (vE m c (Pipeline.arrRef spec3 4)) = _ := (congrArg at2 (VE_proj m c)).trans (o54_eq m c)
  have h5 : at2 (vE m c (Pipeline.arrRef spec3 5)) = _ := (congrArg at2 (VE_of m c main_v53 (by decide))).trans (VD_wlin m c)
  have h6 : row0 (vE m c (Pipeline.arrRef spec3 6)) = _ := (congrArg row0 (VE_of m c main_v48 (by decide))).trans (VD_bcat m c)
  have h7 : row0 (vE m c (Pipeline.arrRef spec3 7)) = _ := (congrArg row0 (VE_of m c main_v51 (by decide))).trans (VD_blin m c)
  have h8 : vE m c (Pipeline.arrRef spec3 8) = o27 m c := (VE_of m c main_v27 (by decide)).trans (VD_feat m c)
  refine hv.trans ?_
  refine (congrFun (congrFun (aggOut_congr (congrArg at2 h0) (congrArg at2 h1) (congrArg at2 h2) (congrArg at2 h3)
    h4 h5 h6 h7 (congrArg at2 h8)) i) j).trans ?_
  rw [Cert.Spec.aggOut_eq_layer]
  rfl

/-- The program's result array is the network of its argument arrays. -/
theorem o55_eq_net : o55 m c = Cert.Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  funext idx
  have hidx := ValueIdx.eq_ix2 idx
  have h := congrFun (congrFun (o55_eq m c) (idx 0)) (idx 1)
  rw [o27_eq m c] at h
  unfold Cert.Spec.net
  rw [← h]
  exact congrArg (o55 m c) hidx

end Cert.KernelIdeal.Hand

end
-- ==== Proof.RefSide.lean ====
/-
  The reference program's result, read one operation at a time, is the network `Cert.Spec.net` of its arguments.

  The program is two layers of the same operations. Each operation is first read at explicit coordinates over arbitrary
  operand arrays: the three contractions as sums over the contracted coordinate, the slices of the stacked weights as
  entries of the stacked array, the concatenations by the half or plane the coordinate falls in, the sum over the
  stacked relations as a sum of two terms, the rectifier as the maximum with zero. A layer's operations are then
  written as ONE array `stage` of a features array, the four adjacencies and the layer's sliced weights, and
  `stage` at `(i, j)` is shown to be the specification's `layer`: inside each half of the pre-activation,
  `(A₀ + b₀) + (A₁ + b₁) = (A₀ + A₁) + (b₀ + b₁)` in the commutative monoid of the extended reals, with no
  finiteness needed. Both layers of the generated reading are `stage` by unfolding, the second with the first as
  its features, which gives the network.
-/
import proofs.«145376_g10471130268016_week1_w2_219_10_alg».proof.Proof.RefRead
import proofs.«145376_g10471130268016_week1_w2_219_10_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.TcCoe Idealize.SL.Sem Idealize.ShloMosaic.StableHlo
open Cert.ReferenceIdeal Cert.ReferenceIdeal.Gen
open Idealize.ShloMosaic.ValueIdx (ix1 ix2 ix3 ix4)

/-! ## The three contractions read at coordinates

  Each is the host's `dot_general` over one contracted axis; at the extended reals its entry `(p, q)` is the plain sum
  over the contracted coordinate `k` of left `(p, k)` times right `(k, q)`. -/

/-- The left operand's row is the output row. -/
theorem dotA_l0 (i : S4096x256.Idx) (q : dot_S4096x512_S512x256_S4096x256_1_0_0_1_n_n.contr.Idx) :
    (dot_S4096x512_S512x256_S4096x256_1_0_0_1_n_n.lhsIdx i q 0).val = (i 0).val := by
  unfold DotDims.lhsIdx
  rw [dif_neg (show ¬(0 : Fin S4096x512.rank) ∈ dot_S4096x512_S512x256_S4096x256_1_0_0_1_n_n.lhsBatch by decide), dif_pos (show (0 : Fin S4096x512.rank) ∈ dot_S4096x512_S512x256_S4096x256_1_0_0_1_n_n.lhsNonContracting by decide)]
  rfl
/-- The left operand's column is the contracted coordinate. -/
theorem dotA_l1 (i : S4096x256.Idx) (q : dot_S4096x512_S512x256_S4096x256_1_0_0_1_n_n.contr.Idx) :
    (dot_S4096x512_S512x256_S4096x256_1_0_0_1_n_n.lhsIdx i q 1).val = (q ⟨0, by decide⟩).val :=
  dot_S4096x512_S512x256_S4096x256_1_0_0_1_n_n.lhsIdx_val_of_single rfl i q
/-- The right operand's row is the contracted coordinate. -/
theorem dotA_r0 (i : S4096x256.Idx) (q : dot_S4096x512_S512x256_S4096x256_1_0_0_1_n_n.contr.Idx) :
    (dot_S4096x512_S512x256_S4096x256_1_0_0_1_n_n.rhsIdx i q 0).val = (q ⟨0, by decide⟩).val :=
  dot_S4096x512_S512x256_S4096x256_1_0_0_1_n_n.rhsIdx_val_of_single rfl i q
/-- The right operand's column is the output column. -/
theorem dotA_r1 (i : S4096x256.Idx) (q : dot_S4096x512_S512x256_S4096x256_1_0_0_1_n_n.contr.Idx) :
    (dot_S4096x512_S512x256_S4096x256_1_0_0_1_n_n.rhsIdx i q 1).val = (i 1).val := by
  unfold DotDims.rhsIdx
  rw [dif_neg (show ¬(1 : Fin S512x256.rank) ∈ dot_S4096x512_S512x256_S4096x256_1_0_0_1_n_n.rhsBatch by decide), dif_pos (show (1 : Fin S512x256.rank) ∈ dot_S4096x512_S512x256_S4096x256_1_0_0_1_n_n.rhsNonContracting by decide)]
  rfl

/-- Features times a `[512, 256]` weight matrix: the sum over the 512 feature columns. -/
theorem dotA_apply (x : FVec Ideal S4096x512 .f32) (y : FVec Ideal S512x256 .f32) (p : Fin 4096) (q : Fin 256) :
    Host.dotGeneral (F := Ideal) dot_S4096x512_S512x256_S4096x256_1_0_0_1_n_n none x y (ix2 p q)
      = ∑ k : Fin 512, x (ix2 p k) * y (ix2 k q) := by
  simp only [Host.dotGeneral]
  rw [Ideal.dotGeneral_apply, ← Equiv.sum_comp (ValueIdx.contrEquiv1 dot_S4096x512_S512x256_S4096x256_1_0_0_1_n_n 512 rfl rfl).symm]
  refine Finset.sum_congr rfl fun k _ => ?_
  have hk := ValueIdx.contrEquiv1_symm_val dot_S4096x512_S512x256_S4096x256_1_0_0_1_n_n 512 rfl rfl k
  have el : dot_S4096x512_S512x256_S4096x256_1_0_0_1_n_n.lhsIdx (ix2 p q) ((ValueIdx.contrEquiv1 dot_S4096x512_S512x256_S4096x256_1_0_0_1_n_n 512 rfl rfl).symm k) = ix2 p k :=
    funext fun a => Fin.ext (by
      match a with
      | ⟨0, _⟩ => exact dotA_l0 _ _
      | ⟨1, _⟩ => exact (dotA_l1 _ _).trans hk)
  have er : dot_S4096x512_S512x256_S4096x256_1_0_0_1_n_n.rhsIdx (ix2 p q) ((ValueIdx.contrEquiv1 dot_S4096x512_S512x256_S4096x256_1_0_0_1_n_n 512 rfl rfl).symm k) = ix2 k q :=
    funext fun a => Fin.ext (by
      match a with
      | ⟨0, _⟩ => exact (dotA_r0 _ _).trans hk
      | ⟨1, _⟩ => exact dotA_r1 _ _)
  rw [el, er]

/-- The left operand's row is the output row. -/
theorem dotB_l0 (i : S4096x256.Idx) (q : dot_S4096x4096_S4096x256_S4096x256_1_0_0_1_n_n.contr.Idx) :
    (dot_S4096x4096_S4096x256_S4096x256_1_0_0_1_n_n.lhsIdx i q 0).val = (i 0).val := by
  unfold DotDims.lhsIdx
  rw [dif_neg (show ¬(0 : Fin S4096x4096.rank) ∈ dot_S4096x4096_S4096x256_S4096x256_1_0_0_1_n_n.lhsBatch by decide), dif_pos (show (0 : Fin S4096x4096.rank) ∈ dot_S4096x4096_S4096x256_S4096x256_1_0_0_1_n_n.lhsNonContracting by decide)]
  rfl
/-- The left operand's column is the contracted coordinate. -/
theorem dotB_l1 (i : S4096x256.Idx) (q : dot_S4096x4096_S4096x256_S4096x256_1_0_0_1_n_n.contr.Idx) :
    (dot_S4096x4096_S4096x256_S4096x256_1_0_0_1_n_n.lhsIdx i q 1).val = (q ⟨0, by decide⟩).val :=
  dot_S4096x4096_S4096x256_S4096x256_1_0_0_1_n_n.lhsIdx_val_of_single rfl i q
/-- The right operand's row is the contracted coordinate. -/
theorem dotB_r0 (i : S4096x256.Idx) (q : dot_S4096x4096_S4096x256_S4096x256_1_0_0_1_n_n.contr.Idx) :
    (dot_S4096x4096_S4096x256_S4096x256_1_0_0_1_n_n.rhsIdx i q 0).val = (q ⟨0, by decide⟩).val :=
  dot_S4096x4096_S4096x256_S4096x256_1_0_0_1_n_n.rhsIdx_val_of_single rfl i q
/-- The right operand's column is the output column. -/
theorem dotB_r1 (i : S4096x256.Idx) (q : dot_S4096x4096_S4096x256_S4096x256_1_0_0_1_n_n.contr.Idx) :
    (dot_S4096x4096_S4096x256_S4096x256_1_0_0_1_n_n.rhsIdx i q 1).val = (i 1).val := by
  unfold DotDims.rhsIdx
  rw [dif_neg (show ¬(1 : Fin S4096x256.rank) ∈ dot_S4096x4096_S4096x256_S4096x256_1_0_0_1_n_n.rhsBatch by decide), dif_pos (show (1 : Fin S4096x256.rank) ∈ dot_S4096x4096_S4096x256_S4096x256_1_0_0_1_n_n.rhsNonContracting by decide)]
  rfl

/-- An adjacency times projected features: the sum over the 4096 nodes. -/
theorem dotB_apply (x : FVec Ideal S4096x4096 .f32) (y : FVec Ideal S4096x256 .f32) (p : Fin 4096) (q : Fin 256) :
    Host.dotGeneral (F := Ideal) dot_S4096x4096_S4096x256_S4096x256_1_0_0_1_n_n none x y (ix2 p q)
      = ∑ k : Fin 4096, x (ix2 p k) * y (ix2 k q) := by
  simp only [Host.dotGeneral]
  rw [Ideal.dotGeneral_apply, ← Equiv.sum_comp (ValueIdx.contrEquiv1 dot_S4096x4096_S4096x256_S4096x256_1_0_0_1_n_n 4096 rfl rfl).symm]
  refine Finset.sum_congr rfl fun k _ => ?_
  have hk := ValueIdx.contrEquiv1_symm_val dot_S4096x4096_S4096x256_S4096x256_1_0_0_1_n_n 4096 rfl rfl k
  have el : dot_S4096x4096_S4096x256_S4096x256_1_0_0_1_n_n.lhsIdx (ix2 p q) ((ValueIdx.contrEquiv1 dot_S4096x4096_S4096x256_S4096x256_1_0_0_1_n_n 4096 rfl rfl).symm k) = ix2 p k :=
    funext fun a => Fin.ext (by
      match a with
      | ⟨0, _⟩ => exact dotB_l0 _ _
      | ⟨1, _⟩ => exact (dotB_l1 _ _).trans hk)
  have er : dot_S4096x4096_S4096x256_S4096x256_1_0_0_1_n_n.rhsIdx (ix2 p q) ((ValueIdx.contrEquiv1 dot_S4096x4096_S4096x256_S4096x256_1_0_0_1_n_n 4096 rfl rfl).symm k) = ix2 k q :=
    funext fun a => Fin.ext (by
      match a with
      | ⟨0, _⟩ => exact (dotB_r0 _ _).trans hk
      | ⟨1, _⟩ => exact dotB_r1 _ _)
  rw [el, er]

/-- The left operand's row is the output row. -/
theorem dotC_l0 (i : S4096x512.Idx) (q : dot_S4096x512_S512x512_S4096x512_1_0_0_1_n_n.contr.Idx) :
    (dot_S4096x512_S512x512_S4096x512_1_0_0_1_n_n.lhsIdx i q 0).val = (i 0).val := by
  unfold DotDims.lhsIdx
  rw [dif_neg (show ¬(0 : Fin S4096x512.rank) ∈ dot_S4096x512_S512x512_S4096x512_1_0_0_1_n_n.lhsBatch by decide), dif_pos (show (0 : Fin S4096x512.rank) ∈ dot_S4096x512_S512x512_S4096x512_1_0_0_1_n_n.lhsNonContracting by decide)]
  rfl
/-- The left operand's column is the contracted coordinate. -/
theorem dotC_l1 (i : S4096x512.Idx) (q : dot_S4096x512_S512x512_S4096x512_1_0_0_1_n_n.contr.Idx) :
    (dot_S4096x512_S512x512_S4096x512_1_0_0_1_n_n.lhsIdx i q 1).val = (q ⟨0, by decide⟩).val :=
  dot_S4096x512_S512x512_S4096x512_1_0_0_1_n_n.lhsIdx_val_of_single rfl i q
/-- The right operand's row is the contracted coordinate. -/
theorem dotC_r0 (i : S4096x512.Idx) (q : dot_S4096x512_S512x512_S4096x512_1_0_0_1_n_n.contr.Idx) :
    (dot_S4096x512_S512x512_S4096x512_1_0_0_1_n_n.rhsIdx i q 0).val = (q ⟨0, by decide⟩).val :=
  dot_S4096x512_S512x512_S4096x512_1_0_0_1_n_n.rhsIdx_val_of_single rfl i q
/-- The right operand's column is the output column. -/
theorem dotC_r1 (i : S4096x512.Idx) (q : dot_S4096x512_S512x512_S4096x512_1_0_0_1_n_n.contr.Idx) :
    (dot_S4096x512_S512x512_S4096x512_1_0_0_1_n_n.rhsIdx i q 1).val = (i 1).val := by
  unfold DotDims.rhsIdx
  rw [dif_neg (show ¬(1 : Fin S512x512.rank) ∈ dot_S4096x512_S512x512_S4096x512_1_0_0_1_n_n.rhsBatch by decide), dif_pos (show (1 : Fin S512x512.rank) ∈ dot_S4096x512_S512x512_S4096x512_1_0_0_1_n_n.rhsNonContracting by decide)]
  rfl

/-- Rectified pre-activations times the `[512, 512]` linear map: the sum over the 512 columns. -/
theorem dotC_apply (x : FVec Ideal S4096x512 .f32) (y : FVec Ideal S512x512 .f32) (p : Fin 4096) (q : Fin 512) :
    Host.dotGeneral (F := Ideal) dot_S4096x512_S512x512_S4096x512_1_0_0_1_n_n none x y (ix2 p q)
      = ∑ k : Fin 512, x (ix2 p k) * y (ix2 k q) := by
  simp only [Host.dotGeneral]
  rw [Ideal.dotGeneral_apply, ← Equiv.sum_comp (ValueIdx.contrEquiv1 dot_S4096x512_S512x512_S4096x512_1_0_0_1_n_n 512 rfl rfl).symm]
  refine Finset.sum_congr rfl fun k _ => ?_
  have hk := ValueIdx.contrEquiv1_symm_val dot_S4096x512_S512x512_S4096x512_1_0_0_1_n_n 512 rfl rfl k
  have el : dot_S4096x512_S512x512_S4096x512_1_0_0_1_n_n.lhsIdx (ix2 p q) ((ValueIdx.contrEquiv1 dot_S4096x512_S512x512_S4096x512_1_0_0_1_n_n 512 rfl rfl).symm k) = ix2 p k :=
    funext fun a => Fin.ext (by
      match a with
      | ⟨0, _⟩ => exact dotC_l0 _ _
      | ⟨1, _⟩ => exact (dotC_l1 _ _).trans hk)
  have er : dot_S4096x512_S512x512_S4096x512_1_0_0_1_n_n.rhsIdx (ix2 p q) ((ValueIdx.contrEquiv1 dot_S4096x512_S512x512_S4096x512_1_0_0_1_n_n 512 rfl rfl).symm k) = ix2 k q :=
    funext fun a => Fin.ext (by
      match a with
      | ⟨0, _⟩ => exact (dotC_r0 _ _).trans hk
      | ⟨1, _⟩ => exact dotC_r1 _ _)
  rw [el, er]

/-! ## The weight and bias slices read at coordinates -/

/-- Slice `[l, r, :, :]` of a stacked `[2, 2, 512, 256]` weight array, viewed `[512, 256]`. -/
theorem wslice_apply (x : FVec Ideal S2x2x512x256 .f32) (off : Fin S2x2x512x256.rank → Nat) (hs : S2x2x512x256.Slices off S1x1x512x256)
    (l r : Fin 2) (h0 : off 0 = l.val) (h1 : off 1 = r.val) (h2 : off 2 = 0) (h3 : off 3 = 0) (d : Fin 512) (e : Fin 256) :
    shapeCast S512x256 (extractStridedSlice S1x1x512x256 off x hs) shapeCasts_S1x1x512x256_S512x256 (ix2 d e) = x (ix4 l r d e) := by
  rw [shapeCast_apply _ shapeCasts_S1x1x512x256_S512x256 (ix2 d e) (ix4 (0 : Fin 1) (0 : Fin 1) d e)
    (by rewrite [Shape.rowMajor_val_four, Shape.rowMajor_val_two]; show ((0 * 1 + 0) * 512 + d.val) * 256 + e.val = d.val * 256 + e.val; omega)]
  exact extractStridedSlice_apply off x hs _ (ix4 l r d e) (fun a => match a with
    | ⟨0, _⟩ => by show l.val = off 0 + 0; omega
    | ⟨1, _⟩ => by show r.val = off 1 + 0; omega
    | ⟨2, _⟩ => by show d.val = off 2 + d.val; omega
    | ⟨3, _⟩ => by show e.val = off 3 + e.val; omega)

/-- Slice `[l, r, :]` of a stacked `[2, 2, 256]` bias array, broadcast over the 4096 rows. -/
theorem bslice_apply (x : FVec Ideal S2x2x256 .f32) (off : Fin S2x2x256.rank → Nat) (hs : S2x2x256.Slices off S1x1x256)
    (l r : Fin 2) (h0 : off 0 = l.val) (h1 : off 1 = r.val) (h2 : off 2 = 0) (i : Fin 4096) (e : Fin 256) :
    broadcastInDim S4096x256 ![0, 1] bcast_S1x256_S4096x256_0_1 (broadcastInDim S1x256 ![1] bcast_S256_S1x256_1
      (shapeCast S256 (extractStridedSlice S1x1x256 off x hs) shapeCasts_S1x1x256_S256)) (ix2 i e) = x (ix3 l r e) := by
  rw [broadcastInDim_apply _ bcast_S1x256_S4096x256_0_1 _ (ix2 i e) (ix2 (0 : Fin 1) e) (fun a => match a with
    | ⟨0, _⟩ => by show 0 = if (1 : Nat) = 1 then 0 else i.val; rw [if_pos rfl]
    | ⟨1, _⟩ => by show e.val = if (256 : Nat) = 1 then 0 else e.val; rw [if_neg (by decide)])]
  rw [broadcastInDim_apply _ bcast_S256_S1x256_1 _ (ix2 (0 : Fin 1) e) (ix1 e) (fun a => match a with
    | ⟨0, _⟩ => by show e.val = if (256 : Nat) = 1 then 0 else e.val; rw [if_neg (by decide)])]
  rw [shapeCast_apply _ shapeCasts_S1x1x256_S256 (ix1 e) (ix3 (0 : Fin 1) (0 : Fin 1) e)
    (by rewrite [Shape.rowMajor_val_three, Shape.rowMajor_val_one]; show (0 * 1 + 0) * 256 + e.val = e.val; omega)]
  exact extractStridedSlice_apply off x hs _ (ix3 l r e) (fun a => match a with
    | ⟨0, _⟩ => by show l.val = off 0 + 0; omega
    | ⟨1, _⟩ => by show r.val = off 1 + 0; omega
    | ⟨2, _⟩ => by show e.val = off 2 + e.val; omega)

/-- Slice `[l, :, :]` of the stacked `[2, 512, 512]` linear maps, viewed `[512, 512]`. -/
theorem lslice_apply (x : FVec Ideal S2x512x512 .f32) (off : Fin S2x512x512.rank → Nat) (hs : S2x512x512.Slices off S1x512x512)
    (l : Fin 2) (h0 : off 0 = l.val) (h1 : off 1 = 0) (h2 : off 2 = 0) (e j : Fin 512) :
    shapeCast S512x512 (extractStridedSlice S1x512x512 off x hs) shapeCasts_S1x512x512_S512x512 (ix2 e j) = x (ix3 l e j) := by
  rw [shapeCast_apply _ shapeCasts_S1x512x512_S512x512 (ix2 e j) (ix3 (0 : Fin 1) e j)
    (by rewrite [Shape.rowMajor_val_three, Shape.rowMajor_val_two]; show (0 * 512 + e.val) * 512 + j.val = e.val * 512 + j.val; omega)]
  exact extractStridedSlice_apply off x hs _ (ix3 l e j) (fun a => match a with
    | ⟨0, _⟩ => by show l.val = off 0 + 0; omega
    | ⟨1, _⟩ => by show e.val = off 1 + e.val; omega
    | ⟨2, _⟩ => by show j.val = off 2 + j.val; omega)

/-- Row `l` of the stacked `[2, 512]` output biases, broadcast over the 4096 rows. -/
theorem cslice_apply (x : FVec Ideal S2x512 .f32) (off : Fin S2x512.rank → Nat) (hs : S2x512.Slices off S1x512)
    (l : Fin 2) (h0 : off 0 = l.val) (h1 : off 1 = 0) (i : Fin 4096) (j : Fin 512) :
    broadcastInDim S4096x512 ![0, 1] bcast_S1x512_S4096x512_0_1 (broadcastInDim S1x512 ![1] bcast_S512_S1x512_1
      (shapeCast S512 (extractStridedSlice S1x512 off x hs) shapeCasts_S1x512_S512)) (ix2 i j) = x (ix2 l j) := by
  rw [broadcastInDim_apply _ bcast_S1x512_S4096x512_0_1 _ (ix2 i j) (ix2 (0 : Fin 1) j) (fun a => match a with
    | ⟨0, _⟩ => by show 0 = if (1 : Nat) = 1 then 0 else i.val; rw [if_pos rfl]
    | ⟨1, _⟩ => by show j.val = if (512 : Nat) = 1 then 0 else j.val; rw [if_neg (by decide)])]
  rw [broadcastInDim_apply _ bcast_S512_S1x512_1 _ (ix2 (0 : Fin 1) j) (ix1 j) (fun a => match a with
    | ⟨0, _⟩ => by show j.val = if (512 : Nat) = 1 then 0 else j.val; rw [if_neg (by decide)])]
  rw [shapeCast_apply _ shapeCasts_S1x512_S512 (ix1 j) (ix2 (0 : Fin 1) j)
    (by rewrite [Shape.rowMajor_val_two, Shape.rowMajor_val_one]; show 0 * 512 + j.val = j.val; omega)]
  exact extractStridedSlice_apply off x hs _ (ix2 l j) (fun a => match a with
    | ⟨0, _⟩ => by show l.val = off 0 + 0; omega
    | ⟨1, _⟩ => by show j.val = off 1 + j.val; omega)

/-! ## Concatenation, the stack of the two relations, their sum, the rectifier -/

/-- Two `[4096, 256]` arrays side by side: a column below 256 reads the first. -/
theorem cat1_apply_lt (A B : FVec Ideal S4096x256 .f32) (i : Fin 4096) (e : Fin 512) (he : e.val < 256) :
    concatenate S4096x512 1 [⟨S4096x256, A⟩, ⟨S4096x256, B⟩] concatenates_S4096x256_S4096x256_S4096x512_d1 (ix2 i e)
      = A (ix2 i ⟨e.val, he⟩) :=
  concatenate_pair_apply_left 1 A B concatenates_S4096x256_S4096x256_S4096x512_d1 (ix2 i e) rfl (ix2 i ⟨e.val, he⟩) (fun b => by
    match b with
    | ⟨0, _⟩ => rfl
    | ⟨1, _⟩ => rfl)

/-- Two `[4096, 256]` arrays side by side: a column from 256 on reads the second, 256 less. -/
theorem cat1_apply_ge (A B : FVec Ideal S4096x256 .f32) (i : Fin 4096) (e : Fin 512) (he : ¬ e.val < 256) :
    concatenate S4096x512 1 [⟨S4096x256, A⟩, ⟨S4096x256, B⟩] concatenates_S4096x256_S4096x256_S4096x512_d1 (ix2 i e)
      = B (ix2 i ⟨e.val - 256, by have := e.isLt; omega⟩) :=
  concatenate_pair_apply_right 1 A B concatenates_S4096x256_S4096x256_S4096x512_d1 (ix2 i e) rfl rfl
    (ix2 i ⟨e.val - 256, by have := e.isLt; omega⟩)
    (fun b hb => by
      match b with
      | ⟨0, _⟩ => rfl
      | ⟨1, _⟩ => exact absurd rfl hb)
    (by show e.val - 256 + 256 = e.val; omega)

/-- The stack of two `[4096, 512]` arrays along a new leading axis: plane 0 is the first. -/
theorem stack_apply0 (A B : FVec Ideal S4096x512 .f32) (i : Fin 4096) (e : Fin 512) :
    concatenate S2x4096x512 0 [⟨S1x4096x512, broadcastInDim S1x4096x512 ![1, 2] bcast_S4096x512_S1x4096x512_1_2 A⟩,
      ⟨S1x4096x512, broadcastInDim S1x4096x512 ![1, 2] bcast_S4096x512_S1x4096x512_1_2 B⟩]
      concatenates_S1x4096x512_S1x4096x512_S2x4096x512_d0 (ix3 (0 : Fin 2) i e) = A (ix2 i e) := by
  rw [concatenate_pair_apply_left 0 _ _ concatenates_S1x4096x512_S1x4096x512_S2x4096x512_d0 (ix3 (0 : Fin 2) i e) rfl
    (ix3 (0 : Fin 1) i e) (fun b => by
      match b with
      | ⟨0, _⟩ => rfl
      | ⟨1, _⟩ => rfl
      | ⟨2, _⟩ => rfl)]
  exact broadcastInDim_apply _ bcast_S4096x512_S1x4096x512_1_2 A _ (ix2 i e) (fun a => match a with
    | ⟨0, _⟩ => by show i.val = if (4096 : Nat) = 1 then 0 else i.val; rw [if_neg (by decide)]
    | ⟨1, _⟩ => by show e.val = if (512 : Nat) = 1 then 0 else e.val; rw [if_neg (by decide)])

/-- The stack of two `[4096, 512]` arrays along a new leading axis: plane 1 is the second. -/
theorem stack_apply1 (A B : FVec Ideal S4096x512 .f32) (i : Fin 4096) (e : Fin 512) :
    concatenate S2x4096x512 0 [⟨S1x4096x512, broadcastInDim S1x4096x512 ![1, 2] bcast_S4096x512_S1x4096x512_1_2 A⟩,
      ⟨S1x4096x512, broadcastInDim S1x4096x512 ![1, 2] bcast_S4096x512_S1x4096x512_1_2 B⟩]
      concatenates_S1x4096x512_S1x4096x512_S2x4096x512_d0 (ix3 (1 : Fin 2) i e) = B (ix2 i e) := by
  rw [concatenate_pair_apply_right 0 _ _ concatenates_S1x4096x512_S1x4096x512_S2x4096x512_d0 (ix3 (1 : Fin 2) i e) rfl rfl
    (ix3 (0 : Fin 1) i e) (fun b hb => by
      match b with
      | ⟨0, _⟩ => exact absurd rfl hb
      | ⟨1, _⟩ => rfl
      | ⟨2, _⟩ => rfl) rfl]
  exact broadcastInDim_apply _ bcast_S4096x512_S1x4096x512_1_2 B _ (ix2 i e) (fun a => match a with
    | ⟨0, _⟩ => by show i.val = if (4096 : Nat) = 1 then 0 else i.val; rw [if_neg (by decide)]
    | ⟨1, _⟩ => by show e.val = if (512 : Nat) = 1 then 0 else e.val; rw [if_neg (by decide)])

/-- The sum over the leading axis of a `[2, 4096, 512]` array, started from the zero word: plane 0 plus plane 1. -/
theorem sum2_apply (y : FVec Ideal S2x4096x512 .f32) (i : Fin 4096) (e : Fin 512) :
    Host.reduceAdd (F := Ideal) y (constant (F := Ideal) S_ .f32 0x00000000#32) reducesTo_S2x4096x512_S4096x512_d0 h_S_ (ix2 i e)
      = y (ix3 (0 : Fin 2) i e) + y (ix3 (1 : Fin 2) i e) := by
  simp only [Host.reduceAdd, Ideal.hostReduceAdd_def]
  rw [Ideal.hostReduceAdd_single reducesTo_S2x4096x512_S4096x512_d0 (by decide)]
  trans (constant (F := Ideal) S_ .f32 0x00000000#32 (Shape.Idx.first h_S_) + ∑ k : Fin 2, y (ix3 k i e))
  · refine congrArg (_ + ·) (Finset.sum_congr rfl fun k _ => ?_)
    exact congrArg y (funext fun a => Fin.ext (by match a with | ⟨0, _⟩ => rfl | ⟨1, _⟩ => rfl | ⟨2, _⟩ => rfl))
  · rw [Fin.sum_univ_two, ValueIdx.constant_apply, Ideal.ofBits_zero_f32, zero_add]

/-- The rectifier: the maximum with the broadcast zero word. -/
theorem relu_apply (y : FVec Ideal S4096x512 .f32) (i : Fin 4096) (e : Fin 512) :
    maximumf y (broadcastInDim S4096x512 ![] bcast_S_S4096x512 (constant (F := Ideal) S_ .f32 0x00000000#32)) (ix2 i e)
      = max (y (ix2 i e)) 0 := by
  rw [ValueIdx.maximumf_apply, broadcastInDim_apply _ bcast_S_S4096x512 _ (ix2 i e) ValueIdx.ix0 (fun a => a.elim0),
    ValueIdx.constant_apply, Ideal.ofBits_zero_f32]

/-! ## One layer's operations as one array, and what it holds

  The operations of a layer, written once over an arbitrary features array `h`, the four adjacencies and the layer's
  weights as already sliced arrays. Both layers of the program are this term; the second has the first as its features. -/

/-- One relation in one direction: the adjacency against the projected features, plus the broadcast bias. -/
def relS (adj : FVec Ideal S4096x4096 .f32) (h : FVec Ideal S4096x512 .f32) (W : FVec Ideal S512x256 .f32)
    (B : FVec Ideal S4096x256 .f32) : FVec Ideal S4096x256 .f32 :=
  addf (Host.dotGeneral dot_S4096x4096_S4096x256_S4096x256_1_0_0_1_n_n none adj
    (Host.dotGeneral dot_S4096x512_S512x256_S4096x256_1_0_0_1_n_n none h W)) B

/-- The pre-activation: per relation the backward and forward results side by side, the two relations stacked and summed. -/
def preS (h : FVec Ideal S4096x512 .f32) (aB0 aB1 aF0 aF1 : FVec Ideal S4096x4096 .f32)
    (WB0 WB1 WF0 WF1 : FVec Ideal S512x256 .f32) (BB0 BB1 BF0 BF1 : FVec Ideal S4096x256 .f32) : FVec Ideal S4096x512 .f32 :=
  Host.reduceAdd
    (concatenate S2x4096x512 0
      [⟨S1x4096x512, broadcastInDim S1x4096x512 ![1, 2] bcast_S4096x512_S1x4096x512_1_2
          (concatenate S4096x512 1 [⟨S4096x256, relS aB0 h WB0 BB0⟩, ⟨S4096x256, relS aF0 h WF0 BF0⟩] concatenates_S4096x256_S4096x256_S4096x512_d1)⟩,
        ⟨S1x4096x512, broadcastInDim S1x4096x512 ![1, 2] bcast_S4096x512_S1x4096x512_1_2
          (concatenate S4096x512 1 [⟨S4096x256, relS aB1 h WB1 BB1⟩, ⟨S4096x256, relS aF1 h WF1 BF1⟩] concatenates_S4096x256_S4096x256_S4096x512_d1)⟩]
      concatenates_S1x4096x512_S1x4096x512_S2x4096x512_d0)
    (constant (F := Ideal) S_ .f32 0x00000000#32) reducesTo_S2x4096x512_S4096x512_d0 h_S_

/-- The layer: rectify the pre-activation, apply the linear map, add its broadcast bias, add the features. -/
def stage (h : FVec Ideal S4096x512 .f32) (aB0 aB1 aF0 aF1 : FVec Ideal S4096x4096 .f32)
    (WB0 WB1 WF0 WF1 : FVec Ideal S512x256 .f32) (BB0 BB1 BF0 BF1 : FVec Ideal S4096x256 .f32)
    (WL : FVec Ideal S512x512 .f32) (BL : FVec Ideal S4096x512 .f32) : FVec Ideal S4096x512 .f32 :=
  addf (addf (Host.dotGeneral dot_S4096x512_S512x512_S4096x512_1_0_0_1_n_n none
      (maximumf (preS h aB0 aB1 aF0 aF1 WB0 WB1 WF0 WF1 BB0 BB1 BF0 BF1)
        (broadcastInDim S4096x512 ![] bcast_S_S4096x512 (constant (F := Ideal) S_ .f32 0x00000000#32)))
      WL) BL) h

/-- One relation's array at `(i, e)`: the aggregate of the specification plus the bias entry. -/
theorem relS_apply (adj : FVec Ideal S4096x4096 .f32) (h : FVec Ideal S4096x512 .f32) (W : FVec Ideal S512x256 .f32)
    (B : FVec Ideal S4096x256 .f32) (w : Fin 512 → Fin 256 → EReal) (b : Fin 256 → EReal)
    (hW : ∀ d e, W (ix2 d e) = w d e) (hB : ∀ i e, B (ix2 i e) = b e) (i : Fin 4096) (e : Fin 256) :
    relS adj h W B (ix2 i e)
      = Cert.Spec.gcn (Cert.Spec.at2 (a := 4096) (b := 4096) adj) (Cert.Spec.at2 (a := 4096) (b := 512) h) w i e + b e := by
  unfold relS
  rw [ValueIdx.addf_apply, dotB_apply, hB]
  refine congrArg (· + b e) (Finset.sum_congr rfl fun K _ => ?_)
  rw [dotA_apply]
  refine congrArg (_ * ·) (Finset.sum_congr rfl fun d _ => ?_)
  rw [hW]
  rfl

/-- The pre-activation array at `(i, e)` is the specification's: in each half the two relations' aggregates and biases,
    regrouped (aggregates together, biases together) by commutativity and associativity of the sum. -/
theorem preS_apply (h : FVec Ideal S4096x512 .f32) (aB0 aB1 aF0 aF1 : FVec Ideal S4096x4096 .f32)
    (WB0 WB1 WF0 WF1 : FVec Ideal S512x256 .f32) (BB0 BB1 BF0 BF1 : FVec Ideal S4096x256 .f32)
    (wb0 wb1 wf0 wf1 : Fin 512 → Fin 256 → EReal) (bb0 bb1 bf0 bf1 : Fin 256 → EReal)
    (hWB0 : ∀ d e, WB0 (ix2 d e) = wb0 d e) (hWB1 : ∀ d e, WB1 (ix2 d e) = wb1 d e)
    (hWF0 : ∀ d e, WF0 (ix2 d e) = wf0 d e) (hWF1 : ∀ d e, WF1 (ix2 d e) = wf1 d e)
    (hBB0 : ∀ i e, BB0 (ix2 i e) = bb0 e) (hBB1 : ∀ i e, BB1 (ix2 i e) = bb1 e)
    (hBF0 : ∀ i e, BF0 (ix2 i e) = bf0 e) (hBF1 : ∀ i e, BF1 (ix2 i e) = bf1 e) (i : Fin 4096) (e : Fin 512) :
    preS h aB0 aB1 aF0 aF1 WB0 WB1 WF0 WF1 BB0 BB1 BF0 BF1 (ix2 i e)
      = Cert.Spec.pre (Cert.Spec.at2 (a := 4096) (b := 4096) aB0) (Cert.Spec.at2 (a := 4096) (b := 4096) aB1)
          (Cert.Spec.at2 (a := 4096) (b := 4096) aF0) (Cert.Spec.at2 (a := 4096) (b := 4096) aF1)
          (Cert.Spec.at2 (a := 4096) (b := 512) h) wb0 wb1 wf0 wf1 bb0 bb1 bf0 bf1 i e := by
  unfold preS
  rw [sum2_apply, stack_apply0, stack_apply1]
  unfold Cert.Spec.pre
  by_cases he : e.val < 256
  · rw [dif_pos he, cat1_apply_lt _ _ i e he, cat1_apply_lt _ _ i e he,
      relS_apply aB0 h WB0 BB0 wb0 bb0 hWB0 hBB0, relS_apply aB1 h WB1 BB1 wb1 bb1 hWB1 hBB1]
    exact add_add_add_comm _ _ _ _
  · rw [dif_neg he, cat1_apply_ge _ _ i e he, cat1_apply_ge _ _ i e he,
      relS_apply aF0 h WF0 BF0 wf0 bf0 hWF0 hBF0, relS_apply aF1 h WF1 BF1 wf1 bf1 hWF1 hBF1]
    exact add_add_add_comm _ _ _ _

/-- The layer's array at `(i, j)` is the specification's layer. -/
theorem stage_apply (h : FVec Ideal S4096x512 .f32) (aB0 aB1 aF0 aF1 : FVec Ideal S4096x4096 .f32)
    (WB0 WB1 WF0 WF1 : FVec Ideal S512x256 .f32) (BB0 BB1 BF0 BF1 : FVec Ideal S4096x256 .f32)
    (WL : FVec Ideal S512x512 .f32) (BL : FVec Ideal S4096x512 .f32)
    (wb0 wb1 wf0 wf1 : Fin 512 → Fin 256 → EReal) (bb0 bb1 bf0 bf1 : Fin 256 → EReal)
    (wl : Fin 512 → Fin 512 → EReal) (bl : Fin 512 → EReal)
    (hWB0 : ∀ d e, WB0 (ix2 d e) = wb0 d e) (hWB1 : ∀ d e, WB1 (ix2 d e) = wb1 d e)
    (hWF0 : ∀ d e, WF0 (ix2 d e) = wf0 d e) (hWF1 : ∀ d e, WF1 (ix2 d e) = wf1 d e)
    (hBB0 : ∀ i e, BB0 (ix2 i e) = bb0 e) (hBB1 : ∀ i e, BB1 (ix2 i e) = bb1 e)
    (hBF0 : ∀ i e, BF0 (ix2 i e) = bf0 e) (hBF1 : ∀ i e, BF1 (ix2 i e) = bf1 e)
    (hWL : ∀ e j, WL (ix2 e j) = wl e j) (hBL : ∀ i j, BL (ix2 i j) = bl j) (i : Fin 4096) (j : Fin 512) :
    stage h aB0 aB1 aF0 aF1 WB0 WB1 WF0 WF1 BB0 BB1 BF0 BF1 WL BL (ix2 i j)
      = Cert.Spec.layer (Cert.Spec.at2 (a := 4096) (b := 4096) aB0) (Cert.Spec.at2 (a := 4096) (b := 4096) aB1)
          (Cert.Spec.at2 (a := 4096) (b := 4096) aF0) (Cert.Spec.at2 (a := 4096) (b := 4096) aF1)
          (Cert.Spec.at2 (a := 4096) (b := 512) h) wb0 wb1 wf0 wf1 bb0 bb1 bf0 bf1 wl bl i j := by
  unfold stage Cert.Spec.layer
  rw [ValueIdx.addf_apply, ValueIdx.addf_apply, dotC_apply, hBL]
  refine congrArg (· + h (ix2 i j)) (congrArg (· + bl j) (Finset.sum_congr rfl fun e _ => ?_))
  rw [relu_apply, hWL, preS_apply h aB0 aB1 aF0 aF1 WB0 WB1 WF0 WF1 BB0 BB1 BF0 BF1 wb0 wb1 wf0 wf1 bb0 bb1 bf0 bf1
    hWB0 hWB1 hWF0 hWF1 hBB0 hBB1 hBF0 hBF1]

/-! ## The program's two layers are that array

  The stages of the generated reading that end a layer are, by unfolding their definitions, `stage` of the features,
  the adjacencies and the stages that hold the layer's sliced weights. -/

/-- The first layer's last stage: `stage` of the embeddings with the slices at layer index 0. -/
theorem v51_eq (x0 : FVec Ideal S4096x512 .f32) (x1 x2 x3 x4 : FVec Ideal S4096x4096 .f32) (x5 : FVec Ideal S2x2x512x256 .f32)
    (x6 : FVec Ideal S2x2x256 .f32) (x7 : FVec Ideal S2x2x512x256 .f32) (x8 : FVec Ideal S2x2x256 .f32)
    (x9 : FVec Ideal S2x512x512 .f32) (x10 : FVec Ideal S2x512 .f32) :
    ReadC.val_main_v51 (F := Ideal) x0 x1 x2 x3 x4 x5 x6 x7 x8 x9 x10
      = stage x0 x3 x4 x1 x2 (ReadC.val_main_v10 (F := Ideal) x7) (ReadC.val_main_v29 (F := Ideal) x7) (ReadC.val_main_v1 (F := Ideal) x5) (ReadC.val_main_v20 (F := Ideal) x5)
          (ReadC.val_main_v16 (F := Ideal) x8) (ReadC.val_main_v35 (F := Ideal) x8) (ReadC.val_main_v7 (F := Ideal) x6) (ReadC.val_main_v26 (F := Ideal) x6) (ReadC.val_main_v44 (F := Ideal) x9) (ReadC.val_main_v49 (F := Ideal) x10) := rfl

/-- The second layer's last stage: `stage` of the first layer's with the slices at layer index 1. -/
theorem v103_eq (x0 : FVec Ideal S4096x512 .f32) (x1 x2 x3 x4 : FVec Ideal S4096x4096 .f32) (x5 : FVec Ideal S2x2x512x256 .f32)
    (x6 : FVec Ideal S2x2x256 .f32) (x7 : FVec Ideal S2x2x512x256 .f32) (x8 : FVec Ideal S2x2x256 .f32)
    (x9 : FVec Ideal S2x512x512 .f32) (x10 : FVec Ideal S2x512 .f32) :
    ReadC.val_main_v103 (F := Ideal) x0 x1 x2 x3 x4 x5 x6 x7 x8 x9 x10
      = stage (ReadC.val_main_v51 (F := Ideal) x0 x1 x2 x3 x4 x5 x6 x7 x8 x9 x10) x3 x4 x1 x2 (ReadC.val_main_v62 (F := Ideal) x7) (ReadC.val_main_v81 (F := Ideal) x7) (ReadC.val_main_v53 (F := Ideal) x5) (ReadC.val_main_v72 (F := Ideal) x5)
          (ReadC.val_main_v68 (F := Ideal) x8) (ReadC.val_main_v87 (F := Ideal) x8) (ReadC.val_main_v59 (F := Ideal) x6) (ReadC.val_main_v78 (F := Ideal) x6) (ReadC.val_main_v96 (F := Ideal) x9) (ReadC.val_main_v101 (F := Ideal) x10) := rfl

/-- The first layer's stage at `(i, j)` is layer 0 of the specification on the embeddings. -/
theorem layer0_apply (x0 : FVec Ideal S4096x512 .f32) (x1 x2 x3 x4 : FVec Ideal S4096x4096 .f32) (x5 : FVec Ideal S2x2x512x256 .f32)
    (x6 : FVec Ideal S2x2x256 .f32) (x7 : FVec Ideal S2x2x512x256 .f32) (x8 : FVec Ideal S2x2x256 .f32)
    (x9 : FVec Ideal S2x512x512 .f32) (x10 : FVec Ideal S2x512 .f32) (i : Fin 4096) (j : Fin 512) :
    ReadC.val_main_v51 (F := Ideal) x0 x1 x2 x3 x4 x5 x6 x7 x8 x9 x10 (ix2 i j)
      = Cert.Spec.layerAt 0 x1 x2 x3 x4 x5 x6 x7 x8 x9 x10 (Cert.Spec.at2 x0) i j := by
  rw [v51_eq]
  exact stage_apply x0 x3 x4 x1 x2 _ _ _ _ _ _ _ _ _ _
      (Cert.Spec.at4 x7 0 0) (Cert.Spec.at4 x7 0 1) (Cert.Spec.at4 x5 0 0) (Cert.Spec.at4 x5 0 1)
      (Cert.Spec.at3 x8 0 0) (Cert.Spec.at3 x8 0 1) (Cert.Spec.at3 x6 0 0) (Cert.Spec.at3 x6 0 1) (Cert.Spec.at3 x9 0) (Cert.Spec.at2 x10 0)
      (fun d e => wslice_apply x7 ![0, 0, 0, 0] slices_S2x2x512x256_S1x1x512x256_0_0_0_0 0 0 rfl rfl rfl rfl d e)
      (fun d e => wslice_apply x7 ![0, 1, 0, 0] slices_S2x2x512x256_S1x1x512x256_0_1_0_0 0 1 rfl rfl rfl rfl d e)
      (fun d e => wslice_apply x5 ![0, 0, 0, 0] slices_S2x2x512x256_S1x1x512x256_0_0_0_0 0 0 rfl rfl rfl rfl d e)
      (fun d e => wslice_apply x5 ![0, 1, 0, 0] slices_S2x2x512x256_S1x1x512x256_0_1_0_0 0 1 rfl rfl rfl rfl d e)
      (fun i e => bslice_apply x8 ![0, 0, 0] slices_S2x2x256_S1x1x256_0_0_0 0 0 rfl rfl rfl i e)
      (fun i e => bslice_apply x8 ![0, 1, 0] slices_S2x2x256_S1x1x256_0_1_0 0 1 rfl rfl rfl i e)
      (fun i e => bslice_apply x6 ![0, 0, 0] slices_S2x2x256_S1x1x256_0_0_0 0 0 rfl rfl rfl i e)
      (fun i e => bslice_apply x6 ![0, 1, 0] slices_S2x2x256_S1x1x256_0_1_0 0 1 rfl rfl rfl i e)
      (fun e j => lslice_apply x9 ![0, 0, 0] slices_S2x512x512_S1x512x512_0_0_0 0 rfl rfl rfl e j)
      (fun i j => cslice_apply x10 ![0, 0] slices_S2x512_S1x512_0_0 0 rfl rfl i j)
      i j

/-- The second layer's stage at `(i, j)` is layer 1 of the specification on the first layer's stage. -/
theorem layer1_apply (x0 : FVec Ideal S4096x512 .f32) (x1 x2 x3 x4 : FVec Ideal S4096x4096 .f32) (x5 : FVec Ideal S2x2x512x256 .f32)
    (x6 : FVec Ideal S2x2x256 .f32) (x7 : FVec Ideal S2x2x512x256 .f32) (x8 : FVec Ideal S2x2x256 .f32)
    (x9 : FVec Ideal S2x512x512 .f32) (x10 : FVec Ideal S2x512 .f32) (i : Fin 4096) (j : Fin 512) :
    ReadC.val_main_v103 (F := Ideal) x0 x1 x2 x3 x4 x5 x6 x7 x8 x9 x10 (ix2 i j)
      = Cert.Spec.layerAt 1 x1 x2 x3 x4 x5 x6 x7 x8 x9 x10 (Cert.Spec.at2 (ReadC.val_main_v51 (F := Ideal) x0 x1 x2 x3 x4 x5 x6 x7 x8 x9 x10)) i j := by
  rw [v103_eq]
  exact stage_apply (ReadC.val_main_v51 (F := Ideal) x0 x1 x2 x3 x4 x5 x6 x7 x8 x9 x10) x3 x4 x1 x2 _ _ _ _ _ _ _ _ _ _
      (Cert.Spec.at4 x7 1 0) (Cert.Spec.at4 x7 1 1) (Cert.Spec.at4 x5 1 0) (Cert.Spec.at4 x5 1 1)
      (Cert.Spec.at3 x8 1 0) (Cert.Spec.at3 x8 1 1) (Cert.Spec.at3 x6 1 0) (Cert.Spec.at3 x6 1 1) (Cert.Spec.at3 x9 1) (Cert.Spec.at2 x10 1)
      (fun d e => wslice_apply x7 ![1, 0, 0, 0] slices_S2x2x512x256_S1x1x512x256_1_0_0_0 1 0 rfl rfl rfl rfl d e)
      (fun d e => wslice_apply x7 ![1, 1, 0, 0] slices_S2x2x512x256_S1x1x512x256_1_1_0_0 1 1 rfl rfl rfl rfl d e)
      (fun d e => wslice_apply x5 ![1, 0, 0, 0] slices_S2x2x512x256_S1x1x512x256_1_0_0_0 1 0 rfl rfl rfl rfl d e)
      (fun d e => wslice_apply x5 ![1, 1, 0, 0] slices_S2x2x512x256_S1x1x512x256_1_1_0_0 1 1 rfl rfl rfl rfl d e)
      (fun i e => bslice_apply x8 ![1, 0, 0] slices_S2x2x256_S1x1x256_1_0_0 1 0 rfl rfl rfl i e)
      (fun i e => bslice_apply x8 ![1, 1, 0] slices_S2x2x256_S1x1x256_1_1_0 1 1 rfl rfl rfl i e)
      (fun i e => bslice_apply x6 ![1, 0, 0] slices_S2x2x256_S1x1x256_1_0_0 1 0 rfl rfl rfl i e)
      (fun i e => bslice_apply x6 ![1, 1, 0] slices_S2x2x256_S1x1x256_1_1_0 1 1 rfl rfl rfl i e)
      (fun e j => lslice_apply x9 ![1, 0, 0] slices_S2x512x512_S1x512x512_1_0_0 1 rfl rfl rfl e j)
      (fun i j => cslice_apply x10 ![1, 0] slices_S2x512_S1x512_1_0 1 rfl rfl i j)
      i j

/-- The last stage is the network of the arguments. -/
theorem net_eq (x0 : FVec Ideal S4096x512 .f32) (x1 x2 x3 x4 : FVec Ideal S4096x4096 .f32) (x5 : FVec Ideal S2x2x512x256 .f32)
    (x6 : FVec Ideal S2x2x256 .f32) (x7 : FVec Ideal S2x2x512x256 .f32) (x8 : FVec Ideal S2x2x256 .f32)
    (x9 : FVec Ideal S2x512x512 .f32) (x10 : FVec Ideal S2x512 .f32) :
    ReadC.val_main_v103 (F := Ideal) x0 x1 x2 x3 x4 x5 x6 x7 x8 x9 x10 = Cert.Spec.net x0 x1 x2 x3 x4 x5 x6 x7 x8 x9 x10 := by
  funext j
  obtain ⟨p, q, rfl⟩ : ∃ (p : Fin 4096) (q : Fin 512), j = ix2 p q := ⟨j 0, j 1, ValueIdx.eq_ix2 j⟩
  have h0 : Cert.Spec.at2 (ReadC.val_main_v51 (F := Ideal) x0 x1 x2 x3 x4 x5 x6 x7 x8 x9 x10) = Cert.Spec.layerAt 0 x1 x2 x3 x4 x5 x6 x7 x8 x9 x10 (Cert.Spec.at2 x0) :=
    funext fun i => funext fun j => layer0_apply x0 x1 x2 x3 x4 x5 x6 x7 x8 x9 x10 i j
  rw [layer1_apply, h0]
  rfl

/-- The reference's result array is the two-layer network of the argument arrays, entry by entry. -/
theorem ref_net (m : (ℓ : Loc nD τ sig) → Buf (Elt Ideal) ℓ) (c : Dev nD) :
    Cert.ReferenceIdeal.ValueC.res_main_v103 (F := Ideal) m c
      = Cert.Spec.net
      (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg2))
      (m ((c.tc : Thread Cert.ReferenceIdeal.nD Cert.ReferenceIdeal.τ).loc Cert.ReferenceIdeal.main_arg3))
      (m ((c.tc : Thread Cert.ReferenceIdeal.nD Cert.ReferenceIdeal.τ).loc Cert.ReferenceIdeal.main_arg4))
      (m ((c.tc : Thread Cert.ReferenceIdeal.nD Cert.ReferenceIdeal.τ).loc Cert.ReferenceIdeal.main_arg5))
      (m ((c.tc : Thread Cert.ReferenceIdeal.nD Cert.ReferenceIdeal.τ).loc Cert.ReferenceIdeal.main_arg6))
      (m ((c.tc : Thread Cert.ReferenceIdeal.nD Cert.ReferenceIdeal.τ).loc Cert.ReferenceIdeal.main_arg7))
      (m ((c.tc : Thread Cert.ReferenceIdeal.nD Cert.ReferenceIdeal.τ).loc Cert.ReferenceIdeal.main_arg8))
      (m ((c.tc : Thread Cert.ReferenceIdeal.nD Cert.ReferenceIdeal.τ).loc Cert.ReferenceIdeal.main_arg9))
      (m ((c.tc : Thread Cert.ReferenceIdeal.nD Cert.ReferenceIdeal.τ).loc Cert.ReferenceIdeal.main_arg10)) :=
  (ReadC.val_main_v103_eq (F := Ideal) m c).trans (net_eq _ _ _ _ _ _ _ _ _ _ _)

end Cert.ReferenceIdeal.RefValue

end
-- ==== Proof.lean ====
/-
  Two layers of a bidirectional graph convolution: the tiled kernel program against its plain reference, over the
  extended reals.

  Per layer both compute, for node features `h`,
      out = relu ([S_bw | S_fw] + bias) · W_lin + b_lin + h,    S_dir = ∑ over the two relations r of  adj_dir,r · (h · W_dir,r),
  the bias of a direction being the sum of its two relations' biases. The reference forms each relation's aggregate with its
  own bias, concatenates the two directions and then sums over the relations; the kernel projects `h` once against the four
  weight matrices side by side, accumulates each direction's two aggregates block by block along the contraction into a
  buffer it keeps between grid points, and adds the two summed biases at the end. The two differ only in how one sum of
  extended reals is grouped and ordered and in how its range is tiled, so they agree by commutativity and associativity of
  addition alone: no entry needs to be finite, and the precondition is never opened. Changes of float format are the
  identity at the ideal instance.

  The frames: the kernel program is six items (host operations, projection, aggregation, twice), run in order with the
  buffers' contents named at every boundary; the reference's frame is its run with the result dropped. The ideal pass
  rewrote no operation, so the idealized kernel program is the kernel program's own text and `preserves` has nothing to state.
-/
import proofs.«145376_g10471130268016_week1_w2_219_10_alg».proof.Defs
import proofs.«145376_g10471130268016_week1_w2_219_10_alg».proof.Proof.Gen.Kernel
import proofs.«145376_g10471130268016_week1_w2_219_10_alg».proof.Proof.Gen.KernelIdeal
import proofs.«145376_g10471130268016_week1_w2_219_10_alg».proof.Proof.Gen.ReferenceIdeal
import proofs.«145376_g10471130268016_week1_w2_219_10_alg».proof.Proof.Gen.Pre_finite_inputs
import proofs.«145376_g10471130268016_week1_w2_219_10_alg».proof.Proof.KbRun
import proofs.«145376_g10471130268016_week1_w2_219_10_alg».proof.Proof.KiRun
import proofs.«145376_g10471130268016_week1_w2_219_10_alg».proof.Proof.KernelNet
import proofs.«145376_g10471130268016_week1_w2_219_10_alg».proof.Proof.RefSide

noncomputable section

namespace Cert.Proof

open Idealize.ShloMosaic Idealize.ShloMosaic.TcCoe Idealize.SL.Sem

/-- The kernel program, at the word level, runs to the end and leaves its arguments as launched. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.ValueC.run (F := Ideal) m ρ)

/-- The ideal pass rewrote nothing. -/
theorem preserves : Cert.preserves_Kernel_KernelIdeal := trivial

/-- From memories agreeing on the arguments both programs end with the network of those arguments in their result array. -/
theorem algebraic : Cert.algebraic_KernelIdeal_ReferenceIdeal := by
  intro m ρ m' ρ' _ hagree
  refine ⟨fun c => Cert.KernelIdeal.Hand.o55 (F := Ideal) m c, Cert.KernelIdeal.Hand.run_value (F := Ideal) m ρ, ?_⟩
  refine (θ_run Cert.ReferenceIdeal.defs _ _).mono (fun _ h c => ⟨(h c).1.trans ?_, (h c).2⟩)
    (Cert.ReferenceIdeal.ValueC.run (F := Ideal) m' ρ')
  obtain ⟨haA, haB, haC, haD, haE, haF, haG, haH, haI, haJ, haK⟩ := hagree c
  show Cert.ReferenceIdeal.ValueC.res_main_v103 (F := Ideal) m' c = Cert.KernelIdeal.Hand.o55 (F := Ideal) m c
  rw [Cert.ReferenceIdeal.RefValue.ref_net, Cert.KernelIdeal.Hand.o55_eq_net, haA, haB, haC, haD, haE, haF, haG, haH, haI, haJ, haK]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
